-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x32 : Shape := ⟨2, ![80000, 32]⟩
abbrev S1280000x16 : Shape := ⟨2, ![1280000, 16]⟩
abbrev S2x1280000 : Shape := ⟨2, ![2, 1280000]⟩
abbrev S80000 : Shape := ⟨1, ![80000]⟩
abbrev S48x64 : Shape := ⟨2, ![48, 64]⟩
abbrev S64 : Shape := ⟨1, ![64]⟩
abbrev S96x64 : Shape := ⟨2, ![96, 64]⟩
abbrev S3x80x64 : Shape := ⟨3, ![3, 80, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S_ : Shape := ⟨0, ![]⟩
abbrev S1x1280000 : Shape := ⟨2, ![1, 1280000]⟩
abbrev S1280000 : Shape := ⟨1, ![1280000]⟩

class Facts : Prop where
  bcast_S_S80000x32 : S_.BroadcastsInDim S80000x32 (![] : Fin 0 → Fin S80000x32.rank)
  reducesTo_S80000x32_S_d0_1 : S80000x32.ReducesTo [0, 1] S_
  h_S_ : 0 < S_.numel
  bcast_S_S1280000x16 : S_.BroadcastsInDim S1280000x16 (![] : Fin 0 → Fin S1280000x16.rank)
  reducesTo_S1280000x16_S_d0_1 : S1280000x16.ReducesTo [0, 1] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S96x64 : S_.BroadcastsInDim S96x64 (![] : Fin 0 → Fin S96x64.rank)
  reducesTo_S96x64_S_d0_1 : S96x64.ReducesTo [0, 1] S_
  bcast_S_S3x80x64 : S_.BroadcastsInDim S3x80x64 (![] : Fin 0 → Fin S3x80x64.rank)
  reducesTo_S3x80x64_S_d0_1_2 : S3x80x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1280000_S1x1280000_0_0 : S2x1280000.Slices ![0, 0] S1x1280000
  shapeCasts_S1x1280000_S1280000 : S1x1280000.ShapeCasts S1280000
  bcast_S_S1280000 : S_.BroadcastsInDim S1280000 (![] : Fin 0 → Fin S1280000.rank)
  reducesTo_S1280000_S_d0 : S1280000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg2 : IVec S2x1280000 32) (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x1280000 32 := (extractStridedSlice S1x1280000 ![0, 0] · slices_S2x1280000_S1x1280000_0_0) main_arg2
  let main_v60 : IVec S1280000 32 := shapeCast S1280000 main_v59 shapeCasts_S1x1280000_S1280000
  let main_c_22 : IVec S_ 32 := constantI S_ 32 0#32
  let main_v61 : IVec S1280000 32 := broadcastInDim S1280000 ![] bcast_S_S1280000 main_c_22
  let main_v62 : IVec S1280000 1 := cmpi .sge main_v60 main_v61
  let main_v63 : IVec S1x1280000 32 := (extractStridedSlice S1x1280000 ![0, 0] · slices_S2x1280000_S1x1280000_0_0) main_arg2
  let main_v64 : IVec S1280000 32 := shapeCast S1280000 main_v63 shapeCasts_S1x1280000_S1280000
  let main_c_23 : IVec S_ 32 := constantI S_ 32 80000#32
  let main_v65 : IVec S1280000 32 := broadcastInDim S1280000 ![] bcast_S_S1280000 main_c_23
  let main_v66 : IVec S1280000 1 := cmpi .slt main_v64 main_v65
  let main_v67 : IVec S1280000 1 := andi main_v62 main_v66
  let main_c_24 : IVec S_ 1 := constantI S_ 1 1#1
  let main_v68 : IVec S_ 1 := (fun x v => Host.reduce IntOp.andi x v reducesTo_S1280000_S_d0 h_S_) main_v67 main_c_24
  fn_part4 (F := F) main_v58 main_v68

def fn_part2 {F : FTy → Type} [FloatOps F] (main_arg2 : IVec S2x1280000 32) (main_arg9 : FVec F S3x64 .f32) (main_arg10 : FVec F S3x128x64 .f32) (main_arg11 : FVec F S3x64 .f32) (main_arg12 : FVec F S64x1 .f32) (main_arg13 : FVec F S1 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x128x64 .f32 := Host.absf main_arg10
  let main_cst_14 : FVec F S_ .f32 := constant S_ .f32 0x7F800000#32
  let main_v40 : FVec F S3x128x64 .f32 := broadcastInDim S3x128x64 ![] bcast_S_S3x128x64 main_cst_14
  let main_v41 : IVec S3x128x64 1 := cmpf .olt main_v39 main_v40
  let main_c_15 : IVec S_ 1 := constantI S_ 1 1#1
  let main_v42 : IVec S_ 1 := (fun x v => Host.reduce IntOp.andi x v reducesTo_S3x128x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg2 main_arg13 main_v48 main_v49 main_v50

def fn_part1 {F : FTy → Type} [FloatOps F] (main_arg2 : IVec S2x1280000 32) (main_arg6 : FVec F S96x64 .f32) (main_arg7 : FVec F S64 .f32) (main_arg8 : FVec F S3x80x64 .f32) (main_arg9 : FVec F S3x64 .f32) (main_arg10 : FVec F S3x128x64 .f32) (main_arg11 : FVec F S3x64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S96x64 .f32 := Host.absf main_arg6
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x80x64 .f32 := Host.absf main_arg8
  let main_cst_10 : FVec F S_ .f32 := constant S_ .f32 0x7F800000#32
  let main_v30 : FVec F S3x80x64 .f32 := broadcastInDim S3x80x64 ![] bcast_S_S3x80x64 main_cst_10
  let main_v31 : IVec S3x80x64 1 := cmpf .olt main_v29 main_v30
  let main_c_11 : IVec S_ 1 := constantI S_ 1 1#1
  let main_v32 : IVec S_ 1 := (fun x v => Host.reduce IntOp.andi x v reducesTo_S3x80x64_S_d0_1_2 h_S_) main_v31 main_c_11
  let main_v33 : IVec S_ 1 := andi main_v28 main_v32
  fn_part2 (F := F) main_arg2 main_arg9 main_arg10 main_arg11 main_arg12 main_arg13 main_v33

def fn {F : FTy → Type} [FloatOps F] (main_arg0 : FVec F S80000x32 .f32) (main_arg1 : FVec F S1280000x16 .f32) (main_arg2 : IVec S2x1280000 32) (main_arg3 : IVec S80000 32) (main_arg4 : FVec F S48x64 .f32) (main_arg5 : FVec F S64 .f32) (main_arg6 : FVec F S96x64 .f32) (main_arg7 : FVec F S64 .f32) (main_arg8 : FVec F S3x80x64 .f32) (main_arg9 : FVec F S3x64 .f32) (main_arg10 : FVec F S3x128x64 .f32) (main_arg11 : FVec F S3x64 .f32) (main_arg12 : FVec F S64x1 .f32) (main_arg13 : FVec F S1 .f32) : IVec S_ 1 :=
  let main_v0 : FVec F S80000x32 .f32 := Host.absf main_arg0
  let main_cst : FVec F S_ .f32 := constant S_ .f32 0x7F800000#32
  let main_v1 : FVec F S80000x32 .f32 := broadcastInDim S80000x32 ![] bcast_S_S80000x32 main_cst
  let main_v2 : IVec S80000x32 1 := cmpf .olt main_v0 main_v1
  let main_c : IVec S_ 1 := constantI S_ 1 1#1
  let main_v3 : IVec S_ 1 := (fun x v => Host.reduce IntOp.andi x v reducesTo_S80000x32_S_d0_1 h_S_) main_v2 main_c
  let main_v4 : FVec F S1280000x16 .f32 := Host.absf main_arg1
  let main_cst_0 : FVec F S_ .f32 := constant S_ .f32 0x7F800000#32
  let main_v5 : FVec F S1280000x16 .f32 := broadcastInDim S1280000x16 ![] bcast_S_S1280000x16 main_cst_0
  let main_v6 : IVec S1280000x16 1 := cmpf .olt main_v4 main_v5
  let main_c_1 : IVec S_ 1 := constantI S_ 1 1#1
  let main_v7 : IVec S_ 1 := (fun x v => Host.reduce IntOp.andi x v reducesTo_S1280000x16_S_d0_1 h_S_) main_v6 main_c_1
  let main_v8 : IVec S_ 1 := andi main_v3 main_v7
  let main_v9 : FVec F S48x64 .f32 := Host.absf main_arg4
  let main_cst_2 : FVec F S_ .f32 := constant S_ .f32 0x7F800000#32
  let main_v10 : FVec F S48x64 .f32 := broadcastInDim S48x64 ![] bcast_S_S48x64 main_cst_2
  let main_v11 : IVec S48x64 1 := cmpf .olt main_v9 main_v10
  let main_c_3 : IVec S_ 1 := constantI S_ 1 1#1
  let main_v12 : IVec S_ 1 := (fun x v => Host.reduce IntOp.andi x v reducesTo_S48x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_arg13 main_v13 main_v16
-- ==== Kernel.lean ====
abbrev S80000x32 : Shape := ⟨2, ![80000, 32]⟩
abbrev S1280000x16 : Shape := ⟨2, ![1280000, 16]⟩
abbrev S2x1280000 : Shape := ⟨2, ![2, 1280000]⟩
abbrev S80000 : Shape := ⟨1, ![80000]⟩
abbrev S48x64 : Shape := ⟨2, ![48, 64]⟩
abbrev S64 : Shape := ⟨1, ![64]⟩
abbrev S96x64 : Shape := ⟨2, ![96, 64]⟩
abbrev S3x80x64 : Shape := ⟨3, ![3, 80, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S1x1280000 : Shape := ⟨2, ![1, 1280000]⟩
abbrev S1280000 : Shape := ⟨1, ![1280000]⟩
abbrev S32x64 : Shape := ⟨2, ![32, 64]⟩
abbrev S16x64 : Shape := ⟨2, ![16, 64]⟩
abbrev S64x64 : Shape := ⟨2, ![64, 64]⟩
abbrev S_ : Shape := ⟨0, ![]⟩
abbrev S1280000x1 : Shape := ⟨2, ![1280000, 1]⟩
abbrev S1x1 : Shape := ⟨2, ![1, 1]⟩
abbrev S1280000x32 : Shape := ⟨2, ![1280000, 32]⟩
abbrev S1x64 : Shape := ⟨2, ![1, 64]⟩
abbrev S1280000x64 : Shape := ⟨2, ![1280000, 64]⟩
abbrev S10240x32 : Shape := ⟨2, ![10240, 32]⟩
abbrev S10240x16 : Shape := ⟨2, ![10240, 16]⟩
abbrev S10240x64 : Shape := ⟨2, ![10240, 64]⟩
abbrev S80000x64 : Shape := ⟨2, ![80000, 64]⟩
abbrev S8000x32 : Shape := ⟨2, ![8000, 32]⟩
abbrev S8000x64 : Shape := ⟨2, ![8000, 64]⟩
abbrev S1x64x64 : Shape := ⟨3, ![1, 64, 64]⟩
abbrev S1x16x64 : Shape := ⟨3, ![1, 16, 64]⟩
abbrev S256x64 : Shape := ⟨2, ![256, 64]⟩
abbrev S80000x1 : Shape := ⟨2, ![80000, 1]⟩
abbrev S256x1 : Shape := ⟨2, ![256, 1]⟩

abbrev nBuf : Space → Nat
  | .hbm => 190
  | .vmem => 72
  | .smem => 0
  | _ => 0

abbrev hbmTy0_0 (i : Nat) : BufTy := match i % 128 with
  | 0 => ⟨S80000x32, .f32⟩
  | 1 => ⟨S1280000x16, .f32⟩
  | 2 => ⟨S2x1280000, .i32⟩
  | 3 => ⟨S80000, .i32⟩
  | 4 => ⟨S48x64, .f32⟩
  | 5 => ⟨S64, .f32⟩
  | 6 => ⟨S96x64, .f32⟩
  | 7 => ⟨S64, .f32⟩
  | 8 => ⟨S3x80x64, .f32⟩
  | 9 => ⟨S3x64, .f32⟩
  | 10 => ⟨S3x128x64, .f32⟩
  | 11 => ⟨S3x64, .f32⟩
  | 12 => ⟨S64x1, .f32⟩
  | 13 => ⟨S1, .f32⟩
  | 14 => ⟨S1x1280000, .i32⟩
  | 15 => ⟨S1280000, .i32⟩
  | 16 => ⟨S1x1280000, .i32⟩
  | 17 => ⟨S1280000, .i32⟩
  | 18 => ⟨S32x64, .f32⟩
  | 19 => ⟨S16x64, .f32⟩
  | 20 => ⟨S32x64, .f32⟩
  | 21 => ⟨S64x64, .f32⟩
  | 22 => ⟨S_, .i32⟩
  | 23 => ⟨S1280000, .i32⟩
  | 24 => ⟨S1280000, .i1⟩
  | 25 => ⟨S_, .i32⟩
  | 26 => ⟨S1280000, .i32⟩
  | 27 => ⟨S1280000, .i32⟩
  | 28 => ⟨S1280000, .i32⟩
  | 29 => ⟨S1280000x1, .i32⟩
  | 30 => ⟨S1, .i32⟩
  | 31 => ⟨S_, .i32⟩
  | 32 => ⟨S1280000x1, .i32⟩
  | 33 => ⟨S1280000x1, .i1⟩
  | 34 => ⟨S1x1, .i32⟩
  | 35 => ⟨S1280000x1, .i32⟩
  | 36 => ⟨S1280000x1, .i1⟩
  | 37 => ⟨S1280000x1, .i1⟩
  | 38 => ⟨S_, .i1⟩
  | 39 => ⟨S1280000, .i1⟩
  | 40 => ⟨S1280000x32, .f32⟩
  | 41 => ⟨S1280000x32, .i1⟩
  | 42 => ⟨S_, .f32⟩
  | 43 => ⟨S1280000x32, .f32⟩
  | 44 => ⟨S1280000x32, .f32⟩
  | 45 => ⟨S1x64, .f32⟩
  | 46 => ⟨S1280000x64, .f32⟩
  | 47 => ⟨S_, .f32⟩
  | 48 => ⟨S80000x64, .f32⟩
  | 49 => ⟨S1280000x1, .i32⟩
  | 50 => ⟨S80000x64, .f32⟩
  | 51 => ⟨S1x64, .f32⟩
  | 52 => ⟨S80000x64, .f32⟩
  | 53 => ⟨S1x64x64, .f32⟩
  | 54 => ⟨S64x64, .f32⟩
  | 55 => ⟨S1x16x64, .f32⟩
  | 56 => ⟨S16x64, .f32⟩
  | 57 => ⟨S1x64x64, .f32⟩
  | 58 => ⟨S64x64, .f32⟩
  | 59 => ⟨S1x64x64, .f32⟩
  | 60 => ⟨S64x64, .f32⟩
  | 61 => ⟨S1x64, .f32⟩
  | 62 => ⟨S64, .f32⟩
  | 63 => ⟨S1x64, .f32⟩
  | 64 => ⟨S64, .f32⟩
  | 65 => ⟨S_, .i32⟩
  | 66 => ⟨S1280000, .i32⟩
  | 67 => ⟨S1280000, .i1⟩
  | 68 => ⟨S_, .i32⟩
  | 69 => ⟨S1280000, .i32⟩
  | 70 => ⟨S1280000, .i32⟩
  | 71 => ⟨S1280000, .i32⟩
  | 72 => ⟨S1280000x1, .i32⟩
  | 73 => ⟨S1, .i32⟩
  | 74 => ⟨S_, .i32⟩
  | 75 => ⟨S1280000x1, .i32⟩
  | 76 => ⟨S1280000x1, .i1⟩
  | 77 => ⟨S1x1, .i32⟩
  | 78 => ⟨S1280000x1, .i32⟩
  | 79 => ⟨S1280000x1, .i1⟩
  | 80 => ⟨S1280000x1, .i1⟩
  | 81 => ⟨S_, .i1⟩
  | 82 => ⟨S1280000, .i1⟩
  | 83 => ⟨S1280000x64, .f32⟩
  | 84 => ⟨S1280000x64, .i1⟩
  | 85 => ⟨S_, .f32⟩
  | 86 => ⟨S1280000x64, .f32⟩
  | 87 => ⟨S1280000x64, .f32⟩
  | 88 => ⟨S1x64, .f32⟩
  | 89 => ⟨S1280000x64, .f32⟩
  | 90 => ⟨S_, .f32⟩
  | 91 => ⟨S80000x64, .f32⟩
  | 92 => ⟨S1280000x1, .i32⟩
  | 93 => ⟨S80000x64, .f32⟩
  | 94 => ⟨S1x64, .f32⟩
  | 95 => ⟨S80000x64, .f32⟩
  | 96 => ⟨S1x64x64, .f32⟩
  | 97 => ⟨S64x64, .f32⟩
  | 98 => ⟨S1x16x64, .f32⟩
  | 99 => ⟨S16x64, .f32⟩
  | 100 => ⟨S1x64x64, .f32⟩
  | 101 => ⟨S64x64, .f32⟩
  | 102 => ⟨S1x64x64, .f32⟩
  | 103 => ⟨S64x64, .f32⟩
  | 104 => ⟨S1x64, .f32⟩
  | 105 => ⟨S64, .f32⟩
  | 106 => ⟨S1x64, .f32⟩
  | 107 => ⟨S64, .f32⟩
  | 108 => ⟨S_, .i32⟩
  | 109 => ⟨S1280000, .i32⟩
  | 110 => ⟨S1280000, .i1⟩
  | 111 => ⟨S_, .i32⟩
  | 112 => ⟨S1280000, .i32⟩
  | 113 => ⟨S1280000, .i32⟩
  | 114 => ⟨S1280000, .i32⟩
  | 115 => ⟨S1280000x1, .i32⟩
  | 116 => ⟨S1, .i32⟩
  | 117 => ⟨S_, .i32⟩
  | 118 => ⟨S1280000x1, .i32⟩
  | 119 => ⟨S1280000x1, .i1⟩
  | 120 => ⟨S1x1, .i32⟩
  | 121 => ⟨S1280000x1, .i32⟩
  | 122 => ⟨S1280000x1, .i1⟩
  | 123 => ⟨S1280000x1, .i1⟩
  | 124 => ⟨S_, .i1⟩
  | 125 => ⟨S1280000, .i1⟩
  | 126 => ⟨S1280000x64, .f32⟩
  | 127 => ⟨S1280000x64, .i1⟩
  | _ => ⟨S80000x32, .f32⟩

abbrev hbmTy0_1 (i : Nat) : BufTy := match i % 128 with
  | 0 => ⟨S_, .f32⟩
  | 1 => ⟨S1280000x64, .f32⟩
  | 2 => ⟨S1280000x64, .f32⟩
  | 3 => ⟨S1x64, .f32⟩
  | 4 => ⟨S1280000x64, .f32⟩
  | 5 => ⟨S_, .f32⟩
  | 6 => ⟨S80000x64, .f32⟩
  | 7 => ⟨S1280000x1, .i32⟩
  | 8 => ⟨S80000x64, .f32⟩
  | 9 => ⟨S1x64, .f32⟩
  | 10 => ⟨S80000x64, .f32⟩
  | 11 => ⟨S1x64x64, .f32⟩
  | 12 => ⟨S64x64, .f32⟩
  | 13 => ⟨S1x16x64, .f32⟩
  | 14 => ⟨S16x64, .f32⟩
  | 15 => ⟨S1x64x64, .f32⟩
  | 16 => ⟨S64x64, .f32⟩
  | 17 => ⟨S1x64x64, .f32⟩
  | 18 => ⟨S64x64, .f32⟩
  | 19 => ⟨S1x64, .f32⟩
  | 20 => ⟨S64, .f32⟩
  | 21 => ⟨S1x64, .f32⟩
  | 22 => ⟨S64, .f32⟩
  | 23 => ⟨S_, .i32⟩
  | 24 => ⟨S1280000, .i32⟩
  | 25 => ⟨S1280000, .i1⟩
  | 26 => ⟨S_, .i32⟩
  | 27 => ⟨S1280000, .i32⟩
  | 28 => ⟨S1280000, .i32⟩
  | 29 => ⟨S1280000, .i32⟩
  | 30 => ⟨S1280000x1, .i32⟩
  | 31 => ⟨S1, .i32⟩
  | 32 => ⟨S_, .i32⟩
  | 33 => ⟨S1280000x1, .i32⟩
  | 34 => ⟨S1280000x1, .i1⟩
  | 35 => ⟨S1x1, .i32⟩
  | 36 => ⟨S1280000x1, .i32⟩
  | 37 => ⟨S1280000x1, .i1⟩
  | 38 => ⟨S1280000x1, .i1⟩
  | 39 => ⟨S_, .i1⟩
  | 40 => ⟨S1280000, .i1⟩
  | 41 => ⟨S1280000x64, .f32⟩
  | 42 => ⟨S1280000x64, .i1⟩
  | 43 => ⟨S_, .f32⟩
  | 44 => ⟨S1280000x64, .f32⟩
  | 45 => ⟨S1280000x64, .f32⟩
  | 46 => ⟨S1x64, .f32⟩
  | 47 => ⟨S1280000x64, .f32⟩
  | 48 => ⟨S_, .f32⟩
  | 49 => ⟨S80000x64, .f32⟩
  | 50 => ⟨S1280000x1, .i32⟩
  | 51 => ⟨S80000x64, .f32⟩
  | 52 => ⟨S1x64, .f32⟩
  | 53 => ⟨S80000x64, .f32⟩
  | 54 => ⟨S_, .f32⟩
  | 55 => ⟨S256x64, .f32⟩
  | 56 => ⟨S80000x1, .i32⟩
  | 57 => ⟨S256x64, .f32⟩
  | 58 => ⟨S256x1, .f32⟩
  | 59 => ⟨S1x1, .f32⟩
  | 60 => ⟨S256x1, .f32⟩
  | 61 => ⟨S256x1, .f32⟩
  | _ => ⟨S80000x32, .f32⟩

abbrev hbmTy (i : Nat) : BufTy := match i / 128 with
  | 0 => hbmTy0_0 i
  | 1 => hbmTy0_1 i
  | _ => ⟨S80000x32, .f32⟩

abbrev bufTy : (tb : Table) → Fin (tcTables nBuf tb) → BufTy
  | .hbm, ⟨i, _⟩ => hbmTy i
  | .local _ .vmem, ⟨0, _⟩ => ⟨S10240x32, .f32⟩
  | .local _ .vmem, ⟨1, _⟩ => ⟨S10240x32, .f32⟩
  | .local _ .vmem, ⟨2, _⟩ => ⟨S10240x16, .f32⟩
  | .local _ .vmem, ⟨3, _⟩ => ⟨S10240x16, .f32⟩
  | .local _ .vmem, ⟨4, _⟩ => ⟨S32x64, .f32⟩
  | .local _ .vmem, ⟨5, _⟩ => ⟨S16x64, .f32⟩
  | .local _ .vmem, ⟨6, _⟩ => ⟨S1x64, .f32⟩
  | .local _ .vmem, ⟨7, _⟩ => ⟨S10240x64, .f32⟩
  | .local _ .vmem, ⟨8, _⟩ => ⟨S10240x64, .f32⟩
  | .local _ .vmem, ⟨9, _⟩ => ⟨S8000x32, .f32⟩
  | .local _ .vmem, ⟨10, _⟩ => ⟨S8000x32, .f32⟩
  | .local _ .vmem, ⟨11, _⟩ => ⟨S8000x64, .f32⟩
  | .local _ .vmem, ⟨12, _⟩ => ⟨S8000x64, .f32⟩
  | .local _ .vmem, ⟨13, _⟩ => ⟨S32x64, .f32⟩
  | .local _ .vmem, ⟨14, _⟩ => ⟨S64x64, .f32⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | .local _ .vmem, ⟨18, _⟩ => ⟨S10240x64, .f32⟩
  | .local _ .vmem, ⟨19, _⟩ => ⟨S10240x64, .f32⟩
  | .local _ .vmem, ⟨20, _⟩ => ⟨S10240x16, .f32⟩
  | .local _ .vmem, ⟨21, _⟩ => ⟨S10240x16, .f32⟩
  | .local _ .vmem, ⟨22, _⟩ => ⟨S64x64, .f32⟩
  | .local _ .vmem, ⟨23, _⟩ => ⟨S16x64, .f32⟩
  | .local _ .vmem, ⟨24, _⟩ => ⟨S1x64, .f32⟩
  | .local _ .vmem, ⟨25, _⟩ => ⟨S10240x64, .f32⟩
  | .local _ .vmem, ⟨26, _⟩ => ⟨S10240x64, .f32⟩
  | .local _ .vmem, ⟨27, _⟩ => ⟨S8000x64, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S8000x64, .f32⟩
  | .local _ .vmem, ⟨35, _⟩ => ⟨S8000x64, .f32⟩
  | .local _ .vmem, ⟨36, _⟩ => ⟨S10240x64, .f32⟩
  | .local _ .vmem, ⟨37, _⟩ => ⟨S10240x64, .f32⟩
  | .local _ .vmem, ⟨38, _⟩ => ⟨S10240x16, .f32⟩
  | .local _ .vmem, ⟨39, _⟩ => ⟨S10240x16, .f32⟩
  | .local _ .vmem, ⟨40, _⟩ => ⟨S64x64, .f32⟩
  | .local _ .vmem, ⟨41, _⟩ => ⟨S16x64, .f32⟩
  | .local _ .vmem, ⟨42, _⟩ => ⟨S1x64, .f32⟩
  | .local _ .vmem, ⟨43, _⟩ => ⟨S10240x64, .f32⟩
  | .local _ .vmem, ⟨44, _⟩ => ⟨S10240x64, .f32⟩
  | .local _ .vmem, ⟨45, _⟩ => ⟨S8000x64, .f32⟩
  | .local _ .vmem, ⟨46, _⟩ => ⟨S8000x64, .f32⟩
  | .local _ .vmem, ⟨47, _⟩ => ⟨S8000x64, .f32⟩
  | .local _ .vmem, ⟨48, _⟩ => ⟨S8000x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S8000x64, .f32⟩
  | .local _ .vmem, ⟨53, _⟩ => ⟨S8000x64, .f32⟩
  | .local _ .vmem, ⟨54, _⟩ => ⟨S10240x64, .f32⟩
  | .local _ .vmem, ⟨55, _⟩ => ⟨S10240x64, .f32⟩
  | .local _ .vmem, ⟨56, _⟩ => ⟨S10240x16, .f32⟩
  | .local _ .vmem, ⟨57, _⟩ => ⟨S10240x16, .f32⟩
  | .local _ .vmem, ⟨58, _⟩ => ⟨S64x64, .f32⟩
  | .local _ .vmem, ⟨59, _⟩ => ⟨S16x64, .f32⟩
  | .local _ .vmem, ⟨60, _⟩ => ⟨S1x64, .f32⟩
  | .local _ .vmem, ⟨61, _⟩ => ⟨S10240x64, .f32⟩
  | .local _ .vmem, ⟨62, _⟩ => ⟨S10240x64, .f32⟩
  | .local _ .vmem, ⟨63, _⟩ => ⟨S8000x64, .f32⟩
  | .local _ .vmem, ⟨64, _⟩ => ⟨S8000x64, .f32⟩
  | .local _ .vmem, ⟨65, _⟩ => ⟨S8000x64, .f32⟩
  | .local _ .vmem, ⟨66, _⟩ => ⟨S8000x64, .f32⟩
  | .local _ .vmem, ⟨67, _⟩ => ⟨S64x64, .f32⟩
  | .local _ .vmem, ⟨68, _⟩ => ⟨S64x64, .f32⟩
  | .local _ .vmem, ⟨69, _⟩ => ⟨S1x64, .f32⟩
  | .local _ .vmem, ⟨70, _⟩ => ⟨S8000x64, .f32⟩
  | .local _ .vmem, ⟨71, _⟩ => ⟨S8000x64, .f32⟩
  | _, _ => ⟨S80000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_0 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_cst_1 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_call3_c : Ref sig .tc := ⟨.hbm, 151, rfl⟩
abbrev main_call3_v0 : Ref sig .tc := ⟨.hbm, 152, rfl⟩
abbrev main_call3_v1 : Ref sig .tc := ⟨.hbm, 153, rfl⟩
abbrev main_call3_c_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_c_1 : Ref sig .tc := ⟨.hbm, 159, rfl⟩
abbrev main_call3_c_2 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_c_3 : Ref sig .tc := ⟨.hbm, 167, rfl⟩
abbrev main_call3_v12 : Ref sig .tc := ⟨.hbm, 168, rfl⟩
abbrev main_call3_v13 : Ref sig .tc := ⟨.hbm, 169, rfl⟩
abbrev main_call3_v14 : Ref sig .tc := ⟨.hbm, 170, rfl⟩
abbrev main_call3_cst : Ref sig .tc := ⟨.hbm, 171, rfl⟩
abbrev main_call3_v15 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_cst_2 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_cst_3 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10240x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10240x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10240x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10240x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10240x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10240x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10240x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10240x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10240x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10240x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10240x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10240x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  slices_S48x64_S32x64_0_0 : S48x64.Slices ![0, 0] S32x64
  slices_S48x64_S16x64_32_0 : S48x64.Slices ![32, 0] S16x64
  slices_S96x64_S32x64_0_0 : S96x64.Slices ![0, 0] S32x64
  slices_S96x64_S64x64_32_0 : S96x64.Slices ![32, 0] S64x64
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x32_0 : S1280000.BroadcastsInDim S1280000x32 (![0] : Fin 1 → Fin S1280000x32.rank)
  bcast_S_S1280000x32 : S_.BroadcastsInDim S1280000x32 (![] : Fin 0 → Fin S1280000x32.rank)
  shapeCasts_S64_S1x64 : S64.ShapeCasts S1x64
  inb_S10240x32_S10240x32_0_0 : ∀ a, (![0, 0] : Fin 2 → Nat) a + S10240x32.size a ≤ S10240x32.size a
  h_S10240x32 : 0 < S10240x32.numel
  shapeCasts_S10240x32_S10240x32 : S10240x32.ShapeCasts S10240x32
  bitsLt_bf16_f32 : FTy.bits .bf16 < FTy.bits .f32
  inb_S10240x16_S10240x16_0_0 : ∀ a, (![0, 0] : Fin 2 → Nat) a + S10240x16.size a ≤ S10240x16.size a
  h_S10240x16 : 0 < S10240x16.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10240x64 : S1x64.Broadcasts S10240x64
  inb_S10240x64_S10240x64_0_0 : ∀ a, (![0, 0] : Fin 2 → Nat) a + S10240x64.size a ≤ S10240x64.size a
  h_S10240x64 : 0 < S10240x64.numel
  bcast_S_S80000x64 : S_.BroadcastsInDim S80000x64 (![] : Fin 0 → Fin S80000x64.rank)
  inb_S8000x32_S8000x32_0_0 : ∀ a, (![0, 0] : Fin 2 → Nat) a + S8000x32.size a ≤ S8000x32.size a
  h_S8000x32 : 0 < S8000x32.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S8000x64 : S1x64.Broadcasts S8000x64
  slices_S3x80x64_S1x64x64_0_0_0 : S3x80x64.Slices ![0, 0, 0] S1x64x64
  shapeCasts_S1x64x64_S64x64 : S1x64x64.ShapeCasts S64x64
  slices_S3x80x64_S1x16x64_0_64_0 : S3x80x64.Slices ![0, 64, 0] S1x16x64
  shapeCasts_S1x16x64_S16x64 : S1x16x64.ShapeCasts S16x64
  slices_S3x128x64_S1x64x64_0_0_0 : S3x128x64.Slices ![0, 0, 0] S1x64x64
  slices_S3x128x64_S1x64x64_0_64_0 : S3x128x64.Slices ![0, 64, 0] S1x64x64
  slices_S3x64_S1x64_0_0 : S3x64.Slices ![0, 0] S1x64
  shapeCasts_S1x64_S64 : S1x64.ShapeCasts S64
  bcast_S1280000_S1280000x64_0 : S1280000.BroadcastsInDim S1280000x64 (![0] : Fin 1 → Fin S1280000x64.rank)
  bcast_S_S1280000x64 : S_.BroadcastsInDim S1280000x64 (![] : Fin 0 → Fin S1280000x64.rank)
  shapeCasts_S10240x64_S10240x64 : S10240x64.ShapeCasts S10240x64
  slices_S3x80x64_S1x64x64_1_0_0 : S3x80x64.Slices ![1, 0, 0] S1x64x64
  slices_S3x80x64_S1x16x64_1_64_0 : S3x80x64.Slices ![1, 64, 0] S1x16x64
  slices_S3x128x64_S1x64x64_1_0_0 : S3x128x64.Slices ![1, 0, 0] S1x64x64
  slices_S3x128x64_S1x64x64_1_64_0 : S3x128x64.Slices ![1, 64, 0] S1x64x64
  slices_S3x64_S1x64_1_0 : S3x64.Slices ![1, 0] S1x64
  slices_S3x80x64_S1x64x64_2_0_0 : S3x80x64.Slices ![2, 0, 0] S1x64x64
  slices_S3x80x64_S1x16x64_2_64_0 : S3x80x64.Slices ![2, 64, 0] S1x16x64
  slices_S3x128x64_S1x64x64_2_0_0 : S3x128x64.Slices ![2, 0, 0] S1x64x64
  slices_S3x128x64_S1x64x64_2_64_0 : S3x128x64.Slices ![2, 64, 0] S1x64x64
  slices_S3x64_S1x64_2_0 : S3x64.Slices ![2, 0] S1x64
  bcast_S_S256x64 : S_.BroadcastsInDim S256x64 (![] : Fin 0 → Fin S256x64.rank)
  bcast_S80000_S80000x1_0 : S80000.BroadcastsInDim S80000x1 (![0] : Fin 1 → Fin S80000x1.rank)
  bcast_S1x1_S256x1_0_1 : S1x1.BroadcastsInDim S256x1 (![0, 1] : Fin 2 → Fin S256x1.rank)
  gather_S80000x32_S1280000x1_S1280000x32_1_0_n_n_0_1_132_wf : GatherDims.WF S80000x32 S1280000x1 S1280000x32 [1] [0] [] [0] [] 1 ![1, 32]
  dot_S10240x32_S32x64_S10240x64_1_0_0_1_n_n_wf : DotDims.WF S10240x32 S32x64 S10240x64 [1] [0] [0] [1] [] []
  dot_S10240x16_S16x64_S10240x64_1_0_0_1_n_n_wf : DotDims.WF S10240x16 S16x64 S10240x64 [1] [0] [0] [1] [] []
  scatter_S80000x64_S1280000x1_S1280000x64_1_0_0_1_wf : ScatterDims.WF S80000x64 S1280000x1 S1280000x64 [1] [0] [0] 1
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  gather_S80000x64_S1280000x1_S1280000x64_1_0_n_n_0_1_164_wf : GatherDims.WF S80000x64 S1280000x1 S1280000x64 [1] [0] [] [0] [] 1 ![1, 64]
  dot_S10240x64_S64x64_S10240x64_1_0_0_1_n_n_wf : DotDims.WF S10240x64 S64x64 S10240x64 [1] [0] [0] [1] [] []
  scatter_S256x64_S80000x1_S80000x64_1_0_0_1_wf : ScatterDims.WF S256x64 S80000x1 S80000x64 [1] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10240x32.size a ≤ S1280000x32.size a
  hwx0_0 : ∀ i : grid0.Coords, EltTy.bits .f32 = 32 ∨ (Rect.block (s := S1280000x32) S10240x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10240x16.size a ≤ S1280000x16.size a
  hwx0_1 : ∀ i : grid0.Coords, EltTy.bits .f32 = 32 ∨ (Rect.block (s := S1280000x16) S10240x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10240x64.size a ≤ S1280000x64.size a
  hwx0_5 : ∀ i : grid0.Coords, EltTy.bits .f32 = 32 ∨ (Rect.block (s := S1280000x64) S10240x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S80000x32.size a
  hwx1_0 : ∀ i : grid1.Coords, EltTy.bits .f32 = 32 ∨ (Rect.block (s := S80000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S80000x64.size a
  hwx1_1 : ∀ i : grid1.Coords, EltTy.bits .f32 = 32 ∨ (Rect.block (s := S80000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S80000x64.size a
  hwx1_5 : ∀ i : grid1.Coords, EltTy.bits .f32 = 32 ∨ (Rect.block (s := S80000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10240x64.size a ≤ S1280000x64.size a
  hwx2_0 : ∀ i : grid2.Coords, EltTy.bits .f32 = 32 ∨ (Rect.block (s := S1280000x64) S10240x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10240x16.size a ≤ S1280000x16.size a
  hwx2_1 : ∀ i : grid2.Coords, EltTy.bits .f32 = 32 ∨ (Rect.block (s := S1280000x16) S10240x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S16x64.size a
  hwx2_3 : ∀ i : grid2.Coords, EltTy.bits .f32 = 32 ∨ (Rect.block (s := S16x64) S16x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10240x64.size a ≤ S1280000x64.size a
  hwx2_5 : ∀ i : grid2.Coords, EltTy.bits .f32 = 32 ∨ (Rect.block (s := S1280000x64) S10240x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S80000x64.size a
  hwx3_0 : ∀ i : grid3.Coords, EltTy.bits .f32 = 32 ∨ (Rect.block (s := S80000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S80000x64.size a
  hwx3_1 : ∀ i : grid3.Coords, EltTy.bits .f32 = 32 ∨ (Rect.block (s := S80000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S80000x64.size a
  hwx3_5 : ∀ i : grid3.Coords, EltTy.bits .f32 = 32 ∨ (Rect.block (s := S80000x64) S8000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10240x64.size a ≤ S1280000x64.size a
  hwx4_0 : ∀ i : grid4.Coords, EltTy.bits .f32 = 32 ∨ (Rect.block (s := S1280000x64) S10240x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10240x16.size a ≤ S1280000x16.size a
  hwx4_1 : ∀ i : grid4.Coords, EltTy.bits .f32 = 32 ∨ (Rect.block (s := S1280000x16) S10240x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x64.size a ≤ S16x64.size a
  hwx4_3 : ∀ i : grid4.Coords, EltTy.bits .f32 = 32 ∨ (Rect.block (s := S16x64) S16x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10240x64.size a ≤ S1280000x64.size a
  hwx4_5 : ∀ i : grid4.Coords, EltTy.bits .f32 = 32 ∨ (Rect.block (s := S1280000x64) S10240x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S80000x64.size a
  hwx5_0 : ∀ i : grid5.Coords, EltTy.bits .f32 = 32 ∨ (Rect.block (s := S80000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S80000x64.size a
  hwx5_1 : ∀ i : grid5.Coords, EltTy.bits .f32 = 32 ∨ (Rect.block (s := S80000x64) S8000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x64.size a ≤ S80000x64.size a
  hwx5_5 : ∀ i : grid5.Coords, EltTy.bits .f32 = 32 ∨ (Rect.block (s := S80000x64) S8000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10240x64.size a ≤ S1280000x64.size a
  hwx6_0 : ∀ i : grid6.Coords, EltTy.bits .f32 = 32 ∨ (Rect.block (s := S1280000x64) S10240x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10240x16.size a ≤ S1280000x16.size a
  hwx6_1 : ∀ i : grid6.Coords, EltTy.bits .f32 = 32 ∨ (Rect.block (s := S1280000x16) S10240x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x64.size a ≤ S16x64.size a
  hwx6_3 : ∀ i : grid6.Coords, EltTy.bits .f32 = 32 ∨ (Rect.block (s := S16x64) S16x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10240x64.size a ≤ S1280000x64.size a
  hwx6_5 : ∀ i : grid6.Coords, EltTy.bits .f32 = 32 ∨ (Rect.block (s := S1280000x64) S10240x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S80000x64.size a
  hwx7_0 : ∀ i : grid7.Coords, EltTy.bits .f32 = 32 ∨ (Rect.block (s := S80000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S80000x64.size a
  hwx7_1 : ∀ i : grid7.Coords, EltTy.bits .f32 = 32 ∨ (Rect.block (s := S80000x64) S8000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x64.size a ≤ S80000x64.size a
  hwx7_5 : ∀ i : grid7.Coords, EltTy.bits .f32 = 32 ∨ (Rect.block (s := S80000x64) S8000x64.size (cc7_transform_5 i) (hinb7_5 i)).WholeWords (EltTy.packing .f32)

variable [Facts₀]

def gather_S80000x32_S1280000x1_S1280000x32_1_0_n_n_0_1_132 : GatherDims S80000x32 S1280000x1 S1280000x32 where
  offsetDims := [1]
  collapsedSliceDims := [0]
  operandBatchingDims := []
  startIndicesBatchingDims := []
  startIndexMap := [0]
  indexVectorDim := 1
  sliceSizes := ![1, 32]
  wf := gather_S80000x32_S1280000x1_S1280000x32_1_0_n_n_0_1_132_wf
def dot_S10240x32_S32x64_S10240x64_1_0_0_1_n_n : DotDims S10240x32 S32x64 S10240x64 where
  lhsContracting := [1]
  rhsContracting := [0]
  lhsNonContracting := [0]
  rhsNonContracting := [1]
  lhsBatch := []
  rhsBatch := []
  wf := dot_S10240x32_S32x64_S10240x64_1_0_0_1_n_n_wf
def dot_S10240x16_S16x64_S10240x64_1_0_0_1_n_n : DotDims S10240x16 S16x64 S10240x64 where
  lhsContracting := [1]
  rhsContracting := [0]
  lhsNonContracting := [0]
  rhsNonContracting := [1]
  lhsBatch := []
  rhsBatch := []
  wf := dot_S10240x16_S16x64_S10240x64_1_0_0_1_n_n_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S10240x64_S64x64_S10240x64_1_0_0_1_n_n : DotDims S10240x64 S64x64 S10240x64 where
  lhsContracting := [1]
  rhsContracting := [0]
  lhsNonContracting := [0]
  rhsNonContracting := [1]
  lhsBatch := []
  rhsBatch := []
  wf := dot_S10240x64_S64x64_S10240x64_1_0_0_1_n_n_wf
def scatter_S256x64_S80000x1_S80000x64_1_0_0_1 : ScatterDims S256x64 S80000x1 S80000x64 where
  updateWindowDims := [1]
  insertedWindowDims := [0]
  scatterDimsToOperandDims := [0]
  indexVectorDim := 1
  wf := scatter_S256x64_S80000x1_S80000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_v8) S10240x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10240x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S10240x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S10240x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10240x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S16x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S10240x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v15) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48) S10240x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S10240x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S16x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S10240x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v35) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v43) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v55) S8000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v68) S10240x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S10240x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S16x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v69) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v70) S10240x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v55) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v73) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v61) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v63) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v74) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v75) S8000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S80000x32 : Shape := ⟨2, ![80000, 32]⟩
abbrev S1280000x16 : Shape := ⟨2, ![1280000, 16]⟩
abbrev S2x1280000 : Shape := ⟨2, ![2, 1280000]⟩
abbrev S80000 : Shape := ⟨1, ![80000]⟩
abbrev S48x64 : Shape := ⟨2, ![48, 64]⟩
abbrev S64 : Shape := ⟨1, ![64]⟩
abbrev S96x64 : Shape := ⟨2, ![96, 64]⟩
abbrev S3x80x64 : Shape := ⟨3, ![3, 80, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x32 : Shape := ⟨2, ![1280000, 32]⟩
abbrev S1280000x48 : Shape := ⟨2, ![1280000, 48]⟩
abbrev S1280000x64 : Shape := ⟨2, ![1280000, 64]⟩
abbrev S1x64 : Shape := ⟨2, ![1, 64]⟩
abbrev S80000x64 : Shape := ⟨2, ![80000, 64]⟩
abbrev S80000x96 : Shape := ⟨2, ![80000, 96]⟩
abbrev S1x80x64 : Shape := ⟨3, ![1, 80, 64]⟩
abbrev S80x64 : Shape := ⟨2, ![80, 64]⟩
abbrev S1x128x64 : Shape := ⟨3, ![1, 128, 64]⟩
abbrev S128x64 : Shape := ⟨2, ![128, 64]⟩
abbrev S1280000x80 : Shape := ⟨2, ![1280000, 80]⟩
abbrev S80000x128 : Shape := ⟨2, ![80000, 128]⟩
abbrev S256x64 : Shape := ⟨2, ![256, 64]⟩
abbrev S80000x1 : Shape := ⟨2, ![80000, 1]⟩
abbrev S256x1 : Shape := ⟨2, ![256, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S80000x32, .f32⟩
  | 1 => ⟨S1280000x16, .f32⟩
  | 2 => ⟨S2x1280000, .i32⟩
  | 3 => ⟨S80000, .i32⟩
  | 4 => ⟨S48x64, .f32⟩
  | 5 => ⟨S64, .f32⟩
  | 6 => ⟨S96x64, .f32⟩
  | 7 => ⟨S64, .f32⟩
  | 8 => ⟨S3x80x64, .f32⟩
  | 9 => ⟨S3x64, .f32⟩
  | 10 => ⟨S3x128x64, .f32⟩
  | 11 => ⟨S3x64, .f32⟩
  | 12 => ⟨S64x1, .f32⟩
  | 13 => ⟨S1, .f32⟩
  | 14 => ⟨S1x1280000, .i32⟩
  | 15 => ⟨S1280000, .i32⟩
  | 16 => ⟨S1x1280000, .i32⟩
  | 17 => ⟨S1280000, .i32⟩
  | 18 => ⟨S_, .i32⟩
  | 19 => ⟨S1280000, .i32⟩
  | 20 => ⟨S1280000, .i1⟩
  | 21 => ⟨S_, .i32⟩
  | 22 => ⟨S1280000, .i32⟩
  | 23 => ⟨S1280000, .i32⟩
  | 24 => ⟨S1280000, .i32⟩
  | 25 => ⟨S1280000x1, .i32⟩
  | 26 => ⟨S1280000x32, .f32⟩
  | 27 => ⟨S1280000x48, .f32⟩
  | 28 => ⟨S1280000x64, .f32⟩
  | 29 => ⟨S1x64, .f32⟩
  | 30 => ⟨S1280000x64, .f32⟩
  | 31 => ⟨S1280000x64, .f32⟩
  | 32 => ⟨S_, .f32⟩
  | 33 => ⟨S1280000x64, .f32⟩
  | 34 => ⟨S1280000x64, .f32⟩
  | 35 => ⟨S_, .f32⟩
  | 36 => ⟨S80000x64, .f32⟩
  | 37 => ⟨S1280000x1, .i32⟩
  | 38 => ⟨S80000x64, .f32⟩
  | 39 => ⟨S80000x96, .f32⟩
  | 40 => ⟨S80000x64, .f32⟩
  | 41 => ⟨S1x64, .f32⟩
  | 42 => ⟨S80000x64, .f32⟩
  | 43 => ⟨S80000x64, .f32⟩
  | 44 => ⟨S_, .f32⟩
  | 45 => ⟨S80000x64, .f32⟩
  | 46 => ⟨S80000x64, .f32⟩
  | 47 => ⟨S1x80x64, .f32⟩
  | 48 => ⟨S80x64, .f32⟩
  | 49 => ⟨S1x64, .f32⟩
  | 50 => ⟨S64, .f32⟩
  | 51 => ⟨S1x128x64, .f32⟩
  | 52 => ⟨S128x64, .f32⟩
  | 53 => ⟨S1x64, .f32⟩
  | 54 => ⟨S64, .f32⟩
  | 55 => ⟨S_, .i32⟩
  | 56 => ⟨S1280000, .i32⟩
  | 57 => ⟨S1280000, .i1⟩
  | 58 => ⟨S_, .i32⟩
  | 59 => ⟨S1280000, .i32⟩
  | 60 => ⟨S1280000, .i32⟩
  | 61 => ⟨S1280000, .i32⟩
  | 62 => ⟨S1280000x1, .i32⟩
  | 63 => ⟨S1280000x64, .f32⟩
  | 64 => ⟨S1280000x80, .f32⟩
  | 65 => ⟨S1280000x64, .f32⟩
  | 66 => ⟨S1x64, .f32⟩
  | 67 => ⟨S1280000x64, .f32⟩
  | 68 => ⟨S1280000x64, .f32⟩
  | 69 => ⟨S_, .f32⟩
  | 70 => ⟨S1280000x64, .f32⟩
  | 71 => ⟨S1280000x64, .f32⟩
  | 72 => ⟨S_, .f32⟩
  | 73 => ⟨S80000x64, .f32⟩
  | 74 => ⟨S1280000x1, .i32⟩
  | 75 => ⟨S80000x64, .f32⟩
  | 76 => ⟨S80000x128, .f32⟩
  | 77 => ⟨S80000x64, .f32⟩
  | 78 => ⟨S1x64, .f32⟩
  | 79 => ⟨S80000x64, .f32⟩
  | 80 => ⟨S80000x64, .f32⟩
  | 81 => ⟨S_, .f32⟩
  | 82 => ⟨S80000x64, .f32⟩
  | 83 => ⟨S80000x64, .f32⟩
  | 84 => ⟨S1x80x64, .f32⟩
  | 85 => ⟨S80x64, .f32⟩
  | 86 => ⟨S1x64, .f32⟩
  | 87 => ⟨S64, .f32⟩
  | 88 => ⟨S1x128x64, .f32⟩
  | 89 => ⟨S128x64, .f32⟩
  | 90 => ⟨S1x64, .f32⟩
  | 91 => ⟨S64, .f32⟩
  | 92 => ⟨S_, .i32⟩
  | 93 => ⟨S1280000, .i32⟩
  | 94 => ⟨S1280000, .i1⟩
  | 95 => ⟨S_, .i32⟩
  | 96 => ⟨S1280000, .i32⟩
  | 97 => ⟨S1280000, .i32⟩
  | 98 => ⟨S1280000, .i32⟩
  | 99 => ⟨S1280000x1, .i32⟩
  | 100 => ⟨S1280000x64, .f32⟩
  | 101 => ⟨S1280000x80, .f32⟩
  | 102 => ⟨S1280000x64, .f32⟩
  | 103 => ⟨S1x64, .f32⟩
  | 104 => ⟨S1280000x64, .f32⟩
  | 105 => ⟨S1280000x64, .f32⟩
  | 106 => ⟨S_, .f32⟩
  | 107 => ⟨S1280000x64, .f32⟩
  | 108 => ⟨S1280000x64, .f32⟩
  | 109 => ⟨S_, .f32⟩
  | 110 => ⟨S80000x64, .f32⟩
  | 111 => ⟨S1280000x1, .i32⟩
  | 112 => ⟨S80000x64, .f32⟩
  | 113 => ⟨S80000x128, .f32⟩
  | 114 => ⟨S80000x64, .f32⟩
  | 115 => ⟨S1x64, .f32⟩
  | 116 => ⟨S80000x64, .f32⟩
  | 117 => ⟨S80000x64, .f32⟩
  | 118 => ⟨S_, .f32⟩
  | 119 => ⟨S80000x64, .f32⟩
  | 120 => ⟨S80000x64, .f32⟩
  | 121 => ⟨S1x80x64, .f32⟩
  | 122 => ⟨S80x64, .f32⟩
  | 123 => ⟨S1x64, .f32⟩
  | 124 => ⟨S64, .f32⟩
  | 125 => ⟨S1x128x64, .f32⟩
  | 126 => ⟨S128x64, .f32⟩
  | 127 => ⟨S1x64, .f32⟩
  | _ => ⟨S80000x32, .f32⟩

abbrev hbmTy0_1 (i : Nat) : BufTy := match i % 128 with
  | 0 => ⟨S64, .f32⟩
  | 1 => ⟨S_, .i32⟩
  | 2 => ⟨S1280000, .i32⟩
  | 3 => ⟨S1280000, .i1⟩
  | 4 => ⟨S_, .i32⟩
  | 5 => ⟨S1280000, .i32⟩
  | 6 => ⟨S1280000, .i32⟩
  | 7 => ⟨S1280000, .i32⟩
  | 8 => ⟨S1280000x1, .i32⟩
  | 9 => ⟨S1280000x64, .f32⟩
  | 10 => ⟨S1280000x80, .f32⟩
  | 11 => ⟨S1280000x64, .f32⟩
  | 12 => ⟨S1x64, .f32⟩
  | 13 => ⟨S1280000x64, .f32⟩
  | 14 => ⟨S1280000x64, .f32⟩
  | 15 => ⟨S_, .f32⟩
  | 16 => ⟨S1280000x64, .f32⟩
  | 17 => ⟨S1280000x64, .f32⟩
  | 18 => ⟨S_, .f32⟩
  | 19 => ⟨S80000x64, .f32⟩
  | 20 => ⟨S1280000x1, .i32⟩
  | 21 => ⟨S80000x64, .f32⟩
  | 22 => ⟨S80000x128, .f32⟩
  | 23 => ⟨S80000x64, .f32⟩
  | 24 => ⟨S1x64, .f32⟩
  | 25 => ⟨S80000x64, .f32⟩
  | 26 => ⟨S80000x64, .f32⟩
  | 27 => ⟨S_, .f32⟩
  | 28 => ⟨S80000x64, .f32⟩
  | 29 => ⟨S80000x64, .f32⟩
  | 30 => ⟨S_, .f32⟩
  | 31 => ⟨S256x64, .f32⟩
  | 32 => ⟨S80000x1, .i32⟩
  | 33 => ⟨S256x64, .f32⟩
  | 34 => ⟨S256x1, .f32⟩
  | 35 => ⟨S1x1, .f32⟩
  | 36 => ⟨S256x1, .f32⟩
  | 37 => ⟨S256x1, .f32⟩
  | _ => ⟨S80000x32, .f32⟩

abbrev hbmTy (i : Nat) : BufTy := match i / 128 with
  | 0 => hbmTy0_0 i
  | 1 => hbmTy0_1 i
  | _ => ⟨S80000x32, .f32⟩

abbrev bufTy : (tb : Table) → Fin (tcTables nBuf tb) → BufTy
  | .hbm, ⟨i, _⟩ => hbmTy i
  | _, _ => ⟨S80000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_1 : Ref sig .tc := ⟨.hbm, 55, rfl⟩
abbrev main_v34 : Ref sig .tc := ⟨.hbm, 56, rfl⟩
abbrev main_v35 : Ref sig .tc := ⟨.hbm, 57, rfl⟩
abbrev main_c_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call2_cst : Ref sig .tc := ⟨.hbm, 69, rfl⟩
abbrev main_call2_v0 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call3_cst : Ref sig .tc := ⟨.hbm, 81, rfl⟩
abbrev main_call3_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_4 : Ref sig .tc := ⟨.hbm, 92, rfl⟩
abbrev main_v64 : Ref sig .tc := ⟨.hbm, 93, rfl⟩
abbrev main_v65 : Ref sig .tc := ⟨.hbm, 94, rfl⟩
abbrev main_c_5 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call4_cst : Ref sig .tc := ⟨.hbm, 106, rfl⟩
abbrev main_call4_v0 : Ref sig .tc := ⟨.hbm, 107, rfl⟩
abbrev main_v76 : Ref sig .tc := ⟨.hbm, 108, rfl⟩
abbrev main_cst_6 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call5_cst : Ref sig .tc := ⟨.hbm, 118, rfl⟩
abbrev main_call5_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_7 : Ref sig .tc := ⟨.hbm, 129, rfl⟩
abbrev main_v94 : Ref sig .tc := ⟨.hbm, 130, rfl⟩
abbrev main_v95 : Ref sig .tc := ⟨.hbm, 131, rfl⟩
abbrev main_c_8 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call6_cst : Ref sig .tc := ⟨.hbm, 143, rfl⟩
abbrev main_call6_v0 : Ref sig .tc := ⟨.hbm, 144, rfl⟩
abbrev main_v106 : Ref sig .tc := ⟨.hbm, 145, rfl⟩
abbrev main_cst_9 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call7_cst : Ref sig .tc := ⟨.hbm, 155, rfl⟩
abbrev main_call7_v0 : Ref sig .tc := ⟨.hbm, 156, rfl⟩
abbrev main_v115 : Ref sig .tc := ⟨.hbm, 157, rfl⟩
abbrev main_cst_10 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  concatenates_S1280000x32_S1280000x16_S1280000x48_d1 : Shape.Concatenates [S1280000x32, S1280000x16] S1280000x48 1
  bcast_S64_S1x64_1 : S64.BroadcastsInDim S1x64 (![1] : Fin 1 → Fin S1x64.rank)
  bcast_S1x64_S1280000x64_0_1 : S1x64.BroadcastsInDim S1280000x64 (![0, 1] : Fin 2 → Fin S1280000x64.rank)
  bcast_S_S1280000x64 : S_.BroadcastsInDim S1280000x64 (![] : Fin 0 → Fin S1280000x64.rank)
  bcast_S_S80000x64 : S_.BroadcastsInDim S80000x64 (![] : Fin 0 → Fin S80000x64.rank)
  concatenates_S80000x32_S80000x64_S80000x96_d1 : Shape.Concatenates [S80000x32, S80000x64] S80000x96 1
  bcast_S1x64_S80000x64_0_1 : S1x64.BroadcastsInDim S80000x64 (![0, 1] : Fin 2 → Fin S80000x64.rank)
  slices_S3x80x64_S1x80x64_0_0_0 : S3x80x64.Slices ![0, 0, 0] S1x80x64
  shapeCasts_S1x80x64_S80x64 : S1x80x64.ShapeCasts S80x64
  slices_S3x64_S1x64_0_0 : S3x64.Slices ![0, 0] S1x64
  shapeCasts_S1x64_S64 : S1x64.ShapeCasts S64
  slices_S3x128x64_S1x128x64_0_0_0 : S3x128x64.Slices ![0, 0, 0] S1x128x64
  shapeCasts_S1x128x64_S128x64 : S1x128x64.ShapeCasts S128x64
  concatenates_S1280000x64_S1280000x16_S1280000x80_d1 : Shape.Concatenates [S1280000x64, S1280000x16] S1280000x80 1
  concatenates_S80000x64_S80000x64_S80000x128_d1 : Shape.Concatenates [S80000x64, S80000x64] S80000x128 1
  slices_S3x80x64_S1x80x64_1_0_0 : S3x80x64.Slices ![1, 0, 0] S1x80x64
  slices_S3x64_S1x64_1_0 : S3x64.Slices ![1, 0] S1x64
  slices_S3x128x64_S1x128x64_1_0_0 : S3x128x64.Slices ![1, 0, 0] S1x128x64
  slices_S3x80x64_S1x80x64_2_0_0 : S3x80x64.Slices ![2, 0, 0] S1x80x64
  slices_S3x64_S1x64_2_0 : S3x64.Slices ![2, 0] S1x64
  slices_S3x128x64_S1x128x64_2_0_0 : S3x128x64.Slices ![2, 0, 0] S1x128x64
  bcast_S_S256x64 : S_.BroadcastsInDim S256x64 (![] : Fin 0 → Fin S256x64.rank)
  bcast_S80000_S80000x1_0 : S80000.BroadcastsInDim S80000x1 (![0] : Fin 1 → Fin S80000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S80000x32_S1280000x1_S1280000x32_1_0_n_n_0_1_132_wf : GatherDims.WF S80000x32 S1280000x1 S1280000x32 [1] [0] [] [0] [] 1 ![1, 32]
  dot_S1280000x48_S48x64_S1280000x64_1_0_0_1_n_n_wf : DotDims.WF S1280000x48 S48x64 S1280000x64 [1] [0] [0] [1] [] []
  scatter_S80000x64_S1280000x1_S1280000x64_1_0_0_1_wf : ScatterDims.WF S80000x64 S1280000x1 S1280000x64 [1] [0] [0] 1
  dot_S80000x96_S96x64_S80000x64_1_0_0_1_n_n_wf : DotDims.WF S80000x96 S96x64 S80000x64 [1] [0] [0] [1] [] []
  gather_S80000x64_S1280000x1_S1280000x64_1_0_n_n_0_1_164_wf : GatherDims.WF S80000x64 S1280000x1 S1280000x64 [1] [0] [] [0] [] 1 ![1, 64]
  dot_S1280000x80_S80x64_S1280000x64_1_0_0_1_n_n_wf : DotDims.WF S1280000x80 S80x64 S1280000x64 [1] [0] [0] [1] [] []
  dot_S80000x128_S128x64_S80000x64_1_0_0_1_n_n_wf : DotDims.WF S80000x128 S128x64 S80000x64 [1] [0] [0] [1] [] []
  scatter_S256x64_S80000x1_S80000x64_1_0_0_1_wf : ScatterDims.WF S256x64 S80000x1 S80000x64 [1] [0] [0] 1
  dot_S256x64_S64x1_S256x1_1_0_0_1_n_n_wf : DotDims.WF S256x64 S64x1 S256x1 [1] [0] [0] [1] [] []

variable [Facts₀]

def gather_S80000x32_S1280000x1_S1280000x32_1_0_n_n_0_1_132 : GatherDims S80000x32 S1280000x1 S1280000x32 where
  offsetDims := [1]
  collapsedSliceDims := [0]
  operandBatchingDims := []
  startIndicesBatchingDims := []
  startIndexMap := [0]
  indexVectorDim := 1
  sliceSizes := ![1, 32]
  wf := gather_S80000x32_S1280000x1_S1280000x32_1_0_n_n_0_1_132_wf
def dot_S1280000x48_S48x64_S1280000x64_1_0_0_1_n_n : DotDims S1280000x48 S48x64 S1280000x64 where
  lhsContracting := [1]
  rhsContracting := [0]
  lhsNonContracting := [0]
  rhsNonContracting := [1]
  lhsBatch := []
  rhsBatch := []
  wf := dot_S1280000x48_S48x64_S1280000x64_1_0_0_1_n_n_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x96_S96x64_S80000x64_1_0_0_1_n_n : DotDims S80000x96 S96x64 S80000x64 where
  lhsContracting := [1]
  rhsContracting := [0]
  lhsNonContracting := [0]
  rhsNonContracting := [1]
  lhsBatch := []
  rhsBatch := []
  wf := dot_S80000x96_S96x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S1280000x80_S80x64_S1280000x64_1_0_0_1_n_n : DotDims S1280000x80 S80x64 S1280000x64 where
  lhsContracting := [1]
  rhsContracting := [0]
  lhsNonContracting := [0]
  rhsNonContracting := [1]
  lhsBatch := []
  rhsBatch := []
  wf := dot_S1280000x80_S80x64_S1280000x64_1_0_0_1_n_n_wf
def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf
def scatter_S256x64_S80000x1_S80000x64_1_0_0_1 : ScatterDims S256x64 S80000x1 S80000x64 where
  updateWindowDims := [1]
  insertedWindowDims := [0]
  scatterDimsToOperandDims := [0]
  indexVectorDim := 1
  wf := scatter_S256x64_S80000x1_S80000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KeepTable.lean ====
/-
  Between two boundaries of the run a buffer keeps its contents when no host operation of the stretches between them writes it
  and no pipeline between them has it as its output; a pipeline returns each of its input arrays as it found it.
  One equation per (buffer, later boundary, earlier boundary) that the reading of the result needs.
-/
import proofs.«422392_j11433202942183_1_alg».proof.Proof.Gen.KernelIdeal.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that none of a stretch's operations writes holds after the stretch what it held before. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem keep_main_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by host_keep hostOps0

theorem at_main_arg0_1 (c : Dev nD) : W1 m ρ c (Proc.devRef .tc main_arg0) = m ((c : Thread nD τ).loc main_arg0) :=
  (keep_main_arg0_1_0 m ρ c).trans rfl

theorem keep_main_arg0_5_0 (c : Dev nD) : W5 m ρ c (Proc.devRef .tc main_arg0) = W0 m ρ c (Proc.devRef .tc main_arg0) :=
  calc W5 m ρ c (Proc.devRef .tc main_arg0)
    _ = W4 m ρ c (Proc.devRef .tc main_arg0) := by host_keep hostOps1
    _ = W3 m ρ c (Proc.devRef .tc main_arg0) := W4_of_ne m ρ c main_arg0 (by decide)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0

theorem at_main_arg0_5 (c : Dev nD) : W5 m ρ c (Proc.devRef .tc main_arg0) = m ((c : Thread nD τ).loc main_arg0) :=
  (keep_main_arg0_5_0 m ρ c).trans rfl

theorem keep_main_arg1_3_0 (c : Dev nD) : W3 m ρ c (Proc.devRef .tc main_arg1) = W0 m ρ c (Proc.devRef .tc main_arg1) :=
  calc W3 m ρ c (Proc.devRef .tc main_arg1)
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0

theorem at_main_arg1_3 (c : Dev nD) : W3 m ρ c (Proc.devRef .tc main_arg1) = m ((c : Thread nD τ).loc main_arg1) :=
  (keep_main_arg1_3_0 m ρ c).trans rfl

theorem keep_main_arg1_9_0 (c : Dev nD) : W9 m ρ c (Proc.devRef .tc main_arg1) = W0 m ρ c (Proc.devRef .tc main_arg1) :=
  calc W9 m ρ c (Proc.devRef .tc main_arg1)
    _ = W8 m ρ c (Proc.devRef .tc main_arg1) := by host_keep hostOps2_2
    _ = W7 m ρ c (Proc.devRef .tc main_arg1) := by host_keep hostOps2_1
    _ = W6 m ρ c (Proc.devRef .tc main_arg1) := by host_keep hostOps2
    _ = W5 m ρ c (Proc.devRef .tc main_arg1) := W6_of_ne m ρ c main_arg1 (by decide)
    _ = W4 m ρ c (Proc.devRef .tc main_arg1) := by host_keep hostOps1
    _ = W3 m ρ c (Proc.devRef .tc main_arg1) := (W4_arr m ρ c 1).trans (((dat0 (V3 m ρ) c).arrAt_in 1 rfl _).trans (A_eq0 (V3 m ρ) c 1))
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0

theorem at_main_arg1_9 (c : Dev nD) : W9 m ρ c (Proc.devRef .tc main_arg1) = m ((c : Thread nD τ).loc main_arg1) :=
  (keep_main_arg1_9_0 m ρ c).trans rfl

theorem keep_main_arg1_15_0 (c : Dev nD) : W15 m ρ c (Proc.devRef .tc main_arg1) = W0 m ρ c (Proc.devRef .tc main_arg1) :=
  calc W15 m ρ c (Proc.devRef .tc main_arg1)
    _ = W14 m ρ c (Proc.devRef .tc main_arg1) := by host_keep hostOps4_2
    _ = W13 m ρ c (Proc.devRef .tc main_arg1) := by host_keep hostOps4_1
    _ = W12 m ρ c (Proc.devRef .tc main_arg1) := by host_keep hostOps4
    _ = W11 m ρ c (Proc.devRef .tc main_arg1) := W12_of_ne m ρ c main_arg1 (by decide)
    _ = W10 m ρ c (Proc.devRef .tc main_arg1) := by host_keep hostOps3
    _ = W9 m ρ c (Proc.devRef .tc main_arg1) := (W10_arr m ρ c 1).trans (((dat2 (V9 m ρ) c).arrAt_in 1 rfl _).trans (A_eq2 (V9 m ρ) c 1))
    _ = W8 m ρ c (Proc.devRef .tc main_arg1) := by host_keep hostOps2_2
    _ = W7 m ρ c (Proc.devRef .tc main_arg1) := by host_keep hostOps2_1
    _ = W6 m ρ c (Proc.devRef .tc main_arg1) := by host_keep hostOps2
    _ = W5 m ρ c (Proc.devRef .tc main_arg1) := W6_of_ne m ρ c main_arg1 (by decide)
    _ = W4 m ρ c (Proc.devRef .tc main_arg1) := by host_keep hostOps1
    _ = W3 m ρ c (Proc.devRef .tc main_arg1) := (W4_arr m ρ c 1).trans (((dat0 (V3 m ρ) c).arrAt_in 1 rfl _).trans (A_eq0 (V3 m ρ) c 1))
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0

theorem at_main_arg1_15 (c : Dev nD) : W15 m ρ c (Proc.devRef .tc main_arg1) = m ((c : Thread nD τ).loc main_arg1) :=
  (keep_main_arg1_15_0 m ρ c).trans rfl

theorem keep_main_arg1_21_0 (c : Dev nD) : W21 m ρ c (Proc.devRef .tc main_arg1) = W0 m ρ c (Proc.devRef .tc main_arg1) :=
  calc W21 m ρ c (Proc.devRef .tc main_arg1)
    _ = W20 m ρ c (Proc.devRef .tc main_arg1) := by host_keep hostOps6_2
    _ = W19 m ρ c (Proc.devRef .tc main_arg1) := by host_keep hostOps6_1
    _ = W18 m ρ c (Proc.devRef .tc main_arg1) := by host_keep hostOps6
    _ = W17 m ρ c (Proc.devRef .tc main_arg1) := W18_of_ne m ρ c main_arg1 (by decide)
    _ = W16 m ρ c (Proc.devRef .tc main_arg1) := by host_keep hostOps5
    _ = W15 m ρ c (Proc.devRef .tc main_arg1) := (W16_arr m ρ c 1).trans (((dat4 (V15 m ρ) c).arrAt_in 1 rfl _).trans (A_eq4 (V15 m ρ) c 1))
    _ = W14 m ρ c (Proc.devRef .tc main_arg1) := by host_keep hostOps4_2
    _ = W13 m ρ c (Proc.devRef .tc main_arg1) := by host_keep hostOps4_1
    _ = W12 m ρ c (Proc.devRef .tc main_arg1) := by host_keep hostOps4
    _ = W11 m ρ c (Proc.devRef .tc main_arg1) := W12_of_ne m ρ c main_arg1 (by decide)
    _ = W10 m ρ c (Proc.devRef .tc main_arg1) := by host_keep hostOps3
    _ = W9 m ρ c (Proc.devRef .tc main_arg1) := (W10_arr m ρ c 1).trans (((dat2 (V9 m ρ) c).arrAt_in 1 rfl _).trans (A_eq2 (V9 m ρ) c 1))
    _ = W8 m ρ c (Proc.devRef .tc main_arg1) := by host_keep hostOps2_2
    _ = W7 m ρ c (Proc.devRef .tc main_arg1) := by host_keep hostOps2_1
    _ = W6 m ρ c (Proc.devRef .tc main_arg1) := by host_keep hostOps2
    _ = W5 m ρ c (Proc.devRef .tc main_arg1) := W6_of_ne m ρ c main_arg1 (by decide)
    _ = W4 m ρ c (Proc.devRef .tc main_arg1) := by host_keep hostOps1
    _ = W3 m ρ c (Proc.devRef .tc main_arg1) := (W4_arr m ρ c 1).trans (((dat0 (V3 m ρ) c).arrAt_in 1 rfl _).trans (A_eq0 (V3 m ρ) c 1))
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0

theorem at_main_arg1_21 (c : Dev nD) : W21 m ρ c (Proc.devRef .tc main_arg1) = m ((c : Thread nD τ).loc main_arg1) :=
  (keep_main_arg1_21_0 m ρ c).trans rfl

theorem keep_main_arg3_24_0 (c : Dev nD) : W24 m ρ c (Proc.devRef .tc main_arg3) = W0 m ρ c (Proc.devRef .tc main_arg3) :=
  calc W24 m ρ c (Proc.devRef .tc main_arg3)
    _ = W23 m ρ c (Proc.devRef .tc main_arg3) := W24_of_ne m ρ c main_arg3 (by decide)
    _ = W22 m ρ c (Proc.devRef .tc main_arg3) := by host_keep hostOps7
    _ = W21 m ρ c (Proc.devRef .tc main_arg3) := W22_of_ne m ρ c main_arg3 (by decide)
    _ = W20 m ρ c (Proc.devRef .tc main_arg3) := by host_keep hostOps6_2
    _ = W19 m ρ c (Proc.devRef .tc main_arg3) := by host_keep hostOps6_1
    _ = W18 m ρ c (Proc.devRef .tc main_arg3) := by host_keep hostOps6
    _ = W17 m ρ c (Proc.devRef .tc main_arg3) := W18_of_ne m ρ c main_arg3 (by decide)
    _ = W16 m ρ c (Proc.devRef .tc main_arg3) := by host_keep hostOps5
    _ = W15 m ρ c (Proc.devRef .tc main_arg3) := W16_of_ne m ρ c main_arg3 (by decide)
    _ = W14 m ρ c (Proc.devRef .tc main_arg3) := by host_keep hostOps4_2
    _ = W13 m ρ c (Proc.devRef .tc main_arg3) := by host_keep hostOps4_1
    _ = W12 m ρ c (Proc.devRef .tc main_arg3) := by host_keep hostOps4
    _ = W11 m ρ c (Proc.devRef .tc main_arg3) := W12_of_ne m ρ c main_arg3 (by decide)
    _ = W10 m ρ c (Proc.devRef .tc main_arg3) := by host_keep hostOps3
    _ = W9 m ρ c (Proc.devRef .tc main_arg3) := W10_of_ne m ρ c main_arg3 (by decide)
    _ = W8 m ρ c (Proc.devRef .tc main_arg3) := by host_keep hostOps2_2
    _ = W7 m ρ c (Proc.devRef .tc main_arg3) := by host_keep hostOps2_1
    _ = W6 m ρ c (Proc.devRef .tc main_arg3) := by host_keep hostOps2
    _ = W5 m ρ c (Proc.devRef .tc main_arg3) := W6_of_ne m ρ c main_arg3 (by decide)
    _ = W4 m ρ c (Proc.devRef .tc main_arg3) := by host_keep hostOps1
    _ = W3 m ρ c (Proc.devRef .tc main_arg3) := W4_of_ne m ρ c main_arg3 (by decide)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0

theorem at_main_arg3_24 (c : Dev nD) : W24 m ρ c (Proc.devRef .tc main_arg3) = m ((c : Thread nD τ).loc main_arg3) :=
  (keep_main_arg3_24_0 m ρ c).trans rfl

theorem keep_main_arg12_24_0 (c : Dev nD) : W24 m ρ c (Proc.devRef .tc main_arg12) = W0 m ρ c (Proc.devRef .tc main_arg12) :=
  calc W24 m ρ c (Proc.devRef .tc main_arg12)
    _ = W23 m ρ c (Proc.devRef .tc main_arg12) := W24_of_ne m ρ c main_arg12 (by decide)
    _ = W22 m ρ c (Proc.devRef .tc main_arg12) := by host_keep hostOps7
    _ = W21 m ρ c (Proc.devRef .tc main_arg12) := W22_of_ne m ρ c main_arg12 (by decide)
    _ = W20 m ρ c (Proc.devRef .tc main_arg12) := by host_keep hostOps6_2
    _ = W19 m ρ c (Proc.devRef .tc main_arg12) := by host_keep hostOps6_1
    _ = W18 m ρ c (Proc.devRef .tc main_arg12) := by host_keep hostOps6
    _ = W17 m ρ c (Proc.devRef .tc main_arg12) := W18_of_ne m ρ c main_arg12 (by decide)
    _ = W16 m ρ c (Proc.devRef .tc main_arg12) := by host_keep hostOps5
    _ = W15 m ρ c (Proc.devRef .tc main_arg12) := W16_of_ne m ρ c main_arg12 (by decide)
    _ = W14 m ρ c (Proc.devRef .tc main_arg12) := by host_keep hostOps4_2
    _ = W13 m ρ c (Proc.devRef .tc main_arg12) := by host_keep hostOps4_1
    _ = W12 m ρ c (Proc.devRef .tc main_arg12) := by host_keep hostOps4
    _ = W11 m ρ c (Proc.devRef .tc main_arg12) := W12_of_ne m ρ c main_arg12 (by decide)
    _ = W10 m ρ c (Proc.devRef .tc main_arg12) := by host_keep hostOps3
    _ = W9 m ρ c (Proc.devRef .tc main_arg12) := W10_of_ne m ρ c main_arg12 (by decide)
    _ = W8 m ρ c (Proc.devRef .tc main_arg12) := by host_keep hostOps2_2
    _ = W7 m ρ c (Proc.devRef .tc main_arg12) := by host_keep hostOps2_1
    _ = W6 m ρ c (Proc.devRef .tc main_arg12) := by host_keep hostOps2
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0

theorem at_main_arg12_24 (c : Dev nD) : W24 m ρ c (Proc.devRef .tc main_arg12) = m ((c : Thread nD τ).loc main_arg12) :=
  (keep_main_arg12_24_0 m ρ c).trans rfl

theorem keep_main_arg13_24_0 (c : Dev nD) : W24 m ρ c (Proc.devRef .tc main_arg13) = W0 m ρ c (Proc.devRef .tc main_arg13) :=
  calc W24 m ρ c (Proc.devRef .tc main_arg13)
    _ = W23 m ρ c (Proc.devRef .tc main_arg13) := W24_of_ne m ρ c main_arg13 (by decide)
    _ = W22 m ρ c (Proc.devRef .tc main_arg13) := by host_keep hostOps7
    _ = W21 m ρ c (Proc.devRef .tc main_arg13) := W22_of_ne m ρ c main_arg13 (by decide)
    _ = W20 m ρ c (Proc.devRef .tc main_arg13) := by host_keep hostOps6_2
    _ = W19 m ρ c (Proc.devRef .tc main_arg13) := by host_keep hostOps6_1
    _ = W18 m ρ c (Proc.devRef .tc main_arg13) := by host_keep hostOps6
    _ = W17 m ρ c (Proc.devRef .tc main_arg13) := W18_of_ne m ρ c main_arg13 (by decide)
    _ = W16 m ρ c (Proc.devRef .tc main_arg13) := by host_keep hostOps5
    _ = W15 m ρ c (Proc.devRef .tc main_arg13) := W16_of_ne m ρ c main_arg13 (by decide)
    _ = W14 m ρ c (Proc.devRef .tc main_arg13) := by host_keep hostOps4_2
    _ = W13 m ρ c (Proc.devRef .tc main_arg13) := by host_keep hostOps4_1
    _ = W12 m ρ c (Proc.devRef .tc main_arg13) := by host_keep hostOps4
    _ = W11 m ρ c (Proc.devRef .tc main_arg13) := W12_of_ne m ρ c main_arg13 (by decide)
    _ = W10 m ρ c (Proc.devRef .tc main_arg13) := by host_keep hostOps3
    _ = W9 m ρ c (Proc.devRef .tc main_arg13) := W10_of_ne m ρ c main_arg13 (by decide)
    _ = W8 m ρ c (Proc.devRef .tc main_arg13) := by host_keep hostOps2_2
    _ = W7 m ρ c (Proc.devRef .tc main_arg13) := by host_keep hostOps2_1
    _ = W6 m ρ c (Proc.devRef .tc main_arg13) := by host_keep hostOps2
    _ = W5 m ρ c (Proc.devRef .tc main_arg13) := W6_of_ne m ρ c main_arg13 (by decide)
    _ = W4 m ρ c (Proc.devRef .tc main_arg13) := by host_keep hostOps1
    _ = W3 m ρ c (Proc.devRef .tc main_arg13) := W4_of_ne m ρ c main_arg13 (by decide)
    _ = W2 m ρ c (Proc.devRef .tc main_arg13) := by host_keep hostOps0_2
    _ = W1 m ρ c (Proc.devRef .tc main_arg13) := by host_keep hostOps0_1
    _ = W0 m ρ c (Proc.devRef .tc main_arg13) := by host_keep hostOps0

theorem at_main_arg13_24 (c : Dev nD) : W24 m ρ c (Proc.devRef .tc main_arg13) = m ((c : Thread nD τ).loc main_arg13) :=
  (keep_main_arg13_24_0 m ρ c).trans rfl

theorem keep_main_arg5_2_0 (c : Dev nD) : W2 m ρ c (Proc.devRef .tc main_arg5) = W0 m ρ c (Proc.devRef .tc main_arg5) :=
  calc W2 m ρ c (Proc.devRef .tc main_arg5)
    _ = W1 m ρ c (Proc.devRef .tc main_arg5) := by host_keep hostOps0_1
    _ = W0 m ρ c (Proc.devRef .tc main_arg5) := by host_keep hostOps0

theorem at_main_arg5_2 (c : Dev nD) : W2 m ρ c (Proc.devRef .tc main_arg5) = m ((c : Thread nD τ).loc main_arg5) :=
  (keep_main_arg5_2_0 m ρ c).trans rfl

theorem keep_main_arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0

theorem at_main_arg7_4 (c : Dev nD) : W4 m ρ c (Proc.devRef .tc main_arg7) = m ((c : Thread nD τ).loc main_arg7) :=
  (keep_main_arg7_4_0 m ρ c).trans rfl

theorem keep_main_arg8_6_0 (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0

theorem at_main_arg8_6 (c : Dev nD) : W6 m ρ c (Proc.devRef .tc main_arg8) = m ((c : Thread nD τ).loc main_arg8) :=
  (keep_main_arg8_6_0 m ρ c).trans rfl

theorem keep_main_arg9_6_0 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0

theorem at_main_arg9_6 (c : Dev nD) : W6 m ρ c (Proc.devRef .tc main_arg9) = m ((c : Thread nD τ).loc main_arg9) :=
  (keep_main_arg9_6_0 m ρ c).trans rfl

theorem keep_main_arg10_6_0 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0

theorem at_main_arg10_6 (c : Dev nD) : W6 m ρ c (Proc.devRef .tc main_arg10) = m ((c : Thread nD τ).loc main_arg10) :=
  (keep_main_arg10_6_0 m ρ c).trans rfl

theorem keep_main_arg11_6_0 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0

theorem at_main_arg11_6 (c : Dev nD) : W6 m ρ c (Proc.devRef .tc main_arg11) = m ((c : Thread nD τ).loc main_arg11) :=
  (keep_main_arg11_6_0 m ρ c).trans rfl

theorem keep_main_arg8_12_0 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keep hostOps3
    _ = W9 m ρ c (Proc.devRef .tc main_arg8) := W10_of_ne m ρ c main_arg8 (by decide)
    _ = W8 m ρ c (Proc.devRef .tc main_arg8) := by host_keep hostOps2_2
    _ = W7 m ρ c (Proc.devRef .tc main_arg8) := by host_keep hostOps2_1
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0

theorem at_main_arg8_12 (c : Dev nD) : W12 m ρ c (Proc.devRef .tc main_arg8) = m ((c : Thread nD τ).loc main_arg8) :=
  (keep_main_arg8_12_0 m ρ c).trans rfl

theorem keep_main_arg9_12_0 (c : Dev nD) : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := by host_keep hostOps3
    _ = W9 m ρ c (Proc.devRef .tc main_arg9) := W10_of_ne m ρ c main_arg9 (by decide)
    _ = W8 m ρ c (Proc.devRef .tc main_arg9) := by host_keep hostOps2_2
    _ = W7 m ρ c (Proc.devRef .tc main_arg9) := by host_keep hostOps2_1
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0

theorem at_main_arg9_12 (c : Dev nD) : W12 m ρ c (Proc.devRef .tc main_arg9) = m ((c : Thread nD τ).loc main_arg9) :=
  (keep_main_arg9_12_0 m ρ c).trans rfl

theorem keep_main_arg10_12_0 (c : Dev nD) : W12 m ρ c (Proc.devRef .tc main_arg10) = W0 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := by host_keep hostOps3
    _ = W9 m ρ c (Proc.devRef .tc main_arg10) := W10_of_ne m ρ c main_arg10 (by decide)
    _ = W8 m ρ c (Proc.devRef .tc main_arg10) := by host_keep hostOps2_2
    _ = W7 m ρ c (Proc.devRef .tc main_arg10) := by host_keep hostOps2_1
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0

theorem at_main_arg10_12 (c : Dev nD) : W12 m ρ c (Proc.devRef .tc main_arg10) = m ((c : Thread nD τ).loc main_arg10) :=
  (keep_main_arg10_12_0 m ρ c).trans rfl

theorem keep_main_arg11_12_0 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := by host_keep hostOps3
    _ = W9 m ρ c (Proc.devRef .tc main_arg11) := W10_of_ne m ρ c main_arg11 (by decide)
    _ = W8 m ρ c (Proc.devRef .tc main_arg11) := by host_keep hostOps2_2
    _ = W7 m ρ c (Proc.devRef .tc main_arg11) := by host_keep hostOps2_1
    _ = W6 m ρ c (Proc.devRef .tc main_arg11) := by host_keep hostOps2
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0

theorem at_main_arg11_12 (c : Dev nD) : W12 m ρ c (Proc.devRef .tc main_arg11) = m ((c : Thread nD τ).loc main_arg11) :=
  (keep_main_arg11_12_0 m ρ c).trans rfl

theorem keep_main_arg8_18_0 (c : Dev nD) : W18 m ρ c (Proc.devRef .tc main_arg8) = W0 m ρ c (Proc.devRef .tc main_arg8) :=
  calc W18 m ρ c (Proc.devRef .tc main_arg8)
    _ = W17 m ρ c (Proc.devRef .tc main_arg8) := W18_of_ne m ρ c main_arg8 (by decide)
    _ = W16 m ρ c (Proc.devRef .tc main_arg8) := by host_keep hostOps5
    _ = W15 m ρ c (Proc.devRef .tc main_arg8) := W16_of_ne m ρ c main_arg8 (by decide)
    _ = W14 m ρ c (Proc.devRef .tc main_arg8) := by host_keep hostOps4_2
    _ = W13 m ρ c (Proc.devRef .tc main_arg8) := by host_keep hostOps4_1
    _ = W12 m ρ c (Proc.devRef .tc main_arg8) := by host_keep hostOps4
    _ = W11 m ρ c (Proc.devRef .tc main_arg8) := W12_of_ne m ρ c main_arg8 (by decide)
    _ = W10 m ρ c (Proc.devRef .tc main_arg8) := by host_keep hostOps3
    _ = W9 m ρ c (Proc.devRef .tc main_arg8) := W10_of_ne m ρ c main_arg8 (by decide)
    _ = W8 m ρ c (Proc.devRef .tc main_arg8) := by host_keep hostOps2_2
    _ = W7 m ρ c (Proc.devRef .tc main_arg8) := by host_keep hostOps2_1
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0

theorem at_main_arg8_18 (c : Dev nD) : W18 m ρ c (Proc.devRef .tc main_arg8) = m ((c : Thread nD τ).loc main_arg8) :=
  (keep_main_arg8_18_0 m ρ c).trans rfl

theorem keep_main_arg9_18_0 (c : Dev nD) : W18 m ρ c (Proc.devRef .tc main_arg9) = W0 m ρ c (Proc.devRef .tc main_arg9) :=
  calc W18 m ρ c (Proc.devRef .tc main_arg9)
    _ = W17 m ρ c (Proc.devRef .tc main_arg9) := W18_of_ne m ρ c main_arg9 (by decide)
    _ = W16 m ρ c (Proc.devRef .tc main_arg9) := by host_keep hostOps5
    _ = W15 m ρ c (Proc.devRef .tc main_arg9) := W16_of_ne m ρ c main_arg9 (by decide)
    _ = W14 m ρ c (Proc.devRef .tc main_arg9) := by host_keep hostOps4_2
    _ = W13 m ρ c (Proc.devRef .tc main_arg9) := by host_keep hostOps4_1
    _ = W12 m ρ c (Proc.devRef .tc main_arg9) := by host_keep hostOps4
    _ = W11 m ρ c (Proc.devRef .tc main_arg9) := W12_of_ne m ρ c main_arg9 (by decide)
    _ = W10 m ρ c (Proc.devRef .tc main_arg9) := by host_keep hostOps3
    _ = W9 m ρ c (Proc.devRef .tc main_arg9) := W10_of_ne m ρ c main_arg9 (by decide)
    _ = W8 m ρ c (Proc.devRef .tc main_arg9) := by host_keep hostOps2_2
    _ = W7 m ρ c (Proc.devRef .tc main_arg9) := by host_keep hostOps2_1
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0

theorem at_main_arg9_18 (c : Dev nD) : W18 m ρ c (Proc.devRef .tc main_arg9) = m ((c : Thread nD τ).loc main_arg9) :=
  (keep_main_arg9_18_0 m ρ c).trans rfl

theorem keep_main_arg10_18_0 (c : Dev nD) : W18 m ρ c (Proc.devRef .tc main_arg10) = W0 m ρ c (Proc.devRef .tc main_arg10) :=
  calc W18 m ρ c (Proc.devRef .tc main_arg10)
    _ = W17 m ρ c (Proc.devRef .tc main_arg10) := W18_of_ne m ρ c main_arg10 (by decide)
    _ = W16 m ρ c (Proc.devRef .tc main_arg10) := by host_keep hostOps5
    _ = W15 m ρ c (Proc.devRef .tc main_arg10) := W16_of_ne m ρ c main_arg10 (by decide)
    _ = W14 m ρ c (Proc.devRef .tc main_arg10) := by host_keep hostOps4_2
    _ = W13 m ρ c (Proc.devRef .tc main_arg10) := by host_keep hostOps4_1
    _ = W12 m ρ c (Proc.devRef .tc main_arg10) := by host_keep hostOps4
    _ = W11 m ρ c (Proc.devRef .tc main_arg10) := W12_of_ne m ρ c main_arg10 (by decide)
    _ = W10 m ρ c (Proc.devRef .tc main_arg10) := by host_keep hostOps3
    _ = W9 m ρ c (Proc.devRef .tc main_arg10) := W10_of_ne m ρ c main_arg10 (by decide)
    _ = W8 m ρ c (Proc.devRef .tc main_arg10) := by host_keep hostOps2_2
    _ = W7 m ρ c (Proc.devRef .tc main_arg10) := by host_keep hostOps2_1
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0

theorem at_main_arg10_18 (c : Dev nD) : W18 m ρ c (Proc.devRef .tc main_arg10) = m ((c : Thread nD τ).loc main_arg10) :=
  (keep_main_arg10_18_0 m ρ c).trans rfl

theorem keep_main_arg11_18_0 (c : Dev nD) : W18 m ρ c (Proc.devRef .tc main_arg11) = W0 m ρ c (Proc.devRef .tc main_arg11) :=
  calc W18 m ρ c (Proc.devRef .tc main_arg11)
    _ = W17 m ρ c (Proc.devRef .tc main_arg11) := W18_of_ne m ρ c main_arg11 (by decide)
    _ = W16 m ρ c (Proc.devRef .tc main_arg11) := by host_keep hostOps5
    _ = W15 m ρ c (Proc.devRef .tc main_arg11) := W16_of_ne m ρ c main_arg11 (by decide)
    _ = W14 m ρ c (Proc.devRef .tc main_arg11) := by host_keep hostOps4_2
    _ = W13 m ρ c (Proc.devRef .tc main_arg11) := by host_keep hostOps4_1
    _ = W12 m ρ c (Proc.devRef .tc main_arg11) := by host_keep hostOps4
    _ = W11 m ρ c (Proc.devRef .tc main_arg11) := W12_of_ne m ρ c main_arg11 (by decide)
    _ = W10 m ρ c (Proc.devRef .tc main_arg11) := by host_keep hostOps3
    _ = W9 m ρ c (Proc.devRef .tc main_arg11) := W10_of_ne m ρ c main_arg11 (by decide)
    _ = W8 m ρ c (Proc.devRef .tc main_arg11) := by host_keep hostOps2_2
    _ = W7 m ρ c (Proc.devRef .tc main_arg11) := by host_keep hostOps2_1
    _ = W6 m ρ c (Proc.devRef .tc main_arg11) := by host_keep hostOps2
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0

theorem at_main_arg11_18 (c : Dev nD) : W18 m ρ c (Proc.devRef .tc main_arg11) = m ((c : Thread nD τ).loc main_arg11) :=
  (keep_main_arg11_18_0 m ρ c).trans rfl

theorem keep_main_v1_7_1 (c : Dev nD) : W7 m ρ c (Proc.devRef .tc main_v1) = W1 m ρ c (Proc.devRef .tc main_v1) :=
  calc W7 m ρ c (Proc.devRef .tc main_v1)
    _ = W6 m ρ c (Proc.devRef .tc main_v1) := by host_keep hostOps2
    _ = W5 m ρ c (Proc.devRef .tc main_v1) := W6_of_ne m ρ c main_v1 (by decide)
    _ = W4 m ρ c (Proc.devRef .tc main_v1) := by host_keep hostOps1
    _ = W3 m ρ c (Proc.devRef .tc main_v1) := W4_of_ne m ρ c main_v1 (by decide)
    _ = W2 m ρ c (Proc.devRef .tc main_v1) := by host_keep hostOps0_2
    _ = W1 m ρ c (Proc.devRef .tc main_v1) := by host_keep hostOps0_1

theorem keep_main_v1_13_1 (c : Dev nD) : W13 m ρ c (Proc.devRef .tc main_v1) = W1 m ρ c (Proc.devRef .tc main_v1) :=
  calc W13 m ρ c (Proc.devRef .tc main_v1)
    _ = W12 m ρ c (Proc.devRef .tc main_v1) := by host_keep hostOps4
    _ = W11 m ρ c (Proc.devRef .tc main_v1) := W12_of_ne m ρ c main_v1 (by decide)
    _ = W10 m ρ c (Proc.devRef .tc main_v1) := by host_keep hostOps3
    _ = W9 m ρ c (Proc.devRef .tc main_v1) := W10_of_ne m ρ c main_v1 (by decide)
    _ = W8 m ρ c (Proc.devRef .tc main_v1) := by host_keep hostOps2_2
    _ = W7 m ρ c (Proc.devRef .tc main_v1) := by host_keep hostOps2_1
    _ = W6 m ρ c (Proc.devRef .tc main_v1) := by host_keep hostOps2
    _ = W5 m ρ c (Proc.devRef .tc main_v1) := W6_of_ne m ρ c main_v1 (by decide)
    _ = W4 m ρ c (Proc.devRef .tc main_v1) := by host_keep hostOps1
    _ = W3 m ρ c (Proc.devRef .tc main_v1) := W4_of_ne m ρ c main_v1 (by decide)
    _ = W2 m ρ c (Proc.devRef .tc main_v1) := by host_keep hostOps0_2
    _ = W1 m ρ c (Proc.devRef .tc main_v1) := by host_keep hostOps0_1

theorem keep_main_v1_19_1 (c : Dev nD) : W19 m ρ c (Proc.devRef .tc main_v1) = W1 m ρ c (Proc.devRef .tc main_v1) :=
  calc W19 m ρ c (Proc.devRef .tc main_v1)
    _ = W18 m ρ c (Proc.devRef .tc main_v1) := by host_keep hostOps6
    _ = W17 m ρ c (Proc.devRef .tc main_v1) := W18_of_ne m ρ c main_v1 (by decide)
    _ = W16 m ρ c (Proc.devRef .tc main_v1) := by host_keep hostOps5
    _ = W15 m ρ c (Proc.devRef .tc main_v1) := W16_of_ne m ρ c main_v1 (by decide)
    _ = W14 m ρ c (Proc.devRef .tc main_v1) := by host_keep hostOps4_2
    _ = W13 m ρ c (Proc.devRef .tc main_v1) := by host_keep hostOps4_1
    _ = W12 m ρ c (Proc.devRef .tc main_v1) := by host_keep hostOps4
    _ = W11 m ρ c (Proc.devRef .tc main_v1) := W12_of_ne m ρ c main_v1 (by decide)
    _ = W10 m ρ c (Proc.devRef .tc main_v1) := by host_keep hostOps3
    _ = W9 m ρ c (Proc.devRef .tc main_v1) := W10_of_ne m ρ c main_v1 (by decide)
    _ = W8 m ρ c (Proc.devRef .tc main_v1) := by host_keep hostOps2_2
    _ = W7 m ρ c (Proc.devRef .tc main_v1) := by host_keep hostOps2_1
    _ = W6 m ρ c (Proc.devRef .tc main_v1) := by host_keep hostOps2
    _ = W5 m ρ c (Proc.devRef .tc main_v1) := W6_of_ne m ρ c main_v1 (by decide)
    _ = W4 m ρ c (Proc.devRef .tc main_v1) := by host_keep hostOps1
    _ = W3 m ρ c (Proc.devRef .tc main_v1) := W4_of_ne m ρ c main_v1 (by decide)
    _ = W2 m ρ c (Proc.devRef .tc main_v1) := by host_keep hostOps0_2
    _ = W1 m ρ c (Proc.devRef .tc main_v1) := by host_keep hostOps0_1

theorem keep_main_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps0_2
    _ = W1 m ρ c (Proc.devRef .tc main_v3) := by host_keep hostOps0_1

theorem keep_main_v3_10_1 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps2_2
    _ = W7 m ρ c (Proc.devRef .tc main_v3) := by host_keep hostOps2_1
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)
    _ = W2 m ρ c (Proc.devRef .tc main_v3) := by host_keep hostOps0_2
    _ = W1 m ρ c (Proc.devRef .tc main_v3) := by host_keep hostOps0_1

theorem keep_main_v3_16_1 (c : Dev nD) : W16 m ρ c (Proc.devRef .tc main_v3) = W1 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by host_keep hostOps4_2
    _ = W13 m ρ c (Proc.devRef .tc main_v3) := by host_keep hostOps4_1
    _ = W12 m ρ c (Proc.devRef .tc main_v3) := by host_keep hostOps4
    _ = W11 m ρ c (Proc.devRef .tc main_v3) := W12_of_ne m ρ c main_v3 (by decide)
    _ = W10 m ρ c (Proc.devRef .tc main_v3) := by host_keep hostOps3
    _ = W9 m ρ c (Proc.devRef .tc main_v3) := W10_of_ne m ρ c main_v3 (by decide)
    _ = W8 m ρ c (Proc.devRef .tc main_v3) := by host_keep hostOps2_2
    _ = W7 m ρ c (Proc.devRef .tc main_v3) := by host_keep hostOps2_1
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)
    _ = W2 m ρ c (Proc.devRef .tc main_v3) := by host_keep hostOps0_2
    _ = W1 m ρ c (Proc.devRef .tc main_v3) := by host_keep hostOps0_1

theorem keep_main_v3_22_1 (c : Dev nD) : W22 m ρ c (Proc.devRef .tc main_v3) = W1 m ρ c (Proc.devRef .tc main_v3) :=
  calc W22 m ρ c (Proc.devRef .tc main_v3)
    _ = W21 m ρ c (Proc.devRef .tc main_v3) := W22_of_ne m ρ c main_v3 (by decide)
    _ = W20 m ρ c (Proc.devRef .tc main_v3) := by host_keep hostOps6_2
    _ = W19 m ρ c (Proc.devRef .tc main_v3) := by host_keep hostOps6_1
    _ = W18 m ρ c (Proc.devRef .tc main_v3) := by host_keep hostOps6
    _ = W17 m ρ c (Proc.devRef .tc main_v3) := W18_of_ne m ρ c main_v3 (by decide)
    _ = W16 m ρ c (Proc.devRef .tc main_v3) := by host_keep hostOps5
    _ = W15 m ρ c (Proc.devRef .tc main_v3) := W16_of_ne m ρ c main_v3 (by decide)
    _ = W14 m ρ c (Proc.devRef .tc main_v3) := by host_keep hostOps4_2
    _ = W13 m ρ c (Proc.devRef .tc main_v3) := by host_keep hostOps4_1
    _ = W12 m ρ c (Proc.devRef .tc main_v3) := by host_keep hostOps4
    _ = W11 m ρ c (Proc.devRef .tc main_v3) := W12_of_ne m ρ c main_v3 (by decide)
    _ = W10 m ρ c (Proc.devRef .tc main_v3) := by host_keep hostOps3
    _ = W9 m ρ c (Proc.devRef .tc main_v3) := W10_of_ne m ρ c main_v3 (by decide)
    _ = W8 m ρ c (Proc.devRef .tc main_v3) := by host_keep hostOps2_2
    _ = W7 m ρ c (Proc.devRef .tc main_v3) := by host_keep hostOps2_1
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)
    _ = W2 m ρ c (Proc.devRef .tc main_v3) := by host_keep hostOps0_2
    _ = W1 m ρ c (Proc.devRef .tc main_v3) := by host_keep hostOps0_1

theorem keep_main_v4_3_1 (c : Dev nD) : W3 m ρ c (Proc.devRef .tc main_v4) = W1 m ρ c (Proc.devRef .tc main_v4) :=
  calc W3 m ρ c (Proc.devRef .tc main_v4)
    _ = W2 m ρ c (Proc.devRef .tc main_v4) := by host_keep hostOps0_2
    _ = W1 m ρ c (Proc.devRef .tc main_v4) := by host_keep hostOps0_1

theorem keep_main_v5_3_1 (c : Dev nD) : W3 m ρ c (Proc.devRef .tc main_v5) = W1 m ρ c (Proc.devRef .tc main_v5) :=
  calc W3 m ρ c (Proc.devRef .tc main_v5)
    _ = W2 m ρ c (Proc.devRef .tc main_v5) := by host_keep hostOps0_2
    _ = W1 m ρ c (Proc.devRef .tc main_v5) := by host_keep hostOps0_1

theorem keep_main_v6_5_1 (c : Dev nD) : W5 m ρ c (Proc.devRef .tc main_v6) = W1 m ρ c (Proc.devRef .tc main_v6) :=
  calc W5 m ρ c (Proc.devRef .tc main_v6)
    _ = W4 m ρ c (Proc.devRef .tc main_v6) := by host_keep hostOps1
    _ = W3 m ρ c (Proc.devRef .tc main_v6) := W4_of_ne m ρ c main_v6 (by decide)
    _ = W2 m ρ c (Proc.devRef .tc main_v6) := by host_keep hostOps0_2
    _ = W1 m ρ c (Proc.devRef .tc main_v6) := by host_keep hostOps0_1

theorem keep_main_v7_5_1 (c : Dev nD) : W5 m ρ c (Proc.devRef .tc main_v7) = W1 m ρ c (Proc.devRef .tc main_v7) :=
  calc W5 m ρ c (Proc.devRef .tc main_v7)
    _ = W4 m ρ c (Proc.devRef .tc main_v7) := by host_keep hostOps1
    _ = W3 m ρ c (Proc.devRef .tc main_v7) := W4_of_ne m ρ c main_v7 (by decide)
    _ = W2 m ρ c (Proc.devRef .tc main_v7) := by host_keep hostOps0_2
    _ = W1 m ρ c (Proc.devRef .tc main_v7) := by host_keep hostOps0_1

theorem keep_main_v8_3_2 (c : Dev nD) : W3 m ρ c (Proc.devRef .tc main_v8) = W2 m ρ c (Proc.devRef .tc main_v8) :=
  calc W3 m ρ c (Proc.devRef .tc main_v8)
    _ = W2 m ρ c (Proc.devRef .tc main_v8) := by host_keep hostOps0_2

theorem keep_main_v15_7_6 (c : Dev nD) : W7 m ρ c (Proc.devRef .tc main_v15) = W6 m ρ c (Proc.devRef .tc main_v15) :=
  calc W7 m ρ c (Proc.devRef .tc main_v15)
    _ = W6 m ρ c (Proc.devRef .tc main_v15) := by host_keep hostOps2

theorem keep_main_v15_11_6 (c : Dev nD) : W11 m ρ c (Proc.devRef .tc main_v15) = W6 m ρ c (Proc.devRef .tc main_v15) :=
  calc W11 m ρ c (Proc.devRef .tc main_v15)
    _ = W10 m ρ c (Proc.devRef .tc main_v15) := by host_keep hostOps3
    _ = W9 m ρ c (Proc.devRef .tc main_v15) := W10_of_ne m ρ c main_v15 (by decide)
    _ = W8 m ρ c (Proc.devRef .tc main_v15) := by host_keep hostOps2_2
    _ = W7 m ρ c (Proc.devRef .tc main_v15) := by host_keep hostOps2_1
    _ = W6 m ρ c (Proc.devRef .tc main_v15) := by host_keep hostOps2

theorem keep_main_v17_9_7 (c : Dev nD) : W9 m ρ c (Proc.devRef .tc main_v17) = W7 m ρ c (Proc.devRef .tc main_v17) :=
  calc W9 m ρ c (Proc.devRef .tc main_v17)
    _ = W8 m ρ c (Proc.devRef .tc main_v17) := by host_keep hostOps2_2
    _ = W7 m ρ c (Proc.devRef .tc main_v17) := by host_keep hostOps2_1

theorem keep_main_v19_9_7 (c : Dev nD) : W9 m ρ c (Proc.devRef .tc main_v19) = W7 m ρ c (Proc.devRef .tc main_v19) :=
  calc W9 m ρ c (Proc.devRef .tc main_v19)
    _ = W8 m ρ c (Proc.devRef .tc main_v19) := by host_keep hostOps2_2
    _ = W7 m ρ c (Proc.devRef .tc main_v19) := by host_keep hostOps2_1

theorem keep_main_v21_11_7 (c : Dev nD) : W11 m ρ c (Proc.devRef .tc main_v21) = W7 m ρ c (Proc.devRef .tc main_v21) :=
  calc W11 m ρ c (Proc.devRef .tc main_v21)
    _ = W10 m ρ c (Proc.devRef .tc main_v21) := by host_keep hostOps3
    _ = W9 m ρ c (Proc.devRef .tc main_v21) := W10_of_ne m ρ c main_v21 (by decide)
    _ = W8 m ρ c (Proc.devRef .tc main_v21) := by host_keep hostOps2_2
    _ = W7 m ρ c (Proc.devRef .tc main_v21) := by host_keep hostOps2_1

theorem keep_main_v23_11_7 (c : Dev nD) : W11 m ρ c (Proc.devRef .tc main_v23) = W7 m ρ c (Proc.devRef .tc main_v23) :=
  calc W11 m ρ c (Proc.devRef .tc main_v23)
    _ = W10 m ρ c (Proc.devRef .tc main_v23) := by host_keep hostOps3
    _ = W9 m ρ c (Proc.devRef .tc main_v23) := W10_of_ne m ρ c main_v23 (by decide)
    _ = W8 m ρ c (Proc.devRef .tc main_v23) := by host_keep hostOps2_2
    _ = W7 m ρ c (Proc.devRef .tc main_v23) := by host_keep hostOps2_1

theorem keep_main_v25_8_7 (c : Dev nD) : W8 m ρ c (Proc.devRef .tc main_v25) = W7 m ρ c (Proc.devRef .tc main_v25) :=
  calc W8 m ρ c (Proc.devRef .tc main_v25)
    _ = W7 m ρ c (Proc.devRef .tc main_v25) := by host_keep hostOps2_1

theorem keep_main_v27_10_7 (c : Dev nD) : W10 m ρ c (Proc.devRef .tc main_v27) = W7 m ρ c (Proc.devRef .tc main_v27) :=
  calc W10 m ρ c (Proc.devRef .tc main_v27)
    _ = W9 m ρ c (Proc.devRef .tc main_v27) := W10_of_ne m ρ c main_v27 (by decide)
    _ = W8 m ρ c (Proc.devRef .tc main_v27) := by host_keep hostOps2_2
    _ = W7 m ρ c (Proc.devRef .tc main_v27) := by host_keep hostOps2_1

theorem keep_main_v28_9_8 (c : Dev nD) : W9 m ρ c (Proc.devRef .tc main_v28) = W8 m ρ c (Proc.devRef .tc main_v28) :=
  calc W9 m ρ c (Proc.devRef .tc main_v28)
    _ = W8 m ρ c (Proc.devRef .tc main_v28) := by host_keep hostOps2_2

theorem keep_main_v35_13_12 (c : Dev nD) : W13 m ρ c (Proc.devRef .tc main_v35) = W12 m ρ c (Proc.devRef .tc main_v35) :=
  calc W13 m ρ c (Proc.devRef .tc main_v35)
    _ = W12 m ρ c (Proc.devRef .tc main_v35) := by host_keep hostOps4

theorem keep_main_v35_17_12 (c : Dev nD) : W17 m ρ c (Proc.devRef .tc main_v35) = W12 m ρ c (Proc.devRef .tc main_v35) :=
  calc W17 m ρ c (Proc.devRef .tc main_v35)
    _ = W16 m ρ c (Proc.devRef .tc main_v35) := by host_keep hostOps5
    _ = W15 m ρ c (Proc.devRef .tc main_v35) := W16_of_ne m ρ c main_v35 (by decide)
    _ = W14 m ρ c (Proc.devRef .tc main_v35) := by host_keep hostOps4_2
    _ = W13 m ρ c (Proc.devRef .tc main_v35) := by host_keep hostOps4_1
    _ = W12 m ρ c (Proc.devRef .tc main_v35) := by host_keep hostOps4

theorem keep_main_v37_15_13 (c : Dev nD) : W15 m ρ c (Proc.devRef .tc main_v37) = W13 m ρ c (Proc.devRef .tc main_v37) :=
  calc W15 m ρ c (Proc.devRef .tc main_v37)
    _ = W14 m ρ c (Proc.devRef .tc main_v37) := by host_keep hostOps4_2
    _ = W13 m ρ c (Proc.devRef .tc main_v37) := by host_keep hostOps4_1

theorem keep_main_v39_15_13 (c : Dev nD) : W15 m ρ c (Proc.devRef .tc main_v39) = W13 m ρ c (Proc.devRef .tc main_v39) :=
  calc W15 m ρ c (Proc.devRef .tc main_v39)
    _ = W14 m ρ c (Proc.devRef .tc main_v39) := by host_keep hostOps4_2
    _ = W13 m ρ c (Proc.devRef .tc main_v39) := by host_keep hostOps4_1

theorem keep_main_v41_17_13 (c : Dev nD) : W17 m ρ c (Proc.devRef .tc main_v41) = W13 m ρ c (Proc.devRef .tc main_v41) :=
  calc W17 m ρ c (Proc.devRef .tc main_v41)
    _ = W16 m ρ c (Proc.devRef .tc main_v41) := by host_keep hostOps5
    _ = W15 m ρ c (Proc.devRef .tc main_v41) := W16_of_ne m ρ c main_v41 (by decide)
    _ = W14 m ρ c (Proc.devRef .tc main_v41) := by host_keep hostOps4_2
    _ = W13 m ρ c (Proc.devRef .tc main_v41) := by host_keep hostOps4_1

theorem keep_main_v43_17_13 (c : Dev nD) : W17 m ρ c (Proc.devRef .tc main_v43) = W13 m ρ c (Proc.devRef .tc main_v43) :=
  calc W17 m ρ c (Proc.devRef .tc main_v43)
    _ = W16 m ρ c (Proc.devRef .tc main_v43) := by host_keep hostOps5
    _ = W15 m ρ c (Proc.devRef .tc main_v43) := W16_of_ne m ρ c main_v43 (by decide)
    _ = W14 m ρ c (Proc.devRef .tc main_v43) := by host_keep hostOps4_2
    _ = W13 m ρ c (Proc.devRef .tc main_v43) := by host_keep hostOps4_1

theorem keep_main_v45_14_13 (c : Dev nD) : W14 m ρ c (Proc.devRef .tc main_v45) = W13 m ρ c (Proc.devRef .tc main_v45) :=
  calc W14 m ρ c (Proc.devRef .tc main_v45)
    _ = W13 m ρ c (Proc.devRef .tc main_v45) := by host_keep hostOps4_1

theorem keep_main_v47_16_13 (c : Dev nD) : W16 m ρ c (Proc.devRef .tc main_v47) = W13 m ρ c (Proc.devRef .tc main_v47) :=
  calc W16 m ρ c (Proc.devRef .tc main_v47)
    _ = W15 m ρ c (Proc.devRef .tc main_v47) := W16_of_ne m ρ c main_v47 (by decide)
    _ = W14 m ρ c (Proc.devRef .tc main_v47) := by host_keep hostOps4_2
    _ = W13 m ρ c (Proc.devRef .tc main_v47) := by host_keep hostOps4_1

theorem keep_main_v48_15_14 (c : Dev nD) : W15 m ρ c (Proc.devRef .tc main_v48) = W14 m ρ c (Proc.devRef .tc main_v48) :=
  calc W15 m ρ c (Proc.devRef .tc main_v48)
    _ = W14 m ρ c (Proc.devRef .tc main_v48) := by host_keep hostOps4_2

theorem keep_main_v55_19_18 (c : Dev nD) : W19 m ρ c (Proc.devRef .tc main_v55) = W18 m ρ c (Proc.devRef .tc main_v55) :=
  calc W19 m ρ c (Proc.devRef .tc main_v55)
    _ = W18 m ρ c (Proc.devRef .tc main_v55) := by host_keep hostOps6

theorem keep_main_v55_23_18 (c : Dev nD) : W23 m ρ c (Proc.devRef .tc main_v55) = W18 m ρ c (Proc.devRef .tc main_v55) :=
  calc W23 m ρ c (Proc.devRef .tc main_v55)
    _ = W22 m ρ c (Proc.devRef .tc main_v55) := by host_keep hostOps7
    _ = W21 m ρ c (Proc.devRef .tc main_v55) := W22_of_ne m ρ c main_v55 (by decide)
    _ = W20 m ρ c (Proc.devRef .tc main_v55) := by host_keep hostOps6_2
    _ = W19 m ρ c (Proc.devRef .tc main_v55) := by host_keep hostOps6_1
    _ = W18 m ρ c (Proc.devRef .tc main_v55) := by host_keep hostOps6

theorem keep_main_v57_21_19 (c : Dev nD) : W21 m ρ c (Proc.devRef .tc main_v57) = W19 m ρ c (Proc.devRef .tc main_v57) :=
  calc W21 m ρ c (Proc.devRef .tc main_v57)
    _ = W20 m ρ c (Proc.devRef .tc main_v57) := by host_keep hostOps6_2
    _ = W19 m ρ c (Proc.devRef .tc main_v57) := by host_keep hostOps6_1

theorem keep_main_v59_21_19 (c : Dev nD) : W21 m ρ c (Proc.devRef .tc main_v59) = W19 m ρ c (Proc.devRef .tc main_v59) :=
  calc W21 m ρ c (Proc.devRef .tc main_v59)
    _ = W20 m ρ c (Proc.devRef .tc main_v59) := by host_keep hostOps6_2
    _ = W19 m ρ c (Proc.devRef .tc main_v59) := by host_keep hostOps6_1

theorem keep_main_v61_23_19 (c : Dev nD) : W23 m ρ c (Proc.devRef .tc main_v61) = W19 m ρ c (Proc.devRef .tc main_v61) :=
  calc W23 m ρ c (Proc.devRef .tc main_v61)
    _ = W22 m ρ c (Proc.devRef .tc main_v61) := by host_keep hostOps7
    _ = W21 m ρ c (Proc.devRef .tc main_v61) := W22_of_ne m ρ c main_v61 (by decide)
    _ = W20 m ρ c (Proc.devRef .tc main_v61) := by host_keep hostOps6_2
    _ = W19 m ρ c (Proc.devRef .tc main_v61) := by host_keep hostOps6_1

theorem keep_main_v63_23_19 (c : Dev nD) : W23 m ρ c (Proc.devRef .tc main_v63) = W19 m ρ c (Proc.devRef .tc main_v63) :=
  calc W23 m ρ c (Proc.devRef .tc main_v63)
    _ = W22 m ρ c (Proc.devRef .tc main_v63) := by host_keep hostOps7
    _ = W21 m ρ c (Proc.devRef .tc main_v63) := W22_of_ne m ρ c main_v63 (by decide)
    _ = W20 m ρ c (Proc.devRef .tc main_v63) := by host_keep hostOps6_2
    _ = W19 m ρ c (Proc.devRef .tc main_v63) := by host_keep hostOps6_1

theorem keep_main_v65_20_19 (c : Dev nD) : W20 m ρ c (Proc.devRef .tc main_v65) = W19 m ρ c (Proc.devRef .tc main_v65) :=
  calc W20 m ρ c (Proc.devRef .tc main_v65)
    _ = W19 m ρ c (Proc.devRef .tc main_v65) := by host_keep hostOps6_1

theorem keep_main_v67_22_19 (c : Dev nD) : W22 m ρ c (Proc.devRef .tc main_v67) = W19 m ρ c (Proc.devRef .tc main_v67) :=
  calc W22 m ρ c (Proc.devRef .tc main_v67)
    _ = W21 m ρ c (Proc.devRef .tc main_v67) := W22_of_ne m ρ c main_v67 (by decide)
    _ = W20 m ρ c (Proc.devRef .tc main_v67) := by host_keep hostOps6_2
    _ = W19 m ρ c (Proc.devRef .tc main_v67) := by host_keep hostOps6_1

theorem keep_main_v68_21_20 (c : Dev nD) : W21 m ρ c (Proc.devRef .tc main_v68) = W20 m ρ c (Proc.devRef .tc main_v68) :=
  calc W21 m ρ c (Proc.devRef .tc main_v68)
    _ = W20 m ρ c (Proc.devRef .tc main_v68) := by host_keep hostOps6_2

end Cert.KernelIdeal.Hand

end
-- ==== Proof.MlpSpec.lean ====
/-
  The fused layer of this network as ONE function of whole arrays, and the law that joins its two spellings.

  A layer takes two row-aligned arrays `a : [R, Da]` and `b : [R, Db]`, two weight matrices `wa : [Da, H]`,
  `wb : [Db, H]` and a bias row `bias : [1, H]`, and returns, at row `p` and column `q`,

      max ( (∑ k < Da, a[p,k] · wa[k,q]  +  ∑ k < Db, b[p,k] · wb[k,q])  +  bias[0,q] ,  0 ).

  The other spelling multiplies the rows of the concatenation `[a | b] : [R, Da + Db]` by ONE matrix
  `w : [Da + Db, H]` whose first `Da` rows are `wa` and whose last `Db` rows are `wb`. The two agree because a sum
  over the numbers below `Da + Db` is the sum over those below `Da` plus the sum over the rest: only commutativity and
  associativity of addition are used, so the law holds on the extended reals with no finiteness assumption.
-/
import Idealize.ShloMosaic.PureOps.Ideal
import Idealize.ShloMosaic.Lib.ValueIdx
import Mathlib.Algebra.BigOperators.Fin

noncomputable section

open scoped BigOperators

namespace Cert.MlpSpec

open Idealize.ShloMosaic Idealize.ShloMosaic.ValueIdx

/-- The layer at row `p`, column `q`. -/
def mlpAt {R Da Db H : Nat} (a : (⟨2, ![R, Da]⟩ : Shape).Idx → EReal) (b : (⟨2, ![R, Db]⟩ : Shape).Idx → EReal)
    (wa : (⟨2, ![Da, H]⟩ : Shape).Idx → EReal) (wb : (⟨2, ![Db, H]⟩ : Shape).Idx → EReal)
    (bias : (⟨2, ![1, H]⟩ : Shape).Idx → EReal) (p : Fin R) (q : Fin H) : EReal :=
  max (((∑ k : Fin Da, a (ix2 p k) * wa (ix2 k q)) + ∑ k : Fin Db, b (ix2 p k) * wb (ix2 k q)) + bias (ix2 (0 : Fin 1) q)) 0

/-- The layer as a whole array. -/
def mlp2 {R Da Db H : Nat} (a : (⟨2, ![R, Da]⟩ : Shape).Idx → EReal) (b : (⟨2, ![R, Db]⟩ : Shape).Idx → EReal)
    (wa : (⟨2, ![Da, H]⟩ : Shape).Idx → EReal) (wb : (⟨2, ![Db, H]⟩ : Shape).Idx → EReal)
    (bias : (⟨2, ![1, H]⟩ : Shape).Idx → EReal) : (⟨2, ![R, H]⟩ : Shape).Idx → EReal :=
  fun i => mlpAt a b wa wb bias ⟨(i 0).val, idx2_lt0 i⟩ ⟨(i 1).val, idx2_lt1 i⟩

theorem mlp2_apply {R Da Db H : Nat} (a : (⟨2, ![R, Da]⟩ : Shape).Idx → EReal) (b : (⟨2, ![R, Db]⟩ : Shape).Idx → EReal)
    (wa : (⟨2, ![Da, H]⟩ : Shape).Idx → EReal) (wb : (⟨2, ![Db, H]⟩ : Shape).Idx → EReal)
    (bias : (⟨2, ![1, H]⟩ : Shape).Idx → EReal) (p : Fin R) (q : Fin H) :
    mlp2 a b wa wb bias (ix2 p q) = mlpAt a b wa wb bias p q := rfl

/-- A sum over the numbers below `m + n = N` is the sum over those below `m` plus the sum over the other `n`. -/
theorem sum_split {M : Type*} [AddCommMonoid M] {m n N : Nat} (h : m + n = N) (f : Fin N → M) :
    ∑ k : Fin N, f k = (∑ k : Fin m, f ⟨k.val, by omega⟩) + ∑ k : Fin n, f ⟨m + k.val, by omega⟩ := by
  subst h
  rw [Fin.sum_univ_add]
  rfl

/-- THE LAW. One row of the concatenation against one column of the stacked matrix, plus the bias, clipped at zero, is
    the layer: `cat` is the row of `[a | b]`, `w` the column of the stacked matrix. -/
theorem mlpAt_eq_of_concat {R Da Db H N : Nat} (h : Da + Db = N)
    (a : (⟨2, ![R, Da]⟩ : Shape).Idx → EReal) (b : (⟨2, ![R, Db]⟩ : Shape).Idx → EReal)
    (wa : (⟨2, ![Da, H]⟩ : Shape).Idx → EReal) (wb : (⟨2, ![Db, H]⟩ : Shape).Idx → EReal)
    (bias : (⟨2, ![1, H]⟩ : Shape).Idx → EReal) (p : Fin R) (q : Fin H)
    (cat w : Fin N → EReal) (β : EReal)
    (hca : ∀ k : Fin Da, cat ⟨k.val, by omega⟩ = a (ix2 p k)) (hcb : ∀ k : Fin Db, cat ⟨Da + k.val, by omega⟩ = b (ix2 p k))
    (hwa : ∀ k : Fin Da, w ⟨k.val, by omega⟩ = wa (ix2 k q)) (hwb : ∀ k : Fin Db, w ⟨Da + k.val, by omega⟩ = wb (ix2 k q))
    (hβ : β = bias (ix2 (0 : Fin 1) q)) :
    max ((∑ k : Fin N, cat k * w k) + β) 0 = mlpAt a b wa wb bias p q := by
  unfold mlpAt
  rw [sum_split h (fun k => cat k * w k), hβ]
  simp only [hca, hcb, hwa, hwb]

end Cert.MlpSpec

end
-- ==== Proof.KDefs.lean ====
/-
  The idealized kernel's program as a composition of whole-array functions of its fourteen arguments.

  Between its eight pipelines the program runs host operations: it cuts the two index rows out of the index pair, cuts
  each layer's weight matrix into the rows that meet the first operand and the rows that meet the second, lays each bias
  vector out as a row, takes rows of the node array at the source indices (an outlined take: a gather, with the rows of out-of-range
  indices filled; under the precondition no index is out of range and the take is the gather), scatter-adds the edge rows into the node array at the destination indices, and at the end pools the
  node rows by graph and applies the head. Each pipeline computes one fused layer (`Cert.MlpSpec.mlp2`) of the arrays it
  is given. The definitions below spell every one of these steps exactly as the program applies it, so that what the run
  leaves in the result buffer can be read off step by step.
-/
import proofs.«422392_j11433202942183_1_alg».proof.KernelIdeal
import proofs.«422392_j11433202942183_1_alg».proof.Proof.Gen.KernelIdeal
import proofs.«422392_j11433202942183_1_alg».proof.Proof.MlpSpec

noncomputable section

namespace Cert.KernelIdeal.Hand

open Idealize.ShloMosaic Cert.KernelIdeal Cert.KernelIdeal.Gen Cert.MlpSpec

/-! ## The index rows -/

/-- Row 0 of the index pair: the source node of every edge. -/
def kSrc (x2 : IVec S2x1280000 32) : IVec S1280000 32 :=
  shapeCast _ (extractStridedSlice S1x1280000 ![0, 0] x2 slices_S2x1280000_S1x1280000_0_0) shapeCasts_S1x1280000_S1280000

/-- Row 1 of the index pair: the destination node of every edge. -/
def kDst (x2 : IVec S2x1280000 32) : IVec S1280000 32 :=
  shapeCast _ (extractStridedSlice S1x1280000 ![1, 0] x2 slices_S2x1280000_S1x1280000_1_0) shapeCasts_S1x1280000_S1280000

/-! ## Taking rows -/

/-- The start-index column of the take: each index, moved up by the row count when negative, as a one-column array. -/
def kIdxCol (s : (⟨S1280000, .i32⟩ : BufTy).Contents (Elt Ideal)) : (⟨S1280000x1, .i32⟩ : BufTy).Contents (Elt Ideal) :=
  broadcastInDim S1280000x1 ![0] bcast_S1280000_S1280000x1_0
    (select (cmpi .slt s (broadcastInDim S1280000 ![] bcast_S_S1280000 (constantI S_ 32 0#32)))
      (addi s (broadcastInDim S1280000 ![] bcast_S_S1280000 (constantI S_ 32 80000#32))) s)

/-- Rows of `h` at the start-index column of `s`: row `e` of the result is the row of `h` the `e`-th index names (the
    gather clamps an out-of-range start index into `[0, 79999]`). -/
def kGather32 (h : (⟨S80000x32, .f32⟩ : BufTy).Contents (Elt Ideal)) (s : (⟨S1280000, .i32⟩ : BufTy).Contents (Elt Ideal)) : (⟨S1280000x32, .f32⟩ : BufTy).Contents (Elt Ideal) :=
  Host.gather gather_S80000x32_S1280000x1_S1280000x32_1_0_n_n_0_1_132 h (kIdxCol s)

/-- Rows of `h` at the start-index column of `s`: row `e` of the result is the row of `h` the `e`-th index names (the
    gather clamps an out-of-range start index into `[0, 79999]`). -/
def kGather64 (h : (⟨S80000x64, .f32⟩ : BufTy).Contents (Elt Ideal)) (s : (⟨S1280000, .i32⟩ : BufTy).Contents (Elt Ideal)) : (⟨S1280000x64, .f32⟩ : BufTy).Contents (Elt Ideal) :=
  Host.gather gather_S80000x64_S1280000x1_S1280000x64_1_0_n_n_0_1_164 h (kIdxCol s)

/-- Every source index lies in `[0, 80000)`, spelled as the precondition prints it: at every edge the conjunction of
    "index ≥ 0" and "index < 80000" is the one-bit word 1. -/
def SrcInRange (s : (⟨S1280000, .i32⟩ : BufTy).Contents (Elt Ideal)) : Prop :=
  ∀ e : S1280000.Idx,
    andi (cmpi .sge s (broadcastInDim S1280000 ![] bcast_S_S1280000 (constantI S_ 32 0#32)))
      (cmpi .slt s (broadcastInDim S1280000 ![] bcast_S_S1280000 (constantI S_ 32 80000#32))) e = 1#1

/-! ## Adding edge rows into node rows, and the tail -/

/-- The edge rows `u` added into a zero node array at the destination indices `d`. -/
def kScat (u : FVec Ideal S1280000x64 .f32) (d : IVec S1280000 32) : FVec Ideal S80000x64 .f32 :=
  Host.scatterAdd (F := Ideal) scatter_S80000x64_S1280000x1_S1280000x64_1_0_0_1
    (broadcastInDim S80000x64 ![] bcast_S_S80000x64 (constant (F := Ideal) S_ .f32 0x00000000#32))
    (broadcastInDim S1280000x1 ![0] bcast_S1280000_S1280000x1_0 d) u

/-- The tail: the node rows pooled by graph, times the head's column, plus the head's bias. -/
def kOut (h : FVec Ideal S80000x64 .f32) (x3 : IVec S80000 32) (x12 : FVec Ideal S64x1 .f32) (x13 : FVec Ideal S1 .f32) : FVec Ideal S256x1 .f32 :=
  addf
    (Host.dotGeneral (F := Ideal) dot_S256x64_S64x1_S256x1_1_0_0_1_n_n none
      (Host.scatterAdd (F := Ideal) scatter_S256x64_S80000x1_S80000x64_1_0_0_1
        (broadcastInDim S256x64 ![] bcast_S_S256x64 (constant (F := Ideal) S_ .f32 0x00000000#32))
        (broadcastInDim S80000x1 ![0] bcast_S80000_S80000x1_0 x3) h) x12)
    (broadcastInDim S256x1 ![0, 1] bcast_S1x1_S256x1_0_1 (broadcastInDim S1x1 ![1] bcast_S1_S1x1_1 x13))

/-! ## The first layer -/

/-- The first layer's messages, one row an edge. -/
def kM0 (x0 : FVec Ideal S80000x32 .f32) (x1 : FVec Ideal S1280000x16 .f32) (x2 : IVec S2x1280000 32)
    (x4 : FVec Ideal S48x64 .f32) (x5 : FVec Ideal S64 .f32) : FVec Ideal S1280000x64 .f32 :=
  mlp2 (kGather32 x0 (kSrc x2)) x1
    (extractStridedSlice S32x64 ![0, 0] x4 slices_S48x64_S32x64_0_0)
    (extractStridedSlice S16x64 ![32, 0] x4 slices_S48x64_S16x64_32_0)
    (shapeCast _ x5 shapeCasts_S64_S1x64)

/-- The node rows after the first layer. -/
def kH1 (x0 : FVec Ideal S80000x32 .f32) (x1 : FVec Ideal S1280000x16 .f32) (x2 : IVec S2x1280000 32)
    (x4 : FVec Ideal S48x64 .f32) (x5 : FVec Ideal S64 .f32) (x6 : FVec Ideal S96x64 .f32) (x7 : FVec Ideal S64 .f32) : FVec Ideal S80000x64 .f32 :=
  mlp2 x0 (kScat (kM0 x0 x1 x2 x4 x5) (kDst x2))
    (extractStridedSlice S32x64 ![0, 0] x6 slices_S96x64_S32x64_0_0)
    (extractStridedSlice S64x64 ![32, 0] x6 slices_S96x64_S64x64_32_0)
    (shapeCast _ x7 shapeCasts_S64_S1x64)

/-! ## A later layer, from the node rows `h` and that layer's cut weights -/

/-- A later layer's messages from its cut weights `wa`, `wb` and its bias row. -/
def kM (h : FVec Ideal S80000x64 .f32) (x1 : FVec Ideal S1280000x16 .f32) (x2 : IVec S2x1280000 32)
    (wa : FVec Ideal S64x64 .f32) (wb : FVec Ideal S16x64 .f32) (bias : FVec Ideal S1x64 .f32) : FVec Ideal S1280000x64 .f32 :=
  mlp2 (kGather64 h (kSrc x2)) x1 wa wb bias

/-- A later layer's node rows from the messages `u`. -/
def kH (h : FVec Ideal S80000x64 .f32) (u : FVec Ideal S1280000x64 .f32) (x2 : IVec S2x1280000 32)
    (ua : FVec Ideal S64x64 .f32) (ub : FVec Ideal S64x64 .f32) (bias : FVec Ideal S1x64 .f32) : FVec Ideal S80000x64 .f32 :=
  mlp2 h (kScat u (kDst x2)) ua ub bias

/-! ## The later layers' weights and biases, cut out of the stacked arguments

Layer `j` (0, 1, 2) of the three later layers uses page `j` of each stacked argument: of the message weights
`[3, 80, 64]` its first 64 rows meet the node rows and its last 16 the edge rows; of the update weights
`[3, 128, 64]` the first 64 rows meet the node rows and the last 64 the summed messages; of each bias `[3, 64]`
row `j`, laid out as a `[1, 64]` row. -/

/-- Rows 0–63 of page 0 of the message weights. -/
def kWa0 (x8 : FVec Ideal S3x80x64 .f32) : FVec Ideal S64x64 .f32 :=
  shapeCast _ (extractStridedSlice S1x64x64 ![0, 0, 0] x8 slices_S3x80x64_S1x64x64_0_0_0) shapeCasts_S1x64x64_S64x64
/-- Rows 64–79 of page 0 of the message weights. -/
def kWb0 (x8 : FVec Ideal S3x80x64 .f32) : FVec Ideal S16x64 .f32 :=
  shapeCast _ (extractStridedSlice S1x16x64 ![0, 64, 0] x8 slices_S3x80x64_S1x16x64_0_64_0) shapeCasts_S1x16x64_S16x64
/-- Row 0 of the message biases, as a `[1, 64]` row. -/
def kBm0 (x9 : FVec Ideal S3x64 .f32) : FVec Ideal S1x64 .f32 :=
  shapeCast _ (shapeCast _ (extractStridedSlice S1x64 ![0, 0] x9 slices_S3x64_S1x64_0_0) shapeCasts_S1x64_S64) shapeCasts_S64_S1x64
/-- Rows 0–63 of page 0 of the update weights. -/
def kUa0 (x10 : FVec Ideal S3x128x64 .f32) : FVec Ideal S64x64 .f32 :=
  shapeCast _ (extractStridedSlice S1x64x64 ![0, 0, 0] x10 slices_S3x128x64_S1x64x64_0_0_0) shapeCasts_S1x64x64_S64x64
/-- Rows 64–127 of page 0 of the update weights. -/
def kUb0 (x10 : FVec Ideal S3x128x64 .f32) : FVec Ideal S64x64 .f32 :=
  shapeCast _ (extractStridedSlice S1x64x64 ![0, 64, 0] x10 slices_S3x128x64_S1x64x64_0_64_0) shapeCasts_S1x64x64_S64x64
/-- Row 0 of the update biases, as a `[1, 64]` row. -/
def kBu0 (x11 : FVec Ideal S3x64 .f32) : FVec Ideal S1x64 .f32 :=
  shapeCast _ (shapeCast _ (extractStridedSlice S1x64 ![0, 0] x11 slices_S3x64_S1x64_0_0) shapeCasts_S1x64_S64) shapeCasts_S64_S1x64

/-- Rows 0–63 of page 1 of the message weights. -/
def kWa1 (x8 : FVec Ideal S3x80x64 .f32) : FVec Ideal S64x64 .f32 :=
  shapeCast _ (extractStridedSlice S1x64x64 ![1, 0, 0] x8 slices_S3x80x64_S1x64x64_1_0_0) shapeCasts_S1x64x64_S64x64
/-- Rows 64–79 of page 1 of the message weights. -/
def kWb1 (x8 : FVec Ideal S3x80x64 .f32) : FVec Ideal S16x64 .f32 :=
  shapeCast _ (extractStridedSlice S1x16x64 ![1, 64, 0] x8 slices_S3x80x64_S1x16x64_1_64_0) shapeCasts_S1x16x64_S16x64
/-- Row 1 of the message biases, as a `[1, 64]` row. -/
def kBm1 (x9 : FVec Ideal S3x64 .f32) : FVec Ideal S1x64 .f32 :=
  shapeCast _ (shapeCast _ (extractStridedSlice S1x64 ![1, 0] x9 slices_S3x64_S1x64_1_0) shapeCasts_S1x64_S64) shapeCasts_S64_S1x64
/-- Rows 0–63 of page 1 of the update weights. -/
def kUa1 (x10 : FVec Ideal S3x128x64 .f32) : FVec Ideal S64x64 .f32 :=
  shapeCast _ (extractStridedSlice S1x64x64 ![1, 0, 0] x10 slices_S3x128x64_S1x64x64_1_0_0) shapeCasts_S1x64x64_S64x64
/-- Rows 64–127 of page 1 of the update weights. -/
def kUb1 (x10 : FVec Ideal S3x128x64 .f32) : FVec Ideal S64x64 .f32 :=
  shapeCast _ (extractStridedSlice S1x64x64 ![1, 64, 0] x10 slices_S3x128x64_S1x64x64_1_64_0) shapeCasts_S1x64x64_S64x64
/-- Row 1 of the update biases, as a `[1, 64]` row. -/
def kBu1 (x11 : FVec Ideal S3x64 .f32) : FVec Ideal S1x64 .f32 :=
  shapeCast _ (shapeCast _ (extractStridedSlice S1x64 ![1, 0] x11 slices_S3x64_S1x64_1_0) shapeCasts_S1x64_S64) shapeCasts_S64_S1x64

/-- Rows 0–63 of page 2 of the message weights. -/
def kWa2 (x8 : FVec Ideal S3x80x64 .f32) : FVec Ideal S64x64 .f32 :=
  shapeCast _ (extractStridedSlice S1x64x64 ![2, 0, 0] x8 slices_S3x80x64_S1x64x64_2_0_0) shapeCasts_S1x64x64_S64x64
/-- Rows 64–79 of page 2 of the message weights. -/
def kWb2 (x8 : FVec Ideal S3x80x64 .f32) : FVec Ideal S16x64 .f32 :=
  shapeCast _ (extractStridedSlice S1x16x64 ![2, 64, 0] x8 slices_S3x80x64_S1x16x64_2_64_0) shapeCasts_S1x16x64_S16x64
/-- Row 2 of the message biases, as a `[1, 64]` row. -/
def kBm2 (x9 : FVec Ideal S3x64 .f32) : FVec Ideal S1x64 .f32 :=
  shapeCast _ (shapeCast _ (extractStridedSlice S1x64 ![2, 0] x9 slices_S3x64_S1x64_2_0) shapeCasts_S1x64_S64) shapeCasts_S64_S1x64
/-- Rows 0–63 of page 2 of the update weights. -/
def kUa2 (x10 : FVec Ideal S3x128x64 .f32) : FVec Ideal S64x64 .f32 :=
  shapeCast _ (extractStridedSlice S1x64x64 ![2, 0, 0] x10 slices_S3x128x64_S1x64x64_2_0_0) shapeCasts_S1x64x64_S64x64
/-- Rows 64–127 of page 2 of the update weights. -/
def kUb2 (x10 : FVec Ideal S3x128x64 .f32) : FVec Ideal S64x64 .f32 :=
  shapeCast _ (extractStridedSlice S1x64x64 ![2, 64, 0] x10 slices_S3x128x64_S1x64x64_2_64_0) shapeCasts_S1x64x64_S64x64
/-- Row 2 of the update biases, as a `[1, 64]` row. -/
def kBu2 (x11 : FVec Ideal S3x64 .f32) : FVec Ideal S1x64 .f32 :=
  shapeCast _ (shapeCast _ (extractStridedSlice S1x64 ![2, 0] x11 slices_S3x64_S1x64_2_0) shapeCasts_S1x64_S64) shapeCasts_S64_S1x64

/-! ## The layers composed -/

/-- Later layer 1: from the node rows `h` to the next node rows. -/
def kLayer0 (h : FVec Ideal S80000x64 .f32) (x1 : FVec Ideal S1280000x16 .f32) (x2 : IVec S2x1280000 32)
    (x8 : FVec Ideal S3x80x64 .f32) (x9 : FVec Ideal S3x64 .f32) (x10 : FVec Ideal S3x128x64 .f32) (x11 : FVec Ideal S3x64 .f32) : FVec Ideal S80000x64 .f32 :=
  kH h (kM h x1 x2 (kWa0 x8) (kWb0 x8) (kBm0 x9)) x2 (kUa0 x10) (kUb0 x10) (kBu0 x11)

/-- Later layer 2: from the node rows `h` to the next node rows. -/
def kLayer1 (h : FVec Ideal S80000x64 .f32) (x1 : FVec Ideal S1280000x16 .f32) (x2 : IVec S2x1280000 32)
    (x8 : FVec Ideal S3x80x64 .f32) (x9 : FVec Ideal S3x64 .f32) (x10 : FVec Ideal S3x128x64 .f32) (x11 : FVec Ideal S3x64 .f32) : FVec Ideal S80000x64 .f32 :=
  kH h (kM h x1 x2 (kWa1 x8) (kWb1 x8) (kBm1 x9)) x2 (kUa1 x10) (kUb1 x10) (kBu1 x11)

/-- Later layer 3: from the node rows `h` to the next node rows. -/
def kLayer2 (h : FVec Ideal S80000x64 .f32) (x1 : FVec Ideal S1280000x16 .f32) (x2 : IVec S2x1280000 32)
    (x8 : FVec Ideal S3x80x64 .f32) (x9 : FVec Ideal S3x64 .f32) (x10 : FVec Ideal S3x128x64 .f32) (x11 : FVec Ideal S3x64 .f32) : FVec Ideal S80000x64 .f32 :=
  kH h (kM h x1 x2 (kWa2 x8) (kWb2 x8) (kBm2 x9)) x2 (kUa2 x10) (kUb2 x10) (kBu2 x11)

/-- The whole program: four layers, then the tail. -/
def kRes (x0 : FVec Ideal S80000x32 .f32) (x1 : FVec Ideal S1280000x16 .f32) (x2 : IVec S2x1280000 32) (x3 : IVec S80000 32)
    (x4 : FVec Ideal S48x64 .f32) (x5 : FVec Ideal S64 .f32) (x6 : FVec Ideal S96x64 .f32) (x7 : FVec Ideal S64 .f32)
    (x8 : FVec Ideal S3x80x64 .f32) (x9 : FVec Ideal S3x64 .f32) (x10 : FVec Ideal S3x128x64 .f32) (x11 : FVec Ideal S3x64 .f32)
    (x12 : FVec Ideal S64x1 .f32) (x13 : FVec Ideal S1 .f32) : FVec Ideal S256x1 .f32 :=
  kOut (kLayer2 (kLayer1 (kLayer0 (kH1 x0 x1 x2 x4 x5 x6 x7) x1 x2 x8 x9 x10 x11) x1 x2 x8 x9 x10 x11) x1 x2 x8 x9 x10 x11) x3 x12 x13

end Cert.KernelIdeal.Hand

end
-- ==== Proof.WalkArgs.lean ====
/-
  The fourteen argument arrays of the launch memory, by name.
-/
import proofs.«422392_j11433202942183_1_alg».proof.Proof.Gen.KernelIdeal.Frame
import proofs.«422392_j11433202942183_1_alg».proof.Proof.KDefs

set_option maxRecDepth 16384

noncomputable section

namespace Cert.KernelIdeal.Hand

open Idealize.ShloMosaic Cert.KernelIdeal Cert.KernelIdeal.Gen Cert.MlpSpec
open Idealize.ShloMosaic.TcCoe Idealize.SL.Sem
open Idealize.ShloMosaic.Pipeline (Dat)

variable (m : (ℓ : Loc nD τ sig) → Buf (Elt Ideal) ℓ) (ρ : Dev nD → PrngReg)

/-- Argument 0 of the program in the launch memory of core `c`. -/
abbrev ar0 (c : Dev nD) : FVec Ideal S80000x32 .f32 := m ((c : Thread nD τ).loc main_arg0)
/-- Argument 1 of the program in the launch memory of core `c`. -/
abbrev ar1 (c : Dev nD) : FVec Ideal S1280000x16 .f32 := m ((c : Thread nD τ).loc main_arg1)
/-- Argument 2 of the program in the launch memory of core `c`. -/
abbrev ar2 (c : Dev nD) : IVec S2x1280000 32 := m ((c : Thread nD τ).loc main_arg2)
/-- Argument 3 of the program in the launch memory of core `c`. -/
abbrev ar3 (c : Dev nD) : IVec S80000 32 := m ((c : Thread nD τ).loc main_arg3)
/-- Argument 4 of the program in the launch memory of core `c`. -/
abbrev ar4 (c : Dev nD) : FVec Ideal S48x64 .f32 := m ((c : Thread nD τ).loc main_arg4)
/-- Argument 5 of the program in the launch memory of core `c`. -/
abbrev ar5 (c : Dev nD) : FVec Ideal S64 .f32 := m ((c : Thread nD τ).loc main_arg5)
/-- Argument 6 of the program in the launch memory of core `c`. -/
abbrev ar6 (c : Dev nD) : FVec Ideal S96x64 .f32 := m ((c : Thread nD τ).loc main_arg6)
/-- Argument 7 of the program in the launch memory of core `c`. -/
abbrev ar7 (c : Dev nD) : FVec Ideal S64 .f32 := m ((c : Thread nD τ).loc main_arg7)
/-- Argument 8 of the program in the launch memory of core `c`. -/
abbrev ar8 (c : Dev nD) : FVec Ideal S3x80x64 .f32 := m ((c : Thread nD τ).loc main_arg8)
/-- Argument 9 of the program in the launch memory of core `c`. -/
abbrev ar9 (c : Dev nD) : FVec Ideal S3x64 .f32 := m ((c : Thread nD τ).loc main_arg9)
/-- Argument 10 of the program in the launch memory of core `c`. -/
abbrev ar10 (c : Dev nD) : FVec Ideal S3x128x64 .f32 := m ((c : Thread nD τ).loc main_arg10)
/-- Argument 11 of the program in the launch memory of core `c`. -/
abbrev ar11 (c : Dev nD) : FVec Ideal S3x64 .f32 := m ((c : Thread nD τ).loc main_arg11)
/-- Argument 12 of the program in the launch memory of core `c`. -/
abbrev ar12 (c : Dev nD) : FVec Ideal S64x1 .f32 := m ((c : Thread nD τ).loc main_arg12)
/-- Argument 13 of the program in the launch memory of core `c`. -/
abbrev ar13 (c : Dev nD) : FVec Ideal S1 .f32 := m ((c : Thread nD τ).loc main_arg13)

end Cert.KernelIdeal.Hand

end
-- ==== Proof.Region0.lean ====
/-
  A fused layer over 1,280,000 rows, computed 10240 rows at a time, is ONE whole-array function of its five arrays.

  The layer takes two row-aligned arrays a : [1280000,32] and b : [1280000,16], two weight matrices wa : [32,64] and
  wb : [16,64] and a bias row, and returns at row r and column q

      max ( (sum over k of a[r,k] · wa[k,q]  +  sum over k of b[r,k] · wb[k,q])  +  bias[0,q] ,  0 ).

  It is computed in 125 steps; step t reads rows 10240 t .. 10240 t + 10239 of a and b, the whole of wa, wb and the
  bias, and writes the same rows of the result. First the block a step stores is read at one element: each of its two
  [10240,32] · [32,64] and [10240,16] · [16,64] products into a zero block is the row-by-column sum, the narrowing of the
  operands is the identity on the extended reals, the bias row is spread over the rows, and the clip is a maximum with
  zero. Then what step t writes back is row block t of the layer of the whole arrays, the 125 row blocks cover the
  result, and so the result array holds the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the first layer's block, read at an element

Both products contract the left operand's column axis with the right operand's row axis, so at output element
(p, q) and contraction position k the left operand is read at (p, k) and the right one at (k, q). -/

/-- Left operand of the [10240,32] · [32,64] product: its row is the output's row. -/
theorem lhsA0_0 (i : S10240x64.Idx) (r : dot_S10240x32_S32x64_S10240x64_1_0_0_1_n_n.contr.Idx) :
    (dot_S10240x32_S32x64_S10240x64_1_0_0_1_n_n.lhsIdx i r 0).val = (i 0).val := by
  unfold DotDims.lhsIdx
  rw [dif_neg (show ¬(0 : Fin S10240x32.rank) ∈ dot_S10240x32_S32x64_S10240x64_1_0_0_1_n_n.lhsBatch by decide), dif_pos (show (0 : Fin S10240x32.rank) ∈ dot_S10240x32_S32x64_S10240x64_1_0_0_1_n_n.lhsNonContracting by decide)]
  rfl
/-- Its column is the contraction position. -/
theorem lhsA0_1 (i : S10240x64.Idx) (r : dot_S10240x32_S32x64_S10240x64_1_0_0_1_n_n.contr.Idx) :
    (dot_S10240x32_S32x64_S10240x64_1_0_0_1_n_n.lhsIdx i r 1).val = (r ⟨0, by decide⟩).val :=
  dot_S10240x32_S32x64_S10240x64_1_0_0_1_n_n.lhsIdx_val_of_single rfl i r
/-- Right operand: its row is the contraction position. -/
theorem rhsA0_0 (i : S10240x64.Idx) (r : dot_S10240x32_S32x64_S10240x64_1_0_0_1_n_n.contr.Idx) :
    (dot_S10240x32_S32x64_S10240x64_1_0_0_1_n_n.rhsIdx i r 0).val = (r ⟨0, by decide⟩).val :=
  dot_S10240x32_S32x64_S10240x64_1_0_0_1_n_n.rhsIdx_val_of_single rfl i r
/-- Its column is the output's column. -/
theorem rhsA0_1 (i : S10240x64.Idx) (r : dot_S10240x32_S32x64_S10240x64_1_0_0_1_n_n.contr.Idx) :
    (dot_S10240x32_S32x64_S10240x64_1_0_0_1_n_n.rhsIdx i r 1).val = (i 1).val := by
  unfold DotDims.rhsIdx
  rw [dif_neg (show ¬(1 : Fin S32x64.rank) ∈ dot_S10240x32_S32x64_S10240x64_1_0_0_1_n_n.rhsBatch by decide), dif_pos (show (1 : Fin S32x64.rank) ∈ dot_S10240x32_S32x64_S10240x64_1_0_0_1_n_n.rhsNonContracting by decide)]
  rfl

/-- The [10240,32] · [32,64] product into the zero block, at (p, q): the sum over the 32 columns. -/
theorem prodA0_apply (x : FVec Ideal S10240x32 .bf16) (w : FVec Ideal S32x64 .bf16) (p : Fin 10240) (q : Fin 64) :
    matmul dot_S10240x32_S32x64_S10240x64_1_0_0_1_n_n none x w (constant (F := Ideal) S10240x64 .f32 0x00000000#32) (ix2 p q)
      = ∑ k : Fin 32, x (ix2 p k) * w (ix2 k q) := by
  refine (Ideal.matmul_constant_zero_apply dot_S10240x32_S32x64_S10240x64_1_0_0_1_n_n none x w (ix2 p q)).trans ?_
  rw [← Equiv.sum_comp (contrEquiv1 dot_S10240x32_S32x64_S10240x64_1_0_0_1_n_n 32 rfl rfl).symm]
  refine Finset.sum_congr rfl fun k _ => ?_
  have hk := contrEquiv1_symm_val dot_S10240x32_S32x64_S10240x64_1_0_0_1_n_n 32 rfl rfl k
  have el : dot_S10240x32_S32x64_S10240x64_1_0_0_1_n_n.lhsIdx (ix2 p q) ((contrEquiv1 dot_S10240x32_S32x64_S10240x64_1_0_0_1_n_n 32 rfl rfl).symm k) = ix2 p k := funext fun a => Fin.ext (by
    match a with
    | ⟨0, _⟩ => exact lhsA0_0 _ _
    | ⟨1, _⟩ => exact (lhsA0_1 _ _).trans hk)
  have er : dot_S10240x32_S32x64_S10240x64_1_0_0_1_n_n.rhsIdx (ix2 p q) ((contrEquiv1 dot_S10240x32_S32x64_S10240x64_1_0_0_1_n_n 32 rfl rfl).symm k) = ix2 k q := funext fun a => Fin.ext (by
    match a with
    | ⟨0, _⟩ => exact (rhsA0_0 _ _).trans hk
    | ⟨1, _⟩ => exact rhsA0_1 _ _)
  rw [el, er]

/-- Left operand of the [10240,16] · [16,64] product: its row is the output's row. -/
theorem lhsB0_0 (i : S10240x64.Idx) (r : dot_S10240x16_S16x64_S10240x64_1_0_0_1_n_n.contr.Idx) :
    (dot_S10240x16_S16x64_S10240x64_1_0_0_1_n_n.lhsIdx i r 0).val = (i 0).val := by
  unfold DotDims.lhsIdx
  rw [dif_neg (show ¬(0 : Fin S10240x16.rank) ∈ dot_S10240x16_S16x64_S10240x64_1_0_0_1_n_n.lhsBatch by decide), dif_pos (show (0 : Fin S10240x16.rank) ∈ dot_S10240x16_S16x64_S10240x64_1_0_0_1_n_n.lhsNonContracting by decide)]
  rfl
/-- Its column is the contraction position. -/
theorem lhsB0_1 (i : S10240x64.Idx) (r : dot_S10240x16_S16x64_S10240x64_1_0_0_1_n_n.contr.Idx) :
    (dot_S10240x16_S16x64_S10240x64_1_0_0_1_n_n.lhsIdx i r 1).val = (r ⟨0, by decide⟩).val :=
  dot_S10240x16_S16x64_S10240x64_1_0_0_1_n_n.lhsIdx_val_of_single rfl i r
/-- Right operand: its row is the contraction position. -/
theorem rhsB0_0 (i : S10240x64.Idx) (r : dot_S10240x16_S16x64_S10240x64_1_0_0_1_n_n.contr.Idx) :
    (dot_S10240x16_S16x64_S10240x64_1_0_0_1_n_n.rhsIdx i r 0).val = (r ⟨0, by decide⟩).val :=
  dot_S10240x16_S16x64_S10240x64_1_0_0_1_n_n.rhsIdx_val_of_single rfl i r
/-- Its column is the output's column. -/
theorem rhsB0_1 (i : S10240x64.Idx) (r : dot_S10240x16_S16x64_S10240x64_1_0_0_1_n_n.contr.Idx) :
    (dot_S10240x16_S16x64_S10240x64_1_0_0_1_n_n.rhsIdx i r 1).val = (i 1).val := by
  unfold DotDims.rhsIdx
  rw [dif_neg (show ¬(1 : Fin S16x64.rank) ∈ dot_S10240x16_S16x64_S10240x64_1_0_0_1_n_n.rhsBatch by decide), dif_pos (show (1 : Fin S16x64.rank) ∈ dot_S10240x16_S16x64_S10240x64_1_0_0_1_n_n.rhsNonContracting by decide)]
  rfl

/-- The [10240,16] · [16,64] product into the zero block, at (p, q): the sum over the 16 columns. -/
theorem prodB0_apply (x : FVec Ideal S10240x16 .bf16) (w : FVec Ideal S16x64 .bf16) (p : Fin 10240) (q : Fin 64) :
    matmul dot_S10240x16_S16x64_S10240x64_1_0_0_1_n_n none x w (constant (F := Ideal) S10240x64 .f32 0x00000000#32) (ix2 p q)
      = ∑ k : Fin 16, x (ix2 p k) * w (ix2 k q) := by
  refine (Ideal.matmul_constant_zero_apply dot_S10240x16_S16x64_S10240x64_1_0_0_1_n_n none x w (ix2 p q)).trans ?_
  rw [← Equiv.sum_comp (contrEquiv1 dot_S10240x16_S16x64_S10240x64_1_0_0_1_n_n 16 rfl rfl).symm]
  refine Finset.sum_congr rfl fun k _ => ?_
  have hk := contrEquiv1_symm_val dot_S10240x16_S16x64_S10240x64_1_0_0_1_n_n 16 rfl rfl k
  have el : dot_S10240x16_S16x64_S10240x64_1_0_0_1_n_n.lhsIdx (ix2 p q) ((contrEquiv1 dot_S10240x16_S16x64_S10240x64_1_0_0_1_n_n 16 rfl rfl).symm k) = ix2 p k := funext fun a => Fin.ext (by
    match a with
    | ⟨0, _⟩ => exact lhsB0_0 _ _
    | ⟨1, _⟩ => exact (lhsB0_1 _ _).trans hk)
  have er : dot_S10240x16_S16x64_S10240x64_1_0_0_1_n_n.rhsIdx (ix2 p q) ((contrEquiv1 dot_S10240x16_S16x64_S10240x64_1_0_0_1_n_n 16 rfl rfl).symm k) = ix2 k q := funext fun a => Fin.ext (by
    match a with
    | ⟨0, _⟩ => exact (rhsB0_0 _ _).trans hk
    | ⟨1, _⟩ => exact rhsB0_1 _ _)
  rw [el, er]

/-! ## The block of the layer at an element -/

/-- The bias row spread over the block's rows reads, at (p, q), the row's entry of column q. -/
theorem biasRows0_apply (b : FVec Ideal S1x64 .f32) (p : Fin 10240) (q : Fin 64) :
    broadcastTo S10240x64 b broadcasts_S1x64_S10240x64 (ix2 p q) = b (ix2 (0 : Fin 1) q) := by
  refine broadcastTo_apply b broadcasts_S1x64_S10240x64 (ix2 p q) (ix2 (0 : Fin 1) q) fun a => ?_
  match a with
  | ⟨0, _⟩ => rfl
  | ⟨1, _⟩ => rfl

/-- What one grid point stores, at row p and column q of its block: the two row-by-column sums added, plus the bias of
    column q, clipped below at zero. The format changes on the way are the identity on the extended reals. -/
theorem layerBlock0_apply (x0 : FVec Ideal S10240x32 .f32) (x1 : FVec Ideal S10240x16 .f32) (x2 : FVec Ideal S32x64 .f32)
    (x3 : FVec Ideal S16x64 .f32) (x4 : FVec Ideal S1x64 .f32) (p : Fin 10240) (q : Fin 64) :
    k0_pay1 (F := Ideal) x0 x1 x2 x3 x4 (ix2 p q)
      = max (((∑ k : Fin 32, x0 (ix2 p k) * x2 (ix2 k q)) + ∑ k : Fin 16, x1 (ix2 p k) * x3 (ix2 k q)) + x4 (ix2 (0 : Fin 1) q)) 0 := by
  unfold k0_pay1
  simp only [shapeCast_self]
  rw [maximumf_apply, addf_apply, addf_apply, broadcast_apply, prodA0_apply, prodB0_apply, biasRows0_apply]
  simp only [truncf_apply]
  show max _ (Ideal.ofBits .f32 0x00000000#32) = _
  rw [Ideal.ofBits_zero_f32]

/-! ## From blocks to the array

The grid has 125 points. At point t the two row-aligned inputs and the output sit at row block t (rows 10240 t to
10240 t + 10239), the two weight matrices and the bias row are whole at every point. -/

/-- The offsets of a whole-block access are zero on both axes. -/
theorem zeroOffsets0 : (![0, 0] : Fin 2 → Nat) = fun _ => 0 := funext fun a => by fin_cases a <;> rfl

/-- The block index of every window at every point, decided over the 125 points: the row windows at (t, 0), the
    others at (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of row block t is row 10240 t + p of the array. -/
def row0 (t : Fin cfg0.N) (p : Fin 10240) : Fin 1280000 :=
  ⟨t.val * 10240 + p.val, by have ht : t.val < 125 := lt_of_lt_of_eq t.isLt N_0; have hp := p.isLt; omega⟩

theorem row0_val (t : Fin cfg0.N) (p : Fin 10240) : (row0 t p).val = t.val * 10240 + p.val := rfl

section Blocks
variable (V : (c : Dev nD) → (b : Ref sig .tc) → Buf (Elt Ideal) ((c : Thread nD τ).loc b)) (c : Dev nD)

/-- The first input's block at point t, at (p, k): the array at row 10240 t + p. -/
theorem rowsA0_apply (t : Fin cfg0.N) (p : Fin 10240) (k : Fin 32) :
    (iblk0 (F := Ideal) V c 0 t : FVec Ideal S10240x32 .f32) (ix2 p k) = (V c main_v8 : FVec Ideal S1280000x32 .f32) (ix2 (row0 t p) k) := by
  obtain ⟨e0, e1, -⟩ := blockIndex0 t
  show (V c main_v8 : FVec Ideal S1280000x32 .f32) (((cfg0.win 0).blk t).view.emb (ix2 p k)) = _
  refine congrArg _ (funext fun a => Fin.ext ?_)
  match a with
  | ⟨0, _⟩ => show win0_0.index t (0 : Fin 2) * 10240 + 1 * p.val = t.val * 10240 + p.val; omega
  | ⟨1, _⟩ => show win0_0.index t (1 : Fin 2) * 32 + 1 * k.val = k.val; omega

/-- The second input's block at point t, at (p, k): the array at row 10240 t + p. -/
theorem rowsB0_apply (t : Fin cfg0.N) (p : Fin 10240) (k : Fin 16) :
    (iblk0 (F := Ideal) V c 1 t : FVec Ideal S10240x16 .f32) (ix2 p k) = (V c main_arg1 : FVec Ideal S1280000x16 .f32) (ix2 (row0 t p) k) := by
  obtain ⟨-, -, e0, e1, -⟩ := blockIndex0 t
  show (V c main_arg1 : FVec Ideal S1280000x16 .f32) (((cfg0.win 1).blk t).view.emb (ix2 p k)) = _
  refine congrArg _ (funext fun a => Fin.ext ?_)
  match a with
  | ⟨0, _⟩ => show win0_1.index t (0 : Fin 2) * 10240 + 1 * p.val = t.val * 10240 + p.val; omega
  | ⟨1, _⟩ => show win0_1.index t (1 : Fin 2) * 16 + 1 * k.val = k.val; omega

/-- The first weight matrix is whole at every point. -/
theorem weightsA0_apply (t : Fin cfg0.N) (k : Fin 32) (q : Fin 64) :
    (iblk0 (F := Ideal) V c 2 t : FVec Ideal S32x64 .f32) (ix2 k q) = (V c main_v4 : FVec Ideal S32x64 .f32) (ix2 k q) := by
  obtain ⟨-, -, -, -, e0, e1, -⟩ := blockIndex0 t
  show (V c main_v4 : FVec Ideal S32x64 .f32) (((cfg0.win 2).blk t).view.emb (ix2 k q)) = _
  refine congrArg _ (funext fun a => Fin.ext ?_)
  match a with
  | ⟨0, _⟩ => show win0_2.index t (0 : Fin 2) * 32 + 1 * k.val = k.val; omega
  | ⟨1, _⟩ => show win0_2.index t (1 : Fin 2) * 64 + 1 * q.val = q.val; omega

/-- The second weight matrix is whole at every point. -/
theorem weightsB0_apply (t : Fin cfg0.N) (k : Fin 16) (q : Fin 64) :
    (iblk0 (F := Ideal) V c 3 t : FVec Ideal S16x64 .f32) (ix2 k q) = (V c main_v5 : FVec Ideal S16x64 .f32) (ix2 k q) := by
  obtain ⟨-, -, -, -, -, -, e0, e1, -⟩ := blockIndex0 t
  show (V c main_v5 : FVec Ideal S16x64 .f32) (((cfg0.win 3).blk t).view.emb (ix2 k q)) = _
  refine congrArg _ (funext fun a => Fin.ext ?_)
  match a with
  | ⟨0, _⟩ => show win0_3.index t (0 : Fin 2) * 16 + 1 * k.val = k.val; omega
  | ⟨1, _⟩ => show win0_3.index t (1 : Fin 2) * 64 + 1 * q.val = q.val; omega

/-- The bias row is whole at every point. -/
theorem bias0_apply (t : Fin cfg0.N) (z : Fin 1) (q : Fin 64) :
    (iblk0 (F := Ideal) V c 4 t : FVec Ideal S1x64 .f32) (ix2 z q) = (V c main_v9 : FVec Ideal S1x64 .f32) (ix2 z q) := by
  obtain ⟨-, -, -, -, -, -, -, -, e0, e1, -⟩ := blockIndex0 t
  show (V c main_v9 : FVec Ideal S1x64 .f32) (((cfg0.win 4).blk t).view.emb (ix2 z q)) = _
  refine congrArg _ (funext fun a => Fin.ext ?_)
  match a with
  | ⟨0, _⟩ => show win0_4.index t (0 : Fin 2) * 1 + 1 * z.val = z.val; omega
  | ⟨1, _⟩ => show win0_4.index t (1 : Fin 2) * 64 + 1 * q.val = q.val; omega

/-- Element (p, q) of the output's block at point t is element (10240 t + p, q) of the array. -/
theorem outRows0_emb (t : Fin cfg0.N) (p : Fin 10240) (q : Fin 64) :
    (((cfg0.win 5).blk t).view.emb (ix2 p q) : S1280000x64.Idx) = ix2 (row0 t p) q := by
  obtain ⟨-, -, -, -, -, -, -, -, -, -, e0, e1⟩ := blockIndex0 t
  refine funext fun a => Fin.ext ?_
  match a with
  | ⟨0, _⟩ => show win0_5.index t (0 : Fin 2) * 10240 + 1 * p.val = t.val * 10240 + p.val; omega
  | ⟨1, _⟩ => show win0_5.index t (1 : Fin 2) * 64 + 1 * q.val = q.val; omega

/-- WHAT POINT t WRITES BACK is row block t of the layer of the five arrays as the region finds them. -/
theorem writeBack0_eq (t : Fin cfg0.N) :
    (dat0 (F := Ideal) V c).flushed 5 t = ((cfg0.win 5).blk t).view.read (Elt Ideal)
      (mlp2 (V c main_v8 : FVec Ideal S1280000x32 .f32) (V c main_arg1 : FVec Ideal S1280000x16 .f32)
        (V c main_v4 : FVec Ideal S32x64 .f32) (V c main_v5 : FVec Ideal S16x64 .f32) (V c main_v9 : FVec Ideal S1x64 .f32)) := by
  show (cfg0.win 5).cut (grid0.coords t) ((dat0 (F := Ideal) V c).after 5 t) = _
  rw [after0_5]
  unfold out0_5
  rw [View.canon_unit_zero zeroOffsets0]
  simp only [View.ld_unit_zero (S := S10240x32) zeroOffsets0, View.ld_unit_zero (S := S10240x16) zeroOffsets0,
    View.ld_unit_zero (S := S32x64) zeroOffsets0, View.ld_unit_zero (S := S16x64) zeroOffsets0, View.ld_unit_zero (S := S1x64) zeroOffsets0]
  funext j
  obtain ⟨p, q, rfl⟩ : ∃ (p : Fin 10240) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = mlp2 (V c main_v8 : FVec Ideal S1280000x32 .f32) (V c main_arg1 : FVec Ideal S1280000x16 .f32)
        (V c main_v4 : FVec Ideal S32x64 .f32) (V c main_v5 : FVec Ideal S16x64 .f32) (V c main_v9 : FVec Ideal S1x64 .f32)
        (((cfg0.win 5).blk t).view.emb (ix2 p q))
  rw [outRows0_emb t p q, mlp2_apply, layerBlock0_apply]
  simp only [rowsA0_apply V c t, rowsB0_apply V c t, weightsA0_apply V c t, weightsB0_apply V c t, bias0_apply V c t]
  rfl

end Blocks

/-! ## The cover, and the array after the region -/

/-- An index of the output array is in point t's block iff each coordinate is in the block's range on its axis. -/
theorem mem_outRows0 (t : Fin cfg0.N) (i : S1280000x64.Idx) :
    i ∈ ((cfg0.win 5).blk t).view.set ↔ ∀ a : Fin 2, win0_5.index t a * S10240x64.size a ≤ (i a).val ∧ (i a).val < win0_5.index t a * S10240x64.size a + S10240x64.size a := by
  show i ∈ ((View.whole main_v10).slice (win0_5.rect t)).set ↔ _
  rw [View.set_slice_whole, Rect.mem_set_unit]
  exact Iff.rfl

/-- Every row r of the output array is in the block of the point r / 10240, and every point writes back. -/
theorem outRows0_cover (i : S1280000x64.Idx) :
    ∃ t : Fin cfg0.N, (cfg0.win 5).flush t = true ∧ i ∈ ((cfg0.win 5).blk t).view.set := by
  have hi0 : (i 0).val < 1280000 := (i 0).isLt
  have hi1 : (i 1).val < 64 := (i 1).isLt
  obtain ⟨t, ht⟩ : ∃ t : Fin cfg0.N, t.val = (i 0).val / 10240 :=
    ⟨⟨(i 0).val / 10240, by rw [show cfg0.N = 125 from N_0]; omega⟩, rfl⟩
  obtain ⟨-, -, -, -, -, -, -, -, -, -, e0, e1⟩ := blockIndex0 t
  refine ⟨t, flush0_5 t, ?_⟩
  rw [mem_outRows0]
  intro a
  match a with
  | ⟨0, _⟩ => show win0_5.index t (0 : Fin 2) * 10240 ≤ (i 0).val ∧ (i 0).val < win0_5.index t (0 : Fin 2) * 10240 + 10240; omega
  | ⟨1, _⟩ => show win0_5.index t (1 : Fin 2) * 64 ≤ (i 1).val ∧ (i 1).val < win0_5.index t (1 : Fin 2) * 64 + 64; omega

/-- THE ARRAY AFTER THE REGION: the layer of the five input arrays as the region finds them. -/
theorem region0_out (V : (c : Dev nD) → (b : Ref sig .tc) → Buf (Elt Ideal) ((c : Thread nD τ).loc b)) (c : Dev nD) :
    ((dat0 (F := Ideal) V c).arrAt 5 cfg0.N : FVec Ideal S1280000x64 .f32)
      = mlp2 (V c main_v8 : FVec Ideal S1280000x32 .f32) (V c main_arg1 : FVec Ideal S1280000x16 .f32)
          (V c main_v4 : FVec Ideal S32x64 .f32) (V c main_v5 : FVec Ideal S16x64 .f32) (V c main_v9 : FVec Ideal S1x64 .f32) :=
  (dat0 (F := Ideal) V c).arrAt_eq_of_cover 5 _ (fun t _ => writeBack0_eq V c t) outRows0_cover

end Cert.KernelIdeal.Hand

end
-- ==== Proof.Region1.lean ====
/-
  One launch of the fused layer, read as a whole array.

  The launch walks the 80000 rows of its two row-aligned inputs `a` and `b` in ten blocks of 8000 rows. At each block it
  multiplies the block of `a` by the matrix `wa` and the block of `b` by the matrix `wb` (64 columns each), adds the two
  products and the bias row `bias : [1, 64]`, clips at zero, and writes the 8000 × 64 result back as the same block of
  rows of the output. Three facts give the output array:

    * at row `p`, column `q` of a block the stored value is the layer of the five loaded blocks at `(p, q)`: a product
      into a zero accumulator is the plain sum over the contracted axis, the narrowing of the operands to bf16 is the
      identity on extended reals, and the broadcast bias row is read at column `q`;
    * row `p` of block `t` of `a`, of `b` and of the output is row `8000 t + p` of the array, while the two matrices
      and the bias row are whole at every block: so what block `t` writes back is block `t` of the layer of the whole
      arrays;
    * row `r` lies in block `r / 8000`, so the ten blocks cover the output, and the output array is the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the layer, read at an index -/

/-- In the product of a block of `a` by `wa`, the left operand is read at the output's row … -/
theorem rowsA1_lhs_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
/-- … and at the summation index as its column; -/
theorem rowsA1_lhs_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q
/-- the right operand at the summation index as its row … -/
theorem rowsA1_rhs_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q
/-- … and at the output's column. -/
theorem rowsA1_rhs_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- A block of `a` times `wa`, accumulated into zero, read at row `p` and column `q`: the sum over `k` of
    `a[p,k] · wa[k,q]`. -/
theorem rowsA1_apply (x : FVec Ideal S8000x32 .bf16) (w : FVec Ideal S32x64 .bf16) (p : Fin 8000) (q : Fin 64) :
    matmul dot_S8000x32_S32x64_S8000x64_1_0_0_1_n_n none x w (constant (F := Ideal) S8000x64 .f32 0x00000000#32) (ix2 p q)
      = ∑ k : Fin 32, x (ix2 p k) * w (ix2 k q) := by
  simp only [matmul]
  rw [Ideal.matmul_constant_zero_apply, ← Equiv.sum_comp (ValueIdx.contrEquiv1 dot_S8000x32_S32x64_S8000x64_1_0_0_1_n_n 32 rfl rfl).symm]
  refine Finset.sum_congr rfl fun k _ => ?_
  have hk := ValueIdx.contrEquiv1_symm_val dot_S8000x32_S32x64_S8000x64_1_0_0_1_n_n 32 rfl rfl k
  have el : dot_S8000x32_S32x64_S8000x64_1_0_0_1_n_n.lhsIdx (ix2 p q) ((ValueIdx.contrEquiv1 dot_S8000x32_S32x64_S8000x64_1_0_0_1_n_n 32 rfl rfl).symm k) = ix2 p k := funext fun a => Fin.ext (by
    match a with
    | ⟨0, _⟩ => exact rowsA1_lhs_0 _ _
    | ⟨1, _⟩ => exact (rowsA1_lhs_1 _ _).trans hk)
  have er : dot_S8000x32_S32x64_S8000x64_1_0_0_1_n_n.rhsIdx (ix2 p q) ((ValueIdx.contrEquiv1 dot_S8000x32_S32x64_S8000x64_1_0_0_1_n_n 32 rfl rfl).symm k) = ix2 k q := funext fun a => Fin.ext (by
    match a with
    | ⟨0, _⟩ => exact (rowsA1_rhs_0 _ _).trans hk
    | ⟨1, _⟩ => exact rowsA1_rhs_1 _ _)
  rw [el, er]

/-- In the product of a block of `b` by `wb`, the left operand is read at the output's row … -/
theorem rowsB1_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsB1_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsB1_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsB1_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `b` times `wb`, accumulated into zero, read at row `p` and column `q`: the sum over `k` of
    `b[p,k] · wb[k,q]`. -/
theorem rowsB1_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsB1_lhs_0 _ _
    | ⟨1, _⟩ => exact (rowsB1_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsB1_rhs_0 _ _).trans hk
    | ⟨1, _⟩ => exact rowsB1_rhs_1 _ _)
  rw [el, er]

/-! ## The block's payload is the layer -/

/-- What the body stores, read at row `p` and column `q` of the block: the layer of the five blocks it loaded. The
    narrowing to bf16 is the identity on extended reals, so nothing is left of it. -/
theorem layer1_block_apply (x0 : Vec Ideal S8000x32 .f32) (x1 : Vec Ideal S8000x64 .f32) (x2 : Vec Ideal S32x64 .f32)
    (x3 : Vec Ideal S64x64 .f32) (x4 : Vec Ideal S1x64 .f32) (p : Fin 8000) (q : Fin 64) :
    k1_pay1 (F := Ideal) x0 x1 x2 x3 x4 (ix2 p q) = mlpAt x0 x1 x2 x3 x4 p q := by
  unfold k1_pay1 mlpAt
  simp only [shapeCast_self]
  rw [maximumf_apply, addf_apply, addf_apply, rowsA1_apply, rowsB1_apply, broadcastTo_1b_ab_apply, broadcast_apply]
  simp only [truncf_apply]
  exact congrArg (max _) Ideal.ofBits_zero_f32

/-! ## From blocks to the array -/

/-- The zero offsets of a block-sized access, as the constant function. -/
theorem zeroOffsets1 : (![0, 0] : Fin 2 → Nat) = fun _ => 0 := funext fun a => by
  match a with
  | ⟨0, _⟩ => rfl
  | ⟨1, _⟩ => rfl

/-- Where each window's block sits at point `t`: the two row-aligned inputs and the output move down the rows with the
    point, block `t` of 8000 rows; the two weight matrices and the bias row are whole at every point. -/
theorem blockIndex1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The region has ten points. -/
theorem points1 (t : Fin cfg1.N) : t.val < 10 := lt_of_lt_of_eq t.isLt N_1

section
variable (V : (c : Dev nD) → (b : Ref sig .tc) → Buf (Elt Ideal) ((c : Thread nD τ).loc b)) (c : Dev nD)

/-- Row `p` of point `t`'s block of `a` is row `8000 t + p` of `a`. -/
theorem blockA1_apply (t : Fin cfg1.N) (p : Fin 8000) (k : Fin 32) :
    (iblk1 V c 0 t : Vec Ideal S8000x32 .f32) (ix2 p k)
      = (V c main_arg0 : FVec Ideal S80000x32 .f32) (ix2 ⟨t.val * 8000 + p.val, by have := points1 t; omega⟩ k) := by
  obtain ⟨⟨e0, e1⟩, -⟩ := blockIndex1 t
  show V c main_arg0 (((cfg1.win 0).blk t).view.emb (ix2 p k)) = V c main_arg0 _
  refine congrArg _ (funext fun a => Fin.ext ?_)
  match a with
  | ⟨0, _⟩ => show win1_0.index t (0 : Fin 2) * 8000 + 1 * p.val = t.val * 8000 + p.val; rw [e0]; omega
  | ⟨1, _⟩ => show win1_0.index t (1 : Fin 2) * 32 + 1 * k.val = k.val; rw [e1]; omega

/-- Row `p` of point `t`'s block of `b` is row `8000 t + p` of `b`. -/
theorem blockB1_apply (t : Fin cfg1.N) (p : Fin 8000) (k : Fin 64) :
    (iblk1 V c 1 t : Vec Ideal S8000x64 .f32) (ix2 p k)
      = (V c main_v13 : FVec Ideal S80000x64 .f32) (ix2 ⟨t.val * 8000 + p.val, by have := points1 t; omega⟩ k) := by
  obtain ⟨-, ⟨e0, e1⟩, -⟩ := blockIndex1 t
  show V c main_v13 (((cfg1.win 1).blk t).view.emb (ix2 p k)) = V c main_v13 _
  refine congrArg _ (funext fun a => Fin.ext ?_)
  match a with
  | ⟨0, _⟩ => show win1_1.index t (0 : Fin 2) * 8000 + 1 * p.val = t.val * 8000 + p.val; rw [e0]; omega
  | ⟨1, _⟩ => show win1_1.index t (1 : Fin 2) * 64 + 1 * k.val = k.val; rw [e1]; omega

/-- The block of `wa` is `wa`, at every point. -/
theorem blockWa1_eq (t : Fin cfg1.N) :
    (iblk1 V c 2 t : Vec Ideal S32x64 .f32) = (V c main_v6 : FVec Ideal S32x64 .f32) := by
  obtain ⟨-, -, ⟨e0, e1⟩, -⟩ := blockIndex1 t
  funext y
  show V c main_v6 (((cfg1.win 2).blk t).view.emb y) = V c main_v6 y
  refine congrArg _ (funext fun a => Fin.ext ?_)
  match a with
  | ⟨0, _⟩ => show win1_2.index t (0 : Fin 2) * 32 + 1 * (y 0).val = (y 0).val; rw [e0]; omega
  | ⟨1, _⟩ => show win1_2.index t (1 : Fin 2) * 64 + 1 * (y 1).val = (y 1).val; rw [e1]; omega

/-- The block of `wb` is `wb`, at every point. -/
theorem blockWb1_eq (t : Fin cfg1.N) :
    (iblk1 V c 3 t : Vec Ideal S64x64 .f32) = (V c main_v7 : FVec Ideal S64x64 .f32) := by
  obtain ⟨-, -, -, ⟨e0, e1⟩, -⟩ := blockIndex1 t
  funext y
  show V c main_v7 (((cfg1.win 3).blk t).view.emb y) = V c main_v7 y
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The block of the bias row is the bias row, at every point. -/
theorem blockBias1_eq (t : Fin cfg1.N) :
    (iblk1 V c 4 t : Vec Ideal S1x64 .f32) = (V c main_v14 : FVec Ideal S1x64 .f32) := by
  obtain ⟨-, -, -, -, ⟨e0, e1⟩, -⟩ := blockIndex1 t
  funext y
  show V c main_v14 (((cfg1.win 4).blk t).view.emb y) = V c main_v14 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Row `p` of point `t`'s block of any array of the output's shape is its row `8000 t + p`. -/
theorem blockOut1_apply (G : FVec Ideal S80000x64 .f32) (t : Fin cfg1.N) (p : Fin 8000) (q : Fin 64) :
    (((cfg1.win 5).blk t).view.read (Elt Ideal) G : Vec Ideal S8000x64 .f32) (ix2 p q)
      = G (ix2 ⟨t.val * 8000 + p.val, by have := points1 t; omega⟩ q) := by
  obtain ⟨-, -, -, -, -, ⟨e0, e1⟩⟩ := blockIndex1 t
  show G (((cfg1.win 5).blk t).view.emb (ix2 p q)) = G _
  refine congrArg _ (funext fun a => Fin.ext ?_)
  match a with
  | ⟨0, _⟩ => show win1_5.index t (0 : Fin 2) * 8000 + 1 * p.val = t.val * 8000 + p.val; rw [e0]; omega
  | ⟨1, _⟩ => show win1_5.index t (1 : Fin 2) * 64 + 1 * q.val = q.val; rw [e1]; omega

end

/-- The layer of row blocks is a row block of the layer: if `x0`, `x1` hold rows `8000 t …` of `a`, `b`, the layer of
    `x0`, `x1` and the weights at row `p` is the layer of `a`, `b` at row `8000 t + p`. -/
theorem rowBlock_layer1 (a : FVec Ideal S80000x32 .f32) (b : FVec Ideal S80000x64 .f32) (wa : FVec Ideal S32x64 .f32)
    (wb : FVec Ideal S64x64 .f32) (bias : FVec Ideal S1x64 .f32) (x0 : Vec Ideal S8000x32 .f32) (x1 : Vec Ideal S8000x64 .f32)
    (p : Fin 8000) (r : Fin 80000) (q : Fin 64)
    (h0 : ∀ k, x0 (ix2 p k) = a (ix2 r k)) (h1 : ∀ k, x1 (ix2 p k) = b (ix2 r k)) :
    mlpAt x0 x1 wa wb bias p q = mlpAt a b wa wb bias r q := by
  unfold mlpAt
  simp only [h0, h1]

/-- WHAT POINT `t` WRITES BACK is block `t` of the layer of the five arrays as the region finds them. -/
theorem flushed1_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (mlp2 (V c main_arg0 : FVec Ideal S80000x32 .f32) (V c main_v13 : FVec Ideal S80000x64 .f32)
        (V c main_v6 : FVec Ideal S32x64 .f32) (V c main_v7 : FVec Ideal S64x64 .f32) (V c main_v14 : FVec Ideal S1x64 .f32)) := by
  show (cfg1.win 5).cut (grid1.coords t) ((dat1 V c).after 5 t) = _
  rw [after1_5]
  unfold out1_5
  rw [View.canon_unit_zero zeroOffsets1]
  simp only [View.ld_unit_zero (S := S8000x32) zeroOffsets1, View.ld_unit_zero (S := S8000x64) zeroOffsets1,
    View.ld_unit_zero (S := S32x64) zeroOffsets1, View.ld_unit_zero (S := S64x64) zeroOffsets1,
    View.ld_unit_zero (S := S1x64) zeroOffsets1]
  rw [blockWa1_eq, blockWb1_eq, blockBias1_eq]
  funext j
  obtain ⟨p, q, rfl⟩ : ∃ (p : Fin 8000) (q : Fin 64), j = ix2 p q := ⟨j 0, j 1, eq_ix2 j⟩
  refine Eq.trans ?_ (blockOut1_apply _ t p q).symm
  rw [mlp2_apply]
  refine Eq.trans (layer1_block_apply _ _ _ _ _ p q) ?_
  exact rowBlock_layer1 _ _ _ _ _ _ _ p _ q (blockA1_apply V c t p) (blockB1_apply V c t p)

/-- An index of the output array is in point `t`'s block iff each coordinate is in the block's range on its axis. -/
theorem mem_blockOut1 (t : Fin cfg1.N) (i : S80000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v15).slice (win1_5.rect t)).set ↔ _
  rw [View.set_slice_whole, Rect.mem_set_unit]
  exact Iff.rfl

/-- Every row of the output is in the block of the point `row / 8000`, and every point writes back. -/
theorem cover1 (i : S80000x64.Idx) :
    ∃ t : Fin cfg1.N, (cfg1.win 5).flush t = true ∧ i ∈ ((cfg1.win 5).blk t).view.set := by
  have hi0 : (i 0).val < 80000 := (i 0).isLt
  have hi1 : (i 1).val < 64 := (i 1).isLt
  have ht : (i 0).val / 8000 < cfg1.N := by rw [show cfg1.N = 10 from N_1]; omega
  refine ⟨⟨(i 0).val / 8000, ht⟩, flush1_5 _, ?_⟩
  obtain ⟨-, -, -, -, -, ⟨e0, e1⟩⟩ := blockIndex1 ⟨(i 0).val / 8000, ht⟩
  rw [mem_blockOut1]
  intro a
  match a with
  | ⟨0, _⟩ =>
    show win1_5.index ⟨(i 0).val / 8000, ht⟩ (0 : Fin 2) * 8000 ≤ (i 0).val ∧ (i 0).val < win1_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_5.index ⟨(i 0).val / 8000, ht⟩ (1 : Fin 2) * 64 ≤ (i 1).val ∧ (i 1).val < win1_5.index ⟨(i 0).val / 8000, ht⟩ (1 : Fin 2) * 64 + 64
    rw [e1]; omega

/-- THE ARRAY after the region: the layer of the five arrays as the region finds them. -/
theorem region1_out (V : (c : Dev nD) → (b : Ref sig .tc) → Buf (Elt Ideal) ((c : Thread nD τ).loc b)) (c : Dev nD) :
    ((dat1 (F := Ideal) V c).arrAt 5 cfg1.N : FVec Ideal S80000x64 .f32)
      = mlp2 (V c main_arg0 : FVec Ideal S80000x32 .f32) (V c main_v13 : FVec Ideal S80000x64 .f32)
          (V c main_v6 : FVec Ideal S32x64 .f32) (V c main_v7 : FVec Ideal S64x64 .f32) (V c main_v14 : FVec Ideal S1x64 .f32) :=
  (dat1 (F := Ideal) V c).arrAt_eq_of_cover 5 _ (fun t _ => flushed1_eq V c t) cover1

end Cert.KernelIdeal.Hand

end
-- ==== Proof.TakeFold.lean ====
/-
  Taking rows of the node array at the source indices.

  The program takes rows with a guarded gather: from the index vector `s` it forms the start-index column (an index
  below zero is moved up by the row count 80000), tests every start index against the range `[0, 79999]`, reduces the
  test along the column's one-element axis by `and` from 1, spreads the resulting row mask over the row's entries, and
  selects, entry by entry, between the gathered row and a fill word. When every source index lies in `[0, 80000)` no
  index is moved, every test bit is 1, the mask is all ones, and the select returns the gathered row everywhere: the
  guarded gather is the plain gather `kGather32` / `kGather64`.

  The argument is made at one entry of the result. The word facts come first (a signed word that is at least 0 has its
  top bit clear, so it compares as its value); then the mask bit of a row; then the select; last the four takes of the
  program, which differ only in the buffers they name and in the row width.
-/
import proofs.«422392_j11433202942183_1_alg».proof.Proof.Gen.KernelIdeal.Launch
import proofs.«422392_j11433202942183_1_alg».proof.Proof.KDefs
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx

set_option maxRecDepth 16384

noncomputable section

open scoped BigOperators

namespace Cert.KernelIdeal.Hand

open Idealize.ShloMosaic Cert.KernelIdeal Cert.KernelIdeal.Gen Cert.MlpSpec
open Idealize.ShloMosaic.TcCoe Idealize.ShloMosaic.ValueIdx Idealize.SL.Sem

/-! ## Words -/

/-- A 32-bit word whose signed value is at least 0 has its top bit clear. -/
theorem toNat_lt_of_sge_zero {w : BitVec 32} (h : IntOp.cmpi .sge w 0#32 = 1#1) : w.toNat < 2 ^ 31 := by
  unfold IntOp.cmpi at h
  have h' : (0#32 : BitVec 32).sle w = true := (StableHlo.Predicate.ofBool_eq_one_iff _).1 h
  simp only [BitVec.sle, decide_eq_true_eq] at h'
  have h0 : (0#32 : BitVec 32).toInt = 0 := by decide
  rw [h0, BitVec.toInt_eq_msb_cond] at h'
  by_contra hc
  have hm : w.msb = true := by
    rw [BitVec.msb_eq_decide]; simp only [decide_eq_true_eq]; omega
  rw [hm] at h'
  simp only [if_true] at h'
  have := w.isLt
  omega

/-- The words of one row of the take. If the index word `w` is at least 0 and below 80000 (as signed words), then the
    start index the take computes from it (move up by 80000 when negative) is `w` itself, and it passes the take's own
    range test (at least 0, at most 79999). -/
theorem take_word (w : BitVec 32)
    (h : IntOp.andi (IntOp.cmpi .sge w 0#32) (IntOp.cmpi .slt w 80000#32) = 1#1) :
    Scalar.select (IntOp.cmpi .slt w 0#32) (IntOp.addi w 80000#32) w = w ∧
      IntOp.andi (IntOp.cmpi .sge w 0#32) (IntOp.cmpi .sle w 79999#32) = 1#1 := by
  obtain ⟨hge, hlt⟩ := IntOp.andi_eq_one.1 h
  have hw : w.toNat < 2 ^ 31 := toNat_lt_of_sge_zero hge
  have h8 : (80000#32 : BitVec 32).toNat < 2 ^ 31 := by decide
  have h7 : (79999#32 : BitVec 32).toNat < 2 ^ 31 := by decide
  have h0 : (0#32 : BitVec 32).toNat < 2 ^ 31 := by decide
  have hlt' : w.toNat < 80000 := (StableHlo.Predicate.slt_iff_toNat hw h8).1 hlt
  constructor
  · have hn : ¬ IntOp.cmpi .slt w 0#32 = 1#1 := fun hc => by
      have := (StableHlo.Predicate.slt_iff_toNat hw h0).1 hc
      simp at this
    rw [eq_zero_of_ne_one hn, select_zero]
  · refine IntOp.andi_eq_one.2 ⟨hge, (StableHlo.Predicate.sle_iff_toNat hw h7).2 ?_⟩
    show w.toNat ≤ 79999
    omega

/-- A left fold by `and` from 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

/-- An and-reduction from 1 of an array of one-bit words that are all 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The take's mask is all ones -/

/-- A broadcast of an array that is the constant `c` everywhere is `c` everywhere. -/
theorem bcast_const {α : Type} {s t : Shape} (dims : Fin s.rank → Fin t.rank) (h : s.BroadcastsInDim t dims)
    (x : s.Idx → α) (c : α) (hx : ∀ k, x k = c) (j : t.Idx) : broadcastInDim t dims h x j = c := hx _

/-- A select whose condition bit is 1 is its first operand. -/
theorem select_of_one {α : Type} (c : BitVec 1) (a b : α) (hc : c = 1#1) : Scalar.select c a b = a := by
  subst hc; exact select_one a b

/-- Every element of the take's range test over the start-index column is 1 when every source index is in range. -/
theorem mask_elem (s : IVec S1280000 32) (hr : SrcInRange s) (k : S1280000x1.Idx) :
    andi (cmpi .sge (kIdxCol s) (broadcastInDim S1280000x1 ![] bcast_S_S1280000x1 (constantI S_ 32 0#32)))
      (cmpi .sle (kIdxCol s) (broadcastInDim S1280000x1 ![0, 1] bcast_S1x1_S1280000x1_0_1
        (broadcastInDim S1x1 ![1] bcast_S1_S1x1_1 (constantI S1 32 79999#32)))) k = 1#1 := by
  have key : ∀ v : BitVec 32,
      (∃ e, v = Scalar.select (IntOp.cmpi .slt (s e) 0#32) (IntOp.addi (s e) 80000#32) (s e)) →
        IntOp.andi (IntOp.cmpi .sge v 0#32) (IntOp.cmpi .sle v 79999#32) = 1#1 := by
    rintro v ⟨e, rfl⟩
    have h := take_word (s e) (hr e)
    rw [h.1]; exact h.2
  exact key _ ⟨_, rfl⟩

/-- The take's select, read at one element: under the range fact the mask bit is 1 and the select is its first operand.
    Stated for any result shape the row mask is broadcast to, so that both widths use it. -/
theorem take_select {α : Type} {t : Shape} (dims : Fin S1280000.rank → Fin t.rank) (hb : S1280000.BroadcastsInDim t dims)
    (s : IVec S1280000 32) (hr : SrcInRange s) (a b : t.Idx → α) (i : t.Idx) :
    select (broadcastInDim t dims hb
        (Host.reduce IntOp.andi
          (andi (cmpi .sge (kIdxCol s) (broadcastInDim S1280000x1 ![] bcast_S_S1280000x1 (constantI S_ 32 0#32)))
            (cmpi .sle (kIdxCol s) (broadcastInDim S1280000x1 ![0, 1] bcast_S1x1_S1280000x1_0_1
              (broadcastInDim S1x1 ![1] bcast_S1_S1x1_1 (constantI S1 32 79999#32)))))
          (constantI S_ 1 1#1) reducesTo_S1280000x1_S1280000_d1 h_S_)) a b i = a i := by
  refine (select_apply _ _ _ _).trans ?_
  refine select_of_one _ _ _ ?_
  refine bcast_const dims hb _ 1#1 (fun k => ?_) i
  exact reduce_andi_one _ _ _ _ (mask_elem s hr) rfl k

/-- Contents moved to a buffer's own type and back are the contents. -/
theorem ofBuf_toBuf {sg : RefSig} {Val : EltTy → Type} {T : BufTy} (x : StableHlo.TRef sg T) (v : T.Contents Val) :
    x.ofBuf (x.toBuf v) = v := by
  obtain ⟨r, h1, h2, h3⟩ := x
  subst h1
  rfl

/-- To show contents moved to a buffer's own type equal given contents, move the given contents back instead. -/
theorem toBuf_eq_of {sg : RefSig} {Val : EltTy → Type} {T : BufTy} (x : StableHlo.TRef sg T) (v : T.Contents Val)
    (w : x.ref.ty.Contents Val) (h : v = x.ofBuf w) : x.toBuf v = w := by
  obtain ⟨r, h1, h2, h3⟩ := x
  subst h1
  exact h

/-! ## The four takes -/

/-- The outlined take of the first layer, under the range fact, is the gather. -/
theorem take_fold0 (Wp : Valuation τ sig (Elt Ideal)) (hr : SrcInRange (Wp (Proc.devRef .tc main_v1))) :
    StableHlo.after hostOps0_1 Wp (Proc.devRef .tc main_v8)
      = kGather32 (Wp (Proc.devRef .tc main_arg0)) (Wp (Proc.devRef .tc main_v1)) := by
  have hr' : SrcInRange ((StableHlo.TRef.of main_v1 : StableHlo.TRef sig ⟨S1280000, .i32⟩).ofBuf (Wp (Proc.devRef .tc main_v1))) := hr
  simp only [hostOps0_1]
  after_results_simp
  simp only [ofBuf_toBuf]
  refine toBuf_eq_of _ _ _ ?_
  funext i
  refine (take_select (t := S1280000x32) ![0] bcast_S1280000_S1280000x32_0 _ hr' _ _ i).trans ?_
  rfl

/-- The outlined take of the second layer, under the range fact, is the gather. -/
theorem take_fold1 (Wp : Valuation τ sig (Elt Ideal)) (hr : SrcInRange (Wp (Proc.devRef .tc main_v1))) :
    StableHlo.after hostOps2_1 Wp (Proc.devRef .tc main_v28)
      = kGather64 (Wp (Proc.devRef .tc main_v15)) (Wp (Proc.devRef .tc main_v1)) := by
  have hr' : SrcInRange ((StableHlo.TRef.of main_v1 : StableHlo.TRef sig ⟨S1280000, .i32⟩).ofBuf (Wp (Proc.devRef .tc main_v1))) := hr
  simp only [hostOps2_1]
  after_results_simp
  simp only [ofBuf_toBuf]
  refine toBuf_eq_of _ _ _ ?_
  funext i
  refine (take_select (t := S1280000x64) ![0] bcast_S1280000_S1280000x64_0 _ hr' _ _ i).trans ?_
  rfl

/-- The outlined take of the third layer, under the range fact, is the gather. -/
theorem take_fold2 (Wp : Valuation τ sig (Elt Ideal)) (hr : SrcInRange (Wp (Proc.devRef .tc main_v1))) :
    StableHlo.after hostOps4_1 Wp (Proc.devRef .tc main_v48)
      = kGather64 (Wp (Proc.devRef .tc main_v35)) (Wp (Proc.devRef .tc main_v1)) := by
  have hr' : SrcInRange ((StableHlo.TRef.of main_v1 : StableHlo.TRef sig ⟨S1280000, .i32⟩).ofBuf (Wp (Proc.devRef .tc main_v1))) := hr
  simp only [hostOps4_1]
  after_results_simp
  simp only [ofBuf_toBuf]
  refine toBuf_eq_of _ _ _ ?_
  funext i
  refine (take_select (t := S1280000x64) ![0] bcast_S1280000_S1280000x64_0 _ hr' _ _ i).trans ?_
  rfl

/-- The outlined take of the fourth layer, under the range fact, is the gather. -/
theorem take_fold3 (Wp : Valuation τ sig (Elt Ideal)) (hr : SrcInRange (Wp (Proc.devRef .tc main_v1))) :
    StableHlo.after hostOps6_1 Wp (Proc.devRef .tc main_v68)
      = kGather64 (Wp (Proc.devRef .tc main_v55)) (Wp (Proc.devRef .tc main_v1)) := by
  have hr' : SrcInRange ((StableHlo.TRef.of main_v1 : StableHlo.TRef sig ⟨S1280000, .i32⟩).ofBuf (Wp (Proc.devRef .tc main_v1))) := hr
  simp only [hostOps6_1]
  after_results_simp
  simp only [ofBuf_toBuf]
  refine toBuf_eq_of _ _ _ ?_
  funext i
  refine (take_select (t := S1280000x64) ![0] bcast_S1280000_S1280000x64_0 _ hr' _ _ i).trans ?_
  rfl

end Cert.KernelIdeal.Hand

end
-- ==== Proof.Walk0.lean ====
/-
  The first layer, read off the run.

  From the launch memory the program cuts the index rows and the first layer's weights (the first stretch of host
  operations), takes the source rows of the node array (the outlined take: under the range fact, the gather), lays the
  bias out as a row, runs the edge pipeline, scatter-adds its rows at the destination indices, and runs the node
  pipeline. Each lemma below says what ONE buffer holds at ONE boundary of the run, as a function of the argument
  arrays; the last says that after the node pipeline the node rows are the first layer of the specification.
-/
import proofs.«422392_j11433202942183_1_alg».proof.Proof.KeepTable
import proofs.«422392_j11433202942183_1_alg».proof.Proof.WalkArgs
import proofs.«422392_j11433202942183_1_alg».proof.Proof.Region0
import proofs.«422392_j11433202942183_1_alg».proof.Proof.Region1
import proofs.«422392_j11433202942183_1_alg».proof.Proof.TakeFold
import Idealize.ShloMosaic.Lib.StableHlo.Run

set_option maxRecDepth 16384

noncomputable section

namespace Cert.KernelIdeal.Hand

open Idealize.ShloMosaic Cert.KernelIdeal Cert.KernelIdeal.Gen Cert.MlpSpec
open Idealize.ShloMosaic.TcCoe Idealize.SL.Sem
open Idealize.ShloMosaic.Pipeline (Dat)

variable (m : (ℓ : Loc nD τ sig) → Buf (Elt Ideal) ℓ) (ρ : Dev nD → PrngReg)

/-! ## What a stretch writes, over any contents before it -/

/-- The first stretch cuts the source-index row out of the index pair. -/
theorem src_after (Wp : Valuation τ sig (Elt Ideal)) :
    (StableHlo.after hostOps0 Wp (Proc.devRef .tc main_v1) : IVec S1280000 32) = kSrc (Wp (Proc.devRef .tc main_arg2)) := by
  simp only [hostOps0]
  after_results
  all_goals rfl

/-- It cuts the destination-index row. -/
theorem dst_after (Wp : Valuation τ sig (Elt Ideal)) :
    (StableHlo.after hostOps0 Wp (Proc.devRef .tc main_v3) : IVec S1280000 32) = kDst (Wp (Proc.devRef .tc main_arg2)) := by
  simp only [hostOps0]
  after_results
  all_goals rfl

/-- It cuts the first 32 rows of the first message weights. -/
theorem mw0top_after (Wp : Valuation τ sig (Elt Ideal)) :
    (StableHlo.after hostOps0 Wp (Proc.devRef .tc main_v4) : FVec Ideal S32x64 .f32) = extractStridedSlice S32x64 ![0, 0] (Wp (Proc.devRef .tc main_arg4)) slices_S48x64_S32x64_0_0 := by
  simp only [hostOps0]
  after_results
  all_goals rfl

/-- It cuts their last 16 rows. -/
theorem mw0bot_after (Wp : Valuation τ sig (Elt Ideal)) :
    (StableHlo.after hostOps0 Wp (Proc.devRef .tc main_v5) : FVec Ideal S16x64 .f32) = extractStridedSlice S16x64 ![32, 0] (Wp (Proc.devRef .tc main_arg4)) slices_S48x64_S16x64_32_0 := by
  simp only [hostOps0]
  after_results
  all_goals rfl

/-- It cuts the first 32 rows of the first update weights. -/
theorem uw0top_after (Wp : Valuation τ sig (Elt Ideal)) :
    (StableHlo.after hostOps0 Wp (Proc.devRef .tc main_v6) : FVec Ideal S32x64 .f32) = extractStridedSlice S32x64 ![0, 0] (Wp (Proc.devRef .tc main_arg6)) slices_S96x64_S32x64_0_0 := by
  simp only [hostOps0]
  after_results
  all_goals rfl

/-- It cuts their last 64 rows. -/
theorem uw0bot_after (Wp : Valuation τ sig (Elt Ideal)) :
    (StableHlo.after hostOps0 Wp (Proc.devRef .tc main_v7) : FVec Ideal S64x64 .f32) = extractStridedSlice S64x64 ![32, 0] (Wp (Proc.devRef .tc main_arg6)) slices_S96x64_S64x64_32_0 := by
  simp only [hostOps0]
  after_results
  all_goals rfl

/-- The third stretch lays the first message bias out as a row. -/
theorem mb0row_after (Wp : Valuation τ sig (Elt Ideal)) :
    (StableHlo.after hostOps0_2 Wp (Proc.devRef .tc main_v9) : FVec Ideal S1x64 .f32) = shapeCast _ (Wp (Proc.devRef .tc main_arg5)) shapeCasts_S64_S1x64 := by
  simp only [hostOps0_2]
  after_results
  all_goals rfl

/-- After the edge pipeline: the messages are added into a zero node array at the destination indices. -/
theorem agg0_after (Wp : Valuation τ sig (Elt Ideal)) :
    (StableHlo.after hostOps1 Wp (Proc.devRef .tc main_v13) : FVec Ideal S80000x64 .f32) = kScat (Wp (Proc.devRef .tc main_v10)) (Wp (Proc.devRef .tc main_v3)) := by
  simp only [hostOps1]
  after_results
  all_goals rfl

/-- The same stretch lays the first update bias out as a row. -/
theorem ub0row_after (Wp : Valuation τ sig (Elt Ideal)) :
    (StableHlo.after hostOps1 Wp (Proc.devRef .tc main_v14) : FVec Ideal S1x64 .f32) = shapeCast _ (Wp (Proc.devRef .tc main_arg7)) shapeCasts_S64_S1x64 := by
  simp only [hostOps1]
  after_results
  all_goals rfl

/-! ## The buffers at the boundaries of the first layer -/

variable (c : Dev nD)

/-- After the first stretch the source-index buffer holds the source row of the launch memory's index pair. -/
theorem v1_at1 : (W1 m ρ c (Proc.devRef .tc main_v1) : IVec S1280000 32) = kSrc (ar2 m c) := src_after (W0 m ρ c)
theorem v3_at1 : (W1 m ρ c (Proc.devRef .tc main_v3) : IVec S1280000 32) = kDst (ar2 m c) := dst_after (W0 m ρ c)
theorem v4_at1 : (W1 m ρ c (Proc.devRef .tc main_v4) : FVec Ideal S32x64 .f32) = extractStridedSlice S32x64 ![0, 0] (ar4 m c) slices_S48x64_S32x64_0_0 := mw0top_after (W0 m ρ c)
theorem v5_at1 : (W1 m ρ c (Proc.devRef .tc main_v5) : FVec Ideal S16x64 .f32) = extractStridedSlice S16x64 ![32, 0] (ar4 m c) slices_S48x64_S16x64_32_0 := mw0bot_after (W0 m ρ c)
theorem v6_at1 : (W1 m ρ c (Proc.devRef .tc main_v6) : FVec Ideal S32x64 .f32) = extractStridedSlice S32x64 ![0, 0] (ar6 m c) slices_S96x64_S32x64_0_0 := uw0top_after (W0 m ρ c)
theorem v7_at1 : (W1 m ρ c (Proc.devRef .tc main_v7) : FVec Ideal S64x64 .f32) = extractStridedSlice S64x64 ![32, 0] (ar6 m c) slices_S96x64_S64x64_32_0 := uw0bot_after (W0 m ρ c)

/-- Entering the edge pipeline, its first window's array holds the source rows of the node array (the take is the gather
    under the range fact). -/
theorem v8_at3 (hr : SrcInRange (kSrc (ar2 m c))) :
    (W3 m ρ c (Proc.devRef .tc main_v8) : FVec Ideal S1280000x32 .f32) = kGather32 (ar0 m c) (kSrc (ar2 m c)) :=
  (keep_main_v8_3_2 m ρ c).trans ((take_fold0 (W1 m ρ c) (by rw [v1_at1 m ρ c]; exact hr)).trans
    (by rw [at_main_arg0_1 m ρ c, v1_at1 m ρ c]))

theorem v9_at3 : (W3 m ρ c (Proc.devRef .tc main_v9) : FVec Ideal S1x64 .f32) = shapeCast _ (ar5 m c) shapeCasts_S64_S1x64 :=
  (mb0row_after (W2 m ρ c)).trans (by rw [at_main_arg5_2 m ρ c])

/-- Leaving the edge pipeline its output array holds the first layer's messages. -/
theorem v10_at4 (hr : SrcInRange (kSrc (ar2 m c))) :
    (W4 m ρ c (Proc.devRef .tc main_v10) : FVec Ideal S1280000x64 .f32) = kM0 (ar0 m c) (ar1 m c) (ar2 m c) (ar4 m c) (ar5 m c) := by
  refine (W4_arr m ρ c 5).trans ((region0_out (V3 m ρ) c).trans ?_)
  rw [show (V3 m ρ c main_v8 : FVec Ideal S1280000x32 .f32) = _ from v8_at3 m ρ c hr,
    show (V3 m ρ c main_arg1 : FVec Ideal S1280000x16 .f32) = _ from at_main_arg1_3 m ρ c,
    show (V3 m ρ c main_v4 : FVec Ideal S32x64 .f32) = _ from (keep_main_v4_3_1 m ρ c).trans (v4_at1 m ρ c),
    show (V3 m ρ c main_v5 : FVec Ideal S16x64 .f32) = _ from (keep_main_v5_3_1 m ρ c).trans (v5_at1 m ρ c),
    show (V3 m ρ c main_v9 : FVec Ideal S1x64 .f32) = _ from v9_at3 m ρ c]
  rfl

/-- Entering the node pipeline, its second window's array holds the messages summed by destination. -/
theorem v13_at5 (hr : SrcInRange (kSrc (ar2 m c))) :
    (W5 m ρ c (Proc.devRef .tc main_v13) : FVec Ideal S80000x64 .f32)
      = kScat (kM0 (ar0 m c) (ar1 m c) (ar2 m c) (ar4 m c) (ar5 m c)) (kDst (ar2 m c)) :=
  (agg0_after (W4 m ρ c)).trans (by rw [v10_at4 m ρ c hr, keep_main_v3_4_1 m ρ c, v3_at1 m ρ c])

theorem v14_at5 : (W5 m ρ c (Proc.devRef .tc main_v14) : FVec Ideal S1x64 .f32) = shapeCast _ (ar7 m c) shapeCasts_S64_S1x64 :=
  (ub0row_after (W4 m ρ c)).trans (by rw [at_main_arg7_4 m ρ c])

/-- Leaving the node pipeline its output array holds the node rows after the first layer. -/
theorem v15_at6 (hr : SrcInRange (kSrc (ar2 m c))) :
    (W6 m ρ c (Proc.devRef .tc main_v15) : FVec Ideal S80000x64 .f32)
      = kH1 (ar0 m c) (ar1 m c) (ar2 m c) (ar4 m c) (ar5 m c) (ar6 m c) (ar7 m c) := by
  refine (W6_arr m ρ c 5).trans ((region1_out (V5 m ρ) c).trans ?_)
  rw [show (V5 m ρ c main_arg0 : FVec Ideal S80000x32 .f32) = _ from at_main_arg0_5 m ρ c,
    show (V5 m ρ c main_v13 : FVec Ideal S80000x64 .f32) = _ from v13_at5 m ρ c hr,
    show (V5 m ρ c main_v6 : FVec Ideal S32x64 .f32) = _ from (keep_main_v6_5_1 m ρ c).trans (v6_at1 m ρ c),
    show (V5 m ρ c main_v7 : FVec Ideal S64x64 .f32) = _ from (keep_main_v7_5_1 m ρ c).trans (v7_at1 m ρ c),
    show (V5 m ρ c main_v14 : FVec Ideal S1x64 .f32) = _ from v14_at5 m ρ c]
  rfl

end Cert.KernelIdeal.Hand

end
-- ==== Proof.Region2.lean ====
/-
  A fused layer over 1,280,000 rows, computed 10240 rows at a time, is ONE whole-array function of its five arrays.

  The layer takes two row-aligned arrays a : [1280000,64] and b : [1280000,16], two weight matrices wa : [64,64] and
  wb : [16,64] and a bias row, and returns at row r and column q

      max ( (sum over k of a[r,k] · wa[k,q]  +  sum over k of b[r,k] · wb[k,q])  +  bias[0,q] ,  0 ).

  It is computed in 125 steps; step t reads rows 10240 t .. 10240 t + 10239 of a and b, the whole of wa, wb and the
  bias, and writes the same rows of the result. First the block a step stores is read at one element: each of its two
  [10240,64] · [64,64] and [10240,16] · [16,64] products into a zero block is the row-by-column sum, the narrowing of the
  operands is the identity on the extended reals, the bias row is spread over the rows, and the clip is a maximum with
  zero. Then what step t writes back is row block t of the layer of the whole arrays, the 125 row blocks cover the
  result, and so the result array holds the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the first layer's block, read at an element

Both products contract the left operand's column axis with the right operand's row axis, so at output element
(p, q) and contraction position k the left operand is read at (p, k) and the right one at (k, q). -/

/-- Left operand of the [10240,64] · [64,64] product: its row is the output's row. -/
theorem lhsA2_0 (i : S10240x64.Idx) (r : dot_S10240x64_S64x64_S10240x64_1_0_0_1_n_n.contr.Idx) :
    (dot_S10240x64_S64x64_S10240x64_1_0_0_1_n_n.lhsIdx i r 0).val = (i 0).val := by
  unfold DotDims.lhsIdx
  rw [dif_neg (show ¬(0 : Fin S10240x64.rank) ∈ dot_S10240x64_S64x64_S10240x64_1_0_0_1_n_n.lhsBatch by decide), dif_pos (show (0 : Fin S10240x64.rank) ∈ dot_S10240x64_S64x64_S10240x64_1_0_0_1_n_n.lhsNonContracting by decide)]
  rfl
/-- Its column is the contraction position. -/
theorem lhsA2_1 (i : S10240x64.Idx) (r : dot_S10240x64_S64x64_S10240x64_1_0_0_1_n_n.contr.Idx) :
    (dot_S10240x64_S64x64_S10240x64_1_0_0_1_n_n.lhsIdx i r 1).val = (r ⟨0, by decide⟩).val :=
  dot_S10240x64_S64x64_S10240x64_1_0_0_1_n_n.lhsIdx_val_of_single rfl i r
/-- Right operand: its row is the contraction position. -/
theorem rhsA2_0 (i : S10240x64.Idx) (r : dot_S10240x64_S64x64_S10240x64_1_0_0_1_n_n.contr.Idx) :
    (dot_S10240x64_S64x64_S10240x64_1_0_0_1_n_n.rhsIdx i r 0).val = (r ⟨0, by decide⟩).val :=
  dot_S10240x64_S64x64_S10240x64_1_0_0_1_n_n.rhsIdx_val_of_single rfl i r
/-- Its column is the output's column. -/
theorem rhsA2_1 (i : S10240x64.Idx) (r : dot_S10240x64_S64x64_S10240x64_1_0_0_1_n_n.contr.Idx) :
    (dot_S10240x64_S64x64_S10240x64_1_0_0_1_n_n.rhsIdx i r 1).val = (i 1).val := by
  unfold DotDims.rhsIdx
  rw [dif_neg (show ¬(1 : Fin S64x64.rank) ∈ dot_S10240x64_S64x64_S10240x64_1_0_0_1_n_n.rhsBatch by decide), dif_pos (show (1 : Fin S64x64.rank) ∈ dot_S10240x64_S64x64_S10240x64_1_0_0_1_n_n.rhsNonContracting by decide)]
  rfl

/-- The [10240,64] · [64,64] product into the zero block, at (p, q): the sum over the 64 columns. -/
theorem prodA2_apply (x : FVec Ideal S10240x64 .bf16) (w : FVec Ideal S64x64 .bf16) (p : Fin 10240) (q : Fin 64) :
    matmul dot_S10240x64_S64x64_S10240x64_1_0_0_1_n_n none x w (constant (F := Ideal) S10240x64 .f32 0x00000000#32) (ix2 p q)
      = ∑ k : Fin 64, x (ix2 p k) * w (ix2 k q) := by
  refine (Ideal.matmul_constant_zero_apply dot_S10240x64_S64x64_S10240x64_1_0_0_1_n_n none x w (ix2 p q)).trans ?_
  rw [← Equiv.sum_comp (contrEquiv1 dot_S10240x64_S64x64_S10240x64_1_0_0_1_n_n 64 rfl rfl).symm]
  refine Finset.sum_congr rfl fun k _ => ?_
  have hk := contrEquiv1_symm_val dot_S10240x64_S64x64_S10240x64_1_0_0_1_n_n 64 rfl rfl k
  have el : dot_S10240x64_S64x64_S10240x64_1_0_0_1_n_n.lhsIdx (ix2 p q) ((contrEquiv1 dot_S10240x64_S64x64_S10240x64_1_0_0_1_n_n 64 rfl rfl).symm k) = ix2 p k := funext fun a => Fin.ext (by
    match a with
    | ⟨0, _⟩ => exact lhsA2_0 _ _
    | ⟨1, _⟩ => exact (lhsA2_1 _ _).trans hk)
  have er : dot_S10240x64_S64x64_S10240x64_1_0_0_1_n_n.rhsIdx (ix2 p q) ((contrEquiv1 dot_S10240x64_S64x64_S10240x64_1_0_0_1_n_n 64 rfl rfl).symm k) = ix2 k q := funext fun a => Fin.ext (by
    match a with
    | ⟨0, _⟩ => exact (rhsA2_0 _ _).trans hk
    | ⟨1, _⟩ => exact rhsA2_1 _ _)
  rw [el, er]

/-- Left operand of the [10240,16] · [16,64] product: its row is the output's row. -/
theorem lhsB2_0 (i : S10240x64.Idx) (r : dot_S10240x16_S16x64_S10240x64_1_0_0_1_n_n.contr.Idx) :
    (dot_S10240x16_S16x64_S10240x64_1_0_0_1_n_n.lhsIdx i r 0).val = (i 0).val := by
  unfold DotDims.lhsIdx
  rw [dif_neg (show ¬(0 : Fin S10240x16.rank) ∈ dot_S10240x16_S16x64_S10240x64_1_0_0_1_n_n.lhsBatch by decide), dif_pos (show (0 : Fin S10240x16.rank) ∈ dot_S10240x16_S16x64_S10240x64_1_0_0_1_n_n.lhsNonContracting by decide)]
  rfl
/-- Its column is the contraction position. -/
theorem lhsB2_1 (i : S10240x64.Idx) (r : dot_S10240x16_S16x64_S10240x64_1_0_0_1_n_n.contr.Idx) :
    (dot_S10240x16_S16x64_S10240x64_1_0_0_1_n_n.lhsIdx i r 1).val = (r ⟨0, by decide⟩).val :=
  dot_S10240x16_S16x64_S10240x64_1_0_0_1_n_n.lhsIdx_val_of_single rfl i r
/-- Right operand: its row is the contraction position. -/
theorem rhsB2_0 (i : S10240x64.Idx) (r : dot_S10240x16_S16x64_S10240x64_1_0_0_1_n_n.contr.Idx) :
    (dot_S10240x16_S16x64_S10240x64_1_0_0_1_n_n.rhsIdx i r 0).val = (r ⟨0, by decide⟩).val :=
  dot_S10240x16_S16x64_S10240x64_1_0_0_1_n_n.rhsIdx_val_of_single rfl i r
/-- Its column is the output's column. -/
theorem rhsB2_1 (i : S10240x64.Idx) (r : dot_S10240x16_S16x64_S10240x64_1_0_0_1_n_n.contr.Idx) :
    (dot_S10240x16_S16x64_S10240x64_1_0_0_1_n_n.rhsIdx i r 1).val = (i 1).val := by
  unfold DotDims.rhsIdx
  rw [dif_neg (show ¬(1 : Fin S16x64.rank) ∈ dot_S10240x16_S16x64_S10240x64_1_0_0_1_n_n.rhsBatch by decide), dif_pos (show (1 : Fin S16x64.rank) ∈ dot_S10240x16_S16x64_S10240x64_1_0_0_1_n_n.rhsNonContracting by decide)]
  rfl

/-- The [10240,16] · [16,64] product into the zero block, at (p, q): the sum over the 16 columns. -/
theorem prodB2_apply (x : FVec Ideal S10240x16 .bf16) (w : FVec Ideal S16x64 .bf16) (p : Fin 10240) (q : Fin 64) :
    matmul dot_S10240x16_S16x64_S10240x64_1_0_0_1_n_n none x w (constant (F := Ideal) S10240x64 .f32 0x00000000#32) (ix2 p q)
      = ∑ k : Fin 16, x (ix2 p k) * w (ix2 k q) := by
  refine (Ideal.matmul_constant_zero_apply dot_S10240x16_S16x64_S10240x64_1_0_0_1_n_n none x w (ix2 p q)).trans ?_
  rw [← Equiv.sum_comp (contrEquiv1 dot_S10240x16_S16x64_S10240x64_1_0_0_1_n_n 16 rfl rfl).symm]
  refine Finset.sum_congr rfl fun k _ => ?_
  have hk := contrEquiv1_symm_val dot_S10240x16_S16x64_S10240x64_1_0_0_1_n_n 16 rfl rfl k
  have el : dot_S10240x16_S16x64_S10240x64_1_0_0_1_n_n.lhsIdx (ix2 p q) ((contrEquiv1 dot_S10240x16_S16x64_S10240x64_1_0_0_1_n_n 16 rfl rfl).symm k) = ix2 p k := funext fun a => Fin.ext (by
    match a with
    | ⟨0, _⟩ => exact lhsB2_0 _ _
    | ⟨1, _⟩ => exact (lhsB2_1 _ _).trans hk)
  have er : dot_S10240x16_S16x64_S10240x64_1_0_0_1_n_n.rhsIdx (ix2 p q) ((contrEquiv1 dot_S10240x16_S16x64_S10240x64_1_0_0_1_n_n 16 rfl rfl).symm k) = ix2 k q := funext fun a => Fin.ext (by
    match a with
    | ⟨0, _⟩ => exact (rhsB2_0 _ _).trans hk
    | ⟨1, _⟩ => exact rhsB2_1 _ _)
  rw [el, er]

/-! ## The block of the layer at an element -/

/-- The bias row spread over the block's rows reads, at (p, q), the row's entry of column q. -/
theorem biasRows2_apply (b : FVec Ideal S1x64 .f32) (p : Fin 10240) (q : Fin 64) :
    broadcastTo S10240x64 b broadcasts_S1x64_S10240x64 (ix2 p q) = b (ix2 (0 : Fin 1) q) := by
  refine broadcastTo_apply b broadcasts_S1x64_S10240x64 (ix2 p q) (ix2 (0 : Fin 1) q) fun a => ?_
  match a with
  | ⟨0, _⟩ => rfl
  | ⟨1, _⟩ => rfl

/-- What one grid point stores, at row p and column q of its block: the two row-by-column sums added, plus the bias of
    column q, clipped below at zero. The format changes on the way are the identity on the extended reals. -/
theorem layerBlock2_apply (x0 : FVec Ideal S10240x64 .f32) (x1 : FVec Ideal S10240x16 .f32) (x2 : FVec Ideal S64x64 .f32)
    (x3 : FVec Ideal S16x64 .f32) (x4 : FVec Ideal S1x64 .f32) (p : Fin 10240) (q : Fin 64) :
    k2_pay1 (F := Ideal) x0 x1 x2 x3 x4 (ix2 p q)
      = max (((∑ k : Fin 64, x0 (ix2 p k) * x2 (ix2 k q)) + ∑ k : Fin 16, x1 (ix2 p k) * x3 (ix2 k q)) + x4 (ix2 (0 : Fin 1) q)) 0 := by
  unfold k2_pay1
  simp only [shapeCast_self]
  rw [maximumf_apply, addf_apply, addf_apply, broadcast_apply, prodA2_apply, prodB2_apply, biasRows2_apply]
  simp only [truncf_apply]
  show max _ (Ideal.ofBits .f32 0x00000000#32) = _
  rw [Ideal.ofBits_zero_f32]

/-! ## From blocks to the array

The grid has 125 points. At point t the two row-aligned inputs and the output sit at row block t (rows 10240 t to
10240 t + 10239), the two weight matrices and the bias row are whole at every point. -/

/-- The offsets of a whole-block access are zero on both axes. -/
theorem zeroOffsets2 : (![0, 0] : Fin 2 → Nat) = fun _ => 0 := funext fun a => by fin_cases a <;> rfl

/-- The block index of every window at every point, decided over the 125 points: the row windows at (t, 0), the
    others at (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of row block t is row 10240 t + p of the array. -/
def row2 (t : Fin cfg2.N) (p : Fin 10240) : Fin 1280000 :=
  ⟨t.val * 10240 + p.val, by have ht : t.val < 125 := lt_of_lt_of_eq t.isLt N_2; have hp := p.isLt; omega⟩

theorem row2_val (t : Fin cfg2.N) (p : Fin 10240) : (row2 t p).val = t.val * 10240 + p.val := rfl

section Blocks
variable (V : (c : Dev nD) → (b : Ref sig .tc) → Buf (Elt Ideal) ((c : Thread nD τ).loc b)) (c : Dev nD)

/-- The first input's block at point t, at (p, k): the array at row 10240 t + p. -/
theorem rowsA2_apply (t : Fin cfg2.N) (p : Fin 10240) (k : Fin 64) :
    (iblk2 (F := Ideal) V c 0 t : FVec Ideal S10240x64 .f32) (ix2 p k) = (V c main_v28 : FVec Ideal S1280000x64 .f32) (ix2 (row2 t p) k) := by
  obtain ⟨e0, e1, -⟩ := blockIndex2 t
  show (V c main_v28 : FVec Ideal S1280000x64 .f32) (((cfg2.win 0).blk t).view.emb (ix2 p k)) = _
  refine congrArg _ (funext fun a => Fin.ext ?_)
  match a with
  | ⟨0, _⟩ => show win2_0.index t (0 : Fin 2) * 10240 + 1 * p.val = t.val * 10240 + p.val; omega
  | ⟨1, _⟩ => show win2_0.index t (1 : Fin 2) * 64 + 1 * k.val = k.val; omega

/-- The second input's block at point t, at (p, k): the array at row 10240 t + p. -/
theorem rowsB2_apply (t : Fin cfg2.N) (p : Fin 10240) (k : Fin 16) :
    (iblk2 (F := Ideal) V c 1 t : FVec Ideal S10240x16 .f32) (ix2 p k) = (V c main_arg1 : FVec Ideal S1280000x16 .f32) (ix2 (row2 t p) k) := by
  obtain ⟨-, -, e0, e1, -⟩ := blockIndex2 t
  show (V c main_arg1 : FVec Ideal S1280000x16 .f32) (((cfg2.win 1).blk t).view.emb (ix2 p k)) = _
  refine congrArg _ (funext fun a => Fin.ext ?_)
  match a with
  | ⟨0, _⟩ => show win2_1.index t (0 : Fin 2) * 10240 + 1 * p.val = t.val * 10240 + p.val; omega
  | ⟨1, _⟩ => show win2_1.index t (1 : Fin 2) * 16 + 1 * k.val = k.val; omega

/-- The first weight matrix is whole at every point. -/
theorem weightsA2_apply (t : Fin cfg2.N) (k : Fin 64) (q : Fin 64) :
    (iblk2 (F := Ideal) V c 2 t : FVec Ideal S64x64 .f32) (ix2 k q) = (V c main_v17 : FVec Ideal S64x64 .f32) (ix2 k q) := by
  obtain ⟨-, -, -, -, e0, e1, -⟩ := blockIndex2 t
  show (V c main_v17 : FVec Ideal S64x64 .f32) (((cfg2.win 2).blk t).view.emb (ix2 k q)) = _
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The second weight matrix is whole at every point. -/
theorem weightsB2_apply (t : Fin cfg2.N) (k : Fin 16) (q : Fin 64) :
    (iblk2 (F := Ideal) V c 3 t : FVec Ideal S16x64 .f32) (ix2 k q) = (V c main_v19 : FVec Ideal S16x64 .f32) (ix2 k q) := by
  obtain ⟨-, -, -, -, -, -, e0, e1, -⟩ := blockIndex2 t
  show (V c main_v19 : FVec Ideal S16x64 .f32) (((cfg2.win 3).blk t).view.emb (ix2 k q)) = _
  refine congrArg _ (funext fun a => Fin.ext ?_)
  match a with
  | ⟨0, _⟩ => show win2_3.index t (0 : Fin 2) * 16 + 1 * k.val = k.val; omega
  | ⟨1, _⟩ => show win2_3.index t (1 : Fin 2) * 64 + 1 * q.val = q.val; omega

/-- The bias row is whole at every point. -/
theorem bias2_apply (t : Fin cfg2.N) (z : Fin 1) (q : Fin 64) :
    (iblk2 (F := Ideal) V c 4 t : FVec Ideal S1x64 .f32) (ix2 z q) = (V c main_v29 : FVec Ideal S1x64 .f32) (ix2 z q) := by
  obtain ⟨-, -, -, -, -, -, -, -, e0, e1, -⟩ := blockIndex2 t
  show (V c main_v29 : FVec Ideal S1x64 .f32) (((cfg2.win 4).blk t).view.emb (ix2 z q)) = _
  refine congrArg _ (funext fun a => Fin.ext ?_)
  match a with
  | ⟨0, _⟩ => show win2_4.index t (0 : Fin 2) * 1 + 1 * z.val = z.val; omega
  | ⟨1, _⟩ => show win2_4.index t (1 : Fin 2) * 64 + 1 * q.val = q.val; omega

/-- Element (p, q) of the output's block at point t is element (10240 t + p, q) of the array. -/
theorem outRows2_emb (t : Fin cfg2.N) (p : Fin 10240) (q : Fin 64) :
    (((cfg2.win 5).blk t).view.emb (ix2 p q) : S1280000x64.Idx) = ix2 (row2 t p) q := by
  obtain ⟨-, -, -, -, -, -, -, -, -, -, e0, e1⟩ := blockIndex2 t
  refine funext fun a => Fin.ext ?_
  match a with
  | ⟨0, _⟩ => show win2_5.index t (0 : Fin 2) * 10240 + 1 * p.val = t.val * 10240 + p.val; omega
  | ⟨1, _⟩ => show win2_5.index t (1 : Fin 2) * 64 + 1 * q.val = q.val; omega

/-- WHAT POINT t WRITES BACK is row block t of the layer of the five arrays as the region finds them. -/
theorem writeBack2_eq (t : Fin cfg2.N) :
    (dat2 (F := Ideal) V c).flushed 5 t = ((cfg2.win 5).blk t).view.read (Elt Ideal)
      (mlp2 (V c main_v28 : FVec Ideal S1280000x64 .f32) (V c main_arg1 : FVec Ideal S1280000x16 .f32)
        (V c main_v17 : FVec Ideal S64x64 .f32) (V c main_v19 : FVec Ideal S16x64 .f32) (V c main_v29 : FVec Ideal S1x64 .f32)) := by
  show (cfg2.win 5).cut (grid2.coords t) ((dat2 (F := Ideal) V c).after 5 t) = _
  rw [after2_5]
  unfold out2_5
  rw [View.canon_unit_zero zeroOffsets2]
  simp only [View.ld_unit_zero (S := S10240x64) zeroOffsets2, View.ld_unit_zero (S := S10240x16) zeroOffsets2,
    View.ld_unit_zero (S := S64x64) zeroOffsets2, View.ld_unit_zero (S := S16x64) zeroOffsets2, View.ld_unit_zero (S := S1x64) zeroOffsets2]
  funext j
  obtain ⟨p, q, rfl⟩ : ∃ (p : Fin 10240) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = mlp2 (V c main_v28 : FVec Ideal S1280000x64 .f32) (V c main_arg1 : FVec Ideal S1280000x16 .f32)
        (V c main_v17 : FVec Ideal S64x64 .f32) (V c main_v19 : FVec Ideal S16x64 .f32) (V c main_v29 : FVec Ideal S1x64 .f32)
        (((cfg2.win 5).blk t).view.emb (ix2 p q))
  rw [outRows2_emb t p q, mlp2_apply, layerBlock2_apply]
  simp only [rowsA2_apply V c t, rowsB2_apply V c t, weightsA2_apply V c t, weightsB2_apply V c t, bias2_apply V c t]
  rfl

end Blocks

/-! ## The cover, and the array after the region -/

/-- An index of the output array is in point t's block iff each coordinate is in the block's range on its axis. -/
theorem mem_outRows2 (t : Fin cfg2.N) (i : S1280000x64.Idx) :
    i ∈ ((cfg2.win 5).blk t).view.set ↔ ∀ a : Fin 2, win2_5.index t a * S10240x64.size a ≤ (i a).val ∧ (i a).val < win2_5.index t a * S10240x64.size a + S10240x64.size a := by
  show i ∈ ((View.whole main_v30).slice (win2_5.rect t)).set ↔ _
  rw [View.set_slice_whole, Rect.mem_set_unit]
  exact Iff.rfl

/-- Every row r of the output array is in the block of the point r / 10240, and every point writes back. -/
theorem outRows2_cover (i : S1280000x64.Idx) :
    ∃ t : Fin cfg2.N, (cfg2.win 5).flush t = true ∧ i ∈ ((cfg2.win 5).blk t).view.set := by
  have hi0 : (i 0).val < 1280000 := (i 0).isLt
  have hi1 : (i 1).val < 64 := (i 1).isLt
  obtain ⟨t, ht⟩ : ∃ t : Fin cfg2.N, t.val = (i 0).val / 10240 :=
    ⟨⟨(i 0).val / 10240, by rw [show cfg2.N = 125 from N_2]; omega⟩, rfl⟩
  obtain ⟨-, -, -, -, -, -, -, -, -, -, e0, e1⟩ := blockIndex2 t
  refine ⟨t, flush2_5 t, ?_⟩
  rw [mem_outRows2]
  intro a
  match a with
  | ⟨0, _⟩ => show win2_5.index t (0 : Fin 2) * 10240 ≤ (i 0).val ∧ (i 0).val < win2_5.index t (0 : Fin 2) * 10240 + 10240; omega
  | ⟨1, _⟩ => show win2_5.index t (1 : Fin 2) * 64 ≤ (i 1).val ∧ (i 1).val < win2_5.index t (1 : Fin 2) * 64 + 64; omega

/-- THE ARRAY AFTER THE REGION: the layer of the five input arrays as the region finds them. -/
theorem region2_out (V : (c : Dev nD) → (b : Ref sig .tc) → Buf (Elt Ideal) ((c : Thread nD τ).loc b)) (c : Dev nD) :
    ((dat2 (F := Ideal) V c).arrAt 5 cfg2.N : FVec Ideal S1280000x64 .f32)
      = mlp2 (V c main_v28 : FVec Ideal S1280000x64 .f32) (V c main_arg1 : FVec Ideal S1280000x16 .f32)
          (V c main_v17 : FVec Ideal S64x64 .f32) (V c main_v19 : FVec Ideal S16x64 .f32) (V c main_v29 : FVec Ideal S1x64 .f32) :=
  (dat2 (F := Ideal) V c).arrAt_eq_of_cover 5 _ (fun t _ => writeBack2_eq V c t) outRows2_cover

end Cert.KernelIdeal.Hand

end
-- ==== Proof.Region3.lean ====
/-
  One launch of the fused layer, read as a whole array.

  The launch walks the 80000 rows of its two row-aligned inputs `a` and `b` in ten blocks of 8000 rows. At each block it
  multiplies the block of `a` by the matrix `wa` and the block of `b` by the matrix `wb` (64 columns each), adds the two
  products and the bias row `bias : [1, 64]`, clips at zero, and writes the 8000 × 64 result back as the same block of
  rows of the output. Three facts give the output array:

    * at row `p`, column `q` of a block the stored value is the layer of the five loaded blocks at `(p, q)`: a product
      into a zero accumulator is the plain sum over the contracted axis, the narrowing of the operands to bf16 is the
      identity on extended reals, and the broadcast bias row is read at column `q`;
    * row `p` of block `t` of `a`, of `b` and of the output is row `8000 t + p` of the array, while the two matrices
      and the bias row are whole at every block: so what block `t` writes back is block `t` of the layer of the whole
      arrays;
    * row `r` lies in block `r / 8000`, so the ten blocks cover the output, and the output array is the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the layer, read at an index -/

/-- In the product of a block of `a` by `wa`, the left operand is read at the output's row … -/
theorem rowsA3_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsA3_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsA3_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsA3_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `a` times `wa`, accumulated into zero, read at row `p` and column `q`: the sum over `k` of
    `a[p,k] · wa[k,q]`. -/
theorem rowsA3_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsA3_lhs_0 _ _
    | ⟨1, _⟩ => exact (rowsA3_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsA3_rhs_0 _ _).trans hk
    | ⟨1, _⟩ => exact rowsA3_rhs_1 _ _)
  rw [el, er]

/-- In the product of a block of `b` by `wb`, the left operand is read at the output's row … -/
theorem rowsB3_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsB3_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsB3_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsB3_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `b` times `wb`, accumulated into zero, read at row `p` and column `q`: the sum over `k` of
    `b[p,k] · wb[k,q]`. -/
theorem rowsB3_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsB3_lhs_0 _ _
    | ⟨1, _⟩ => exact (rowsB3_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsB3_rhs_0 _ _).trans hk
    | ⟨1, _⟩ => exact rowsB3_rhs_1 _ _)
  rw [el, er]

/-! ## The block's payload is the layer -/

/-- What the body stores, read at row `p` and column `q` of the block: the layer of the five blocks it loaded. The
    narrowing to bf16 is the identity on extended reals, so nothing is left of it. -/
theorem layer3_block_apply (x0 : Vec Ideal S8000x64 .f32) (x1 : Vec Ideal S8000x64 .f32) (x2 : Vec Ideal S64x64 .f32)
    (x3 : Vec Ideal S64x64 .f32) (x4 : Vec Ideal S1x64 .f32) (p : Fin 8000) (q : Fin 64) :
    k3_pay1 (F := Ideal) x0 x1 x2 x3 x4 (ix2 p q) = mlpAt x0 x1 x2 x3 x4 p q := by
  unfold k3_pay1 mlpAt
  simp only [shapeCast_self]
  rw [maximumf_apply, addf_apply, addf_apply, rowsA3_apply, rowsB3_apply, broadcastTo_1b_ab_apply, broadcast_apply]
  simp only [truncf_apply]
  exact congrArg (max _) Ideal.ofBits_zero_f32

/-! ## From blocks to the array -/

/-- The zero offsets of a block-sized access, as the constant function. -/
theorem zeroOffsets3 : (![0, 0] : Fin 2 → Nat) = fun _ => 0 := funext fun a => by
  match a with
  | ⟨0, _⟩ => rfl
  | ⟨1, _⟩ => rfl

/-- Where each window's block sits at point `t`: the two row-aligned inputs and the output move down the rows with the
    point, block `t` of 8000 rows; the two weight matrices and the bias row are whole at every point. -/
theorem blockIndex3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- The region has ten points. -/
theorem points3 (t : Fin cfg3.N) : t.val < 10 := lt_of_lt_of_eq t.isLt N_3

section
variable (V : (c : Dev nD) → (b : Ref sig .tc) → Buf (Elt Ideal) ((c : Thread nD τ).loc b)) (c : Dev nD)

/-- Row `p` of point `t`'s block of `a` is row `8000 t + p` of `a`. -/
theorem blockA3_apply (t : Fin cfg3.N) (p : Fin 8000) (k : Fin 64) :
    (iblk3 V c 0 t : Vec Ideal S8000x64 .f32) (ix2 p k)
      = (V c main_v15 : FVec Ideal S80000x64 .f32) (ix2 ⟨t.val * 8000 + p.val, by have := points3 t; omega⟩ k) := by
  obtain ⟨⟨e0, e1⟩, -⟩ := blockIndex3 t
  show V c main_v15 (((cfg3.win 0).blk t).view.emb (ix2 p k)) = V c main_v15 _
  refine congrArg _ (funext fun a => Fin.ext ?_)
  match a with
  | ⟨0, _⟩ => show win3_0.index t (0 : Fin 2) * 8000 + 1 * p.val = t.val * 8000 + p.val; rw [e0]; omega
  | ⟨1, _⟩ => show win3_0.index t (1 : Fin 2) * 64 + 1 * k.val = k.val; rw [e1]; omega

/-- Row `p` of point `t`'s block of `b` is row `8000 t + p` of `b`. -/
theorem blockB3_apply (t : Fin cfg3.N) (p : Fin 8000) (k : Fin 64) :
    (iblk3 V c 1 t : Vec Ideal S8000x64 .f32) (ix2 p k)
      = (V c main_v33 : FVec Ideal S80000x64 .f32) (ix2 ⟨t.val * 8000 + p.val, by have := points3 t; omega⟩ k) := by
  obtain ⟨-, ⟨e0, e1⟩, -⟩ := blockIndex3 t
  show V c main_v33 (((cfg3.win 1).blk t).view.emb (ix2 p k)) = V c main_v33 _
  refine congrArg _ (funext fun a => Fin.ext ?_)
  match a with
  | ⟨0, _⟩ => show win3_1.index t (0 : Fin 2) * 8000 + 1 * p.val = t.val * 8000 + p.val; rw [e0]; omega
  | ⟨1, _⟩ => show win3_1.index t (1 : Fin 2) * 64 + 1 * k.val = k.val; rw [e1]; omega

/-- The block of `wa` is `wa`, at every point. -/
theorem blockWa3_eq (t : Fin cfg3.N) :
    (iblk3 V c 2 t : Vec Ideal S64x64 .f32) = (V c main_v21 : FVec Ideal S64x64 .f32) := by
  obtain ⟨-, -, ⟨e0, e1⟩, -⟩ := blockIndex3 t
  funext y
  show V c main_v21 (((cfg3.win 2).blk t).view.emb y) = V c main_v21 y
  refine congrArg _ (funext fun a => Fin.ext ?_)
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The block of `wb` is `wb`, at every point. -/
theorem blockWb3_eq (t : Fin cfg3.N) :
    (iblk3 V c 3 t : Vec Ideal S64x64 .f32) = (V c main_v23 : FVec Ideal S64x64 .f32) := by
  obtain ⟨-, -, -, ⟨e0, e1⟩, -⟩ := blockIndex3 t
  funext y
  show V c main_v23 (((cfg3.win 3).blk t).view.emb y) = V c main_v23 y
  refine congrArg _ (funext fun a => Fin.ext ?_)
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- The block of the bias row is the bias row, at every point. -/
theorem blockBias3_eq (t : Fin cfg3.N) :
    (iblk3 V c 4 t : Vec Ideal S1x64 .f32) = (V c main_v34 : FVec Ideal S1x64 .f32) := by
  obtain ⟨-, -, -, -, ⟨e0, e1⟩, -⟩ := blockIndex3 t
  funext y
  show V c main_v34 (((cfg3.win 4).blk t).view.emb y) = V c main_v34 y
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- Row `p` of point `t`'s block of any array of the output's shape is its row `8000 t + p`. -/
theorem blockOut3_apply (G : FVec Ideal S80000x64 .f32) (t : Fin cfg3.N) (p : Fin 8000) (q : Fin 64) :
    (((cfg3.win 5).blk t).view.read (Elt Ideal) G : Vec Ideal S8000x64 .f32) (ix2 p q)
      = G (ix2 ⟨t.val * 8000 + p.val, by have := points3 t; omega⟩ q) := by
  obtain ⟨-, -, -, -, -, ⟨e0, e1⟩⟩ := blockIndex3 t
  show G (((cfg3.win 5).blk t).view.emb (ix2 p q)) = G _
  refine congrArg _ (funext fun a => Fin.ext ?_)
  match a with
  | ⟨0, _⟩ => show win3_5.index t (0 : Fin 2) * 8000 + 1 * p.val = t.val * 8000 + p.val; rw [e0]; omega
  | ⟨1, _⟩ => show win3_5.index t (1 : Fin 2) * 64 + 1 * q.val = q.val; rw [e1]; omega

end

/-- The layer of row blocks is a row block of the layer: if `x0`, `x1` hold rows `8000 t …` of `a`, `b`, the layer of
    `x0`, `x1` and the weights at row `p` is the layer of `a`, `b` at row `8000 t + p`. -/
theorem rowBlock_layer3 (a : FVec Ideal S80000x64 .f32) (b : FVec Ideal S80000x64 .f32) (wa : FVec Ideal S64x64 .f32)
    (wb : FVec Ideal S64x64 .f32) (bias : FVec Ideal S1x64 .f32) (x0 : Vec Ideal S8000x64 .f32) (x1 : Vec Ideal S8000x64 .f32)
    (p : Fin 8000) (r : Fin 80000) (q : Fin 64)
    (h0 : ∀ k, x0 (ix2 p k) = a (ix2 r k)) (h1 : ∀ k, x1 (ix2 p k) = b (ix2 r k)) :
    mlpAt x0 x1 wa wb bias p q = mlpAt a b wa wb bias r q := by
  unfold mlpAt
  simp only [h0, h1]

/-- WHAT POINT `t` WRITES BACK is block `t` of the layer of the five arrays as the region finds them. -/
theorem flushed3_eq (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal)
      (mlp2 (V c main_v15 : FVec Ideal S80000x64 .f32) (V c main_v33 : FVec Ideal S80000x64 .f32)
        (V c main_v21 : FVec Ideal S64x64 .f32) (V c main_v23 : FVec Ideal S64x64 .f32) (V c main_v34 : FVec Ideal S1x64 .f32)) := by
  show (cfg3.win 5).cut (grid3.coords t) ((dat3 V c).after 5 t) = _
  rw [after3_5]
  unfold out3_5
  rw [View.canon_unit_zero zeroOffsets3]
  simp only [View.ld_unit_zero (S := S8000x64) zeroOffsets3, View.ld_unit_zero (S := S8000x64) zeroOffsets3,
    View.ld_unit_zero (S := S64x64) zeroOffsets3, View.ld_unit_zero (S := S64x64) zeroOffsets3,
    View.ld_unit_zero (S := S1x64) zeroOffsets3]
  rw [blockWa3_eq, blockWb3_eq, blockBias3_eq]
  funext j
  obtain ⟨p, q, rfl⟩ : ∃ (p : Fin 8000) (q : Fin 64), j = ix2 p q := ⟨j 0, j 1, eq_ix2 j⟩
  refine Eq.trans ?_ (blockOut3_apply _ t p q).symm
  rw [mlp2_apply]
  refine Eq.trans (layer3_block_apply _ _ _ _ _ p q) ?_
  exact rowBlock_layer3 _ _ _ _ _ _ _ p _ q (blockA3_apply V c t p) (blockB3_apply V c t p)

/-- An index of the output array is in point `t`'s block iff each coordinate is in the block's range on its axis. -/
theorem mem_blockOut3 (t : Fin cfg3.N) (i : S80000x64.Idx) :
    i ∈ ((cfg3.win 5).blk t).view.set ↔ ∀ a : Fin 2, win3_5.index t a * S8000x64.size a ≤ (i a).val ∧ (i a).val < win3_5.index t a * S8000x64.size a + S8000x64.size a := by
  show i ∈ ((View.whole main_v35).slice (win3_5.rect t)).set ↔ _
  rw [View.set_slice_whole, Rect.mem_set_unit]
  exact Iff.rfl

/-- Every row of the output is in the block of the point `row / 8000`, and every point writes back. -/
theorem cover3 (i : S80000x64.Idx) :
    ∃ t : Fin cfg3.N, (cfg3.win 5).flush t = true ∧ i ∈ ((cfg3.win 5).blk t).view.set := by
  have hi0 : (i 0).val < 80000 := (i 0).isLt
  have hi1 : (i 1).val < 64 := (i 1).isLt
  have ht : (i 0).val / 8000 < cfg3.N := by rw [show cfg3.N = 10 from N_3]; omega
  refine ⟨⟨(i 0).val / 8000, ht⟩, flush3_5 _, ?_⟩
  obtain ⟨-, -, -, -, -, ⟨e0, e1⟩⟩ := blockIndex3 ⟨(i 0).val / 8000, ht⟩
  rw [mem_blockOut3]
  intro a
  match a with
  | ⟨0, _⟩ =>
    show win3_5.index ⟨(i 0).val / 8000, ht⟩ (0 : Fin 2) * 8000 ≤ (i 0).val ∧ (i 0).val < win3_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win3_5.index ⟨(i 0).val / 8000, ht⟩ (1 : Fin 2) * 64 ≤ (i 1).val ∧ (i 1).val < win3_5.index ⟨(i 0).val / 8000, ht⟩ (1 : Fin 2) * 64 + 64
    rw [e1]; omega

/-- THE ARRAY after the region: the layer of the five arrays as the region finds them. -/
theorem region3_out (V : (c : Dev nD) → (b : Ref sig .tc) → Buf (Elt Ideal) ((c : Thread nD τ).loc b)) (c : Dev nD) :
    ((dat3 (F := Ideal) V c).arrAt 5 cfg3.N : FVec Ideal S80000x64 .f32)
      = mlp2 (V c main_v15 : FVec Ideal S80000x64 .f32) (V c main_v33 : FVec Ideal S80000x64 .f32)
          (V c main_v21 : FVec Ideal S64x64 .f32) (V c main_v23 : FVec Ideal S64x64 .f32) (V c main_v34 : FVec Ideal S1x64 .f32) :=
  (dat3 (F := Ideal) V c).arrAt_eq_of_cover 5 _ (fun t _ => flushed3_eq V c t) cover3

end Cert.KernelIdeal.Hand

end
-- ==== Proof.WalkL1.lean ====
/-
  The second layer (the first of the three later layers), read off the run.

  The layer starts from the node rows the layer before it left (`h`). The program cuts page 0 of the stacked weights
  and biases, takes the source rows of `h` (the outlined take: under the range fact, the gather), lays the message bias
  out as a row, runs the edge pipeline, scatter-adds its rows at the destination indices, lays the update bias out as a
  row, and runs the node pipeline. Each lemma says what ONE buffer holds at ONE boundary of the run; the last says that
  the node rows after the layer are the specification's layer applied to `h`.
-/
import proofs.«422392_j11433202942183_1_alg».proof.Proof.KeepTable
import proofs.«422392_j11433202942183_1_alg».proof.Proof.WalkArgs
import proofs.«422392_j11433202942183_1_alg».proof.Proof.Region2
import proofs.«422392_j11433202942183_1_alg».proof.Proof.Region3
import proofs.«422392_j11433202942183_1_alg».proof.Proof.TakeFold
import Idealize.ShloMosaic.Lib.StableHlo.Run

set_option maxRecDepth 16384

noncomputable section

namespace Cert.KernelIdeal.Hand

open Idealize.ShloMosaic Cert.KernelIdeal Cert.KernelIdeal.Gen Cert.MlpSpec
open Idealize.ShloMosaic.TcCoe Idealize.SL.Sem
open Idealize.ShloMosaic.Pipeline (Dat)

variable (m : (ℓ : Loc nD τ sig) → Buf (Elt Ideal) ℓ) (ρ : Dev nD → PrngReg)

/-! ## What a stretch writes, over any contents before it -/

/-- The rows of the message weights that meet the node rows. -/
theorem wa0_after (Wp : Valuation τ sig (Elt Ideal)) :
    (StableHlo.after hostOps2 Wp (Proc.devRef .tc main_v17) : FVec Ideal S64x64 .f32) = kWa0 (Wp (Proc.devRef .tc main_arg8)) := by
  simp only [hostOps2]
  after_results
  all_goals rfl

/-- The rows of the message weights that meet the edge rows. -/
theorem wb0_after (Wp : Valuation τ sig (Elt Ideal)) :
    (StableHlo.after hostOps2 Wp (Proc.devRef .tc main_v19) : FVec Ideal S16x64 .f32) = kWb0 (Wp (Proc.devRef .tc main_arg8)) := by
  simp only [hostOps2]
  after_results
  all_goals rfl

/-- The rows of the update weights that meet the node rows. -/
theorem ua0_after (Wp : Valuation τ sig (Elt Ideal)) :
    (StableHlo.after hostOps2 Wp (Proc.devRef .tc main_v21) : FVec Ideal S64x64 .f32) = kUa0 (Wp (Proc.devRef .tc main_arg10)) := by
  simp only [hostOps2]
  after_results
  all_goals rfl

/-- The rows of the update weights that meet the summed messages. -/
theorem ub0_after (Wp : Valuation τ sig (Elt Ideal)) :
    (StableHlo.after hostOps2 Wp (Proc.devRef .tc main_v23) : FVec Ideal S64x64 .f32) = kUb0 (Wp (Proc.devRef .tc main_arg10)) := by
  simp only [hostOps2]
  after_results
  all_goals rfl

/-- The message bias as a vector. -/
theorem bm0vec_after (Wp : Valuation τ sig (Elt Ideal)) :
    (StableHlo.after hostOps2 Wp (Proc.devRef .tc main_v25) : FVec Ideal S64 .f32) = shapeCast _ (extractStridedSlice S1x64 ![0, 0] (Wp (Proc.devRef .tc main_arg9)) slices_S3x64_S1x64_0_0) shapeCasts_S1x64_S64 := by
  simp only [hostOps2]
  after_results
  all_goals rfl

/-- The update bias as a vector. -/
theorem bu0vec_after (Wp : Valuation τ sig (Elt Ideal)) :
    (StableHlo.after hostOps2 Wp (Proc.devRef .tc main_v27) : FVec Ideal S64 .f32) = shapeCast _ (extractStridedSlice S1x64 ![0, 0] (Wp (Proc.devRef .tc main_arg11)) slices_S3x64_S1x64_0_0) shapeCasts_S1x64_S64 := by
  simp only [hostOps2]
  after_results
  all_goals rfl

/-- The message bias laid out as a row. -/
theorem bm0row_after (Wp : Valuation τ sig (Elt Ideal)) :
    (StableHlo.after hostOps2_2 Wp (Proc.devRef .tc main_v29) : FVec Ideal S1x64 .f32) = shapeCast _ (Wp (Proc.devRef .tc main_v25)) shapeCasts_S64_S1x64 := by
  simp only [hostOps2_2]
  after_results
  all_goals rfl

/-- The messages added into a zero node array at the destination indices. -/
theorem agg1_after (Wp : Valuation τ sig (Elt Ideal)) :
    (StableHlo.after hostOps3 Wp (Proc.devRef .tc main_v33) : FVec Ideal S80000x64 .f32) = kScat (Wp (Proc.devRef .tc main_v30)) (Wp (Proc.devRef .tc main_v3)) := by
  simp only [hostOps3]
  after_results
  all_goals rfl

/-- The update bias laid out as a row. -/
theorem bu0row_after (Wp : Valuation τ sig (Elt Ideal)) :
    (StableHlo.after hostOps3 Wp (Proc.devRef .tc main_v34) : FVec Ideal S1x64 .f32) = shapeCast _ (Wp (Proc.devRef .tc main_v27)) shapeCasts_S64_S1x64 := by
  simp only [hostOps3]
  after_results
  all_goals rfl

/-! ## The buffers at the boundaries of this layer -/

variable (c : Dev nD) (h : FVec Ideal S80000x64 .f32)

/-- Entering the edge pipeline, its first window's array holds the source rows of `h`. -/
theorem v28_at9 (hh : (W6 m ρ c (Proc.devRef .tc main_v15) : FVec Ideal S80000x64 .f32) = h) (hv1 : (W1 m ρ c (Proc.devRef .tc main_v1) : IVec S1280000 32) = kSrc (ar2 m c))
    (hr : SrcInRange (kSrc (ar2 m c))) :
    (W9 m ρ c (Proc.devRef .tc main_v28) : FVec Ideal S1280000x64 .f32) = kGather64 h (kSrc (ar2 m c)) :=
  (keep_main_v28_9_8 m ρ c).trans ((take_fold1 (W7 m ρ c) (by rw [keep_main_v1_7_1 m ρ c, hv1]; exact hr)).trans
    (by rw [keep_main_v15_7_6 m ρ c, hh, keep_main_v1_7_1 m ρ c, hv1]))

theorem v29_at9 : (W9 m ρ c (Proc.devRef .tc main_v29) : FVec Ideal S1x64 .f32) = kBm0 (ar9 m c) :=
  (bm0row_after (W8 m ρ c)).trans (by
    rw [keep_main_v25_8_7 m ρ c, show (W7 m ρ c (Proc.devRef .tc main_v25) : FVec Ideal S64 .f32) = _ from bm0vec_after (W6 m ρ c), at_main_arg9_6 m ρ c]
    rfl)

/-- Leaving the edge pipeline its output array holds this layer's messages. -/
theorem v30_at10 (hh : (W6 m ρ c (Proc.devRef .tc main_v15) : FVec Ideal S80000x64 .f32) = h) (hv1 : (W1 m ρ c (Proc.devRef .tc main_v1) : IVec S1280000 32) = kSrc (ar2 m c))
    (hr : SrcInRange (kSrc (ar2 m c))) :
    (W10 m ρ c (Proc.devRef .tc main_v30) : FVec Ideal S1280000x64 .f32) = kM h (ar1 m c) (ar2 m c) (kWa0 (ar8 m c)) (kWb0 (ar8 m c)) (kBm0 (ar9 m c)) := by
  refine (W10_arr m ρ c 5).trans ((region2_out (V9 m ρ) c).trans ?_)
  rw [show (V9 m ρ c main_v28 : FVec Ideal S1280000x64 .f32) = _ from v28_at9 m ρ c h hh hv1 hr,
    show (V9 m ρ c main_arg1 : FVec Ideal S1280000x16 .f32) = _ from at_main_arg1_9 m ρ c,
    show (V9 m ρ c main_v17 : FVec Ideal S64x64 .f32) = _ from (keep_main_v17_9_7 m ρ c).trans ((wa0_after (W6 m ρ c)).trans (by rw [at_main_arg8_6 m ρ c])),
    show (V9 m ρ c main_v19 : FVec Ideal S16x64 .f32) = _ from (keep_main_v19_9_7 m ρ c).trans ((wb0_after (W6 m ρ c)).trans (by rw [at_main_arg8_6 m ρ c])),
    show (V9 m ρ c main_v29 : FVec Ideal S1x64 .f32) = _ from v29_at9 m ρ c]
  rfl

/-- Entering the node pipeline, its second window's array holds the messages summed by destination. -/
theorem v33_at11 (hh : (W6 m ρ c (Proc.devRef .tc main_v15) : FVec Ideal S80000x64 .f32) = h) (hv1 : (W1 m ρ c (Proc.devRef .tc main_v1) : IVec S1280000 32) = kSrc (ar2 m c))
    (hv3 : (W1 m ρ c (Proc.devRef .tc main_v3) : IVec S1280000 32) = kDst (ar2 m c)) (hr : SrcInRange (kSrc (ar2 m c))) :
    (W11 m ρ c (Proc.devRef .tc main_v33) : FVec Ideal S80000x64 .f32)
      = kScat (kM h (ar1 m c) (ar2 m c) (kWa0 (ar8 m c)) (kWb0 (ar8 m c)) (kBm0 (ar9 m c))) (kDst (ar2 m c)) :=
  (agg1_after (W10 m ρ c)).trans (by rw [v30_at10 m ρ c h hh hv1 hr, keep_main_v3_10_1 m ρ c, hv3])

theorem v34_at11 : (W11 m ρ c (Proc.devRef .tc main_v34) : FVec Ideal S1x64 .f32) = kBu0 (ar11 m c) :=
  (bu0row_after (W10 m ρ c)).trans (by
    rw [keep_main_v27_10_7 m ρ c, show (W7 m ρ c (Proc.devRef .tc main_v27) : FVec Ideal S64 .f32) = _ from bu0vec_after (W6 m ρ c), at_main_arg11_6 m ρ c]
    rfl)

/-- Leaving the node pipeline its output array holds the node rows after this layer. -/
theorem v35_at12 (hh : (W6 m ρ c (Proc.devRef .tc main_v15) : FVec Ideal S80000x64 .f32) = h) (hv1 : (W1 m ρ c (Proc.devRef .tc main_v1) : IVec S1280000 32) = kSrc (ar2 m c))
    (hv3 : (W1 m ρ c (Proc.devRef .tc main_v3) : IVec S1280000 32) = kDst (ar2 m c)) (hr : SrcInRange (kSrc (ar2 m c))) :
    (W12 m ρ c (Proc.devRef .tc main_v35) : FVec Ideal S80000x64 .f32)
      = kLayer0 h (ar1 m c) (ar2 m c) (ar8 m c) (ar9 m c) (ar10 m c) (ar11 m c) := by
  refine (W12_arr m ρ c 5).trans ((region3_out (V11 m ρ) c).trans ?_)
  rw [show (V11 m ρ c main_v15 : FVec Ideal S80000x64 .f32) = _ from (keep_main_v15_11_6 m ρ c).trans hh,
    show (V11 m ρ c main_v33 : FVec Ideal S80000x64 .f32) = _ from v33_at11 m ρ c h hh hv1 hv3 hr,
    show (V11 m ρ c main_v21 : FVec Ideal S64x64 .f32) = _ from (keep_main_v21_11_7 m ρ c).trans ((ua0_after (W6 m ρ c)).trans (by rw [at_main_arg10_6 m ρ c])),
    show (V11 m ρ c main_v23 : FVec Ideal S64x64 .f32) = _ from (keep_main_v23_11_7 m ρ c).trans ((ub0_after (W6 m ρ c)).trans (by rw [at_main_arg10_6 m ρ c])),
    show (V11 m ρ c main_v34 : FVec Ideal S1x64 .f32) = _ from v34_at11 m ρ c]
  rfl

end Cert.KernelIdeal.Hand

end
-- ==== Proof.Region4.lean ====
/-
  A fused layer over 1,280,000 rows, computed 10240 rows at a time, is ONE whole-array function of its five arrays.

  The layer takes two row-aligned arrays a : [1280000,64] and b : [1280000,16], two weight matrices wa : [64,64] and
  wb : [16,64] and a bias row, and returns at row r and column q

      max ( (sum over k of a[r,k] · wa[k,q]  +  sum over k of b[r,k] · wb[k,q])  +  bias[0,q] ,  0 ).

  It is computed in 125 steps; step t reads rows 10240 t .. 10240 t + 10239 of a and b, the whole of wa, wb and the
  bias, and writes the same rows of the result. First the block a step stores is read at one element: each of its two
  [10240,64] · [64,64] and [10240,16] · [16,64] products into a zero block is the row-by-column sum, the narrowing of the
  operands is the identity on the extended reals, the bias row is spread over the rows, and the clip is a maximum with
  zero. Then what step t writes back is row block t of the layer of the whole arrays, the 125 row blocks cover the
  result, and so the result array holds the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the first layer's block, read at an element

Both products contract the left operand's column axis with the right operand's row axis, so at output element
(p, q) and contraction position k the left operand is read at (p, k) and the right one at (k, q). -/

/-- Left operand of the [10240,64] · [64,64] product: its row is the output's row. -/
theorem lhsA4_0 (i : S10240x64.Idx) (r : dot_S10240x64_S64x64_S10240x64_1_0_0_1_n_n.contr.Idx) :
    (dot_S10240x64_S64x64_S10240x64_1_0_0_1_n_n.lhsIdx i r 0).val = (i 0).val := by
  unfold DotDims.lhsIdx
  rw [dif_neg (show ¬(0 : Fin S10240x64.rank) ∈ dot_S10240x64_S64x64_S10240x64_1_0_0_1_n_n.lhsBatch by decide), dif_pos (show (0 : Fin S10240x64.rank) ∈ dot_S10240x64_S64x64_S10240x64_1_0_0_1_n_n.lhsNonContracting by decide)]
  rfl
/-- Its column is the contraction position. -/
theorem lhsA4_1 (i : S10240x64.Idx) (r : dot_S10240x64_S64x64_S10240x64_1_0_0_1_n_n.contr.Idx) :
    (dot_S10240x64_S64x64_S10240x64_1_0_0_1_n_n.lhsIdx i r 1).val = (r ⟨0, by decide⟩).val :=
  dot_S10240x64_S64x64_S10240x64_1_0_0_1_n_n.lhsIdx_val_of_single rfl i r
/-- Right operand: its row is the contraction position. -/
theorem rhsA4_0 (i : S10240x64.Idx) (r : dot_S10240x64_S64x64_S10240x64_1_0_0_1_n_n.contr.Idx) :
    (dot_S10240x64_S64x64_S10240x64_1_0_0_1_n_n.rhsIdx i r 0).val = (r ⟨0, by decide⟩).val :=
  dot_S10240x64_S64x64_S10240x64_1_0_0_1_n_n.rhsIdx_val_of_single rfl i r
/-- Its column is the output's column. -/
theorem rhsA4_1 (i : S10240x64.Idx) (r : dot_S10240x64_S64x64_S10240x64_1_0_0_1_n_n.contr.Idx) :
    (dot_S10240x64_S64x64_S10240x64_1_0_0_1_n_n.rhsIdx i r 1).val = (i 1).val := by
  unfold DotDims.rhsIdx
  rw [dif_neg (show ¬(1 : Fin S64x64.rank) ∈ dot_S10240x64_S64x64_S10240x64_1_0_0_1_n_n.rhsBatch by decide), dif_pos (show (1 : Fin S64x64.rank) ∈ dot_S10240x64_S64x64_S10240x64_1_0_0_1_n_n.rhsNonContracting by decide)]
  rfl

/-- The [10240,64] · [64,64] product into the zero block, at (p, q): the sum over the 64 columns. -/
theorem prodA4_apply (x : FVec Ideal S10240x64 .bf16) (w : FVec Ideal S64x64 .bf16) (p : Fin 10240) (q : Fin 64) :
    matmul dot_S10240x64_S64x64_S10240x64_1_0_0_1_n_n none x w (constant (F := Ideal) S10240x64 .f32 0x00000000#32) (ix2 p q)
      = ∑ k : Fin 64, x (ix2 p k) * w (ix2 k q) := by
  refine (Ideal.matmul_constant_zero_apply dot_S10240x64_S64x64_S10240x64_1_0_0_1_n_n none x w (ix2 p q)).trans ?_
  rw [← Equiv.sum_comp (contrEquiv1 dot_S10240x64_S64x64_S10240x64_1_0_0_1_n_n 64 rfl rfl).symm]
  refine Finset.sum_congr rfl fun k _ => ?_
  have hk := contrEquiv1_symm_val dot_S10240x64_S64x64_S10240x64_1_0_0_1_n_n 64 rfl rfl k
  have el : dot_S10240x64_S64x64_S10240x64_1_0_0_1_n_n.lhsIdx (ix2 p q) ((contrEquiv1 dot_S10240x64_S64x64_S10240x64_1_0_0_1_n_n 64 rfl rfl).symm k) = ix2 p k := funext fun a => Fin.ext (by
    match a with
    | ⟨0, _⟩ => exact lhsA4_0 _ _
    | ⟨1, _⟩ => exact (lhsA4_1 _ _).trans hk)
  have er : dot_S10240x64_S64x64_S10240x64_1_0_0_1_n_n.rhsIdx (ix2 p q) ((contrEquiv1 dot_S10240x64_S64x64_S10240x64_1_0_0_1_n_n 64 rfl rfl).symm k) = ix2 k q := funext fun a => Fin.ext (by
    match a with
    | ⟨0, _⟩ => exact (rhsA4_0 _ _).trans hk
    | ⟨1, _⟩ => exact rhsA4_1 _ _)
  rw [el, er]

/-- Left operand of the [10240,16] · [16,64] product: its row is the output's row. -/
theorem lhsB4_0 (i : S10240x64.Idx) (r : dot_S10240x16_S16x64_S10240x64_1_0_0_1_n_n.contr.Idx) :
    (dot_S10240x16_S16x64_S10240x64_1_0_0_1_n_n.lhsIdx i r 0).val = (i 0).val := by
  unfold DotDims.lhsIdx
  rw [dif_neg (show ¬(0 : Fin S10240x16.rank) ∈ dot_S10240x16_S16x64_S10240x64_1_0_0_1_n_n.lhsBatch by decide), dif_pos (show (0 : Fin S10240x16.rank) ∈ dot_S10240x16_S16x64_S10240x64_1_0_0_1_n_n.lhsNonContracting by decide)]
  rfl
/-- Its column is the contraction position. -/
theorem lhsB4_1 (i : S10240x64.Idx) (r : dot_S10240x16_S16x64_S10240x64_1_0_0_1_n_n.contr.Idx) :
    (dot_S10240x16_S16x64_S10240x64_1_0_0_1_n_n.lhsIdx i r 1).val = (r ⟨0, by decide⟩).val :=
  dot_S10240x16_S16x64_S10240x64_1_0_0_1_n_n.lhsIdx_val_of_single rfl i r
/-- Right operand: its row is the contraction position. -/
theorem rhsB4_0 (i : S10240x64.Idx) (r : dot_S10240x16_S16x64_S10240x64_1_0_0_1_n_n.contr.Idx) :
    (dot_S10240x16_S16x64_S10240x64_1_0_0_1_n_n.rhsIdx i r 0).val = (r ⟨0, by decide⟩).val :=
  dot_S10240x16_S16x64_S10240x64_1_0_0_1_n_n.rhsIdx_val_of_single rfl i r
/-- Its column is the output's column. -/
theorem rhsB4_1 (i : S10240x64.Idx) (r : dot_S10240x16_S16x64_S10240x64_1_0_0_1_n_n.contr.Idx) :
    (dot_S10240x16_S16x64_S10240x64_1_0_0_1_n_n.rhsIdx i r 1).val = (i 1).val := by
  unfold DotDims.rhsIdx
  rw [dif_neg (show ¬(1 : Fin S16x64.rank) ∈ dot_S10240x16_S16x64_S10240x64_1_0_0_1_n_n.rhsBatch by decide), dif_pos (show (1 : Fin S16x64.rank) ∈ dot_S10240x16_S16x64_S10240x64_1_0_0_1_n_n.rhsNonContracting by decide)]
  rfl

/-- The [10240,16] · [16,64] product into the zero block, at (p, q): the sum over the 16 columns. -/
theorem prodB4_apply (x : FVec Ideal S10240x16 .bf16) (w : FVec Ideal S16x64 .bf16) (p : Fin 10240) (q : Fin 64) :
    matmul dot_S10240x16_S16x64_S10240x64_1_0_0_1_n_n none x w (constant (F := Ideal) S10240x64 .f32 0x00000000#32) (ix2 p q)
      = ∑ k : Fin 16, x (ix2 p k) * w (ix2 k q) := by
  refine (Ideal.matmul_constant_zero_apply dot_S10240x16_S16x64_S10240x64_1_0_0_1_n_n none x w (ix2 p q)).trans ?_
  rw [← Equiv.sum_comp (contrEquiv1 dot_S10240x16_S16x64_S10240x64_1_0_0_1_n_n 16 rfl rfl).symm]
  refine Finset.sum_congr rfl fun k _ => ?_
  have hk := contrEquiv1_symm_val dot_S10240x16_S16x64_S10240x64_1_0_0_1_n_n 16 rfl rfl k
  have el : dot_S10240x16_S16x64_S10240x64_1_0_0_1_n_n.lhsIdx (ix2 p q) ((contrEquiv1 dot_S10240x16_S16x64_S10240x64_1_0_0_1_n_n 16 rfl rfl).symm k) = ix2 p k := funext fun a => Fin.ext (by
    match a with
    | ⟨0, _⟩ => exact lhsB4_0 _ _
    | ⟨1, _⟩ => exact (lhsB4_1 _ _).trans hk)
  have er : dot_S10240x16_S16x64_S10240x64_1_0_0_1_n_n.rhsIdx (ix2 p q) ((contrEquiv1 dot_S10240x16_S16x64_S10240x64_1_0_0_1_n_n 16 rfl rfl).symm k) = ix2 k q := funext fun a => Fin.ext (by
    match a with
    | ⟨0, _⟩ => exact (rhsB4_0 _ _).trans hk
    | ⟨1, _⟩ => exact rhsB4_1 _ _)
  rw [el, er]

/-! ## The block of the layer at an element -/

/-- The bias row spread over the block's rows reads, at (p, q), the row's entry of column q. -/
theorem biasRows4_apply (b : FVec Ideal S1x64 .f32) (p : Fin 10240) (q : Fin 64) :
    broadcastTo S10240x64 b broadcasts_S1x64_S10240x64 (ix2 p q) = b (ix2 (0 : Fin 1) q) := by
  refine broadcastTo_apply b broadcasts_S1x64_S10240x64 (ix2 p q) (ix2 (0 : Fin 1) q) fun a => ?_
  match a with
  | ⟨0, _⟩ => rfl
  | ⟨1, _⟩ => rfl

/-- What one grid point stores, at row p and column q of its block: the two row-by-column sums added, plus the bias of
    column q, clipped below at zero. The format changes on the way are the identity on the extended reals. -/
theorem layerBlock4_apply (x0 : FVec Ideal S10240x64 .f32) (x1 : FVec Ideal S10240x16 .f32) (x2 : FVec Ideal S64x64 .f32)
    (x3 : FVec Ideal S16x64 .f32) (x4 : FVec Ideal S1x64 .f32) (p : Fin 10240) (q : Fin 64) :
    k4_pay1 (F := Ideal) x0 x1 x2 x3 x4 (ix2 p q)
      = max (((∑ k : Fin 64, x0 (ix2 p k) * x2 (ix2 k q)) + ∑ k : Fin 16, x1 (ix2 p k) * x3 (ix2 k q)) + x4 (ix2 (0 : Fin 1) q)) 0 := by
  unfold k4_pay1
  simp only [shapeCast_self]
  rw [maximumf_apply, addf_apply, addf_apply, broadcast_apply, prodA4_apply, prodB4_apply, biasRows4_apply]
  simp only [truncf_apply]
  show max _ (Ideal.ofBits .f32 0x00000000#32) = _
  rw [Ideal.ofBits_zero_f32]

/-! ## From blocks to the array

The grid has 125 points. At point t the two row-aligned inputs and the output sit at row block t (rows 10240 t to
10240 t + 10239), the two weight matrices and the bias row are whole at every point. -/

/-- The offsets of a whole-block access are zero on both axes. -/
theorem zeroOffsets4 : (![0, 0] : Fin 2 → Nat) = fun _ => 0 := funext fun a => by fin_cases a <;> rfl

/-- The block index of every window at every point, decided over the 125 points: the row windows at (t, 0), the
    others at (0, 0). -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of row block t is row 10240 t + p of the array. -/
def row4 (t : Fin cfg4.N) (p : Fin 10240) : Fin 1280000 :=
  ⟨t.val * 10240 + p.val, by have ht : t.val < 125 := lt_of_lt_of_eq t.isLt N_4; have hp := p.isLt; omega⟩

theorem row4_val (t : Fin cfg4.N) (p : Fin 10240) : (row4 t p).val = t.val * 10240 + p.val := rfl

section Blocks
variable (V : (c : Dev nD) → (b : Ref sig .tc) → Buf (Elt Ideal) ((c : Thread nD τ).loc b)) (c : Dev nD)

/-- The first input's block at point t, at (p, k): the array at row 10240 t + p. -/
theorem rowsA4_apply (t : Fin cfg4.N) (p : Fin 10240) (k : Fin 64) :
    (iblk4 (F := Ideal) V c 0 t : FVec Ideal S10240x64 .f32) (ix2 p k) = (V c main_v48 : FVec Ideal S1280000x64 .f32) (ix2 (row4 t p) k) := by
  obtain ⟨e0, e1, -⟩ := blockIndex4 t
  show (V c main_v48 : FVec Ideal S1280000x64 .f32) (((cfg4.win 0).blk t).view.emb (ix2 p k)) = _
  refine congrArg _ (funext fun a => Fin.ext ?_)
  match a with
  | ⟨0, _⟩ => show win4_0.index t (0 : Fin 2) * 10240 + 1 * p.val = t.val * 10240 + p.val; omega
  | ⟨1, _⟩ => show win4_0.index t (1 : Fin 2) * 64 + 1 * k.val = k.val; omega

/-- The second input's block at point t, at (p, k): the array at row 10240 t + p. -/
theorem rowsB4_apply (t : Fin cfg4.N) (p : Fin 10240) (k : Fin 16) :
    (iblk4 (F := Ideal) V c 1 t : FVec Ideal S10240x16 .f32) (ix2 p k) = (V c main_arg1 : FVec Ideal S1280000x16 .f32) (ix2 (row4 t p) k) := by
  obtain ⟨-, -, e0, e1, -⟩ := blockIndex4 t
  show (V c main_arg1 : FVec Ideal S1280000x16 .f32) (((cfg4.win 1).blk t).view.emb (ix2 p k)) = _
  refine congrArg _ (funext fun a => Fin.ext ?_)
  match a with
  | ⟨0, _⟩ => show win4_1.index t (0 : Fin 2) * 10240 + 1 * p.val = t.val * 10240 + p.val; omega
  | ⟨1, _⟩ => show win4_1.index t (1 : Fin 2) * 16 + 1 * k.val = k.val; omega

/-- The first weight matrix is whole at every point. -/
theorem weightsA4_apply (t : Fin cfg4.N) (k : Fin 64) (q : Fin 64) :
    (iblk4 (F := Ideal) V c 2 t : FVec Ideal S64x64 .f32) (ix2 k q) = (V c main_v37 : FVec Ideal S64x64 .f32) (ix2 k q) := by
  obtain ⟨-, -, -, -, e0, e1, -⟩ := blockIndex4 t
  show (V c main_v37 : FVec Ideal S64x64 .f32) (((cfg4.win 2).blk t).view.emb (ix2 k q)) = _
  refine congrArg _ (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

/-- The second weight matrix is whole at every point. -/
theorem weightsB4_apply (t : Fin cfg4.N) (k : Fin 16) (q : Fin 64) :
    (iblk4 (F := Ideal) V c 3 t : FVec Ideal S16x64 .f32) (ix2 k q) = (V c main_v39 : FVec Ideal S16x64 .f32) (ix2 k q) := by
  obtain ⟨-, -, -, -, -, -, e0, e1, -⟩ := blockIndex4 t
  show (V c main_v39 : FVec Ideal S16x64 .f32) (((cfg4.win 3).blk t).view.emb (ix2 k q)) = _
  refine congrArg _ (funext fun a => Fin.ext ?_)
  match a with
  | ⟨0, _⟩ => show win4_3.index t (0 : Fin 2) * 16 + 1 * k.val = k.val; omega
  | ⟨1, _⟩ => show win4_3.index t (1 : Fin 2) * 64 + 1 * q.val = q.val; omega

/-- The bias row is whole at every point. -/
theorem bias4_apply (t : Fin cfg4.N) (z : Fin 1) (q : Fin 64) :
    (iblk4 (F := Ideal) V c 4 t : FVec Ideal S1x64 .f32) (ix2 z q) = (V c main_v49 : FVec Ideal S1x64 .f32) (ix2 z q) := by
  obtain ⟨-, -, -, -, -, -, -, -, e0, e1, -⟩ := blockIndex4 t
  show (V c main_v49 : FVec Ideal S1x64 .f32) (((cfg4.win 4).blk t).view.emb (ix2 z q)) = _
  refine congrArg _ (funext fun a => Fin.ext ?_)
  match a with
  | ⟨0, _⟩ => show win4_4.index t (0 : Fin 2) * 1 + 1 * z.val = z.val; omega
  | ⟨1, _⟩ => show win4_4.index t (1 : Fin 2) * 64 + 1 * q.val = q.val; omega

/-- Element (p, q) of the output's block at point t is element (10240 t + p, q) of the array. -/
theorem outRows4_emb (t : Fin cfg4.N) (p : Fin 10240) (q : Fin 64) :
    (((cfg4.win 5).blk t).view.emb (ix2 p q) : S1280000x64.Idx) = ix2 (row4 t p) q := by
  obtain ⟨-, -, -, -, -, -, -, -, -, -, e0, e1⟩ := blockIndex4 t
  refine funext fun a => Fin.ext ?_
  match a with
  | ⟨0, _⟩ => show win4_5.index t (0 : Fin 2) * 10240 + 1 * p.val = t.val * 10240 + p.val; omega
  | ⟨1, _⟩ => show win4_5.index t (1 : Fin 2) * 64 + 1 * q.val = q.val; omega

/-- WHAT POINT t WRITES BACK is row block t of the layer of the five arrays as the region finds them. -/
theorem writeBack4_eq (t : Fin cfg4.N) :
    (dat4 (F := Ideal) V c).flushed 5 t = ((cfg4.win 5).blk t).view.read (Elt Ideal)
      (mlp2 (V c main_v48 : FVec Ideal S1280000x64 .f32) (V c main_arg1 : FVec Ideal S1280000x16 .f32)
        (V c main_v37 : FVec Ideal S64x64 .f32) (V c main_v39 : FVec Ideal S16x64 .f32) (V c main_v49 : FVec Ideal S1x64 .f32)) := by
  show (cfg4.win 5).cut (grid4.coords t) ((dat4 (F := Ideal) V c).after 5 t) = _
  rw [after4_5]
  unfold out4_5
  rw [View.canon_unit_zero zeroOffsets4]
  simp only [View.ld_unit_zero (S := S10240x64) zeroOffsets4, View.ld_unit_zero (S := S10240x16) zeroOffsets4,
    View.ld_unit_zero (S := S64x64) zeroOffsets4, View.ld_unit_zero (S := S16x64) zeroOffsets4, View.ld_unit_zero (S := S1x64) zeroOffsets4]
  funext j
  obtain ⟨p, q, rfl⟩ : ∃ (p : Fin 10240) (q : Fin 64), j = ix2 p q := ⟨j 0, j 1, eq_ix2 j⟩
  show k4_pay1 (F := Ideal) (iblk4 V c 0 t) (iblk4 V c 1 t) (iblk4 V c 2 t) (iblk4 V c 3 t) (iblk4 V c 4 t) (ix2 p q)
    = mlp2 (V c main_v48 : FVec Ideal S1280000x64 .f32) (V c main_arg1 : FVec Ideal S1280000x16 .f32)
        (V c main_v37 : FVec Ideal S64x64 .f32) (V c main_v39 : FVec Ideal S16x64 .f32) (V c main_v49 : FVec Ideal S1x64 .f32)
        (((cfg4.win 5).blk t).view.emb (ix2 p q))
  rw [outRows4_emb t p q, mlp2_apply, layerBlock4_apply]
  simp only [rowsA4_apply V c t, rowsB4_apply V c t, weightsA4_apply V c t, weightsB4_apply V c t, bias4_apply V c t]
  rfl

end Blocks

/-! ## The cover, and the array after the region -/

/-- An index of the output array is in point t's block iff each coordinate is in the block's range on its axis. -/
theorem mem_outRows4 (t : Fin cfg4.N) (i : S1280000x64.Idx) :
    i ∈ ((cfg4.win 5).blk t).view.set ↔ ∀ a : Fin 2, win4_5.index t a * S10240x64.size a ≤ (i a).val ∧ (i a).val < win4_5.index t a * S10240x64.size a + S10240x64.size a := by
  show i ∈ ((View.whole main_v50).slice (win4_5.rect t)).set ↔ _
  rw [View.set_slice_whole, Rect.mem_set_unit]
  exact Iff.rfl

/-- Every row r of the output array is in the block of the point r / 10240, and every point writes back. -/
theorem outRows4_cover (i : S1280000x64.Idx) :
    ∃ t : Fin cfg4.N, (cfg4.win 5).flush t = true ∧ i ∈ ((cfg4.win 5).blk t).view.set := by
  have hi0 : (i 0).val < 1280000 := (i 0).isLt
  have hi1 : (i 1).val < 64 := (i 1).isLt
  obtain ⟨t, ht⟩ : ∃ t : Fin cfg4.N, t.val = (i 0).val / 10240 :=
    ⟨⟨(i 0).val / 10240, by rw [show cfg4.N = 125 from N_4]; omega⟩, rfl⟩
  obtain ⟨-, -, -, -, -, -, -, -, -, -, e0, e1⟩ := blockIndex4 t
  refine ⟨t, flush4_5 t, ?_⟩
  rw [mem_outRows4]
  intro a
  match a with
  | ⟨0, _⟩ => show win4_5.index t (0 : Fin 2) * 10240 ≤ (i 0).val ∧ (i 0).val < win4_5.index t (0 : Fin 2) * 10240 + 10240; omega
  | ⟨1, _⟩ => show win4_5.index t (1 : Fin 2) * 64 ≤ (i 1).val ∧ (i 1).val < win4_5.index t (1 : Fin 2) * 64 + 64; omega

/-- THE ARRAY AFTER THE REGION: the layer of the five input arrays as the region finds them. -/
theorem region4_out (V : (c : Dev nD) → (b : Ref sig .tc) → Buf (Elt Ideal) ((c : Thread nD τ).loc b)) (c : Dev nD) :
    ((dat4 (F := Ideal) V c).arrAt 5 cfg4.N : FVec Ideal S1280000x64 .f32)
      = mlp2 (V c main_v48 : FVec Ideal S1280000x64 .f32) (V c main_arg1 : FVec Ideal S1280000x16 .f32)
          (V c main_v37 : FVec Ideal S64x64 .f32) (V c main_v39 : FVec Ideal S16x64 .f32) (V c main_v49 : FVec Ideal S1x64 .f32) :=
  (dat4 (F := Ideal) V c).arrAt_eq_of_cover 5 _ (fun t _ => writeBack4_eq V c t) outRows4_cover

end Cert.KernelIdeal.Hand

end
-- ==== Proof.Region5.lean ====
/-
  One launch of the fused layer, read as a whole array.

  The launch walks the 80000 rows of its two row-aligned inputs `a` and `b` in ten blocks of 8000 rows. At each block it
  multiplies the block of `a` by the matrix `wa` and the block of `b` by the matrix `wb` (64 columns each), adds the two
  products and the bias row `bias : [1, 64]`, clips at zero, and writes the 8000 × 64 result back as the same block of
  rows of the output. Three facts give the output array:

    * at row `p`, column `q` of a block the stored value is the layer of the five loaded blocks at `(p, q)`: a product
      into a zero accumulator is the plain sum over the contracted axis, the narrowing of the operands to bf16 is the
      identity on extended reals, and the broadcast bias row is read at column `q`;
    * row `p` of block `t` of `a`, of `b` and of the output is row `8000 t + p` of the array, while the two matrices
      and the bias row are whole at every block: so what block `t` writes back is block `t` of the layer of the whole
      arrays;
    * row `r` lies in block `r / 8000`, so the ten blocks cover the output, and the output array is the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the layer, read at an index -/

/-- In the product of a block of `a` by `wa`, the left operand is read at the output's row … -/
theorem rowsA5_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsA5_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsA5_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsA5_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `a` times `wa`, accumulated into zero, read at row `p` and column `q`: the sum over `k` of
    `a[p,k] · wa[k,q]`. -/
theorem rowsA5_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsA5_lhs_0 _ _
    | ⟨1, _⟩ => exact (rowsA5_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsA5_rhs_0 _ _).trans hk
    | ⟨1, _⟩ => exact rowsA5_rhs_1 _ _)
  rw [el, er]

/-- In the product of a block of `b` by `wb`, the left operand is read at the output's row … -/
theorem rowsB5_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsB5_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsB5_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsB5_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `b` times `wb`, accumulated into zero, read at row `p` and column `q`: the sum over `k` of
    `b[p,k] · wb[k,q]`. -/
theorem rowsB5_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsB5_lhs_0 _ _
    | ⟨1, _⟩ => exact (rowsB5_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsB5_rhs_0 _ _).trans hk
    | ⟨1, _⟩ => exact rowsB5_rhs_1 _ _)
  rw [el, er]

/-! ## The block's payload is the layer -/

/-- What the body stores, read at row `p` and column `q` of the block: the layer of the five blocks it loaded. The
    narrowing to bf16 is the identity on extended reals, so nothing is left of it. -/
theorem layer5_block_apply (x0 : Vec Ideal S8000x64 .f32) (x1 : Vec Ideal S8000x64 .f32) (x2 : Vec Ideal S64x64 .f32)
    (x3 : Vec Ideal S64x64 .f32) (x4 : Vec Ideal S1x64 .f32) (p : Fin 8000) (q : Fin 64) :
    k5_pay1 (F := Ideal) x0 x1 x2 x3 x4 (ix2 p q) = mlpAt x0 x1 x2 x3 x4 p q := by
  unfold k5_pay1 mlpAt
  simp only [shapeCast_self]
  rw [maximumf_apply, addf_apply, addf_apply, rowsA5_apply, rowsB5_apply, broadcastTo_1b_ab_apply, broadcast_apply]
  simp only [truncf_apply]
  exact congrArg (max _) Ideal.ofBits_zero_f32

/-! ## From blocks to the array -/

/-- The zero offsets of a block-sized access, as the constant function. -/
theorem zeroOffsets5 : (![0, 0] : Fin 2 → Nat) = fun _ => 0 := funext fun a => by
  match a with
  | ⟨0, _⟩ => rfl
  | ⟨1, _⟩ => rfl

/-- Where each window's block sits at point `t`: the two row-aligned inputs and the output move down the rows with the
    point, block `t` of 8000 rows; the two weight matrices and the bias row are whole at every point. -/
theorem blockIndex5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0) :=
  (by decide +kernel : ∀ t : Fin grid5.N, _)

/-- The region has ten points. -/
theorem points5 (t : Fin cfg5.N) : t.val < 10 := lt_of_lt_of_eq t.isLt N_5

section
variable (V : (c : Dev nD) → (b : Ref sig .tc) → Buf (Elt Ideal) ((c : Thread nD τ).loc b)) (c : Dev nD)

/-- Row `p` of point `t`'s block of `a` is row `8000 t + p` of `a`. -/
theorem blockA5_apply (t : Fin cfg5.N) (p : Fin 8000) (k : Fin 64) :
    (iblk5 V c 0 t : Vec Ideal S8000x64 .f32) (ix2 p k)
      = (V c main_v35 : FVec Ideal S80000x64 .f32) (ix2 ⟨t.val * 8000 + p.val, by have := points5 t; omega⟩ k) := by
  obtain ⟨⟨e0, e1⟩, -⟩ := blockIndex5 t
  show V c main_v35 (((cfg5.win 0).blk t).view.emb (ix2 p k)) = V c main_v35 _
  refine congrArg _ (funext fun a => Fin.ext ?_)
  match a with
  | ⟨0, _⟩ => show win5_0.index t (0 : Fin 2) * 8000 + 1 * p.val = t.val * 8000 + p.val; rw [e0]; omega
  | ⟨1, _⟩ => show win5_0.index t (1 : Fin 2) * 64 + 1 * k.val = k.val; rw [e1]; omega

/-- Row `p` of point `t`'s block of `b` is row `8000 t + p` of `b`. -/
theorem blockB5_apply (t : Fin cfg5.N) (p : Fin 8000) (k : Fin 64) :
    (iblk5 V c 1 t : Vec Ideal S8000x64 .f32) (ix2 p k)
      = (V c main_v53 : FVec Ideal S80000x64 .f32) (ix2 ⟨t.val * 8000 + p.val, by have := points5 t; omega⟩ k) := by
  obtain ⟨-, ⟨e0, e1⟩, -⟩ := blockIndex5 t
  show V c main_v53 (((cfg5.win 1).blk t).view.emb (ix2 p k)) = V c main_v53 _
  refine congrArg _ (funext fun a => Fin.ext ?_)
  match a with
  | ⟨0, _⟩ => show win5_1.index t (0 : Fin 2) * 8000 + 1 * p.val = t.val * 8000 + p.val; rw [e0]; omega
  | ⟨1, _⟩ => show win5_1.index t (1 : Fin 2) * 64 + 1 * k.val = k.val; rw [e1]; omega

/-- The block of `wa` is `wa`, at every point. -/
theorem blockWa5_eq (t : Fin cfg5.N) :
    (iblk5 V c 2 t : Vec Ideal S64x64 .f32) = (V c main_v41 : FVec Ideal S64x64 .f32) := by
  obtain ⟨-, -, ⟨e0, e1⟩, -⟩ := blockIndex5 t
  funext y
  show V c main_v41 (((cfg5.win 2).blk t).view.emb y) = V c main_v41 y
  refine congrArg _ (funext fun a => Fin.ext ?_)
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

/-- The block of `wb` is `wb`, at every point. -/
theorem blockWb5_eq (t : Fin cfg5.N) :
    (iblk5 V c 3 t : Vec Ideal S64x64 .f32) = (V c main_v43 : FVec Ideal S64x64 .f32) := by
  obtain ⟨-, -, -, ⟨e0, e1⟩, -⟩ := blockIndex5 t
  funext y
  show V c main_v43 (((cfg5.win 3).blk t).view.emb y) = V c main_v43 y
  refine congrArg _ (funext fun a => Fin.ext ?_)
  match a with
  | ⟨0, _⟩ => show win5_3.index t (0 : Fin 2) * 64 + 1 * (y 0).val = (y 0).val; rw [e0]; omega
  | ⟨1, _⟩ => show win5_3.index t (1 : Fin 2) * 64 + 1 * (y 1).val = (y 1).val; rw [e1]; omega

/-- The block of the bias row is the bias row, at every point. -/
theorem blockBias5_eq (t : Fin cfg5.N) :
    (iblk5 V c 4 t : Vec Ideal S1x64 .f32) = (V c main_v54 : FVec Ideal S1x64 .f32) := by
  obtain ⟨-, -, -, -, ⟨e0, e1⟩, -⟩ := blockIndex5 t
  funext y
  show V c main_v54 (((cfg5.win 4).blk t).view.emb y) = V c main_v54 y
  refine congrArg _ (funext fun a => Fin.ext ?_)
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- Row `p` of point `t`'s block of any array of the output's shape is its row `8000 t + p`. -/
theorem blockOut5_apply (G : FVec Ideal S80000x64 .f32) (t : Fin cfg5.N) (p : Fin 8000) (q : Fin 64) :
    (((cfg5.win 5).blk t).view.read (Elt Ideal) G : Vec Ideal S8000x64 .f32) (ix2 p q)
      = G (ix2 ⟨t.val * 8000 + p.val, by have := points5 t; omega⟩ q) := by
  obtain ⟨-, -, -, -, -, ⟨e0, e1⟩⟩ := blockIndex5 t
  show G (((cfg5.win 5).blk t).view.emb (ix2 p q)) = G _
  refine congrArg _ (funext fun a => Fin.ext ?_)
  match a with
  | ⟨0, _⟩ => show win5_5.index t (0 : Fin 2) * 8000 + 1 * p.val = t.val * 8000 + p.val; rw [e0]; omega
  | ⟨1, _⟩ => show win5_5.index t (1 : Fin 2) * 64 + 1 * q.val = q.val; rw [e1]; omega

end

/-- The layer of row blocks is a row block of the layer: if `x0`, `x1` hold rows `8000 t …` of `a`, `b`, the layer of
    `x0`, `x1` and the weights at row `p` is the layer of `a`, `b` at row `8000 t + p`. -/
theorem rowBlock_layer5 (a : FVec Ideal S80000x64 .f32) (b : FVec Ideal S80000x64 .f32) (wa : FVec Ideal S64x64 .f32)
    (wb : FVec Ideal S64x64 .f32) (bias : FVec Ideal S1x64 .f32) (x0 : Vec Ideal S8000x64 .f32) (x1 : Vec Ideal S8000x64 .f32)
    (p : Fin 8000) (r : Fin 80000) (q : Fin 64)
    (h0 : ∀ k, x0 (ix2 p k) = a (ix2 r k)) (h1 : ∀ k, x1 (ix2 p k) = b (ix2 r k)) :
    mlpAt x0 x1 wa wb bias p q = mlpAt a b wa wb bias r q := by
  unfold mlpAt
  simp only [h0, h1]

/-- WHAT POINT `t` WRITES BACK is block `t` of the layer of the five arrays as the region finds them. -/
theorem flushed5_eq (V : (c : Dev nD) → (b : Ref sig .tc) → Buf (Elt Ideal) ((c : Thread nD τ).loc b)) (c : Dev nD) (t : Fin cfg5.N) :
    (dat5 (F := Ideal) V c).flushed 5 t = ((cfg5.win 5).blk t).view.read (Elt Ideal)
      (mlp2 (V c main_v35 : FVec Ideal S80000x64 .f32) (V c main_v53 : FVec Ideal S80000x64 .f32)
        (V c main_v41 : FVec Ideal S64x64 .f32) (V c main_v43 : FVec Ideal S64x64 .f32) (V c main_v54 : FVec Ideal S1x64 .f32)) := by
  show (cfg5.win 5).cut (grid5.coords t) ((dat5 V c).after 5 t) = _
  rw [after5_5]
  unfold out5_5
  rw [View.canon_unit_zero zeroOffsets5]
  simp only [View.ld_unit_zero (S := S8000x64) zeroOffsets5, View.ld_unit_zero (S := S8000x64) zeroOffsets5,
    View.ld_unit_zero (S := S64x64) zeroOffsets5, View.ld_unit_zero (S := S64x64) zeroOffsets5,
    View.ld_unit_zero (S := S1x64) zeroOffsets5]
  rw [blockWa5_eq, blockWb5_eq, blockBias5_eq]
  funext j
  obtain ⟨p, q, rfl⟩ : ∃ (p : Fin 8000) (q : Fin 64), j = ix2 p q := ⟨j 0, j 1, eq_ix2 j⟩
  refine Eq.trans ?_ (blockOut5_apply _ t p q).symm
  rw [mlp2_apply]
  refine Eq.trans (layer5_block_apply _ _ _ _ _ p q) ?_
  exact rowBlock_layer5 _ _ _ _ _ _ _ p _ q (blockA5_apply V c t p) (blockB5_apply V c t p)

/-- An index of the output array is in point `t`'s block iff each coordinate is in the block's range on its axis. -/
theorem mem_blockOut5 (t : Fin cfg5.N) (i : S80000x64.Idx) :
    i ∈ ((cfg5.win 5).blk t).view.set ↔ ∀ a : Fin 2, win5_5.index t a * S8000x64.size a ≤ (i a).val ∧ (i a).val < win5_5.index t a * S8000x64.size a + S8000x64.size a := by
  show i ∈ ((View.whole main_v55).slice (win5_5.rect t)).set ↔ _
  rw [View.set_slice_whole, Rect.mem_set_unit]
  exact Iff.rfl

/-- Every row of the output is in the block of the point `row / 8000`, and every point writes back. -/
theorem cover5 (i : S80000x64.Idx) :
    ∃ t : Fin cfg5.N, (cfg5.win 5).flush t = true ∧ i ∈ ((cfg5.win 5).blk t).view.set := by
  have hi0 : (i 0).val < 80000 := (i 0).isLt
  have hi1 : (i 1).val < 64 := (i 1).isLt
  have ht : (i 0).val / 8000 < cfg5.N := by rw [show cfg5.N = 10 from N_5]; omega
  refine ⟨⟨(i 0).val / 8000, ht⟩, flush5_5 _, ?_⟩
  obtain ⟨-, -, -, -, -, ⟨e0, e1⟩⟩ := blockIndex5 ⟨(i 0).val / 8000, ht⟩
  rw [mem_blockOut5]
  intro a
  match a with
  | ⟨0, _⟩ =>
    show win5_5.index ⟨(i 0).val / 8000, ht⟩ (0 : Fin 2) * 8000 ≤ (i 0).val ∧ (i 0).val < win5_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win5_5.index ⟨(i 0).val / 8000, ht⟩ (1 : Fin 2) * 64 ≤ (i 1).val ∧ (i 1).val < win5_5.index ⟨(i 0).val / 8000, ht⟩ (1 : Fin 2) * 64 + 64
    rw [e1]; omega

/-- THE ARRAY after the region: the layer of the five arrays as the region finds them. -/
theorem region5_out (V : (c : Dev nD) → (b : Ref sig .tc) → Buf (Elt Ideal) ((c : Thread nD τ).loc b)) (c : Dev nD) :
    ((dat5 (F := Ideal) V c).arrAt 5 cfg5.N : FVec Ideal S80000x64 .f32)
      = mlp2 (V c main_v35 : FVec Ideal S80000x64 .f32) (V c main_v53 : FVec Ideal S80000x64 .f32)
          (V c main_v41 : FVec Ideal S64x64 .f32) (V c main_v43 : FVec Ideal S64x64 .f32) (V c main_v54 : FVec Ideal S1x64 .f32) :=
  (dat5 (F := Ideal) V c).arrAt_eq_of_cover 5 _ (fun t _ => flushed5_eq V c t) cover5

end Cert.KernelIdeal.Hand

end
-- ==== Proof.WalkL2.lean ====
/-
  The third layer (the second of the three later layers), read off the run.

  The layer starts from the node rows the layer before it left (`h`). The program cuts page 1 of the stacked weights
  and biases, takes the source rows of `h` (the outlined take: under the range fact, the gather), lays the message bias
  out as a row, runs the edge pipeline, scatter-adds its rows at the destination indices, lays the update bias out as a
  row, and runs the node pipeline. Each lemma says what ONE buffer holds at ONE boundary of the run; the last says that
  the node rows after the layer are the specification's layer applied to `h`.
-/
import proofs.«422392_j11433202942183_1_alg».proof.Proof.KeepTable
import proofs.«422392_j11433202942183_1_alg».proof.Proof.WalkArgs
import proofs.«422392_j11433202942183_1_alg».proof.Proof.Region4
import proofs.«422392_j11433202942183_1_alg».proof.Proof.Region5
import proofs.«422392_j11433202942183_1_alg».proof.Proof.TakeFold
import Idealize.ShloMosaic.Lib.StableHlo.Run

set_option maxRecDepth 16384

noncomputable section

namespace Cert.KernelIdeal.Hand

open Idealize.ShloMosaic Cert.KernelIdeal Cert.KernelIdeal.Gen Cert.MlpSpec
open Idealize.ShloMosaic.TcCoe Idealize.SL.Sem
open Idealize.ShloMosaic.Pipeline (Dat)

variable (m : (ℓ : Loc nD τ sig) → Buf (Elt Ideal) ℓ) (ρ : Dev nD → PrngReg)

/-! ## What a stretch writes, over any contents before it -/

/-- The rows of the message weights that meet the node rows. -/
theorem wa0_after_L2 (Wp : Valuation τ sig (Elt Ideal)) :
    (StableHlo.after hostOps4 Wp (Proc.devRef .tc main_v37) : FVec Ideal S64x64 .f32) = kWa1 (Wp (Proc.devRef .tc main_arg8)) := by
  simp only [hostOps4]
  after_results
  all_goals rfl

/-- The rows of the message weights that meet the edge rows. -/
theorem wb0_after_L2 (Wp : Valuation τ sig (Elt Ideal)) :
    (StableHlo.after hostOps4 Wp (Proc.devRef .tc main_v39) : FVec Ideal S16x64 .f32) = kWb1 (Wp (Proc.devRef .tc main_arg8)) := by
  simp only [hostOps4]
  after_results
  all_goals rfl

/-- The rows of the update weights that meet the node rows. -/
theorem ua0_after_L2 (Wp : Valuation τ sig (Elt Ideal)) :
    (StableHlo.after hostOps4 Wp (Proc.devRef .tc main_v41) : FVec Ideal S64x64 .f32) = kUa1 (Wp (Proc.devRef .tc main_arg10)) := by
  simp only [hostOps4]
  after_results
  all_goals rfl

/-- The rows of the update weights that meet the summed messages. -/
theorem ub0_after_L2 (Wp : Valuation τ sig (Elt Ideal)) :
    (StableHlo.after hostOps4 Wp (Proc.devRef .tc main_v43) : FVec Ideal S64x64 .f32) = kUb1 (Wp (Proc.devRef .tc main_arg10)) := by
  simp only [hostOps4]
  after_results
  all_goals rfl

/-- The message bias as a vector. -/
theorem bm0vec_after_L2 (Wp : Valuation τ sig (Elt Ideal)) :
    (StableHlo.after hostOps4 Wp (Proc.devRef .tc main_v45) : FVec Ideal S64 .f32) = shapeCast _ (extractStridedSlice S1x64 ![1, 0] (Wp (Proc.devRef .tc main_arg9)) slices_S3x64_S1x64_1_0) shapeCasts_S1x64_S64 := by
  simp only [hostOps4]
  after_results
  all_goals rfl

/-- The update bias as a vector. -/
theorem bu0vec_after_L2 (Wp : Valuation τ sig (Elt Ideal)) :
    (StableHlo.after hostOps4 Wp (Proc.devRef .tc main_v47) : FVec Ideal S64 .f32) = shapeCast _ (extractStridedSlice S1x64 ![1, 0] (Wp (Proc.devRef .tc main_arg11)) slices_S3x64_S1x64_1_0) shapeCasts_S1x64_S64 := by
  simp only [hostOps4]
  after_results
  all_goals rfl

/-- The message bias laid out as a row. -/
theorem bm0row_after_L2 (Wp : Valuation τ sig (Elt Ideal)) :
    (StableHlo.after hostOps4_2 Wp (Proc.devRef .tc main_v49) : FVec Ideal S1x64 .f32) = shapeCast _ (Wp (Proc.devRef .tc main_v45)) shapeCasts_S64_S1x64 := by
  simp only [hostOps4_2]
  after_results
  all_goals rfl

/-- The messages added into a zero node array at the destination indices. -/
theorem agg1_after_L2 (Wp : Valuation τ sig (Elt Ideal)) :
    (StableHlo.after hostOps5 Wp (Proc.devRef .tc main_v53) : FVec Ideal S80000x64 .f32) = kScat (Wp (Proc.devRef .tc main_v50)) (Wp (Proc.devRef .tc main_v3)) := by
  simp only [hostOps5]
  after_results
  all_goals rfl

/-- The update bias laid out as a row. -/
theorem bu0row_after_L2 (Wp : Valuation τ sig (Elt Ideal)) :
    (StableHlo.after hostOps5 Wp (Proc.devRef .tc main_v54) : FVec Ideal S1x64 .f32) = shapeCast _ (Wp (Proc.devRef .tc main_v47)) shapeCasts_S64_S1x64 := by
  simp only [hostOps5]
  after_results
  all_goals rfl

/-! ## The buffers at the boundaries of this layer -/

variable (c : Dev nD) (h : FVec Ideal S80000x64 .f32)

/-- Entering the edge pipeline, its first window's array holds the source rows of `h`. -/
theorem v48_at15 (hh : (W12 m ρ c (Proc.devRef .tc main_v35) : FVec Ideal S80000x64 .f32) = h) (hv1 : (W1 m ρ c (Proc.devRef .tc main_v1) : IVec S1280000 32) = kSrc (ar2 m c))
    (hr : SrcInRange (kSrc (ar2 m c))) :
    (W15 m ρ c (Proc.devRef .tc main_v48) : FVec Ideal S1280000x64 .f32) = kGather64 h (kSrc (ar2 m c)) :=
  (keep_main_v48_15_14 m ρ c).trans ((take_fold2 (W13 m ρ c) (by rw [keep_main_v1_13_1 m ρ c, hv1]; exact hr)).trans
    (by rw [keep_main_v35_13_12 m ρ c, hh, keep_main_v1_13_1 m ρ c, hv1]))

theorem v49_at15 : (W15 m ρ c (Proc.devRef .tc main_v49) : FVec Ideal S1x64 .f32) = kBm1 (ar9 m c) :=
  (bm0row_after_L2 (W14 m ρ c)).trans (by
    rw [keep_main_v45_14_13 m ρ c, show (W13 m ρ c (Proc.devRef .tc main_v45) : FVec Ideal S64 .f32) = _ from bm0vec_after_L2 (W12 m ρ c), at_main_arg9_12 m ρ c]
    rfl)

/-- Leaving the edge pipeline its output array holds this layer's messages. -/
theorem v50_at16 (hh : (W12 m ρ c (Proc.devRef .tc main_v35) : FVec Ideal S80000x64 .f32) = h) (hv1 : (W1 m ρ c (Proc.devRef .tc main_v1) : IVec S1280000 32) = kSrc (ar2 m c))
    (hr : SrcInRange (kSrc (ar2 m c))) :
    (W16 m ρ c (Proc.devRef .tc main_v50) : FVec Ideal S1280000x64 .f32) = kM h (ar1 m c) (ar2 m c) (kWa1 (ar8 m c)) (kWb1 (ar8 m c)) (kBm1 (ar9 m c)) := by
  refine (W16_arr m ρ c 5).trans ((region4_out (V15 m ρ) c).trans ?_)
  rw [show (V15 m ρ c main_v48 : FVec Ideal S1280000x64 .f32) = _ from v48_at15 m ρ c h hh hv1 hr,
    show (V15 m ρ c main_arg1 : FVec Ideal S1280000x16 .f32) = _ from at_main_arg1_15 m ρ c,
    show (V15 m ρ c main_v37 : FVec Ideal S64x64 .f32) = _ from (keep_main_v37_15_13 m ρ c).trans ((wa0_after_L2 (W12 m ρ c)).trans (by rw [at_main_arg8_12 m ρ c])),
    show (V15 m ρ c main_v39 : FVec Ideal S16x64 .f32) = _ from (keep_main_v39_15_13 m ρ c).trans ((wb0_after_L2 (W12 m ρ c)).trans (by rw [at_main_arg8_12 m ρ c])),
    show (V15 m ρ c main_v49 : FVec Ideal S1x64 .f32) = _ from v49_at15 m ρ c]
  rfl

/-- Entering the node pipeline, its second window's array holds the messages summed by destination. -/
theorem v53_at17 (hh : (W12 m ρ c (Proc.devRef .tc main_v35) : FVec Ideal S80000x64 .f32) = h) (hv1 : (W1 m ρ c (Proc.devRef .tc main_v1) : IVec S1280000 32) = kSrc (ar2 m c))
    (hv3 : (W1 m ρ c (Proc.devRef .tc main_v3) : IVec S1280000 32) = kDst (ar2 m c)) (hr : SrcInRange (kSrc (ar2 m c))) :
    (W17 m ρ c (Proc.devRef .tc main_v53) : FVec Ideal S80000x64 .f32)
      = kScat (kM h (ar1 m c) (ar2 m c) (kWa1 (ar8 m c)) (kWb1 (ar8 m c)) (kBm1 (ar9 m c))) (kDst (ar2 m c)) :=
  (agg1_after_L2 (W16 m ρ c)).trans (by rw [v50_at16 m ρ c h hh hv1 hr, keep_main_v3_16_1 m ρ c, hv3])

theorem v54_at17 : (W17 m ρ c (Proc.devRef .tc main_v54) : FVec Ideal S1x64 .f32) = kBu1 (ar11 m c) :=
  (bu0row_after_L2 (W16 m ρ c)).trans (by
    rw [keep_main_v47_16_13 m ρ c, show (W13 m ρ c (Proc.devRef .tc main_v47) : FVec Ideal S64 .f32) = _ from bu0vec_after_L2 (W12 m ρ c), at_main_arg11_12 m ρ c]
    rfl)

/-- Leaving the node pipeline its output array holds the node rows after this layer. -/
theorem v55_at18 (hh : (W12 m ρ c (Proc.devRef .tc main_v35) : FVec Ideal S80000x64 .f32) = h) (hv1 : (W1 m ρ c (Proc.devRef .tc main_v1) : IVec S1280000 32) = kSrc (ar2 m c))
    (hv3 : (W1 m ρ c (Proc.devRef .tc main_v3) : IVec S1280000 32) = kDst (ar2 m c)) (hr : SrcInRange (kSrc (ar2 m c))) :
    (W18 m ρ c (Proc.devRef .tc main_v55) : FVec Ideal S80000x64 .f32)
      = kLayer1 h (ar1 m c) (ar2 m c) (ar8 m c) (ar9 m c) (ar10 m c) (ar11 m c) := by
  refine (W18_arr m ρ c 5).trans ((region5_out (V17 m ρ) c).trans ?_)
  rw [show (V17 m ρ c main_v35 : FVec Ideal S80000x64 .f32) = _ from (keep_main_v35_17_12 m ρ c).trans hh,
    show (V17 m ρ c main_v53 : FVec Ideal S80000x64 .f32) = _ from v53_at17 m ρ c h hh hv1 hv3 hr,
    show (V17 m ρ c main_v41 : FVec Ideal S64x64 .f32) = _ from (keep_main_v41_17_13 m ρ c).trans ((ua0_after_L2 (W12 m ρ c)).trans (by rw [at_main_arg10_12 m ρ c])),
    show (V17 m ρ c main_v43 : FVec Ideal S64x64 .f32) = _ from (keep_main_v43_17_13 m ρ c).trans ((ub0_after_L2 (W12 m ρ c)).trans (by rw [at_main_arg10_12 m ρ c])),
    show (V17 m ρ c main_v54 : FVec Ideal S1x64 .f32) = _ from v54_at17 m ρ c]
  rfl

end Cert.KernelIdeal.Hand

end
-- ==== Proof.Region6.lean ====
/-
  A fused layer over 1,280,000 rows, computed 10240 rows at a time, is ONE whole-array function of its five arrays.

  The layer takes two row-aligned arrays a : [1280000,64] and b : [1280000,16], two weight matrices wa : [64,64] and
  wb : [16,64] and a bias row, and returns at row r and column q

      max ( (sum over k of a[r,k] · wa[k,q]  +  sum over k of b[r,k] · wb[k,q])  +  bias[0,q] ,  0 ).

  It is computed in 125 steps; step t reads rows 10240 t .. 10240 t + 10239 of a and b, the whole of wa, wb and the
  bias, and writes the same rows of the result. First the block a step stores is read at one element: each of its two
  [10240,64] · [64,64] and [10240,16] · [16,64] products into a zero block is the row-by-column sum, the narrowing of the
  operands is the identity on the extended reals, the bias row is spread over the rows, and the clip is a maximum with
  zero. Then what step t writes back is row block t of the layer of the whole arrays, the 125 row blocks cover the
  result, and so the result array holds the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the first layer's block, read at an element

Both products contract the left operand's column axis with the right operand's row axis, so at output element
(p, q) and contraction position k the left operand is read at (p, k) and the right one at (k, q). -/

/-- Left operand of the [10240,64] · [64,64] product: its row is the output's row. -/
theorem lhsA6_0 (i : S10240x64.Idx) (r : dot_S10240x64_S64x64_S10240x64_1_0_0_1_n_n.contr.Idx) :
    (dot_S10240x64_S64x64_S10240x64_1_0_0_1_n_n.lhsIdx i r 0).val = (i 0).val := by
  unfold DotDims.lhsIdx
  rw [dif_neg (show ¬(0 : Fin S10240x64.rank) ∈ dot_S10240x64_S64x64_S10240x64_1_0_0_1_n_n.lhsBatch by decide), dif_pos (show (0 : Fin S10240x64.rank) ∈ dot_S10240x64_S64x64_S10240x64_1_0_0_1_n_n.lhsNonContracting by decide)]
  rfl
/-- Its column is the contraction position. -/
theorem lhsA6_1 (i : S10240x64.Idx) (r : dot_S10240x64_S64x64_S10240x64_1_0_0_1_n_n.contr.Idx) :
    (dot_S10240x64_S64x64_S10240x64_1_0_0_1_n_n.lhsIdx i r 1).val = (r ⟨0, by decide⟩).val :=
  dot_S10240x64_S64x64_S10240x64_1_0_0_1_n_n.lhsIdx_val_of_single rfl i r
/-- Right operand: its row is the contraction position. -/
theorem rhsA6_0 (i : S10240x64.Idx) (r : dot_S10240x64_S64x64_S10240x64_1_0_0_1_n_n.contr.Idx) :
    (dot_S10240x64_S64x64_S10240x64_1_0_0_1_n_n.rhsIdx i r 0).val = (r ⟨0, by decide⟩).val :=
  dot_S10240x64_S64x64_S10240x64_1_0_0_1_n_n.rhsIdx_val_of_single rfl i r
/-- Its column is the output's column. -/
theorem rhsA6_1 (i : S10240x64.Idx) (r : dot_S10240x64_S64x64_S10240x64_1_0_0_1_n_n.contr.Idx) :
    (dot_S10240x64_S64x64_S10240x64_1_0_0_1_n_n.rhsIdx i r 1).val = (i 1).val := by
  unfold DotDims.rhsIdx
  rw [dif_neg (show ¬(1 : Fin S64x64.rank) ∈ dot_S10240x64_S64x64_S10240x64_1_0_0_1_n_n.rhsBatch by decide), dif_pos (show (1 : Fin S64x64.rank) ∈ dot_S10240x64_S64x64_S10240x64_1_0_0_1_n_n.rhsNonContracting by decide)]
  rfl

/-- The [10240,64] · [64,64] product into the zero block, at (p, q): the sum over the 64 columns. -/
theorem prodA6_apply (x : FVec Ideal S10240x64 .bf16) (w : FVec Ideal S64x64 .bf16) (p : Fin 10240) (q : Fin 64) :
    matmul dot_S10240x64_S64x64_S10240x64_1_0_0_1_n_n none x w (constant (F := Ideal) S10240x64 .f32 0x00000000#32) (ix2 p q)
      = ∑ k : Fin 64, x (ix2 p k) * w (ix2 k q) := by
  refine (Ideal.matmul_constant_zero_apply dot_S10240x64_S64x64_S10240x64_1_0_0_1_n_n none x w (ix2 p q)).trans ?_
  rw [← Equiv.sum_comp (contrEquiv1 dot_S10240x64_S64x64_S10240x64_1_0_0_1_n_n 64 rfl rfl).symm]
  refine Finset.sum_congr rfl fun k _ => ?_
  have hk := contrEquiv1_symm_val dot_S10240x64_S64x64_S10240x64_1_0_0_1_n_n 64 rfl rfl k
  have el : dot_S10240x64_S64x64_S10240x64_1_0_0_1_n_n.lhsIdx (ix2 p q) ((contrEquiv1 dot_S10240x64_S64x64_S10240x64_1_0_0_1_n_n 64 rfl rfl).symm k) = ix2 p k := funext fun a => Fin.ext (by
    match a with
    | ⟨0, _⟩ => exact lhsA6_0 _ _
    | ⟨1, _⟩ => exact (lhsA6_1 _ _).trans hk)
  have er : dot_S10240x64_S64x64_S10240x64_1_0_0_1_n_n.rhsIdx (ix2 p q) ((contrEquiv1 dot_S10240x64_S64x64_S10240x64_1_0_0_1_n_n 64 rfl rfl).symm k) = ix2 k q := funext fun a => Fin.ext (by
    match a with
    | ⟨0, _⟩ => exact (rhsA6_0 _ _).trans hk
    | ⟨1, _⟩ => exact rhsA6_1 _ _)
  rw [el, er]

/-- Left operand of the [10240,16] · [16,64] product: its row is the output's row. -/
theorem lhsB6_0 (i : S10240x64.Idx) (r : dot_S10240x16_S16x64_S10240x64_1_0_0_1_n_n.contr.Idx) :
    (dot_S10240x16_S16x64_S10240x64_1_0_0_1_n_n.lhsIdx i r 0).val = (i 0).val := by
  unfold DotDims.lhsIdx
  rw [dif_neg (show ¬(0 : Fin S10240x16.rank) ∈ dot_S10240x16_S16x64_S10240x64_1_0_0_1_n_n.lhsBatch by decide), dif_pos (show (0 : Fin S10240x16.rank) ∈ dot_S10240x16_S16x64_S10240x64_1_0_0_1_n_n.lhsNonContracting by decide)]
  rfl
/-- Its column is the contraction position. -/
theorem lhsB6_1 (i : S10240x64.Idx) (r : dot_S10240x16_S16x64_S10240x64_1_0_0_1_n_n.contr.Idx) :
    (dot_S10240x16_S16x64_S10240x64_1_0_0_1_n_n.lhsIdx i r 1).val = (r ⟨0, by decide⟩).val :=
  dot_S10240x16_S16x64_S10240x64_1_0_0_1_n_n.lhsIdx_val_of_single rfl i r
/-- Right operand: its row is the contraction position. -/
theorem rhsB6_0 (i : S10240x64.Idx) (r : dot_S10240x16_S16x64_S10240x64_1_0_0_1_n_n.contr.Idx) :
    (dot_S10240x16_S16x64_S10240x64_1_0_0_1_n_n.rhsIdx i r 0).val = (r ⟨0, by decide⟩).val :=
  dot_S10240x16_S16x64_S10240x64_1_0_0_1_n_n.rhsIdx_val_of_single rfl i r
/-- Its column is the output's column. -/
theorem rhsB6_1 (i : S10240x64.Idx) (r : dot_S10240x16_S16x64_S10240x64_1_0_0_1_n_n.contr.Idx) :
    (dot_S10240x16_S16x64_S10240x64_1_0_0_1_n_n.rhsIdx i r 1).val = (i 1).val := by
  unfold DotDims.rhsIdx
  rw [dif_neg (show ¬(1 : Fin S16x64.rank) ∈ dot_S10240x16_S16x64_S10240x64_1_0_0_1_n_n.rhsBatch by decide), dif_pos (show (1 : Fin S16x64.rank) ∈ dot_S10240x16_S16x64_S10240x64_1_0_0_1_n_n.rhsNonContracting by decide)]
  rfl

/-- The [10240,16] · [16,64] product into the zero block, at (p, q): the sum over the 16 columns. -/
theorem prodB6_apply (x : FVec Ideal S10240x16 .bf16) (w : FVec Ideal S16x64 .bf16) (p : Fin 10240) (q : Fin 64) :
    matmul dot_S10240x16_S16x64_S10240x64_1_0_0_1_n_n none x w (constant (F := Ideal) S10240x64 .f32 0x00000000#32) (ix2 p q)
      = ∑ k : Fin 16, x (ix2 p k) * w (ix2 k q) := by
  refine (Ideal.matmul_constant_zero_apply dot_S10240x16_S16x64_S10240x64_1_0_0_1_n_n none x w (ix2 p q)).trans ?_
  rw [← Equiv.sum_comp (contrEquiv1 dot_S10240x16_S16x64_S10240x64_1_0_0_1_n_n 16 rfl rfl).symm]
  refine Finset.sum_congr rfl fun k _ => ?_
  have hk := contrEquiv1_symm_val dot_S10240x16_S16x64_S10240x64_1_0_0_1_n_n 16 rfl rfl k
  have el : dot_S10240x16_S16x64_S10240x64_1_0_0_1_n_n.lhsIdx (ix2 p q) ((contrEquiv1 dot_S10240x16_S16x64_S10240x64_1_0_0_1_n_n 16 rfl rfl).symm k) = ix2 p k := funext fun a => Fin.ext (by
    match a with
    | ⟨0, _⟩ => exact lhsB6_0 _ _
    | ⟨1, _⟩ => exact (lhsB6_1 _ _).trans hk)
  have er : dot_S10240x16_S16x64_S10240x64_1_0_0_1_n_n.rhsIdx (ix2 p q) ((contrEquiv1 dot_S10240x16_S16x64_S10240x64_1_0_0_1_n_n 16 rfl rfl).symm k) = ix2 k q := funext fun a => Fin.ext (by
    match a with
    | ⟨0, _⟩ => exact (rhsB6_0 _ _).trans hk
    | ⟨1, _⟩ => exact rhsB6_1 _ _)
  rw [el, er]

/-! ## The block of the layer at an element -/

/-- The bias row spread over the block's rows reads, at (p, q), the row's entry of column q. -/
theorem biasRows6_apply (b : FVec Ideal S1x64 .f32) (p : Fin 10240) (q : Fin 64) :
    broadcastTo S10240x64 b broadcasts_S1x64_S10240x64 (ix2 p q) = b (ix2 (0 : Fin 1) q) := by
  refine broadcastTo_apply b broadcasts_S1x64_S10240x64 (ix2 p q) (ix2 (0 : Fin 1) q) fun a => ?_
  match a with
  | ⟨0, _⟩ => rfl
  | ⟨1, _⟩ => rfl

/-- What one grid point stores, at row p and column q of its block: the two row-by-column sums added, plus the bias of
    column q, clipped below at zero. The format changes on the way are the identity on the extended reals. -/
theorem layerBlock6_apply (x0 : FVec Ideal S10240x64 .f32) (x1 : FVec Ideal S10240x16 .f32) (x2 : FVec Ideal S64x64 .f32)
    (x3 : FVec Ideal S16x64 .f32) (x4 : FVec Ideal S1x64 .f32) (p : Fin 10240) (q : Fin 64) :
    k6_pay1 (F := Ideal) x0 x1 x2 x3 x4 (ix2 p q)
      = max (((∑ k : Fin 64, x0 (ix2 p k) * x2 (ix2 k q)) + ∑ k : Fin 16, x1 (ix2 p k) * x3 (ix2 k q)) + x4 (ix2 (0 : Fin 1) q)) 0 := by
  unfold k6_pay1
  simp only [shapeCast_self]
  rw [maximumf_apply, addf_apply, addf_apply, broadcast_apply, prodA6_apply, prodB6_apply, biasRows6_apply]
  simp only [truncf_apply]
  show max _ (Ideal.ofBits .f32 0x00000000#32) = _
  rw [Ideal.ofBits_zero_f32]

/-! ## From blocks to the array

The grid has 125 points. At point t the two row-aligned inputs and the output sit at row block t (rows 10240 t to
10240 t + 10239), the two weight matrices and the bias row are whole at every point. -/

/-- The offsets of a whole-block access are zero on both axes. -/
theorem zeroOffsets6 : (![0, 0] : Fin 2 → Nat) = fun _ => 0 := funext fun a => by fin_cases a <;> rfl

/-- The block index of every window at every point, decided over the 125 points: the row windows at (t, 0), the
    others at (0, 0). -/
theorem blockIndex6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row p of row block t is row 10240 t + p of the array. -/
def row6 (t : Fin cfg6.N) (p : Fin 10240) : Fin 1280000 :=
  ⟨t.val * 10240 + p.val, by have ht : t.val < 125 := lt_of_lt_of_eq t.isLt N_6; have hp := p.isLt; omega⟩

theorem row6_val (t : Fin cfg6.N) (p : Fin 10240) : (row6 t p).val = t.val * 10240 + p.val := rfl

section Blocks
variable (V : (c : Dev nD) → (b : Ref sig .tc) → Buf (Elt Ideal) ((c : Thread nD τ).loc b)) (c : Dev nD)

/-- The first input's block at point t, at (p, k): the array at row 10240 t + p. -/
theorem rowsA6_apply (t : Fin cfg6.N) (p : Fin 10240) (k : Fin 64) :
    (iblk6 (F := Ideal) V c 0 t : FVec Ideal S10240x64 .f32) (ix2 p k) = (V c main_v68 : FVec Ideal S1280000x64 .f32) (ix2 (row6 t p) k) := by
  obtain ⟨e0, e1, -⟩ := blockIndex6 t
  show (V c main_v68 : FVec Ideal S1280000x64 .f32) (((cfg6.win 0).blk t).view.emb (ix2 p k)) = _
  refine congrArg _ (funext fun a => Fin.ext ?_)
  match a with
  | ⟨0, _⟩ => show win6_0.index t (0 : Fin 2) * 10240 + 1 * p.val = t.val * 10240 + p.val; omega
  | ⟨1, _⟩ => show win6_0.index t (1 : Fin 2) * 64 + 1 * k.val = k.val; omega

/-- The second input's block at point t, at (p, k): the array at row 10240 t + p. -/
theorem rowsB6_apply (t : Fin cfg6.N) (p : Fin 10240) (k : Fin 16) :
    (iblk6 (F := Ideal) V c 1 t : FVec Ideal S10240x16 .f32) (ix2 p k) = (V c main_arg1 : FVec Ideal S1280000x16 .f32) (ix2 (row6 t p) k) := by
  obtain ⟨-, -, e0, e1, -⟩ := blockIndex6 t
  show (V c main_arg1 : FVec Ideal S1280000x16 .f32) (((cfg6.win 1).blk t).view.emb (ix2 p k)) = _
  refine congrArg _ (funext fun a => Fin.ext ?_)
  match a with
  | ⟨0, _⟩ => show win6_1.index t (0 : Fin 2) * 10240 + 1 * p.val = t.val * 10240 + p.val; omega
  | ⟨1, _⟩ => show win6_1.index t (1 : Fin 2) * 16 + 1 * k.val = k.val; omega

/-- The first weight matrix is whole at every point. -/
theorem weightsA6_apply (t : Fin cfg6.N) (k : Fin 64) (q : Fin 64) :
    (iblk6 (F := Ideal) V c 2 t : FVec Ideal S64x64 .f32) (ix2 k q) = (V c main_v57 : FVec Ideal S64x64 .f32) (ix2 k q) := by
  obtain ⟨-, -, -, -, e0, e1, -⟩ := blockIndex6 t
  show (V c main_v57 : FVec Ideal S64x64 .f32) (((cfg6.win 2).blk t).view.emb (ix2 k q)) = _
  refine congrArg _ (funext fun a => Fin.ext ?_)
  match a with
  | ⟨0, _⟩ => show win6_2.index t (0 : Fin 2) * 64 + 1 * k.val = k.val; omega
  | ⟨1, _⟩ => show win6_2.index t (1 : Fin 2) * 64 + 1 * q.val = q.val; omega

/-- The second weight matrix is whole at every point. -/
theorem weightsB6_apply (t : Fin cfg6.N) (k : Fin 16) (q : Fin 64) :
    (iblk6 (F := Ideal) V c 3 t : FVec Ideal S16x64 .f32) (ix2 k q) = (V c main_v59 : FVec Ideal S16x64 .f32) (ix2 k q) := by
  obtain ⟨-, -, -, -, -, -, e0, e1, -⟩ := blockIndex6 t
  show (V c main_v59 : FVec Ideal S16x64 .f32) (((cfg6.win 3).blk t).view.emb (ix2 k q)) = _
  refine congrArg _ (funext fun a => Fin.ext ?_)
  match a with
  | ⟨0, _⟩ => show win6_3.index t (0 : Fin 2) * 16 + 1 * k.val = k.val; omega
  | ⟨1, _⟩ => show win6_3.index t (1 : Fin 2) * 64 + 1 * q.val = q.val; omega

/-- The bias row is whole at every point. -/
theorem bias6_apply (t : Fin cfg6.N) (z : Fin 1) (q : Fin 64) :
    (iblk6 (F := Ideal) V c 4 t : FVec Ideal S1x64 .f32) (ix2 z q) = (V c main_v69 : FVec Ideal S1x64 .f32) (ix2 z q) := by
  obtain ⟨-, -, -, -, -, -, -, -, e0, e1, -⟩ := blockIndex6 t
  show (V c main_v69 : FVec Ideal S1x64 .f32) (((cfg6.win 4).blk t).view.emb (ix2 z q)) = _
  refine congrArg _ (funext fun a => Fin.ext ?_)
  match a with
  | ⟨0, _⟩ => show win6_4.index t (0 : Fin 2) * 1 + 1 * z.val = z.val; omega
  | ⟨1, _⟩ => show win6_4.index t (1 : Fin 2) * 64 + 1 * q.val = q.val; omega

/-- Element (p, q) of the output's block at point t is element (10240 t + p, q) of the array. -/
theorem outRows6_emb (t : Fin cfg6.N) (p : Fin 10240) (q : Fin 64) :
    (((cfg6.win 5).blk t).view.emb (ix2 p q) : S1280000x64.Idx) = ix2 (row6 t p) q := by
  obtain ⟨-, -, -, -, -, -, -, -, -, -, e0, e1⟩ := blockIndex6 t
  refine funext fun a => Fin.ext ?_
  match a with
  | ⟨0, _⟩ => show win6_5.index t (0 : Fin 2) * 10240 + 1 * p.val = t.val * 10240 + p.val; omega
  | ⟨1, _⟩ => show win6_5.index t (1 : Fin 2) * 64 + 1 * q.val = q.val; omega

/-- WHAT POINT t WRITES BACK is row block t of the layer of the five arrays as the region finds them. -/
theorem writeBack6_eq (t : Fin cfg6.N) :
    (dat6 (F := Ideal) V c).flushed 5 t = ((cfg6.win 5).blk t).view.read (Elt Ideal)
      (mlp2 (V c main_v68 : FVec Ideal S1280000x64 .f32) (V c main_arg1 : FVec Ideal S1280000x16 .f32)
        (V c main_v57 : FVec Ideal S64x64 .f32) (V c main_v59 : FVec Ideal S16x64 .f32) (V c main_v69 : FVec Ideal S1x64 .f32)) := by
  show (cfg6.win 5).cut (grid6.coords t) ((dat6 (F := Ideal) V c).after 5 t) = _
  rw [after6_5]
  unfold out6_5
  rw [View.canon_unit_zero zeroOffsets6]
  simp only [View.ld_unit_zero (S := S10240x64) zeroOffsets6, View.ld_unit_zero (S := S10240x16) zeroOffsets6,
    View.ld_unit_zero (S := S64x64) zeroOffsets6, View.ld_unit_zero (S := S16x64) zeroOffsets6, View.ld_unit_zero (S := S1x64) zeroOffsets6]
  funext j
  obtain ⟨p, q, rfl⟩ : ∃ (p : Fin 10240) (q : Fin 64), j = ix2 p q := ⟨j 0, j 1, eq_ix2 j⟩
  show k6_pay1 (F := Ideal) (iblk6 V c 0 t) (iblk6 V c 1 t) (iblk6 V c 2 t) (iblk6 V c 3 t) (iblk6 V c 4 t) (ix2 p q)
    = mlp2 (V c main_v68 : FVec Ideal S1280000x64 .f32) (V c main_arg1 : FVec Ideal S1280000x16 .f32)
        (V c main_v57 : FVec Ideal S64x64 .f32) (V c main_v59 : FVec Ideal S16x64 .f32) (V c main_v69 : FVec Ideal S1x64 .f32)
        (((cfg6.win 5).blk t).view.emb (ix2 p q))
  rw [outRows6_emb t p q, mlp2_apply, layerBlock6_apply]
  simp only [rowsA6_apply V c t, rowsB6_apply V c t, weightsA6_apply V c t, weightsB6_apply V c t, bias6_apply V c t]
  rfl

end Blocks

/-! ## The cover, and the array after the region -/

/-- An index of the output array is in point t's block iff each coordinate is in the block's range on its axis. -/
theorem mem_outRows6 (t : Fin cfg6.N) (i : S1280000x64.Idx) :
    i ∈ ((cfg6.win 5).blk t).view.set ↔ ∀ a : Fin 2, win6_5.index t a * S10240x64.size a ≤ (i a).val ∧ (i a).val < win6_5.index t a * S10240x64.size a + S10240x64.size a := by
  show i ∈ ((View.whole main_v70).slice (win6_5.rect t)).set ↔ _
  rw [View.set_slice_whole, Rect.mem_set_unit]
  exact Iff.rfl

/-- Every row r of the output array is in the block of the point r / 10240, and every point writes back. -/
theorem outRows6_cover (i : S1280000x64.Idx) :
    ∃ t : Fin cfg6.N, (cfg6.win 5).flush t = true ∧ i ∈ ((cfg6.win 5).blk t).view.set := by
  have hi0 : (i 0).val < 1280000 := (i 0).isLt
  have hi1 : (i 1).val < 64 := (i 1).isLt
  obtain ⟨t, ht⟩ : ∃ t : Fin cfg6.N, t.val = (i 0).val / 10240 :=
    ⟨⟨(i 0).val / 10240, by rw [show cfg6.N = 125 from N_6]; omega⟩, rfl⟩
  obtain ⟨-, -, -, -, -, -, -, -, -, -, e0, e1⟩ := blockIndex6 t
  refine ⟨t, flush6_5 t, ?_⟩
  rw [mem_outRows6]
  intro a
  match a with
  | ⟨0, _⟩ => show win6_5.index t (0 : Fin 2) * 10240 ≤ (i 0).val ∧ (i 0).val < win6_5.index t (0 : Fin 2) * 10240 + 10240; omega
  | ⟨1, _⟩ => show win6_5.index t (1 : Fin 2) * 64 ≤ (i 1).val ∧ (i 1).val < win6_5.index t (1 : Fin 2) * 64 + 64; omega

/-- THE ARRAY AFTER THE REGION: the layer of the five input arrays as the region finds them. -/
theorem region6_out (V : (c : Dev nD) → (b : Ref sig .tc) → Buf (Elt Ideal) ((c : Thread nD τ).loc b)) (c : Dev nD) :
    ((dat6 (F := Ideal) V c).arrAt 5 cfg6.N : FVec Ideal S1280000x64 .f32)
      = mlp2 (V c main_v68 : FVec Ideal S1280000x64 .f32) (V c main_arg1 : FVec Ideal S1280000x16 .f32)
          (V c main_v57 : FVec Ideal S64x64 .f32) (V c main_v59 : FVec Ideal S16x64 .f32) (V c main_v69 : FVec Ideal S1x64 .f32) :=
  (dat6 (F := Ideal) V c).arrAt_eq_of_cover 5 _ (fun t _ => writeBack6_eq V c t) outRows6_cover

end Cert.KernelIdeal.Hand

end
-- ==== Proof.Region7.lean ====
/-
  One launch of the fused layer, read as a whole array.

  The launch walks the 80000 rows of its two row-aligned inputs `a` and `b` in ten blocks of 8000 rows. At each block it
  multiplies the block of `a` by the matrix `wa` and the block of `b` by the matrix `wb` (64 columns each), adds the two
  products and the bias row `bias : [1, 64]`, clips at zero, and writes the 8000 × 64 result back as the same block of
  rows of the output. Three facts give the output array:

    * at row `p`, column `q` of a block the stored value is the layer of the five loaded blocks at `(p, q)`: a product
      into a zero accumulator is the plain sum over the contracted axis, the narrowing of the operands to bf16 is the
      identity on extended reals, and the broadcast bias row is read at column `q`;
    * row `p` of block `t` of `a`, of `b` and of the output is row `8000 t + p` of the array, while the two matrices
      and the bias row are whole at every block: so what block `t` writes back is block `t` of the layer of the whole
      arrays;
    * row `r` lies in block `r / 8000`, so the ten blocks cover the output, and the output array is the layer.
-/
import proofs.«422392_j11433202942183_1_alg».proof.Proof.Gen.KernelIdeal.Frame
import proofs.«422392_j11433202942183_1_alg».proof.Proof.MlpSpec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

/-! ## The two products of the layer, read at an index -/

/-- In the product of a block of `a` by `wa`, the left operand is read at the output's row … -/
theorem rowsA7_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsA7_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsA7_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsA7_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `a` times `wa`, accumulated into zero, read at row `p` and column `q`: the sum over `k` of
    `a[p,k] · wa[k,q]`. -/
theorem rowsA7_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsA7_lhs_0 _ _
    | ⟨1, _⟩ => exact (rowsA7_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsA7_rhs_0 _ _).trans hk
    | ⟨1, _⟩ => exact rowsA7_rhs_1 _ _)
  rw [el, er]

/-- In the product of a block of `b` by `wb`, the left operand is read at the output's row … -/
theorem rowsB7_lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the summation index as its column; -/
theorem rowsB7_lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the summation index as its row … -/
theorem rowsB7_rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rowsB7_rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of `b` times `wb`, accumulated into zero, read at row `p` and column `q`: the sum over `k` of
    `b[p,k] · wb[k,q]`. -/
theorem rowsB7_apply (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact rowsB7_lhs_0 _ _
    | ⟨1, _⟩ => exact (rowsB7_lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rowsB7_rhs_0 _ _).trans hk
    | ⟨1, _⟩ => exact rowsB7_rhs_1 _ _)
  rw [el, er]

/-! ## The block's payload is the layer -/

/-- What the body stores, read at row `p` and column `q` of the block: the layer of the five blocks it loaded. The
    narrowing to bf16 is the identity on extended reals, so nothing is left of it. -/
theorem layer7_block_apply (x0 : Vec Ideal S8000x64 .f32) (x1 : Vec Ideal S8000x64 .f32) (x2 : Vec Ideal S64x64 .f32)
    (x3 : Vec Ideal S64x64 .f32) (x4 : Vec Ideal S1x64 .f32) (p : Fin 8000) (q : Fin 64) :
    k7_pay1 (F := Ideal) x0 x1 x2 x3 x4 (ix2 p q) = mlpAt x0 x1 x2 x3 x4 p q := by
  unfold k7_pay1 mlpAt
  simp only [shapeCast_self]
  rw [maximumf_apply, addf_apply, addf_apply, rowsA7_apply, rowsB7_apply, broadcastTo_1b_ab_apply, broadcast_apply]
  simp only [truncf_apply]
  exact congrArg (max _) Ideal.ofBits_zero_f32

/-! ## From blocks to the array -/

/-- The zero offsets of a block-sized access, as the constant function. -/
theorem zeroOffsets7 : (![0, 0] : Fin 2 → Nat) = fun _ => 0 := funext fun a => by
  match a with
  | ⟨0, _⟩ => rfl
  | ⟨1, _⟩ => rfl

/-- Where each window's block sits at point `t`: the two row-aligned inputs and the output move down the rows with the
    point, block `t` of 8000 rows; the two weight matrices and the bias row are whole at every point. -/
theorem blockIndex7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = t.val ∧ win7_5.index t (1 : Fin 2) = 0) :=
  (by decide +kernel : ∀ t : Fin grid7.N, _)

/-- The region has ten points. -/
theorem points7 (t : Fin cfg7.N) : t.val < 10 := lt_of_lt_of_eq t.isLt N_7

section
variable (V : (c : Dev nD) → (b : Ref sig .tc) → Buf (Elt Ideal) ((c : Thread nD τ).loc b)) (c : Dev nD)

/-- Row `p` of point `t`'s block of `a` is row `8000 t + p` of `a`. -/
theorem blockA7_apply (t : Fin cfg7.N) (p : Fin 8000) (k : Fin 64) :
    (iblk7 V c 0 t : Vec Ideal S8000x64 .f32) (ix2 p k)
      = (V c main_v55 : FVec Ideal S80000x64 .f32) (ix2 ⟨t.val * 8000 + p.val, by have := points7 t; omega⟩ k) := by
  obtain ⟨⟨e0, e1⟩, -⟩ := blockIndex7 t
  show V c main_v55 (((cfg7.win 0).blk t).view.emb (ix2 p k)) = V c main_v55 _
  refine congrArg _ (funext fun a => Fin.ext ?_)
  match a with
  | ⟨0, _⟩ => show win7_0.index t (0 : Fin 2) * 8000 + 1 * p.val = t.val * 8000 + p.val; rw [e0]; omega
  | ⟨1, _⟩ => show win7_0.index t (1 : Fin 2) * 64 + 1 * k.val = k.val; rw [e1]; omega

/-- Row `p` of point `t`'s block of `b` is row `8000 t + p` of `b`. -/
theorem blockB7_apply (t : Fin cfg7.N) (p : Fin 8000) (k : Fin 64) :
    (iblk7 V c 1 t : Vec Ideal S8000x64 .f32) (ix2 p k)
      = (V c main_v73 : FVec Ideal S80000x64 .f32) (ix2 ⟨t.val * 8000 + p.val, by have := points7 t; omega⟩ k) := by
  obtain ⟨-, ⟨e0, e1⟩, -⟩ := blockIndex7 t
  show V c main_v73 (((cfg7.win 1).blk t).view.emb (ix2 p k)) = V c main_v73 _
  refine congrArg _ (funext fun a => Fin.ext ?_)
  match a with
  | ⟨0, _⟩ => show win7_1.index t (0 : Fin 2) * 8000 + 1 * p.val = t.val * 8000 + p.val; rw [e0]; omega
  | ⟨1, _⟩ => show win7_1.index t (1 : Fin 2) * 64 + 1 * k.val = k.val; rw [e1]; omega

/-- The block of `wa` is `wa`, at every point. -/
theorem blockWa7_eq (t : Fin cfg7.N) :
    (iblk7 V c 2 t : Vec Ideal S64x64 .f32) = (V c main_v61 : FVec Ideal S64x64 .f32) := by
  obtain ⟨-, -, ⟨e0, e1⟩, -⟩ := blockIndex7 t
  funext y
  show V c main_v61 (((cfg7.win 2).blk t).view.emb y) = V c main_v61 y
  refine congrArg _ (funext fun a => Fin.ext ?_)
  match a with
  | ⟨0, _⟩ => show win7_2.index t (0 : Fin 2) * 64 + 1 * (y 0).val = (y 0).val; rw [e0]; omega
  | ⟨1, _⟩ => show win7_2.index t (1 : Fin 2) * 64 + 1 * (y 1).val = (y 1).val; rw [e1]; omega

/-- The block of `wb` is `wb`, at every point. -/
theorem blockWb7_eq (t : Fin cfg7.N) :
    (iblk7 V c 3 t : Vec Ideal S64x64 .f32) = (V c main_v63 : FVec Ideal S64x64 .f32) := by
  obtain ⟨-, -, -, ⟨e0, e1⟩, -⟩ := blockIndex7 t
  funext y
  show V c main_v63 (((cfg7.win 3).blk t).view.emb y) = V c main_v63 y
  refine congrArg _ (funext fun a => Fin.ext ?_)
  match a with
  | ⟨0, _⟩ => show win7_3.index t (0 : Fin 2) * 64 + 1 * (y 0).val = (y 0).val; rw [e0]; omega
  | ⟨1, _⟩ => show win7_3.index t (1 : Fin 2) * 64 + 1 * (y 1).val = (y 1).val; rw [e1]; omega

/-- The block of the bias row is the bias row, at every point. -/
theorem blockBias7_eq (t : Fin cfg7.N) :
    (iblk7 V c 4 t : Vec Ideal S1x64 .f32) = (V c main_v74 : FVec Ideal S1x64 .f32) := by
  obtain ⟨-, -, -, -, ⟨e0, e1⟩, -⟩ := blockIndex7 t
  funext y
  show V c main_v74 (((cfg7.win 4).blk t).view.emb y) = V c main_v74 y
  refine congrArg _ (funext fun a => Fin.ext ?_)
  match a with
  | ⟨0, _⟩ => show win7_4.index t (0 : Fin 2) * 1 + 1 * (y 0).val = (y 0).val; rw [e0]; omega
  | ⟨1, _⟩ => show win7_4.index t (1 : Fin 2) * 64 + 1 * (y 1).val = (y 1).val; rw [e1]; omega

/-- Row `p` of point `t`'s block of any array of the output's shape is its row `8000 t + p`. -/
theorem blockOut7_apply (G : FVec Ideal S80000x64 .f32) (t : Fin cfg7.N) (p : Fin 8000) (q : Fin 64) :
    (((cfg7.win 5).blk t).view.read (Elt Ideal) G : Vec Ideal S8000x64 .f32) (ix2 p q)
      = G (ix2 ⟨t.val * 8000 + p.val, by have := points7 t; omega⟩ q) := by
  obtain ⟨-, -, -, -, -, ⟨e0, e1⟩⟩ := blockIndex7 t
  show G (((cfg7.win 5).blk t).view.emb (ix2 p q)) = G _
  refine congrArg _ (funext fun a => Fin.ext ?_)
  match a with
  | ⟨0, _⟩ => show win7_5.index t (0 : Fin 2) * 8000 + 1 * p.val = t.val * 8000 + p.val; rw [e0]; omega
  | ⟨1, _⟩ => show win7_5.index t (1 : Fin 2) * 64 + 1 * q.val = q.val; rw [e1]; omega

end

/-- The layer of row blocks is a row block of the layer: if `x0`, `x1` hold rows `8000 t …` of `a`, `b`, the layer of
    `x0`, `x1` and the weights at row `p` is the layer of `a`, `b` at row `8000 t + p`. -/
theorem rowBlock_layer7 (a : FVec Ideal S80000x64 .f32) (b : FVec Ideal S80000x64 .f32) (wa : FVec Ideal S64x64 .f32)
    (wb : FVec Ideal S64x64 .f32) (bias : FVec Ideal S1x64 .f32) (x0 : Vec Ideal S8000x64 .f32) (x1 : Vec Ideal S8000x64 .f32)
    (p : Fin 8000) (r : Fin 80000) (q : Fin 64)
    (h0 : ∀ k, x0 (ix2 p k) = a (ix2 r k)) (h1 : ∀ k, x1 (ix2 p k) = b (ix2 r k)) :
    mlpAt x0 x1 wa wb bias p q = mlpAt a b wa wb bias r q := by
  unfold mlpAt
  simp only [h0, h1]

/-- WHAT POINT `t` WRITES BACK is block `t` of the layer of the five arrays as the region finds them. -/
theorem flushed7_eq (V : (c : Dev nD) → (b : Ref sig .tc) → Buf (Elt Ideal) ((c : Thread nD τ).loc b)) (c : Dev nD) (t : Fin cfg7.N) :
    (dat7 (F := Ideal) V c).flushed 5 t = ((cfg7.win 5).blk t).view.read (Elt Ideal)
      (mlp2 (V c main_v55 : FVec Ideal S80000x64 .f32) (V c main_v73 : FVec Ideal S80000x64 .f32)
        (V c main_v61 : FVec Ideal S64x64 .f32) (V c main_v63 : FVec Ideal S64x64 .f32) (V c main_v74 : FVec Ideal S1x64 .f32)) := by
  show (cfg7.win 5).cut (grid7.coords t) ((dat7 V c).after 5 t) = _
  rw [after7_5]
  unfold out7_5
  rw [View.canon_unit_zero zeroOffsets7]
  simp only [View.ld_unit_zero (S := S8000x64) zeroOffsets7, View.ld_unit_zero (S := S8000x64) zeroOffsets7,
    View.ld_unit_zero (S := S64x64) zeroOffsets7, View.ld_unit_zero (S := S64x64) zeroOffsets7,
    View.ld_unit_zero (S := S1x64) zeroOffsets7]
  rw [blockWa7_eq, blockWb7_eq, blockBias7_eq]
  funext j
  obtain ⟨p, q, rfl⟩ : ∃ (p : Fin 8000) (q : Fin 64), j = ix2 p q := ⟨j 0, j 1, eq_ix2 j⟩
  refine Eq.trans ?_ (blockOut7_apply _ t p q).symm
  rw [mlp2_apply]
  refine Eq.trans (layer7_block_apply _ _ _ _ _ p q) ?_
  exact rowBlock_layer7 _ _ _ _ _ _ _ p _ q (blockA7_apply V c t p) (blockB7_apply V c t p)

/-- An index of the output array is in point `t`'s block iff each coordinate is in the block's range on its axis. -/
theorem mem_blockOut7 (t : Fin cfg7.N) (i : S80000x64.Idx) :
    i ∈ ((cfg7.win 5).blk t).view.set ↔ ∀ a : Fin 2, win7_5.index t a * S8000x64.size a ≤ (i a).val ∧ (i a).val < win7_5.index t a * S8000x64.size a + S8000x64.size a := by
  show i ∈ ((View.whole main_v75).slice (win7_5.rect t)).set ↔ _
  rw [View.set_slice_whole, Rect.mem_set_unit]
  exact Iff.rfl

/-- Every row of the output is in the block of the point `row / 8000`, and every point writes back. -/
theorem cover7 (i : S80000x64.Idx) :
    ∃ t : Fin cfg7.N, (cfg7.win 5).flush t = true ∧ i ∈ ((cfg7.win 5).blk t).view.set := by
  have hi0 : (i 0).val < 80000 := (i 0).isLt
  have hi1 : (i 1).val < 64 := (i 1).isLt
  have ht : (i 0).val / 8000 < cfg7.N := by rw [show cfg7.N = 10 from N_7]; omega
  refine ⟨⟨(i 0).val / 8000, ht⟩, flush7_5 _, ?_⟩
  obtain ⟨-, -, -, -, -, ⟨e0, e1⟩⟩ := blockIndex7 ⟨(i 0).val / 8000, ht⟩
  rw [mem_blockOut7]
  intro a
  match a with
  | ⟨0, _⟩ =>
    show win7_5.index ⟨(i 0).val / 8000, ht⟩ (0 : Fin 2) * 8000 ≤ (i 0).val ∧ (i 0).val < win7_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win7_5.index ⟨(i 0).val / 8000, ht⟩ (1 : Fin 2) * 64 ≤ (i 1).val ∧ (i 1).val < win7_5.index ⟨(i 0).val / 8000, ht⟩ (1 : Fin 2) * 64 + 64
    rw [e1]; omega

/-- THE ARRAY after the region: the layer of the five arrays as the region finds them. -/
theorem region7_out (V : (c : Dev nD) → (b : Ref sig .tc) → Buf (Elt Ideal) ((c : Thread nD τ).loc b)) (c : Dev nD) :
    ((dat7 (F := Ideal) V c).arrAt 5 cfg7.N : FVec Ideal S80000x64 .f32)
      = mlp2 (V c main_v55 : FVec Ideal S80000x64 .f32) (V c main_v73 : FVec Ideal S80000x64 .f32)
          (V c main_v61 : FVec Ideal S64x64 .f32) (V c main_v63 : FVec Ideal S64x64 .f32) (V c main_v74 : FVec Ideal S1x64 .f32) :=
  (dat7 (F := Ideal) V c).arrAt_eq_of_cover 5 _ (fun t _ => flushed7_eq V c t) cover7

end Cert.KernelIdeal.Hand

end
-- ==== Proof.WalkL3.lean ====
/-
  The fourth layer (the last of the three later layers), read off the run.

  The layer starts from the node rows the layer before it left (`h`). The program cuts page 2 of the stacked weights
  and biases, takes the source rows of `h` (the outlined take: under the range fact, the gather), lays the message bias
  out as a row, runs the edge pipeline, scatter-adds its rows at the destination indices, lays the update bias out as a
  row, and runs the node pipeline. Each lemma says what ONE buffer holds at ONE boundary of the run; the last says that
  the node rows after the layer are the specification's layer applied to `h`.
-/
import proofs.«422392_j11433202942183_1_alg».proof.Proof.KeepTable
import proofs.«422392_j11433202942183_1_alg».proof.Proof.WalkArgs
import proofs.«422392_j11433202942183_1_alg».proof.Proof.Region6
import proofs.«422392_j11433202942183_1_alg».proof.Proof.Region7
import proofs.«422392_j11433202942183_1_alg».proof.Proof.TakeFold
import Idealize.ShloMosaic.Lib.StableHlo.Run

set_option maxRecDepth 16384

noncomputable section

namespace Cert.KernelIdeal.Hand

open Idealize.ShloMosaic Cert.KernelIdeal Cert.KernelIdeal.Gen Cert.MlpSpec
open Idealize.ShloMosaic.TcCoe Idealize.SL.Sem
open Idealize.ShloMosaic.Pipeline (Dat)

variable (m : (ℓ : Loc nD τ sig) → Buf (Elt Ideal) ℓ) (ρ : Dev nD → PrngReg)

/-! ## What a stretch writes, over any contents before it -/

/-- The rows of the message weights that meet the node rows. -/
theorem wa0_after_L3 (Wp : Valuation τ sig (Elt Ideal)) :
    (StableHlo.after hostOps6 Wp (Proc.devRef .tc main_v57) : FVec Ideal S64x64 .f32) = kWa2 (Wp (Proc.devRef .tc main_arg8)) := by
  simp only [hostOps6]
  after_results
  all_goals rfl

/-- The rows of the message weights that meet the edge rows. -/
theorem wb0_after_L3 (Wp : Valuation τ sig (Elt Ideal)) :
    (StableHlo.after hostOps6 Wp (Proc.devRef .tc main_v59) : FVec Ideal S16x64 .f32) = kWb2 (Wp (Proc.devRef .tc main_arg8)) := by
  simp only [hostOps6]
  after_results
  all_goals rfl

/-- The rows of the update weights that meet the node rows. -/
theorem ua0_after_L3 (Wp : Valuation τ sig (Elt Ideal)) :
    (StableHlo.after hostOps6 Wp (Proc.devRef .tc main_v61) : FVec Ideal S64x64 .f32) = kUa2 (Wp (Proc.devRef .tc main_arg10)) := by
  simp only [hostOps6]
  after_results
  all_goals rfl

/-- The rows of the update weights that meet the summed messages. -/
theorem ub0_after_L3 (Wp : Valuation τ sig (Elt Ideal)) :
    (StableHlo.after hostOps6 Wp (Proc.devRef .tc main_v63) : FVec Ideal S64x64 .f32) = kUb2 (Wp (Proc.devRef .tc main_arg10)) := by
  simp only [hostOps6]
  after_results
  all_goals rfl

/-- The message bias as a vector. -/
theorem bm0vec_after_L3 (Wp : Valuation τ sig (Elt Ideal)) :
    (StableHlo.after hostOps6 Wp (Proc.devRef .tc main_v65) : FVec Ideal S64 .f32) = shapeCast _ (extractStridedSlice S1x64 ![2, 0] (Wp (Proc.devRef .tc main_arg9)) slices_S3x64_S1x64_2_0) shapeCasts_S1x64_S64 := by
  simp only [hostOps6]
  after_results
  all_goals rfl

/-- The update bias as a vector. -/
theorem bu0vec_after_L3 (Wp : Valuation τ sig (Elt Ideal)) :
    (StableHlo.after hostOps6 Wp (Proc.devRef .tc main_v67) : FVec Ideal S64 .f32) = shapeCast _ (extractStridedSlice S1x64 ![2, 0] (Wp (Proc.devRef .tc main_arg11)) slices_S3x64_S1x64_2_0) shapeCasts_S1x64_S64 := by
  simp only [hostOps6]
  after_results
  all_goals rfl

/-- The message bias laid out as a row. -/
theorem bm0row_after_L3 (Wp : Valuation τ sig (Elt Ideal)) :
    (StableHlo.after hostOps6_2 Wp (Proc.devRef .tc main_v69) : FVec Ideal S1x64 .f32) = shapeCast _ (Wp (Proc.devRef .tc main_v65)) shapeCasts_S64_S1x64 := by
  simp only [hostOps6_2]
  after_results
  all_goals rfl

/-- The messages added into a zero node array at the destination indices. -/
theorem agg1_after_L3 (Wp : Valuation τ sig (Elt Ideal)) :
    (StableHlo.after hostOps7 Wp (Proc.devRef .tc main_v73) : FVec Ideal S80000x64 .f32) = kScat (Wp (Proc.devRef .tc main_v70)) (Wp (Proc.devRef .tc main_v3)) := by
  simp only [hostOps7]
  after_results
  all_goals rfl

/-- The update bias laid out as a row. -/
theorem bu0row_after_L3 (Wp : Valuation τ sig (Elt Ideal)) :
    (StableHlo.after hostOps7 Wp (Proc.devRef .tc main_v74) : FVec Ideal S1x64 .f32) = shapeCast _ (Wp (Proc.devRef .tc main_v67)) shapeCasts_S64_S1x64 := by
  simp only [hostOps7]
  after_results
  all_goals rfl

/-! ## The buffers at the boundaries of this layer -/

variable (c : Dev nD) (h : FVec Ideal S80000x64 .f32)

/-- Entering the edge pipeline, its first window's array holds the source rows of `h`. -/
theorem v68_at21 (hh : (W18 m ρ c (Proc.devRef .tc main_v55) : FVec Ideal S80000x64 .f32) = h) (hv1 : (W1 m ρ c (Proc.devRef .tc main_v1) : IVec S1280000 32) = kSrc (ar2 m c))
    (hr : SrcInRange (kSrc (ar2 m c))) :
    (W21 m ρ c (Proc.devRef .tc main_v68) : FVec Ideal S1280000x64 .f32) = kGather64 h (kSrc (ar2 m c)) :=
  (keep_main_v68_21_20 m ρ c).trans ((take_fold3 (W19 m ρ c) (by rw [keep_main_v1_19_1 m ρ c, hv1]; exact hr)).trans
    (by rw [keep_main_v55_19_18 m ρ c, hh, keep_main_v1_19_1 m ρ c, hv1]))

theorem v69_at21 : (W21 m ρ c (Proc.devRef .tc main_v69) : FVec Ideal S1x64 .f32) = kBm2 (ar9 m c) :=
  (bm0row_after_L3 (W20 m ρ c)).trans (by
    rw [keep_main_v65_20_19 m ρ c, show (W19 m ρ c (Proc.devRef .tc main_v65) : FVec Ideal S64 .f32) = _ from bm0vec_after_L3 (W18 m ρ c), at_main_arg9_18 m ρ c]
    rfl)

/-- Leaving the edge pipeline its output array holds this layer's messages. -/
theorem v70_at22 (hh : (W18 m ρ c (Proc.devRef .tc main_v55) : FVec Ideal S80000x64 .f32) = h) (hv1 : (W1 m ρ c (Proc.devRef .tc main_v1) : IVec S1280000 32) = kSrc (ar2 m c))
    (hr : SrcInRange (kSrc (ar2 m c))) :
    (W22 m ρ c (Proc.devRef .tc main_v70) : FVec Ideal S1280000x64 .f32) = kM h (ar1 m c) (ar2 m c) (kWa2 (ar8 m c)) (kWb2 (ar8 m c)) (kBm2 (ar9 m c)) := by
  refine (W22_arr m ρ c 5).trans ((region6_out (V21 m ρ) c).trans ?_)
  rw [show (V21 m ρ c main_v68 : FVec Ideal S1280000x64 .f32) = _ from v68_at21 m ρ c h hh hv1 hr,
    show (V21 m ρ c main_arg1 : FVec Ideal S1280000x16 .f32) = _ from at_main_arg1_21 m ρ c,
    show (V21 m ρ c main_v57 : FVec Ideal S64x64 .f32) = _ from (keep_main_v57_21_19 m ρ c).trans ((wa0_after_L3 (W18 m ρ c)).trans (by rw [at_main_arg8_18 m ρ c])),
    show (V21 m ρ c main_v59 : FVec Ideal S16x64 .f32) = _ from (keep_main_v59_21_19 m ρ c).trans ((wb0_after_L3 (W18 m ρ c)).trans (by rw [at_main_arg8_18 m ρ c])),
    show (V21 m ρ c main_v69 : FVec Ideal S1x64 .f32) = _ from v69_at21 m ρ c]
  rfl

/-- Entering the node pipeline, its second window's array holds the messages summed by destination. -/
theorem v73_at23 (hh : (W18 m ρ c (Proc.devRef .tc main_v55) : FVec Ideal S80000x64 .f32) = h) (hv1 : (W1 m ρ c (Proc.devRef .tc main_v1) : IVec S1280000 32) = kSrc (ar2 m c))
    (hv3 : (W1 m ρ c (Proc.devRef .tc main_v3) : IVec S1280000 32) = kDst (ar2 m c)) (hr : SrcInRange (kSrc (ar2 m c))) :
    (W23 m ρ c (Proc.devRef .tc main_v73) : FVec Ideal S80000x64 .f32)
      = kScat (kM h (ar1 m c) (ar2 m c) (kWa2 (ar8 m c)) (kWb2 (ar8 m c)) (kBm2 (ar9 m c))) (kDst (ar2 m c)) :=
  (agg1_after_L3 (W22 m ρ c)).trans (by rw [v70_at22 m ρ c h hh hv1 hr, keep_main_v3_22_1 m ρ c, hv3])

theorem v74_at23 : (W23 m ρ c (Proc.devRef .tc main_v74) : FVec Ideal S1x64 .f32) = kBu2 (ar11 m c) :=
  (bu0row_after_L3 (W22 m ρ c)).trans (by
    rw [keep_main_v67_22_19 m ρ c, show (W19 m ρ c (Proc.devRef .tc main_v67) : FVec Ideal S64 .f32) = _ from bu0vec_after_L3 (W18 m ρ c), at_main_arg11_18 m ρ c]
    rfl)

/-- Leaving the node pipeline its output array holds the node rows after this layer. -/
theorem v75_at24 (hh : (W18 m ρ c (Proc.devRef .tc main_v55) : FVec Ideal S80000x64 .f32) = h) (hv1 : (W1 m ρ c (Proc.devRef .tc main_v1) : IVec S1280000 32) = kSrc (ar2 m c))
    (hv3 : (W1 m ρ c (Proc.devRef .tc main_v3) : IVec S1280000 32) = kDst (ar2 m c)) (hr : SrcInRange (kSrc (ar2 m c))) :
    (W24 m ρ c (Proc.devRef .tc main_v75) : FVec Ideal S80000x64 .f32)
      = kLayer2 h (ar1 m c) (ar2 m c) (ar8 m c) (ar9 m c) (ar10 m c) (ar11 m c) := by
  refine (W24_arr m ρ c 5).trans ((region7_out (V23 m ρ) c).trans ?_)
  rw [show (V23 m ρ c main_v55 : FVec Ideal S80000x64 .f32) = _ from (keep_main_v55_23_18 m ρ c).trans hh,
    show (V23 m ρ c main_v73 : FVec Ideal S80000x64 .f32) = _ from v73_at23 m ρ c h hh hv1 hv3 hr,
    show (V23 m ρ c main_v61 : FVec Ideal S64x64 .f32) = _ from (keep_main_v61_23_19 m ρ c).trans ((ua0_after_L3 (W18 m ρ c)).trans (by rw [at_main_arg10_18 m ρ c])),
    show (V23 m ρ c main_v63 : FVec Ideal S64x64 .f32) = _ from (keep_main_v63_23_19 m ρ c).trans ((ub0_after_L3 (W18 m ρ c)).trans (by rw [at_main_arg10_18 m ρ c])),
    show (V23 m ρ c main_v74 : FVec Ideal S1x64 .f32) = _ from v74_at23 m ρ c]
  rfl

end Cert.KernelIdeal.Hand

end
-- ==== Proof.Walk.lean ====
/-
  The result buffer at the end of the run.

  After the fourth layer's node pipeline the last stretch of host operations pools the node rows by graph (a scatter-add
  at the graph index of every node), multiplies by the head's column and adds the head's bias. Chaining the four layers'
  walks: the result buffer ends holding the whole program's function `kRes` of the fourteen argument arrays of the launch
  memory, provided every source index is in range.
-/
import proofs.«422392_j11433202942183_1_alg».proof.Proof.Walk0
import proofs.«422392_j11433202942183_1_alg».proof.Proof.WalkL1
import proofs.«422392_j11433202942183_1_alg».proof.Proof.WalkL2
import proofs.«422392_j11433202942183_1_alg».proof.Proof.WalkL3

set_option maxRecDepth 16384

noncomputable section

namespace Cert.KernelIdeal.Hand

open Idealize.ShloMosaic Cert.KernelIdeal Cert.KernelIdeal.Gen Cert.MlpSpec
open Idealize.ShloMosaic.TcCoe Idealize.SL.Sem
open Idealize.ShloMosaic.Pipeline (Dat)

variable (m : (ℓ : Loc nD τ sig) → Buf (Elt Ideal) ℓ) (ρ : Dev nD → PrngReg)

/-- What the last stretch leaves in the result buffer, over any contents before it. -/
theorem out_after (Wp : Valuation τ sig (Elt Ideal)) :
    (StableHlo.after hostOps8 Wp (Proc.devRef .tc main_v82) : FVec Ideal S256x1 .f32) = kOut (Wp (Proc.devRef .tc main_v75)) (Wp (Proc.devRef .tc main_arg3)) (Wp (Proc.devRef .tc main_arg12)) (Wp (Proc.devRef .tc main_arg13)) := by
  simp only [hostOps8]
  after_results
  all_goals rfl

/-- THE KERNEL'S VALUE: at the last boundary of the run the result buffer holds `kRes` of the launch memory's arguments. -/
theorem result_at25 (c : Dev nD) (hr : SrcInRange (kSrc (ar2 m c))) :
    (W25 m ρ c (Proc.devRef .tc main_v82) : FVec Ideal S256x1 .f32)
      = kRes (ar0 m c) (ar1 m c) (ar2 m c) (ar3 m c) (ar4 m c) (ar5 m c) (ar6 m c) (ar7 m c) (ar8 m c) (ar9 m c) (ar10 m c)
          (ar11 m c) (ar12 m c) (ar13 m c) := by
  have hv1 := v1_at1 m ρ c
  have hv3 := v3_at1 m ρ c
  have h1 := v15_at6 m ρ c hr
  have h2 := v35_at12 m ρ c _ h1 hv1 hv3 hr
  have h3 := v55_at18 m ρ c _ h2 hv1 hv3 hr
  have h4 := v75_at24 m ρ c _ h3 hv1 hv3 hr
  refine (out_after (W24 m ρ c)).trans ?_
  rw [h4, at_main_arg3_24 m ρ c, at_main_arg12_24 m ρ c, at_main_arg13_24 m ρ c]
  rfl

end Cert.KernelIdeal.Hand

end
-- ==== Proof.PreSrc.lean ====
/-
  The precondition's range conjunct, read back.

  The printed precondition is a chain of conjunctions: twelve "every entry is finite" tests and, last, the test that every
  entry of row 0 of the index pair lies in [0, 80000), reduced by "and" over all edges. The whole chain is the one-bit
  word 1. A conjunction that is 1 has both conjuncts 1, so the last conjunct is 1; a reduction by "and" that is 1 met a 1
  at every position; hence the range test is 1 at every edge. Nothing about the twelve other conjuncts is opened.
-/
import proofs.«422392_j11433202942183_1_alg».proof.Defs
import proofs.«422392_j11433202942183_1_alg».proof.Proof.Gen.Pre_finite_inputs
import proofs.«422392_j11433202942183_1_alg».proof.Proof.KDefs
import Idealize.ShloMosaic.Lib.ReduceAll
import Idealize.ShloMosaic.Lib.ValueIdx
import Idealize.ShloMosaic.Lib.Pipeline.Value

set_option maxRecDepth 16384

noncomputable section

open scoped BigOperators

namespace Cert.KernelIdeal.Hand

open Idealize.ShloMosaic Cert.KernelIdeal Cert.KernelIdeal.Gen Cert.MlpSpec
open Idealize.ShloMosaic.TcCoe Idealize.ShloMosaic.ValueIdx Idealize.SL.Sem

section Peel

variable [Cert.Pre_finite_inputs.Facts]

/-- The last stretch of the printed predicate ends in the conjunction of everything before with the "all" of the range
    test on row 0 of the index pair. If the whole is 1, the right conjunct is 1, and an "all" that is 1 saw a 1 at every
    edge: the range test holds edge by edge. -/
theorem srcInRange_of_part3 (x2 : IVec S2x1280000 32) (x13 : FVec Ideal S1 .f32) (v48 : IVec S_ 1)
    (v49 v50 : FVec Ideal S64x1 .f32)
    (h : Cert.Pre_finite_inputs.fn_part3 (F := Ideal) x2 x13 v48 v49 v50 ValueIdx.ix0 = 1#1) :
    SrcInRange (kSrc x2) := by
  intro e
  unfold Cert.Pre_finite_inputs.fn_part3 Cert.Pre_finite_inputs.fn_part4 at h
  have hr := (IntOp.andi_eq_one.1 h).2
  -- a rank-0 array has exactly one index
  haveI : Subsingleton Cert.Pre_finite_inputs.S_.Idx := ⟨fun a b => funext fun d => d.elim0⟩
  exact Host.reduce_andi_all _ _ _ _ _ hr e

/-- The stretch before it only passes the index pair on. -/
theorem srcInRange_of_part2 (x2 : IVec S2x1280000 32) (x9 : FVec Ideal S3x64 .f32) (x10 : FVec Ideal S3x128x64 .f32)
    (x11 : FVec Ideal S3x64 .f32) (x12 : FVec Ideal S64x1 .f32) (x13 : FVec Ideal S1 .f32) (v33 : IVec S_ 1)
    (h : Cert.Pre_finite_inputs.fn_part2 (F := Ideal) x2 x9 x10 x11 x12 x13 v33 ValueIdx.ix0 = 1#1) :
    SrcInRange (kSrc x2) := by
  unfold Cert.Pre_finite_inputs.fn_part2 at h
  exact srcInRange_of_part3 x2 _ _ _ _ h

/-- So does the one before that. -/
theorem srcInRange_of_part1 (x2 : IVec S2x1280000 32) (x6 : FVec Ideal S96x64 .f32) (x7 : FVec Ideal S64 .f32)
    (x8 : FVec Ideal S3x80x64 .f32) (x9 : FVec Ideal S3x64 .f32) (x10 : FVec Ideal S3x128x64 .f32)
    (x11 : FVec Ideal S3x64 .f32) (x12 : FVec Ideal S64x1 .f32) (x13 : FVec Ideal S1 .f32) (v13 : IVec S_ 1)
    (v16 : IVec S64 1)
    (h : Cert.Pre_finite_inputs.fn_part1 (F := Ideal) x2 x6 x7 x8 x9 x10 x11 x12 x13 v13 v16 ValueIdx.ix0 = 1#1) :
    SrcInRange (kSrc x2) := by
  unfold Cert.Pre_finite_inputs.fn_part1 at h
  exact srcInRange_of_part2 x2 _ _ _ _ _ _ h

end Peel

/-- The precondition gives the range fact for the source indices. -/
theorem srcInRange_of_pre (m : (ℓ : Loc nD τ sig) → Buf (Elt Ideal) ℓ) (hpre : Cert.Pre_KernelIdeal m) (c : Dev nD) :
    SrcInRange (kSrc (m ((c.tc : Thread nD τ).loc main_arg2))) := by
  have h := congrFun (hpre c) ValueIdx.ix0
  unfold Cert.Pre_finite_inputs.fn at h
  exact srcInRange_of_part1 _ _ _ _ _ _ _ _ _ _ _ h

end Cert.KernelIdeal.Hand

end
-- ==== Proof.Weights.lean ====
/-
  The kernel program's cut weights and bias rows, read at an index.

  Before each layer the program cuts that layer's weight matrix into the rows that meet the first operand and the rows
  that meet the second, and lays the bias vector out as a one-row array. For the first layer the matrix and the vector
  are arguments of their own; for the three later layers they are one page of a stacked argument, cut out with a unit
  page axis that a reshape then drops. Every fact below says which entry of the ARGUMENT such a cut reads at row `k`,
  column `q`: a cut of rows `[r, r + m)` reads row `r + k`; dropping (or adding) a unit axis keeps the row-major
  position, so it keeps `k` and `q`.
-/
import proofs.«422392_j11433202942183_1_alg».proof.Proof.KDefs
import Idealize.ShloMosaic.Lib.Pipeline.Value
import Idealize.ShloMosaic.Lib.ValueIdx

noncomputable section

namespace Cert.KernelIdeal.Hand

open Idealize.ShloMosaic Cert.KernelIdeal Cert.KernelIdeal.Gen Cert.MlpSpec
open Idealize.ShloMosaic.ValueIdx

/-! ## The first layer's cuts

A cut of rows `[r, r + m)` out of a matrix reads, at row `k` and column `q`, the matrix at row `r + k` and
column `q`. -/

theorem mw0_top (x4 : FVec Ideal S48x64 .f32) (k : Fin 32) (q : Fin 64) :
    extractStridedSlice S32x64 ![0, 0] x4 slices_S48x64_S32x64_0_0 (ix2 k q) = x4 (ix2 ⟨k.val, by omega⟩ q) :=
  extractStridedSlice_apply ![0, 0] x4 slices_S48x64_S32x64_0_0 (ix2 k q) (ix2 ⟨k.val, by omega⟩ q) (fun a => match a with
    | ⟨0, _⟩ => by show k.val = 0 + k.val; omega
    | ⟨1, _⟩ => by show q.val = 0 + q.val; omega)

theorem mw0_bot (x4 : FVec Ideal S48x64 .f32) (k : Fin 16) (q : Fin 64) :
    extractStridedSlice S16x64 ![32, 0] x4 slices_S48x64_S16x64_32_0 (ix2 k q) = x4 (ix2 ⟨32 + k.val, by omega⟩ q) :=
  extractStridedSlice_apply ![32, 0] x4 slices_S48x64_S16x64_32_0 (ix2 k q) (ix2 ⟨32 + k.val, by omega⟩ q) (fun a => match a with
    | ⟨0, _⟩ => by show 32 + k.val = 32 + k.val; rfl
    | ⟨1, _⟩ => by show q.val = 0 + q.val; omega)

theorem uw0_top (x6 : FVec Ideal S96x64 .f32) (k : Fin 32) (q : Fin 64) :
    extractStridedSlice S32x64 ![0, 0] x6 slices_S96x64_S32x64_0_0 (ix2 k q) = x6 (ix2 ⟨k.val, by omega⟩ q) :=
  extractStridedSlice_apply ![0, 0] x6 slices_S96x64_S32x64_0_0 (ix2 k q) (ix2 ⟨k.val, by omega⟩ q) (fun a => match a with
    | ⟨0, _⟩ => by show k.val = 0 + k.val; omega
    | ⟨1, _⟩ => by show q.val = 0 + q.val; omega)

theorem uw0_bot (x6 : FVec Ideal S96x64 .f32) (k : Fin 64) (q : Fin 64) :
    extractStridedSlice S64x64 ![32, 0] x6 slices_S96x64_S64x64_32_0 (ix2 k q) = x6 (ix2 ⟨32 + k.val, by omega⟩ q) :=
  extractStridedSlice_apply ![32, 0] x6 slices_S96x64_S64x64_32_0 (ix2 k q) (ix2 ⟨32 + k.val, by omega⟩ q) (fun a => match a with
    | ⟨0, _⟩ => by show 32 + k.val = 32 + k.val; rfl
    | ⟨1, _⟩ => by show q.val = 0 + q.val; omega)

/-- A vector laid out as a one-row array reads, at column `q`, the vector at `q`. -/
theorem bias_row (x : FVec Ideal S64 .f32) (q : Fin 64) :
    shapeCast S1x64 x shapeCasts_S64_S1x64 (ix2 (0 : Fin 1) q) = x (ix1 q) :=
  shapeCast_apply x shapeCasts_S64_S1x64 (ix2 (0 : Fin 1) q) (ix1 q)
    (by rw [Shape.rowMajor_val_one, Shape.rowMajor_val_two]; show q.val = 0 * 64 + q.val; omega)

/-! ## The later layers' cuts

Page `p` of a stacked array, rows `[r, r + m)`, with the unit page axis dropped: entry `(k, q)` of the result has
row-major position `k * 64 + q`, which in the `[1, m, 64]` cut is the entry `(0, k, q)`, and the cut reads the stacked
array at `(p, r + k, q)`. The page and the row are named by the caller with their values as hypotheses, so one
statement serves every page and both row ranges. -/

/-- Sixty-four rows of a page of the `[3, 80, 64]` stack. -/
theorem page80_rows64 (p r : Nat) (x : FVec Ideal S3x80x64 .f32) (h : S3x80x64.Slices ![p, r, 0] S1x64x64)
    (k : Fin 64) (q : Fin 64) (P : Fin 3) (R : Fin 80) (hP : P.val = p) (hR : R.val = r + k.val) :
    shapeCast S64x64 (extractStridedSlice S1x64x64 ![p, r, 0] x h) shapeCasts_S1x64x64_S64x64 (ix2 k q)
      = x (ix3 P R q) := by
  refine (shapeCast_apply _ shapeCasts_S1x64x64_S64x64 (ix2 k q) (ix3 (0 : Fin 1) k q)
    (by rw [Shape.rowMajor_val_three, Shape.rowMajor_val_two]
        show (0 * 64 + k.val) * 64 + q.val = k.val * 64 + q.val; omega)).trans ?_
  exact extractStridedSlice_apply ![p, r, 0] x h (ix3 (0 : Fin 1) k q) (ix3 P R q) (fun a => match a with
    | ⟨0, _⟩ => by show P.val = p + 0; omega
    | ⟨1, _⟩ => by show R.val = r + k.val; exact hR
    | ⟨2, _⟩ => by show q.val = 0 + q.val; omega)

/-- Sixteen rows of a page of the `[3, 80, 64]` stack. -/
theorem page80_rows16 (p r : Nat) (x : FVec Ideal S3x80x64 .f32) (h : S3x80x64.Slices ![p, r, 0] S1x16x64)
    (k : Fin 16) (q : Fin 64) (P : Fin 3) (R : Fin 80) (hP : P.val = p) (hR : R.val = r + k.val) :
    shapeCast S16x64 (extractStridedSlice S1x16x64 ![p, r, 0] x h) shapeCasts_S1x16x64_S16x64 (ix2 k q)
      = x (ix3 P R q) := by
  refine (shapeCast_apply _ shapeCasts_S1x16x64_S16x64 (ix2 k q) (ix3 (0 : Fin 1) k q)
    (by rw [Shape.rowMajor_val_three, Shape.rowMajor_val_two]
        show (0 * 16 + k.val) * 64 + q.val = k.val * 64 + q.val; omega)).trans ?_
  exact extractStridedSlice_apply ![p, r, 0] x h (ix3 (0 : Fin 1) k q) (ix3 P R q) (fun a => match a with
    | ⟨0, _⟩ => by show P.val = p + 0; omega
    | ⟨1, _⟩ => by show R.val = r + k.val; exact hR
    | ⟨2, _⟩ => by show q.val = 0 + q.val; omega)

/-- Sixty-four rows of a page of the `[3, 128, 64]` stack. -/
theorem page128_rows64 (p r : Nat) (x : FVec Ideal S3x128x64 .f32) (h : S3x128x64.Slices ![p, r, 0] S1x64x64)
    (k : Fin 64) (q : Fin 64) (P : Fin 3) (R : Fin 128) (hP : P.val = p) (hR : R.val = r + k.val) :
    shapeCast S64x64 (extractStridedSlice S1x64x64 ![p, r, 0] x h) shapeCasts_S1x64x64_S64x64 (ix2 k q)
      = x (ix3 P R q) := by
  refine (shapeCast_apply _ shapeCasts_S1x64x64_S64x64 (ix2 k q) (ix3 (0 : Fin 1) k q)
    (by rw [Shape.rowMajor_val_three, Shape.rowMajor_val_two]
        show (0 * 64 + k.val) * 64 + q.val = k.val * 64 + q.val; omega)).trans ?_
  exact extractStridedSlice_apply ![p, r, 0] x h (ix3 (0 : Fin 1) k q) (ix3 P R q) (fun a => match a with
    | ⟨0, _⟩ => by show P.val = p + 0; omega
    | ⟨1, _⟩ => by show R.val = r + k.val; exact hR
    | ⟨2, _⟩ => by show q.val = 0 + q.val; omega)

/-- Row `p` of a `[3, 64]` stack of vectors, cut out as `[1, 64]`, flattened to `[64]` and laid out again as a
    `[1, 64]` row: at column `q` it is the stack at `(p, q)`. -/
theorem bias_page (p : Nat) (x : FVec Ideal S3x64 .f32) (h : S3x64.Slices ![p, 0] S1x64) (q : Fin 64) (P : Fin 3)
    (hP : P.val = p) :
    shapeCast S1x64 (shapeCast S64 (extractStridedSlice S1x64 ![p, 0] x h) shapeCasts_S1x64_S64) shapeCasts_S64_S1x64
      (ix2 (0 : Fin 1) q) = x (ix2 P q) := by
  refine (bias_row _ q).trans ?_
  refine (shapeCast_apply _ shapeCasts_S1x64_S64 (ix1 q) (ix2 (0 : Fin 1) q)
    (by rw [Shape.rowMajor_val_two, Shape.rowMajor_val_one]; show 0 * 64 + q.val = q.val; omega)).trans ?_
  exact extractStridedSlice_apply ![p, 0] x h (ix2 (0 : Fin 1) q) (ix2 P q) (fun a => match a with
    | ⟨0, _⟩ => by show P.val = p + 0; omega
    | ⟨1, _⟩ => by show q.val = 0 + q.val; omega)

/-! Page 0. -/

theorem kWa0_apply (x8 : FVec Ideal S3x80x64 .f32) (k : Fin 64) (q : Fin 64) :
    kWa0 x8 (ix2 k q) = x8 (ix3 (⟨0, by omega⟩ : Fin 3) (⟨k.val, by omega⟩ : Fin 80) q) :=
  page80_rows64 0 0 x8 slices_S3x80x64_S1x64x64_0_0_0 k q _ _ rfl (by show k.val = 0 + k.val; omega)
theorem kWb0_apply (x8 : FVec Ideal S3x80x64 .f32) (k : Fin 16) (q : Fin 64) :
    kWb0 x8 (ix2 k q) = x8 (ix3 (⟨0, by omega⟩ : Fin 3) (⟨64 + k.val, by omega⟩ : Fin 80) q) :=
  page80_rows16 0 64 x8 slices_S3x80x64_S1x16x64_0_64_0 k q _ _ rfl rfl
theorem kBm0_apply (x9 : FVec Ideal S3x64 .f32) (q : Fin 64) :
    kBm0 x9 (ix2 (0 : Fin 1) q) = x9 (ix2 (⟨0, by omega⟩ : Fin 3) q) :=
  bias_page 0 x9 slices_S3x64_S1x64_0_0 q _ rfl
theorem kUa0_apply (x10 : FVec Ideal S3x128x64 .f32) (k : Fin 64) (q : Fin 64) :
    kUa0 x10 (ix2 k q) = x10 (ix3 (⟨0, by omega⟩ : Fin 3) (⟨k.val, by omega⟩ : Fin 128) q) :=
  page128_rows64 0 0 x10 slices_S3x128x64_S1x64x64_0_0_0 k q _ _ rfl (by show k.val = 0 + k.val; omega)
theorem kUb0_apply (x10 : FVec Ideal S3x128x64 .f32) (k : Fin 64) (q : Fin 64) :
    kUb0 x10 (ix2 k q) = x10 (ix3 (⟨0, by omega⟩ : Fin 3) (⟨64 + k.val, by omega⟩ : Fin 128) q) :=
  page128_rows64 0 64 x10 slices_S3x128x64_S1x64x64_0_64_0 k q _ _ rfl rfl
theorem kBu0_apply (x11 : FVec Ideal S3x64 .f32) (q : Fin 64) :
    kBu0 x11 (ix2 (0 : Fin 1) q) = x11 (ix2 (⟨0, by omega⟩ : Fin 3) q) :=
  bias_page 0 x11 slices_S3x64_S1x64_0_0 q _ rfl

/-! Page 1. -/

theorem kWa1_apply (x8 : FVec Ideal S3x80x64 .f32) (k : Fin 64) (q : Fin 64) :
    kWa1 x8 (ix2 k q) = x8 (ix3 (⟨1, by omega⟩ : Fin 3) (⟨k.val, by omega⟩ : Fin 80) q) :=
  page80_rows64 1 0 x8 slices_S3x80x64_S1x64x64_1_0_0 k q _ _ rfl (by show k.val = 0 + k.val; omega)
theorem kWb1_apply (x8 : FVec Ideal S3x80x64 .f32) (k : Fin 16) (q : Fin 64) :
    kWb1 x8 (ix2 k q) = x8 (ix3 (⟨1, by omega⟩ : Fin 3) (⟨64 + k.val, by omega⟩ : Fin 80) q) :=
  page80_rows16 1 64 x8 slices_S3x80x64_S1x16x64_1_64_0 k q _ _ rfl rfl
theorem kBm1_apply (x9 : FVec Ideal S3x64 .f32) (q : Fin 64) :
    kBm1 x9 (ix2 (0 : Fin 1) q) = x9 (ix2 (⟨1, by omega⟩ : Fin 3) q) :=
  bias_page 1 x9 slices_S3x64_S1x64_1_0 q _ rfl
theorem kUa1_apply (x10 : FVec Ideal S3x128x64 .f32) (k : Fin 64) (q : Fin 64) :
    kUa1 x10 (ix2 k q) = x10 (ix3 (⟨1, by omega⟩ : Fin 3) (⟨k.val, by omega⟩ : Fin 128) q) :=
  page128_rows64 1 0 x10 slices_S3x128x64_S1x64x64_1_0_0 k q _ _ rfl (by show k.val = 0 + k.val; omega)
theorem kUb1_apply (x10 : FVec Ideal S3x128x64 .f32) (k : Fin 64) (q : Fin 64) :
    kUb1 x10 (ix2 k q) = x10 (ix3 (⟨1, by omega⟩ : Fin 3) (⟨64 + k.val, by omega⟩ : Fin 128) q) :=
  page128_rows64 1 64 x10 slices_S3x128x64_S1x64x64_1_64_0 k q _ _ rfl rfl
theorem kBu1_apply (x11 : FVec Ideal S3x64 .f32) (q : Fin 64) :
    kBu1 x11 (ix2 (0 : Fin 1) q) = x11 (ix2 (⟨1, by omega⟩ : Fin 3) q) :=
  bias_page 1 x11 slices_S3x64_S1x64_1_0 q _ rfl

/-! Page 2. -/

theorem kWa2_apply (x8 : FVec Ideal S3x80x64 .f32) (k : Fin 64) (q : Fin 64) :
    kWa2 x8 (ix2 k q) = x8 (ix3 (⟨2, by omega⟩ : Fin 3) (⟨k.val, by omega⟩ : Fin 80) q) :=
  page80_rows64 2 0 x8 slices_S3x80x64_S1x64x64_2_0_0 k q _ _ rfl (by show k.val = 0 + k.val; omega)
theorem kWb2_apply (x8 : FVec Ideal S3x80x64 .f32) (k : Fin 16) (q : Fin 64) :
    kWb2 x8 (ix2 k q) = x8 (ix3 (⟨2, by omega⟩ : Fin 3) (⟨64 + k.val, by omega⟩ : Fin 80) q) :=
  page80_rows16 2 64 x8 slices_S3x80x64_S1x16x64_2_64_0 k q _ _ rfl rfl
theorem kBm2_apply (x9 : FVec Ideal S3x64 .f32) (q : Fin 64) :
    kBm2 x9 (ix2 (0 : Fin 1) q) = x9 (ix2 (⟨2, by omega⟩ : Fin 3) q) :=
  bias_page 2 x9 slices_S3x64_S1x64_2_0 q _ rfl
theorem kUa2_apply (x10 : FVec Ideal S3x128x64 .f32) (k : Fin 64) (q : Fin 64) :
    kUa2 x10 (ix2 k q) = x10 (ix3 (⟨2, by omega⟩ : Fin 3) (⟨k.val, by omega⟩ : Fin 128) q) :=
  page128_rows64 2 0 x10 slices_S3x128x64_S1x64x64_2_0_0 k q _ _ rfl (by show k.val = 0 + k.val; omega)
theorem kUb2_apply (x10 : FVec Ideal S3x128x64 .f32) (k : Fin 64) (q : Fin 64) :
    kUb2 x10 (ix2 k q) = x10 (ix3 (⟨2, by omega⟩ : Fin 3) (⟨64 + k.val, by omega⟩ : Fin 128) q) :=
  page128_rows64 2 64 x10 slices_S3x128x64_S1x64x64_2_64_0 k q _ _ rfl rfl
theorem kBu2_apply (x11 : FVec Ideal S3x64 .f32) (q : Fin 64) :
    kBu2 x11 (ix2 (0 : Fin 1) q) = x11 (ix2 (⟨2, by omega⟩ : Fin 3) q) :=
  bias_page 2 x11 slices_S3x64_S1x64_2_0 q _ rfl

end Cert.KernelIdeal.Hand

end
-- ==== Proof.RefLayerE.lean ====
/-
  Each edge layer of the reference program is the fused layer of the specification.

  The reference multiplies the rows of the concatenation [a | b] by ONE stacked weight matrix, adds the bias row to
  every row and clips at zero. The specification keeps the two row ranges of the stacked matrix as two matrices.
  A sum over the columns of the concatenation splits into the sum over the columns of a plus the sum over the columns
  of b; the first range of the concatenation reads a, the second reads b, and the same ranges of the stacked matrix
  read the two weight matrices. Everything below is that argument at one row p and one column q.
-/
import proofs.«422392_j11433202942183_1_alg».proof.Proof.ReadP
import proofs.«422392_j11433202942183_1_alg».proof.Proof.MlpSpec
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.ReferenceIdeal.Hand

open Cert.ReferenceIdeal Cert.ReferenceIdeal.Gen Cert.ReferenceIdeal.ReadP Cert.MlpSpec Idealize.ShloMosaic Idealize.ShloMosaic.ValueIdx

/-- The concatenation of a : [R, Da] and b : [R, Db] along the columns, read in its first Da columns, is a. -/
theorem cat_left {R Da Db N : Nat} (a : (⟨2, ![R, Da]⟩ : Shape).Idx → EReal) (b : (⟨2, ![R, Db]⟩ : Shape).Idx → EReal)
    (h : Shape.Concatenates [(⟨2, ![R, Da]⟩ : Shape), (⟨2, ![R, Db]⟩ : Shape)] (⟨2, ![R, N]⟩ : Shape) 1)
    (p : Fin R) (k : Fin Da) (hk : k.val < N) :
    concatenate (⟨2, ![R, N]⟩ : Shape) 1 [⟨(⟨2, ![R, Da]⟩ : Shape), a⟩, ⟨(⟨2, ![R, Db]⟩ : Shape), b⟩] h (ix2 p ⟨k.val, hk⟩) = a (ix2 p k) :=
  concatenate_pair_apply_left 1 a b h (ix2 p ⟨k.val, hk⟩) rfl (ix2 p k) (fun c => match c with
    | ⟨0, _⟩ => rfl
    | ⟨1, _⟩ => rfl)

/-- The same concatenation read in its last Db columns is b. -/
theorem cat_right {R Da Db N : Nat} (a : (⟨2, ![R, Da]⟩ : Shape).Idx → EReal) (b : (⟨2, ![R, Db]⟩ : Shape).Idx → EReal)
    (h : Shape.Concatenates [(⟨2, ![R, Da]⟩ : Shape), (⟨2, ![R, Db]⟩ : Shape)] (⟨2, ![R, N]⟩ : Shape) 1)
    (p : Fin R) (k : Fin Db) (hk : Da + k.val < N) :
    concatenate (⟨2, ![R, N]⟩ : Shape) 1 [⟨(⟨2, ![R, Da]⟩ : Shape), a⟩, ⟨(⟨2, ![R, Db]⟩ : Shape), b⟩] h (ix2 p ⟨Da + k.val, hk⟩) = b (ix2 p k) :=
  concatenate_pair_apply_right 1 a b h (ix2 p ⟨Da + k.val, hk⟩) rfl rfl (ix2 p k) (fun c hc => match c, hc with
    | ⟨0, _⟩, _ => rfl
    | ⟨1, _⟩, hc => absurd rfl hc)
    (by show k.val + Da = Da + k.val; omega)

/-- One row of the concatenation against one column of a stacked matrix W : [N, H], plus a number β, clipped at zero, is
    the fused layer, when the two row ranges of W are the two weight matrices and β is the bias at that column. -/
theorem fused_at {R Da Db N H : Nat} (hN : Da + Db = N)
    (a : (⟨2, ![R, Da]⟩ : Shape).Idx → EReal) (b : (⟨2, ![R, Db]⟩ : Shape).Idx → EReal)
    (h : Shape.Concatenates [(⟨2, ![R, Da]⟩ : Shape), (⟨2, ![R, Db]⟩ : Shape)] (⟨2, ![R, N]⟩ : Shape) 1)
    (W : (⟨2, ![N, H]⟩ : Shape).Idx → EReal) (β : EReal)
    (wa : (⟨2, ![Da, H]⟩ : Shape).Idx → EReal) (wb : (⟨2, ![Db, H]⟩ : Shape).Idx → EReal)
    (bias : (⟨2, ![1, H]⟩ : Shape).Idx → EReal) (p : Fin R) (q : Fin H)
    (hwa : ∀ k : Fin Da, wa (ix2 k q) = W (ix2 ⟨k.val, by omega⟩ q))
    (hwb : ∀ k : Fin Db, wb (ix2 k q) = W (ix2 ⟨Da + k.val, by omega⟩ q))
    (hβ : β = bias (ix2 (0 : Fin 1) q)) :
    max ((∑ k : Fin N, concatenate (⟨2, ![R, N]⟩ : Shape) 1 [⟨(⟨2, ![R, Da]⟩ : Shape), a⟩, ⟨(⟨2, ![R, Db]⟩ : Shape), b⟩] h (ix2 p k)
        * W (ix2 k q)) + β) 0 = mlpAt a b wa wb bias p q :=
  mlpAt_eq_of_concat hN a b wa wb bias p q
    (fun k => concatenate (⟨2, ![R, N]⟩ : Shape) 1 [⟨(⟨2, ![R, Da]⟩ : Shape), a⟩, ⟨(⟨2, ![R, Db]⟩ : Shape), b⟩] h (ix2 p k))
    (fun k => W (ix2 k q)) β
    (fun k => cat_left a b h p k (by omega)) (fun k => cat_right a b h p k (by omega))
    (fun k => (hwa k).symm) (fun k => (hwb k).symm) hβ

/-! ## Layer 0 -/

theorem lidx12_eq (p : Fin 1280000) (q : Fin 64) (k : Fin 48) : lidx_main_v12 (ix2 p q) k = ix2 p k :=
  funext fun c => Fin.ext (by match c with | ⟨0, _⟩ => rfl | ⟨1, _⟩ => rfl)

theorem ridx12_eq (p : Fin 1280000) (q : Fin 64) (k : Fin 48) : ridx_main_v12 (ix2 p q) k = ix2 k q :=
  funext fun c => Fin.ext (by match c with | ⟨0, _⟩ => rfl | ⟨1, _⟩ => rfl)

theorem bidx14_eq (p : Fin 1280000) (q : Fin 64) : idx_main_v13 (idx_main_v14 (ix2 p q)) = ix1 q :=
  funext fun c => Fin.ext (by match c with | ⟨0, _⟩ => rfl)

theorem ref_edge0 (x0 : (⟨S80000x32, .f32⟩ : BufTy).Contents (Elt Ideal)) (x1 : (⟨S1280000x16, .f32⟩ : BufTy).Contents (Elt Ideal))
    (x2 : (⟨S2x1280000, .i32⟩ : BufTy).Contents (Elt Ideal)) (x4 : (⟨S48x64, .f32⟩ : BufTy).Contents (Elt Ideal))
    (x5 : (⟨S64, .f32⟩ : BufTy).Contents (Elt Ideal))
    (wa : FVec Ideal (⟨2, ![32, 64]⟩ : Shape) .f32) (wb : FVec Ideal (⟨2, ![16, 64]⟩ : Shape) .f32) (bias : FVec Ideal S1x64 .f32)
    (hwa : ∀ (k : Fin 32) (q : Fin 64), wa (ix2 k q) = x4 (ix2 ⟨k.val, by omega⟩ q))
    (hwb : ∀ (k : Fin 16) (q : Fin 64), wb (ix2 k q) = x4 (ix2 ⟨32 + k.val, by omega⟩ q))
    (hb : ∀ q : Fin 64, bias (ix2 (0 : Fin 1) q) = x5 (ix1 q)) :
    val_main_v16 (F := Ideal) x0 x1 x2 x4 x5 = mlp2 (val_main_v10 (F := Ideal) x0 x2) x1 wa wb bias := by
  funext i
  obtain ⟨p, q, rfl⟩ : ∃ (p : Fin 1280000) (q : Fin 64), i = ix2 p q := ⟨i 0, i 1, eq_ix2 i⟩
  rw [mlp2_apply, val_main_v16_apply, val_main_v15_apply, val_main_v12_apply, val_main_v14_apply, val_main_v13_apply,
    val_main_call0_v0_apply, val_main_call0_cst_apply, Ideal.maximumf_def, Ideal.addf_def, Ideal.ofBits_def,
    Ideal.ofBits_zero_f32, bidx14_eq]
  simp only [lidx12_eq, ridx12_eq]
  unfold val_main_v11
  exact fused_at (by norm_num) (val_main_v10 (F := Ideal) x0 x2) x1 _ x4 _ wa wb bias p q (fun k => hwa k q) (fun k => hwb k q) (hb q).symm

/-! ## Layer 1: the stacked matrix is page 0 of the weight stack, the bias is row 0 of the bias stack -/

theorem lidx42_eq (p : Fin 1280000) (q : Fin 64) (k : Fin 80) : lidx_main_v42 (ix2 p q) k = ix2 p k :=
  funext fun c => Fin.ext (by match c with | ⟨0, _⟩ => rfl | ⟨1, _⟩ => rfl)

theorem ridx42_eq (p : Fin 1280000) (q : Fin 64) (k : Fin 80) : ridx_main_v42 (ix2 p q) k = ix2 k q :=
  funext fun c => Fin.ext (by match c with | ⟨0, _⟩ => rfl | ⟨1, _⟩ => rfl)

/-- Page 0 of the weight stack, flattened to [80, 64], at row k and column q. -/
theorem page27 (x8 : (⟨S3x80x64, .f32⟩ : BufTy).Contents (Elt Ideal)) (k : Fin 80) (q : Fin 64) :
    val_main_v27 (F := Ideal) x8 (ix2 k q) = x8 (ix3 (⟨0, by omega⟩ : Fin 3) k q) := by
  rw [val_main_v27_apply, val_main_v26_apply]
  refine congrArg x8 (funext fun c => Fin.ext ?_)
  match c with
  | ⟨0, _⟩ => rfl
  | ⟨1, _⟩ => show (k.val * 64 + q.val) / 64 % 80 = k.val; omega
  | ⟨2, _⟩ => show (k.val * 64 + q.val) % 64 = q.val; omega

/-- Row 0 of the bias stack, repeated over every row, at row p and column q. -/
theorem row44 (x9 : (⟨S3x64, .f32⟩ : BufTy).Contents (Elt Ideal)) (p : Fin 1280000) (q : Fin 64) :
    val_main_v44 (F := Ideal) x9 (ix2 p q) = x9 (ix2 (⟨0, by omega⟩ : Fin 3) q) := by
  rw [val_main_v44_apply, val_main_v43_apply, val_main_v29_apply, val_main_v28_apply]
  refine congrArg x9 (funext fun c => Fin.ext ?_)
  match c with
  | ⟨0, _⟩ => rfl
  | ⟨1, _⟩ => show q.val % 64 = q.val; omega

theorem ref_edge1 (x0 : (⟨S80000x32, .f32⟩ : BufTy).Contents (Elt Ideal)) (x1 : (⟨S1280000x16, .f32⟩ : BufTy).Contents (Elt Ideal))
    (x2 : (⟨S2x1280000, .i32⟩ : BufTy).Contents (Elt Ideal)) (x4 : (⟨S48x64, .f32⟩ : BufTy).Contents (Elt Ideal))
    (x5 : (⟨S64, .f32⟩ : BufTy).Contents (Elt Ideal)) (x6 : (⟨S96x64, .f32⟩ : BufTy).Contents (Elt Ideal))
    (x7 : (⟨S64, .f32⟩ : BufTy).Contents (Elt Ideal)) (x8 : (⟨S3x80x64, .f32⟩ : BufTy).Contents (Elt Ideal))
    (x9 : (⟨S3x64, .f32⟩ : BufTy).Contents (Elt Ideal))
    (wa : FVec Ideal (⟨2, ![64, 64]⟩ : Shape) .f32) (wb : FVec Ideal (⟨2, ![16, 64]⟩ : Shape) .f32) (bias : FVec Ideal S1x64 .f32)
    (hwa : ∀ (k : Fin 64) (q : Fin 64), wa (ix2 k q) = x8 (ix3 (⟨0, by omega⟩ : Fin 3) (⟨k.val, by omega⟩ : Fin 80) q))
    (hwb : ∀ (k : Fin 16) (q : Fin 64), wb (ix2 k q) = x8 (ix3 (⟨0, by omega⟩ : Fin 3) (⟨64 + k.val, by omega⟩ : Fin 80) q))
    (hb : ∀ q : Fin 64, bias (ix2 (0 : Fin 1) q) = x9 (ix2 (⟨0, by omega⟩ : Fin 3) q)) :
    val_main_v46 (F := Ideal) x0 x1 x2 x4 x5 x6 x7 x8 x9
      = mlp2 (val_main_v40 (F := Ideal) x0 x1 x2 x4 x5 x6 x7) x1 wa wb bias := by
  funext i
  obtain ⟨p, q, rfl⟩ : ∃ (p : Fin 1280000) (q : Fin 64), i = ix2 p q := ⟨i 0, i 1, eq_ix2 i⟩
  rw [mlp2_apply, val_main_v46_apply, val_main_v45_apply, val_main_v42_apply, row44, val_main_call2_v0_apply,
    val_main_call2_cst_apply, Ideal.maximumf_def, Ideal.addf_def, Ideal.ofBits_def, Ideal.ofBits_zero_f32]
  simp only [lidx42_eq, ridx42_eq]
  unfold val_main_v41
  exact fused_at (by norm_num) (val_main_v40 (F := Ideal) x0 x1 x2 x4 x5 x6 x7) x1 _ (val_main_v27 (F := Ideal) x8) _ wa wb bias p q
    (fun k => (hwa k q).trans (page27 x8 _ q).symm) (fun k => (hwb k q).trans (page27 x8 _ q).symm) (hb q).symm

/-! ## Layer 2: page 1 of the weight stack, row 1 of the bias stack -/

theorem lidx72_eq (p : Fin 1280000) (q : Fin 64) (k : Fin 80) : lidx_main_v72 (ix2 p q) k = ix2 p k :=
  funext fun c => Fin.ext (by match c with | ⟨0, _⟩ => rfl | ⟨1, _⟩ => rfl)

theorem ridx72_eq (p : Fin 1280000) (q : Fin 64) (k : Fin 80) : ridx_main_v72 (ix2 p q) k = ix2 k q :=
  funext fun c => Fin.ext (by match c with | ⟨0, _⟩ => rfl | ⟨1, _⟩ => rfl)

/-- Page 1 of the weight stack, flattened to [80, 64], at row k and column q. -/
theorem page57 (x8 : (⟨S3x80x64, .f32⟩ : BufTy).Contents (Elt Ideal)) (k : Fin 80) (q : Fin 64) :
    val_main_v57 (F := Ideal) x8 (ix2 k q) = x8 (ix3 (⟨1, by omega⟩ : Fin 3) k q) := by
  rw [val_main_v57_apply, val_main_v56_apply]
  refine congrArg x8 (funext fun c => Fin.ext ?_)
  match c with
  | ⟨0, _⟩ => rfl
  | ⟨1, _⟩ => show (k.val * 64 + q.val) / 64 % 80 = k.val; omega
  | ⟨2, _⟩ => show (k.val * 64 + q.val) % 64 = q.val; omega

/-- Row 1 of the bias stack, repeated over every row, at row p and column q. -/
theorem row74 (x9 : (⟨S3x64, .f32⟩ : BufTy).Contents (Elt Ideal)) (p : Fin 1280000) (q : Fin 64) :
    val_main_v74 (F := Ideal) x9 (ix2 p q) = x9 (ix2 (⟨1, by omega⟩ : Fin 3) q) := by
  rw [val_main_v74_apply, val_main_v73_apply, val_main_v59_apply, val_main_v58_apply]
  refine congrArg x9 (funext fun c => Fin.ext ?_)
  match c with
  | ⟨0, _⟩ => rfl
  | ⟨1, _⟩ => show q.val % 64 = q.val; omega

theorem ref_edge2 (x0 : (⟨S80000x32, .f32⟩ : BufTy).Contents (Elt Ideal)) (x1 : (⟨S1280000x16, .f32⟩ : BufTy).Contents (Elt Ideal))
    (x2 : (⟨S2x1280000, .i32⟩ : BufTy).Contents (Elt Ideal)) (x4 : (⟨S48x64, .f32⟩ : BufTy).Contents (Elt Ideal))
    (x5 : (⟨S64, .f32⟩ : BufTy).Contents (Elt Ideal)) (x6 : (⟨S96x64, .f32⟩ : BufTy).Contents (Elt Ideal))
    (x7 : (⟨S64, .f32⟩ : BufTy).Contents (Elt Ideal)) (x8 : (⟨S3x80x64, .f32⟩ : BufTy).Contents (Elt Ideal))
    (x9 : (⟨S3x64, .f32⟩ : BufTy).Contents (Elt Ideal)) (x10 : (⟨S3x128x64, .f32⟩ : BufTy).Contents (Elt Ideal))
    (x11 : (⟨S3x64, .f32⟩ : BufTy).Contents (Elt Ideal))
    (wa : FVec Ideal (⟨2, ![64, 64]⟩ : Shape) .f32) (wb : FVec Ideal (⟨2, ![16, 64]⟩ : Shape) .f32) (bias : FVec Ideal S1x64 .f32)
    (hwa : ∀ (k : Fin 64) (q : Fin 64), wa (ix2 k q) = x8 (ix3 (⟨1, by omega⟩ : Fin 3) (⟨k.val, by omega⟩ : Fin 80) q))
    (hwb : ∀ (k : Fin 16) (q : Fin 64), wb (ix2 k q) = x8 (ix3 (⟨1, by omega⟩ : Fin 3) (⟨64 + k.val, by omega⟩ : Fin 80) q))
    (hb : ∀ q : Fin 64, bias (ix2 (0 : Fin 1) q) = x9 (ix2 (⟨1, by omega⟩ : Fin 3) q)) :
    val_main_v76 (F := Ideal) x0 x1 x2 x4 x5 x6 x7 x8 x9 x10 x11
      = mlp2 (val_main_v70 (F := Ideal) x0 x1 x2 x4 x5 x6 x7 x8 x9 x10 x11) x1 wa wb bias := by
  funext i
  obtain ⟨p, q, rfl⟩ : ∃ (p : Fin 1280000) (q : Fin 64), i = ix2 p q := ⟨i 0, i 1, eq_ix2 i⟩
  rw [mlp2_apply, val_main_v76_apply, val_main_v75_apply, val_main_v72_apply, row74, val_main_call4_v0_apply,
    val_main_call4_cst_apply, Ideal.maximumf_def, Ideal.addf_def, Ideal.ofBits_def, Ideal.ofBits_zero_f32]
  simp only [lidx72_eq, ridx72_eq]
  unfold val_main_v71
  exact fused_at (by norm_num) (val_main_v70 (F := Ideal) x0 x1 x2 x4 x5 x6 x7 x8 x9 x10 x11) x1 _ (val_main_v57 (F := Ideal) x8) _
    wa wb bias p q
    (fun k => (hwa k q).trans (page57 x8 _ q).symm) (fun k => (hwb k q).trans (page57 x8 _ q).symm) (hb q).symm

/-! ## Layer 3: page 2 of the weight stack, row 2 of the bias stack -/

theorem lidx102_eq (p : Fin 1280000) (q : Fin 64) (k : Fin 80) : lidx_main_v102 (ix2 p q) k = ix2 p k :=
  funext fun c => Fin.ext (by match c with | ⟨0, _⟩ => rfl | ⟨1, _⟩ => rfl)

theorem ridx102_eq (p : Fin 1280000) (q : Fin 64) (k : Fin 80) : ridx_main_v102 (ix2 p q) k = ix2 k q :=
  funext fun c => Fin.ext (by match c with | ⟨0, _⟩ => rfl | ⟨1, _⟩ => rfl)

/-- Page 2 of the weight stack, flattened to [80, 64], at row k and column q. -/
theorem page87 (x8 : (⟨S3x80x64, .f32⟩ : BufTy).Contents (Elt Ideal)) (k : Fin 80) (q : Fin 64) :
    val_main_v87 (F := Ideal) x8 (ix2 k q) = x8 (ix3 (⟨2, by omega⟩ : Fin 3) k q) := by
  rw [val_main_v87_apply, val_main_v86_apply]
  refine congrArg x8 (funext fun c => Fin.ext ?_)
  match c with
  | ⟨0, _⟩ => rfl
  | ⟨1, _⟩ => show (k.val * 64 + q.val) / 64 % 80 = k.val; omega
  | ⟨2, _⟩ => show (k.val * 64 + q.val) % 64 = q.val; omega

/-- Row 2 of the bias stack, repeated over every row, at row p and column q. -/
theorem row104 (x9 : (⟨S3x64, .f32⟩ : BufTy).Contents (Elt Ideal)) (p : Fin 1280000) (q : Fin 64) :
    val_main_v104 (F := Ideal) x9 (ix2 p q) = x9 (ix2 (⟨2, by omega⟩ : Fin 3) q) := by
  rw [val_main_v104_apply, val_main_v103_apply, val_main_v89_apply, val_main_v88_apply]
  refine congrArg x9 (funext fun c => Fin.ext ?_)
  match c with
  | ⟨0, _⟩ => rfl
  | ⟨1, _⟩ => show q.val % 64 = q.val; omega

theorem ref_edge3 (x0 : (⟨S80000x32, .f32⟩ : BufTy).Contents (Elt Ideal)) (x1 : (⟨S1280000x16, .f32⟩ : BufTy).Contents (Elt Ideal))
    (x2 : (⟨S2x1280000, .i32⟩ : BufTy).Contents (Elt Ideal)) (x4 : (⟨S48x64, .f32⟩ : BufTy).Contents (Elt Ideal))
    (x5 : (⟨S64, .f32⟩ : BufTy).Contents (Elt Ideal)) (x6 : (⟨S96x64, .f32⟩ : BufTy).Contents (Elt Ideal))
    (x7 : (⟨S64, .f32⟩ : BufTy).Contents (Elt Ideal)) (x8 : (⟨S3x80x64, .f32⟩ : BufTy).Contents (Elt Ideal))
    (x9 : (⟨S3x64, .f32⟩ : BufTy).Contents (Elt Ideal)) (x10 : (⟨S3x128x64, .f32⟩ : BufTy).Contents (Elt Ideal))
    (x11 : (⟨S3x64, .f32⟩ : BufTy).Contents (Elt Ideal))
    (wa : FVec Ideal (⟨2, ![64, 64]⟩ : Shape) .f32) (wb : FVec Ideal (⟨2, ![16, 64]⟩ : Shape) .f32) (bias : FVec Ideal S1x64 .f32)
    (hwa : ∀ (k : Fin 64) (q : Fin 64), wa (ix2 k q) = x8 (ix3 (⟨2, by omega⟩ : Fin 3) (⟨k.val, by omega⟩ : Fin 80) q))
    (hwb : ∀ (k : Fin 16) (q : Fin 64), wb (ix2 k q) = x8 (ix3 (⟨2, by omega⟩ : Fin 3) (⟨64 + k.val, by omega⟩ : Fin 80) q))
    (hb : ∀ q : Fin 64, bias (ix2 (0 : Fin 1) q) = x9 (ix2 (⟨2, by omega⟩ : Fin 3) q)) :
    val_main_v106 (F := Ideal) x0 x1 x2 x4 x5 x6 x7 x8 x9 x10 x11
      = mlp2 (val_main_v100 (F := Ideal) x0 x1 x2 x4 x5 x6 x7 x8 x9 x10 x11) x1 wa wb bias := by
  funext i
  obtain ⟨p, q, rfl⟩ : ∃ (p : Fin 1280000) (q : Fin 64), i = ix2 p q := ⟨i 0, i 1, eq_ix2 i⟩
  rw [mlp2_apply, val_main_v106_apply, val_main_v105_apply, val_main_v102_apply, row104, val_main_call6_v0_apply,
    val_main_call6_cst_apply, Ideal.maximumf_def, Ideal.addf_def, Ideal.ofBits_def, Ideal.ofBits_zero_f32]
  simp only [lidx102_eq, ridx102_eq]
  unfold val_main_v101
  exact fused_at (by norm_num) (val_main_v100 (F := Ideal) x0 x1 x2 x4 x5 x6 x7 x8 x9 x10 x11) x1 _ (val_main_v87 (F := Ideal) x8) _
    wa wb bias p q
    (fun k => (hwa k q).trans (page87 x8 _ q).symm) (fun k => (hwb k q).trans (page87 x8 _ q).symm) (hb q).symm

end Cert.ReferenceIdeal.Hand

end
-- ==== Proof.RefLayerN.lean ====
/-
  Every node-update layer of the reference program is the fused layer of the specification.

  The reference joins the two operands of a layer side by side, multiplies the joined rows by ONE weight matrix, adds the
  bias row and clips at zero. Read at one row `p` and one column `q` this is
  `max ((∑ k < Da + Db, [a | b][p,k] · W[k,q]) + bias[q]) 0`; the columns below `Da` of the joined row are the row of `a`,
  the others the row of `b`, and the rows of `W` split the same way into the two matrices of the specification, so the
  law of the specification module gives the fused layer entry by entry.
-/
import proofs.«422392_j11433202942183_1_alg».proof.Proof.ReadP
import proofs.«422392_j11433202942183_1_alg».proof.Proof.MlpSpec
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.ReferenceIdeal.Hand

open Cert.ReferenceIdeal Cert.ReferenceIdeal.Gen Cert.ReferenceIdeal.ReadP Cert.MlpSpec Idealize.ShloMosaic Idealize.ShloMosaic.ValueIdx

/-! ## The first layer: 32 feature columns beside 64 aggregated columns -/

/-- A column below 32 of the joined row is the feature row's entry. -/
theorem cat0_left (x0 : FVec Ideal S80000x32 .f32) (x1 : FVec Ideal S1280000x16 .f32) (x2 : IVec S2x1280000 32)
    (x4 : FVec Ideal S48x64 .f32) (x5 : FVec Ideal S64 .f32) (p : Fin 80000) (q : Fin 64) (k : Fin 32) :
    val_main_v20 (F := Ideal) x0 x1 x2 x4 x5 (lidx_main_v21 (ix2 p q) ⟨k.val, by omega⟩) = x0 (ix2 p k) :=
  concatenate_pair_apply_left 1 x0 (val_main_v19 (F := Ideal) x0 x1 x2 x4 x5) concatenates_S80000x32_S80000x64_S80000x96_d1
    (lidx_main_v21 (ix2 p q) ⟨k.val, by omega⟩) rfl (ix2 p k) (fun d => match d with | ⟨0, _⟩ => rfl | ⟨1, _⟩ => rfl)

/-- A column from 32 on of the joined row is the aggregated row's entry, 32 columns earlier. -/
theorem cat0_right (x0 : FVec Ideal S80000x32 .f32) (x1 : FVec Ideal S1280000x16 .f32) (x2 : IVec S2x1280000 32)
    (x4 : FVec Ideal S48x64 .f32) (x5 : FVec Ideal S64 .f32) (p : Fin 80000) (q : Fin 64) (k : Fin 64) :
    val_main_v20 (F := Ideal) x0 x1 x2 x4 x5 (lidx_main_v21 (ix2 p q) ⟨32 + k.val, by omega⟩)
      = val_main_v19 (F := Ideal) x0 x1 x2 x4 x5 (ix2 p k) :=
  concatenate_pair_apply_right 1 x0 (val_main_v19 (F := Ideal) x0 x1 x2 x4 x5) concatenates_S80000x32_S80000x64_S80000x96_d1
    (lidx_main_v21 (ix2 p q) ⟨32 + k.val, by omega⟩) rfl rfl (ix2 p k)
    (fun d hd => match d with | ⟨0, _⟩ => rfl | ⟨1, _⟩ => absurd rfl hd)
    (by show k.val + 32 = 32 + k.val; omega)

/-- Layer 0: the feature rows beside the rows aggregated into stage 19, against the 96-row update matrix. -/
theorem ref_node0 (x0 : FVec Ideal S80000x32 .f32) (x1 : FVec Ideal S1280000x16 .f32) (x2 : IVec S2x1280000 32)
    (x4 : FVec Ideal S48x64 .f32) (x5 : FVec Ideal S64 .f32) (x6 : FVec Ideal S96x64 .f32) (x7 : FVec Ideal S64 .f32)
    (ua : FVec Ideal (⟨2, ![32, 64]⟩ : Shape) .f32) (ub : FVec Ideal (⟨2, ![64, 64]⟩ : Shape) .f32) (bias : FVec Ideal S1x64 .f32)
    (hua : ∀ (k : Fin 32) (q : Fin 64), ua (ix2 k q) = x6 (ix2 ⟨k.val, by omega⟩ q))
    (hub : ∀ (k : Fin 64) (q : Fin 64), ub (ix2 k q) = x6 (ix2 ⟨32 + k.val, by omega⟩ q))
    (hb : ∀ q : Fin 64, bias (ix2 (0 : Fin 1) q) = x7 (ix1 q)) :
    val_main_v25 (F := Ideal) x0 x1 x2 x4 x5 x6 x7 = mlp2 x0 (val_main_v19 (F := Ideal) x0 x1 x2 x4 x5) ua ub bias := by
  funext i
  obtain ⟨p, q, rfl⟩ : ∃ (p : Fin 80000) (q : Fin 64), i = ix2 p q := ⟨i 0, i 1, eq_ix2 i⟩
  rw [mlp2_apply, val_main_v25_apply, val_main_v24_apply, val_main_v21_apply, val_main_v23_apply, val_main_v22_apply,
    val_main_call1_v0_apply, val_main_call1_cst_apply]
  refine (congrArg (max _) Ideal.ofBits_zero_f32).trans ?_
  refine mlpAt_eq_of_concat (by norm_num : 32 + 64 = 96) x0 (val_main_v19 (F := Ideal) x0 x1 x2 x4 x5) ua ub bias p q
    (fun k => val_main_v20 (F := Ideal) x0 x1 x2 x4 x5 (lidx_main_v21 (ix2 p q) k)) (fun k => x6 (ridx_main_v21 (ix2 p q) k))
    (x7 (idx_main_v22 (idx_main_v23 (ix2 p q)))) ?_ ?_ ?_ ?_ ?_
  · exact fun k => cat0_left x0 x1 x2 x4 x5 p q k
  · exact fun k => cat0_right x0 x1 x2 x4 x5 p q k
  · intro k
    refine Eq.trans ?_ (hua k q).symm
    exact congrArg x6 (funext fun a => match a with | ⟨0, _⟩ => rfl | ⟨1, _⟩ => rfl)
  · intro k
    refine Eq.trans ?_ (hub k q).symm
    exact congrArg x6 (funext fun a => match a with | ⟨0, _⟩ => rfl | ⟨1, _⟩ => rfl)
  · refine Eq.trans ?_ (hb q).symm
    exact congrArg x7 (funext fun a => match a with | ⟨0, _⟩ => rfl)

/-! ## The later layers: 64 node columns beside 64 aggregated columns -/

/-- An index of a `[3, 128, 64]` array whose coordinates are a page, and the quotient and remainder of `k · 64 + q`, is
    page, row `k`, column `q`. -/
theorem page_idx (c : Fin 3) (k : Fin 128) (q : Fin 64) (j : S3x128x64.Idx) (h0 : (j 0).val = c.val)
    (h1 : (j 1).val = (k.val * 64 + q.val) / 64 % 128) (h2 : (j 2).val = (k.val * 64 + q.val) % 64) : j = ix3 c k q :=
  funext fun a => Fin.ext (match a with
    | ⟨0, _⟩ => h0
    | ⟨1, _⟩ => h1.trans (by show _ = k.val; have := k.isLt; have := q.isLt; omega)
    | ⟨2, _⟩ => h2.trans (by show _ = q.val; have := k.isLt; have := q.isLt; omega))

/-- An index of a `[3, 64]` array whose coordinates are a row and `q` reduced modulo 64 is row, column `q`. -/
theorem row_idx (c : Fin 3) (q : Fin 64) (j : S3x64.Idx) (h0 : (j 0).val = c.val) (h1 : (j 1).val = q.val % 64) :
    j = ix2 c q :=
  funext fun a => Fin.ext (match a with
    | ⟨0, _⟩ => h0
    | ⟨1, _⟩ => h1.trans (Nat.mod_eq_of_lt q.isLt))

/-- The law on the entries for two 64-column operands joined side by side: `j k` is any index of the joined array in row
    `p` and column `k`, `w` the column of the stacked matrix and `β` the bias entry. -/
theorem node_at (A B : FVec Ideal S80000x64 .f32) (ua ub : FVec Ideal (⟨2, ![64, 64]⟩ : Shape) .f32) (bias : FVec Ideal S1x64 .f32)
    (p : Fin 80000) (q : Fin 64) (j : Fin 128 → S80000x128.Idx) (w : Fin 128 → EReal) (β : EReal)
    (hj0 : ∀ k, (j k 0).val = p.val) (hj1 : ∀ k, (j k 1).val = k.val)
    (hwa : ∀ k : Fin 64, w ⟨k.val, by omega⟩ = ua (ix2 k q)) (hwb : ∀ k : Fin 64, w ⟨64 + k.val, by omega⟩ = ub (ix2 k q))
    (hβ : β = bias (ix2 (0 : Fin 1) q)) :
    max ((∑ k : Fin 128, concatenate S80000x128 1 [⟨S80000x64, A⟩, ⟨S80000x64, B⟩]
        concatenates_S80000x64_S80000x64_S80000x128_d1 (j k) * w k) + β) 0 = mlpAt A B ua ub bias p q := by
  refine mlpAt_eq_of_concat (by norm_num : 64 + 64 = 128) A B ua ub bias p q
    (fun k => concatenate S80000x128 1 [⟨S80000x64, A⟩, ⟨S80000x64, B⟩] concatenates_S80000x64_S80000x64_S80000x128_d1 (j k))
    w β ?_ ?_ hwa hwb hβ
  · intro k
    exact concatenate_pair_apply_left 1 A B concatenates_S80000x64_S80000x64_S80000x128_d1 _ rfl (ix2 p k)
      (fun d => match d with | ⟨0, _⟩ => (hj0 ⟨k.val, by omega⟩).symm | ⟨1, _⟩ => (hj1 ⟨k.val, by omega⟩).symm)
  · intro k
    exact concatenate_pair_apply_right 1 A B concatenates_S80000x64_S80000x64_S80000x128_d1 _ rfl rfl (ix2 p k)
      (fun d hd => match d with | ⟨0, _⟩ => (hj0 ⟨64 + k.val, by omega⟩).symm | ⟨1, _⟩ => absurd rfl hd)
      (by show k.val + 64 = _; rw [hj1 ⟨64 + k.val, by omega⟩]; exact Nat.add_comm _ _)

/-- Layer 1: the rows of stage 25 beside the rows aggregated into stage 49, against page 0 of the update weights. -/
theorem ref_node1 (x0 : FVec Ideal S80000x32 .f32) (x1 : FVec Ideal S1280000x16 .f32) (x2 : IVec S2x1280000 32)
    (x4 : FVec Ideal S48x64 .f32) (x5 : FVec Ideal S64 .f32) (x6 : FVec Ideal S96x64 .f32) (x7 : FVec Ideal S64 .f32)
    (x8 : FVec Ideal S3x80x64 .f32) (x9 : FVec Ideal S3x64 .f32) (x10 : FVec Ideal S3x128x64 .f32) (x11 : FVec Ideal S3x64 .f32)
    (ua : FVec Ideal (⟨2, ![64, 64]⟩ : Shape) .f32) (ub : FVec Ideal (⟨2, ![64, 64]⟩ : Shape) .f32) (bias : FVec Ideal S1x64 .f32)
    (hua : ∀ (k : Fin 64) (q : Fin 64), ua (ix2 k q) = x10 (ix3 (⟨0, by omega⟩ : Fin 3) (⟨k.val, by omega⟩ : Fin 128) q))
    (hub : ∀ (k : Fin 64) (q : Fin 64), ub (ix2 k q) = x10 (ix3 (⟨0, by omega⟩ : Fin 3) (⟨64 + k.val, by omega⟩ : Fin 128) q))
    (hb : ∀ q : Fin 64, bias (ix2 (0 : Fin 1) q) = x11 (ix2 (⟨0, by omega⟩ : Fin 3) q)) :
    val_main_v55 (F := Ideal) x0 x1 x2 x4 x5 x6 x7 x8 x9 x10 x11
      = mlp2 (val_main_v25 (F := Ideal) x0 x1 x2 x4 x5 x6 x7) (val_main_v49 (F := Ideal) x0 x1 x2 x4 x5 x6 x7 x8 x9) ua ub bias := by
  funext i
  obtain ⟨p, q, rfl⟩ : ∃ (p : Fin 80000) (q : Fin 64), i = ix2 p q := ⟨i 0, i 1, eq_ix2 i⟩
  rw [mlp2_apply, val_main_v55_apply, val_main_v54_apply, val_main_v51_apply, val_main_v53_apply, val_main_v52_apply,
    val_main_call3_v0_apply, val_main_call3_cst_apply]
  refine (congrArg (max _) Ideal.ofBits_zero_f32).trans ?_
  refine node_at (val_main_v25 (F := Ideal) x0 x1 x2 x4 x5 x6 x7) (val_main_v49 (F := Ideal) x0 x1 x2 x4 x5 x6 x7 x8 x9) ua ub bias p q
    (fun k => lidx_main_v51 (ix2 p q) k) (fun k => val_main_v31 (F := Ideal) x10 (ridx_main_v51 (ix2 p q) k))
    (val_main_v33 (F := Ideal) x11 (idx_main_v52 (idx_main_v53 (ix2 p q)))) (fun _ => rfl) (fun _ => rfl) ?_ ?_ ?_
  · intro k
    refine Eq.trans ?_ (hua k q).symm
    refine (val_main_v31_apply (F := Ideal) x10 _).trans ((val_main_v30_apply (F := Ideal) x10 _).trans (congrArg x10 ?_))
    exact page_idx _ _ q _ rfl rfl rfl
  · intro k
    refine Eq.trans ?_ (hub k q).symm
    refine (val_main_v31_apply (F := Ideal) x10 _).trans ((val_main_v30_apply (F := Ideal) x10 _).trans (congrArg x10 ?_))
    exact page_idx _ _ q _ rfl rfl rfl
  · refine Eq.trans ?_ (hb q).symm
    refine (val_main_v33_apply (F := Ideal) x11 _).trans ((val_main_v32_apply (F := Ideal) x11 _).trans (congrArg x11 ?_))
    exact row_idx _ q _ rfl rfl

/-- Layer 2: the rows of stage 55 beside the rows aggregated into stage 79, against page 1 of the update weights. -/
theorem ref_node2 (x0 : FVec Ideal S80000x32 .f32) (x1 : FVec Ideal S1280000x16 .f32) (x2 : IVec S2x1280000 32)
    (x4 : FVec Ideal S48x64 .f32) (x5 : FVec Ideal S64 .f32) (x6 : FVec Ideal S96x64 .f32) (x7 : FVec Ideal S64 .f32)
    (x8 : FVec Ideal S3x80x64 .f32) (x9 : FVec Ideal S3x64 .f32) (x10 : FVec Ideal S3x128x64 .f32) (x11 : FVec Ideal S3x64 .f32)
    (ua : FVec Ideal (⟨2, ![64, 64]⟩ : Shape) .f32) (ub : FVec Ideal (⟨2, ![64, 64]⟩ : Shape) .f32) (bias : FVec Ideal S1x64 .f32)
    (hua : ∀ (k : Fin 64) (q : Fin 64), ua (ix2 k q) = x10 (ix3 (⟨1, by omega⟩ : Fin 3) (⟨k.val, by omega⟩ : Fin 128) q))
    (hub : ∀ (k : Fin 64) (q : Fin 64), ub (ix2 k q) = x10 (ix3 (⟨1, by omega⟩ : Fin 3) (⟨64 + k.val, by omega⟩ : Fin 128) q))
    (hb : ∀ q : Fin 64, bias (ix2 (0 : Fin 1) q) = x11 (ix2 (⟨1, by omega⟩ : Fin 3) q)) :
    val_main_v85 (F := Ideal) x0 x1 x2 x4 x5 x6 x7 x8 x9 x10 x11
      = mlp2 (val_main_v55 (F := Ideal) x0 x1 x2 x4 x5 x6 x7 x8 x9 x10 x11) (val_main_v79 (F := Ideal) x0 x1 x2 x4 x5 x6 x7 x8 x9 x10 x11) ua ub bias := by
  funext i
  obtain ⟨p, q, rfl⟩ : ∃ (p : Fin 80000) (q : Fin 64), i = ix2 p q := ⟨i 0, i 1, eq_ix2 i⟩
  rw [mlp2_apply, val_main_v85_apply, val_main_v84_apply, val_main_v81_apply, val_main_v83_apply, val_main_v82_apply,
    val_main_call5_v0_apply, val_main_call5_cst_apply]
  refine (congrArg (max _) Ideal.ofBits_zero_f32).trans ?_
  refine node_at (val_main_v55 (F := Ideal) x0 x1 x2 x4 x5 x6 x7 x8 x9 x10 x11) (val_main_v79 (F := Ideal) x0 x1 x2 x4 x5 x6 x7 x8 x9 x10 x11) ua ub bias p q
    (fun k => lidx_main_v81 (ix2 p q) k) (fun k => val_main_v61 (F := Ideal) x10 (ridx_main_v81 (ix2 p q) k))
    (val_main_v63 (F := Ideal) x11 (idx_main_v82 (idx_main_v83 (ix2 p q)))) (fun _ => rfl) (fun _ => rfl) ?_ ?_ ?_
  · intro k
    refine Eq.trans ?_ (hua k q).symm
    refine (val_main_v61_apply (F := Ideal) x10 _).trans ((val_main_v60_apply (F := Ideal) x10 _).trans (congrArg x10 ?_))
    exact page_idx _ _ q _ rfl rfl rfl
  · intro k
    refine Eq.trans ?_ (hub k q).symm
    refine (val_main_v61_apply (F := Ideal) x10 _).trans ((val_main_v60_apply (F := Ideal) x10 _).trans (congrArg x10 ?_))
    exact page_idx _ _ q _ rfl rfl rfl
  · refine Eq.trans ?_ (hb q).symm
    refine (val_main_v63_apply (F := Ideal) x11 _).trans ((val_main_v62_apply (F := Ideal) x11 _).trans (congrArg x11 ?_))
    exact row_idx _ q _ rfl rfl

/-- Layer 3: the rows of stage 85 beside the rows aggregated into stage 109, against page 2 of the update weights. -/
theorem ref_node3 (x0 : FVec Ideal S80000x32 .f32) (x1 : FVec Ideal S1280000x16 .f32) (x2 : IVec S2x1280000 32)
    (x4 : FVec Ideal S48x64 .f32) (x5 : FVec Ideal S64 .f32) (x6 : FVec Ideal S96x64 .f32) (x7 : FVec Ideal S64 .f32)
    (x8 : FVec Ideal S3x80x64 .f32) (x9 : FVec Ideal S3x64 .f32) (x10 : FVec Ideal S3x128x64 .f32) (x11 : FVec Ideal S3x64 .f32)
    (ua : FVec Ideal (⟨2, ![64, 64]⟩ : Shape) .f32) (ub : FVec Ideal (⟨2, ![64, 64]⟩ : Shape) .f32) (bias : FVec Ideal S1x64 .f32)
    (hua : ∀ (k : Fin 64) (q : Fin 64), ua (ix2 k q) = x10 (ix3 (⟨2, by omega⟩ : Fin 3) (⟨k.val, by omega⟩ : Fin 128) q))
    (hub : ∀ (k : Fin 64) (q : Fin 64), ub (ix2 k q) = x10 (ix3 (⟨2, by omega⟩ : Fin 3) (⟨64 + k.val, by omega⟩ : Fin 128) q))
    (hb : ∀ q : Fin 64, bias (ix2 (0 : Fin 1) q) = x11 (ix2 (⟨2, by omega⟩ : Fin 3) q)) :
    val_main_v115 (F := Ideal) x0 x1 x2 x4 x5 x6 x7 x8 x9 x10 x11
      = mlp2 (val_main_v85 (F := Ideal) x0 x1 x2 x4 x5 x6 x7 x8 x9 x10 x11) (val_main_v109 (F := Ideal) x0 x1 x2 x4 x5 x6 x7 x8 x9 x10 x11) ua ub bias := by
  funext i
  obtain ⟨p, q, rfl⟩ : ∃ (p : Fin 80000) (q : Fin 64), i = ix2 p q := ⟨i 0, i 1, eq_ix2 i⟩
  rw [mlp2_apply, val_main_v115_apply, val_main_v114_apply, val_main_v111_apply, val_main_v113_apply, val_main_v112_apply,
    val_main_call7_v0_apply, val_main_call7_cst_apply]
  refine (congrArg (max _) Ideal.ofBits_zero_f32).trans ?_
  refine node_at (val_main_v85 (F := Ideal) x0 x1 x2 x4 x5 x6 x7 x8 x9 x10 x11) (val_main_v109 (F := Ideal) x0 x1 x2 x4 x5 x6 x7 x8 x9 x10 x11) ua ub bias p q
    (fun k => lidx_main_v111 (ix2 p q) k) (fun k => val_main_v91 (F := Ideal) x10 (ridx_main_v111 (ix2 p q) k))
    (val_main_v93 (F := Ideal) x11 (idx_main_v112 (idx_main_v113 (ix2 p q)))) (fun _ => rfl) (fun _ => rfl) ?_ ?_ ?_
  · intro k
    refine Eq.trans ?_ (hua k q).symm
    refine (val_main_v91_apply (F := Ideal) x10 _).trans ((val_main_v90_apply (F := Ideal) x10 _).trans (congrArg x10 ?_))
    exact page_idx _ _ q _ rfl rfl rfl
  · intro k
    refine Eq.trans ?_ (hub k q).symm
    refine (val_main_v91_apply (F := Ideal) x10 _).trans ((val_main_v90_apply (F := Ideal) x10 _).trans (congrArg x10 ?_))
    exact page_idx _ _ q _ rfl rfl rfl
  · refine Eq.trans ?_ (hb q).symm
    refine (val_main_v93_apply (F := Ideal) x11 _).trans ((val_main_v92_apply (F := Ideal) x11 _).trans (congrArg x11 ?_))
    exact row_idx _ q _ rfl rfl

end Cert.ReferenceIdeal.Hand

end
-- ==== Proof.Equiv.lean ====
/-
  The idealized kernel computes what the reference computes.

  Stage by stage: the rows the kernel gathers are the rows the reference gathers (the same gather at the same start
  indices); a pipelined layer  max((a·wa + b·wb) + bias, 0)  with `wa`, `wb` the two row ranges of the reference's
  weight matrix is the reference's  max([a | b]·w + bias, 0)  (the sum over the joined axis splits); the scatter-adds
  and the tail are the same host operations on both sides. So the kernel's whole function `kRes` of the fourteen
  arguments is the reference's last stage.
-/
import proofs.«422392_j11433202942183_1_alg».proof.Proof.KDefs
import proofs.«422392_j11433202942183_1_alg».proof.Proof.Weights
import proofs.«422392_j11433202942183_1_alg».proof.Proof.ReadP
import proofs.«422392_j11433202942183_1_alg».proof.Proof.RefLayerE
import proofs.«422392_j11433202942183_1_alg».proof.Proof.RefLayerN

set_option maxRecDepth 16384

noncomputable section

namespace Cert.KernelIdeal.Hand

open Idealize.ShloMosaic Cert.KernelIdeal Cert.KernelIdeal.Gen Cert.MlpSpec Idealize.ShloMosaic.ValueIdx

open Cert.ReferenceIdeal.ReadP Cert.ReferenceIdeal.Hand

variable (x0 : FVec Ideal S80000x32 .f32) (x1 : FVec Ideal S1280000x16 .f32) (x2 : IVec S2x1280000 32) (x3 : IVec S80000 32)
  (x4 : FVec Ideal S48x64 .f32) (x5 : FVec Ideal S64 .f32) (x6 : FVec Ideal S96x64 .f32) (x7 : FVec Ideal S64 .f32)
  (x8 : FVec Ideal S3x80x64 .f32) (x9 : FVec Ideal S3x64 .f32) (x10 : FVec Ideal S3x128x64 .f32) (x11 : FVec Ideal S3x64 .f32)
  (x12 : FVec Ideal S64x1 .f32) (x13 : FVec Ideal S1 .f32)

/-- The first layer's messages. -/
theorem kM0_eq : kM0 x0 x1 x2 x4 x5 = val_main_v16 (F := Ideal) x0 x1 x2 x4 x5 := by
  unfold kM0
  rw [show kGather32 x0 (kSrc x2) = val_main_v10 (F := Ideal) x0 x2 from rfl]
  exact (ref_edge0 x0 x1 x2 x4 x5 _ _ _ (mw0_top x4) (mw0_bot x4) (bias_row x5)).symm

/-- The node rows after the first layer. -/
theorem kH1_eq : kH1 x0 x1 x2 x4 x5 x6 x7 = val_main_v25 (F := Ideal) x0 x1 x2 x4 x5 x6 x7 := by
  unfold kH1
  rw [kM0_eq x0 x1 x2 x4 x5,
    show kScat (val_main_v16 (F := Ideal) x0 x1 x2 x4 x5) (kDst x2) = val_main_v19 (F := Ideal) x0 x1 x2 x4 x5 from rfl]
  exact (ref_node0 x0 x1 x2 x4 x5 x6 x7 _ _ _ (uw0_top x6) (uw0_bot x6) (bias_row x7)).symm

/-- Later layer 1: started from the reference's node rows, the kernel's layer gives the reference's next node rows. -/
theorem kLayer0_eq : kLayer0 (val_main_v25 (F := Ideal) x0 x1 x2 x4 x5 x6 x7) x1 x2 x8 x9 x10 x11 = val_main_v55 (F := Ideal) x0 x1 x2 x4 x5 x6 x7 x8 x9 x10 x11 := by
  unfold kLayer0 kH kM
  rw [show kGather64 (val_main_v25 (F := Ideal) x0 x1 x2 x4 x5 x6 x7) (kSrc x2) = val_main_v40 (F := Ideal) x0 x1 x2 x4 x5 x6 x7 from rfl,
    ← ref_edge1 x0 x1 x2 x4 x5 x6 x7 x8 x9 _ _ _ (kWa0_apply x8) (kWb0_apply x8) (kBm0_apply x9),
    show kScat (val_main_v46 (F := Ideal) x0 x1 x2 x4 x5 x6 x7 x8 x9) (kDst x2) = val_main_v49 (F := Ideal) x0 x1 x2 x4 x5 x6 x7 x8 x9 from rfl]
  exact (ref_node1 x0 x1 x2 x4 x5 x6 x7 x8 x9 x10 x11 _ _ _ (kUa0_apply x10) (kUb0_apply x10) (kBu0_apply x11)).symm

/-- Later layer 2: started from the reference's node rows, the kernel's layer gives the reference's next node rows. -/
theorem kLayer1_eq : kLayer1 (val_main_v55 (F := Ideal) x0 x1 x2 x4 x5 x6 x7 x8 x9 x10 x11) x1 x2 x8 x9 x10 x11 = val_main_v85 (F := Ideal) x0 x1 x2 x4 x5 x6 x7 x8 x9 x10 x11 := by
  unfold kLayer1 kH kM
  rw [show kGather64 (val_main_v55 (F := Ideal) x0 x1 x2 x4 x5 x6 x7 x8 x9 x10 x11) (kSrc x2) = val_main_v70 (F := Ideal) x0 x1 x2 x4 x5 x6 x7 x8 x9 x10 x11 from rfl,
    ← ref_edge2 x0 x1 x2 x4 x5 x6 x7 x8 x9 x10 x11 _ _ _ (kWa1_apply x8) (kWb1_apply x8) (kBm1_apply x9),
    show kScat (val_main_v76 (F := Ideal) x0 x1 x2 x4 x5 x6 x7 x8 x9 x10 x11) (kDst x2) = val_main_v79 (F := Ideal) x0 x1 x2 x4 x5 x6 x7 x8 x9 x10 x11 from rfl]
  exact (ref_node2 x0 x1 x2 x4 x5 x6 x7 x8 x9 x10 x11 _ _ _ (kUa1_apply x10) (kUb1_apply x10) (kBu1_apply x11)).symm

/-- Later layer 3: started from the reference's node rows, the kernel's layer gives the reference's next node rows. -/
theorem kLayer2_eq : kLayer2 (val_main_v85 (F := Ideal) x0 x1 x2 x4 x5 x6 x7 x8 x9 x10 x11) x1 x2 x8 x9 x10 x11 = val_main_v115 (F := Ideal) x0 x1 x2 x4 x5 x6 x7 x8 x9 x10 x11 := by
  unfold kLayer2 kH kM
  rw [show kGather64 (val_main_v85 (F := Ideal) x0 x1 x2 x4 x5 x6 x7 x8 x9 x10 x11) (kSrc x2) = val_main_v100 (F := Ideal) x0 x1 x2 x4 x5 x6 x7 x8 x9 x10 x11 from rfl,
    ← ref_edge3 x0 x1 x2 x4 x5 x6 x7 x8 x9 x10 x11 _ _ _ (kWa2_apply x8) (kWb2_apply x8) (kBm2_apply x9),
    show kScat (val_main_v106 (F := Ideal) x0 x1 x2 x4 x5 x6 x7 x8 x9 x10 x11) (kDst x2) = val_main_v109 (F := Ideal) x0 x1 x2 x4 x5 x6 x7 x8 x9 x10 x11 from rfl]
  exact (ref_node3 x0 x1 x2 x4 x5 x6 x7 x8 x9 x10 x11 _ _ _ (kUa2_apply x10) (kUb2_apply x10) (kBu2_apply x11)).symm

/-- THE EQUIVALENCE: the kernel's function of the arguments is the reference's last stage. -/
theorem kRes_eq : kRes x0 x1 x2 x3 x4 x5 x6 x7 x8 x9 x10 x11 x12 x13
    = val_main_v122 (F := Ideal) x0 x1 x2 x3 x4 x5 x6 x7 x8 x9 x10 x11 x12 x13 := by
  unfold kRes
  rw [kH1_eq x0 x1 x2 x4 x5 x6 x7, kLayer0_eq x0 x1 x2 x4 x5 x6 x7 x8 x9 x10 x11, kLayer1_eq x0 x1 x2 x4 x5 x6 x7 x8 x9 x10 x11, kLayer2_eq x0 x1 x2 x4 x5 x6 x7 x8 x9 x10 x11]
  rfl

end Cert.KernelIdeal.Hand

end
-- ==== Proof.RefChunks.lean ====
/-
  The reference program's 152 operations as thirteen consecutive stretches: a stretch ends before every concatenate
  and at the end of every layer, so that no stretch feeds a concatenate from a value it computes itself.
  The list of all operations is the stretches one after the other.
-/
import proofs.«422392_j11433202942183_1_alg».proof.Proof.RefOps

noncomputable section

namespace Cert.ReferenceIdeal.Hand

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- Operations 0 to 12 of the reference program. -/
abbrev refC0 : List (HloOp τ sig (Elt F)) :=
  [ unary main_arg2 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg2 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_c (constantI S_ 32 0#32),
    unary main_c main_v4 (broadcastInDim S1280000 ![] bcast_S_S1280000 : (⟨S_, .i32⟩ : BufTy).Contents (Elt F) → (⟨S1280000, .i32⟩ : BufTy).Contents (Elt F)),
    binary main_v1 main_v4 main_v5 (cmpi .slt : (⟨S1280000, .i32⟩ : BufTy).Contents (Elt F) → (⟨S1280000, .i32⟩ : BufTy).Contents (Elt F) → (⟨S1280000, .i1⟩ : BufTy).Contents (Elt F)),
    nullary main_c_0 (constantI S_ 32 80000#32),
    unary main_c_0 main_v6 (broadcastInDim S1280000 ![] bcast_S_S1280000 : (⟨S_, .i32⟩ : BufTy).Contents (Elt F) → (⟨S1280000, .i32⟩ : BufTy).Contents (Elt F)),
    binary main_v1 main_v6 main_v7 (addi : (⟨S1280000, .i32⟩ : BufTy).Contents (Elt F) → (⟨S1280000, .i32⟩ : BufTy).Contents (Elt F) → (⟨S1280000, .i32⟩ : BufTy).Contents (Elt F)),
    ternary main_v5 main_v7 main_v1 main_v8 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v8 main_v9 (broadcastInDim S1280000x1 ![0] bcast_S1280000_S1280000x1_0 : (⟨S1280000, .i32⟩ : BufTy).Contents (Elt F) → (⟨S1280000x1, .i32⟩ : BufTy).Contents (Elt F)),
    binary main_arg0 main_v9 main_v10 ((fun x i => Host.gather gather_S80000x32_S1280000x1_S1280000x32_1_0_n_n_0_1_132 x i) : (⟨S80000x32, .f32⟩ : BufTy).Contents (Elt F) → (⟨S1280000x1, .i32⟩ : BufTy).Contents (Elt F) → (⟨S1280000x32, .f32⟩ : BufTy).Contents (Elt F)) ]

/-- Operations 13 to 24 of the reference program. -/
abbrev refC1 : List (HloOp τ sig (Elt F)) :=
  [ binary main_v10 main_arg1 main_v11 ((fun a b => concatenate S1280000x48 1 [⟨S1280000x32, a⟩, ⟨S1280000x16, b⟩] concatenates_S1280000x32_S1280000x16_S1280000x48_d1) : (⟨S1280000x32, .f32⟩ : BufTy).Contents (Elt F) → (⟨S1280000x16, .f32⟩ : BufTy).Contents (Elt F) → (⟨S1280000x48, .f32⟩ : BufTy).Contents (Elt F)),
    binary main_v11 main_arg4 main_v12 ((fun l r => Host.dotGeneral dot_S1280000x48_S48x64_S1280000x64_1_0_0_1_n_n none l r) : (⟨S1280000x48, .f32⟩ : BufTy).Contents (Elt F) → (⟨S48x64, .f32⟩ : BufTy).Contents (Elt F) → (⟨S1280000x64, .f32⟩ : BufTy).Contents (Elt F)),
    unary main_arg5 main_v13 (broadcastInDim S1x64 ![1] bcast_S64_S1x64_1 : (⟨S64, .f32⟩ : BufTy).Contents (Elt F) → (⟨S1x64, .f32⟩ : BufTy).Contents (Elt F)),
    unary main_v13 main_v14 (broadcastInDim S1280000x64 ![0, 1] bcast_S1x64_S1280000x64_0_1 : (⟨S1x64, .f32⟩ : BufTy).Contents (Elt F) → (⟨S1280000x64, .f32⟩ : BufTy).Contents (Elt F)),
    binary main_v12 main_v14 main_v15 (addf : (⟨S1280000x64, .f32⟩ : BufTy).Contents (Elt F) → (⟨S1280000x64, .f32⟩ : BufTy).Contents (Elt F) → (⟨S1280000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1280000x64, .f32⟩) main_call0_v0) (broadcastInDim S1280000x64 ![] bcast_S_S1280000x64),
    TRef.binary (TRef.of (T := ⟨S1280000x64, .f32⟩) main_v15) (TRef.of (T := ⟨S1280000x64, .f32⟩) main_call0_v0) (TRef.of (T := ⟨S1280000x64, .f32⟩) main_v16) maximumf,
    nullary main_cst (constant S_ .f32 0x00000000#32),
    unary main_cst main_v17 (broadcastInDim S80000x64 ![] bcast_S_S80000x64 : (⟨S_, .f32⟩ : BufTy).Contents (Elt F) → (⟨S80000x64, .f32⟩ : BufTy).Contents (Elt F)),
    unary main_v3 main_v18 (broadcastInDim S1280000x1 ![0] bcast_S1280000_S1280000x1_0 : (⟨S1280000, .i32⟩ : BufTy).Contents (Elt F) → (⟨S1280000x1, .i32⟩ : BufTy).Contents (Elt F)),
    ternary main_v17 main_v18 main_v16 main_v19 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)) ]

/-- Operations 25 to 32 of the reference program. -/
abbrev refC2 : List (HloOp τ sig (Elt F)) :=
  [ binary main_arg0 main_v19 main_v20 ((fun a b => concatenate S80000x96 1 [⟨S80000x32, a⟩, ⟨S80000x64, b⟩] concatenates_S80000x32_S80000x64_S80000x96_d1) : (⟨S80000x32, .f32⟩ : BufTy).Contents (Elt F) → (⟨S80000x64, .f32⟩ : BufTy).Contents (Elt F) → (⟨S80000x96, .f32⟩ : BufTy).Contents (Elt F)),
    binary main_v20 main_arg6 main_v21 ((fun l r => Host.dotGeneral dot_S80000x96_S96x64_S80000x64_1_0_0_1_n_n none l r) : (⟨S80000x96, .f32⟩ : BufTy).Contents (Elt F) → (⟨S96x64, .f32⟩ : BufTy).Contents (Elt F) → (⟨S80000x64, .f32⟩ : BufTy).Contents (Elt F)),
    unary main_arg7 main_v22 (broadcastInDim S1x64 ![1] bcast_S64_S1x64_1 : (⟨S64, .f32⟩ : BufTy).Contents (Elt F) → (⟨S1x64, .f32⟩ : BufTy).Contents (Elt F)),
    unary main_v22 main_v23 (broadcastInDim S80000x64 ![0, 1] bcast_S1x64_S80000x64_0_1 : (⟨S1x64, .f32⟩ : BufTy).Contents (Elt F) → (⟨S80000x64, .f32⟩ : BufTy).Contents (Elt F)),
    binary main_v21 main_v23 main_v24 (addf : (⟨S80000x64, .f32⟩ : BufTy).Contents (Elt F) → (⟨S80000x64, .f32⟩ : BufTy).Contents (Elt F) → (⟨S80000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S80000x64, .f32⟩) main_call1_v0) (broadcastInDim S80000x64 ![] bcast_S_S80000x64),
    TRef.binary (TRef.of (T := ⟨S80000x64, .f32⟩) main_v24) (TRef.of (T := ⟨S80000x64, .f32⟩) main_call1_v0) (TRef.of (T := ⟨S80000x64, .f32⟩) main_v25) maximumf ]

/-- Operations 33 to 49 of the reference program. -/
abbrev refC3 : List (HloOp τ sig (Elt F)) :=
  [ unary main_arg8 main_v26 ((extractStridedSlice S1x80x64 ![0, 0, 0] · slices_S3x80x64_S1x80x64_0_0_0) : (⟨S3x80x64, .f32⟩ : BufTy).Contents (Elt F) → (⟨S1x80x64, .f32⟩ : BufTy).Contents (Elt F)),
    reshape main_v26 main_v27 rfl shapeCasts_S1x80x64_S80x64,
    unary main_arg9 main_v28 ((extractStridedSlice S1x64 ![0, 0] · slices_S3x64_S1x64_0_0) : (⟨S3x64, .f32⟩ : BufTy).Contents (Elt F) → (⟨S1x64, .f32⟩ : BufTy).Contents (Elt F)),
    reshape main_v28 main_v29 rfl shapeCasts_S1x64_S64,
    unary main_arg10 main_v30 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v30 main_v31 rfl shapeCasts_S1x128x64_S128x64,
    unary main_arg11 main_v32 ((extractStridedSlice S1x64 ![0, 0] · slices_S3x64_S1x64_0_0) : (⟨S3x64, .f32⟩ : BufTy).Contents (Elt F) → (⟨S1x64, .f32⟩ : BufTy).Contents (Elt F)),
    reshape main_v32 main_v33 rfl shapeCasts_S1x64_S64,
    nullary main_c_1 (constantI S_ 32 0#32),
    unary main_c_1 main_v34 (broadcastInDim S1280000 ![] bcast_S_S1280000 : (⟨S_, .i32⟩ : BufTy).Contents (Elt F) → (⟨S1280000, .i32⟩ : BufTy).Contents (Elt F)),
    binary main_v1 main_v34 main_v35 (cmpi .slt : (⟨S1280000, .i32⟩ : BufTy).Contents (Elt F) → (⟨S1280000, .i32⟩ : BufTy).Contents (Elt F) → (⟨S1280000, .i1⟩ : BufTy).Contents (Elt F)),
    nullary main_c_2 (constantI S_ 32 80000#32),
    unary main_c_2 main_v36 (broadcastInDim S1280000 ![] bcast_S_S1280000 : (⟨S_, .i32⟩ : BufTy).Contents (Elt F) → (⟨S1280000, .i32⟩ : BufTy).Contents (Elt F)),
    binary main_v1 main_v36 main_v37 (addi : (⟨S1280000, .i32⟩ : BufTy).Contents (Elt F) → (⟨S1280000, .i32⟩ : BufTy).Contents (Elt F) → (⟨S1280000, .i32⟩ : BufTy).Contents (Elt F)),
    ternary main_v35 main_v37 main_v1 main_v38 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v38 main_v39 (broadcastInDim S1280000x1 ![0] bcast_S1280000_S1280000x1_0 : (⟨S1280000, .i32⟩ : BufTy).Contents (Elt F) → (⟨S1280000x1, .i32⟩ : BufTy).Contents (Elt F)),
    binary main_v25 main_v39 main_v40 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)) ]

/-- Operations 50 to 61 of the reference program. -/
abbrev refC4 : List (HloOp τ sig (Elt F)) :=
  [ binary main_v40 main_arg1 main_v41 ((fun a b => concatenate S1280000x80 1 [⟨S1280000x64, a⟩, ⟨S1280000x16, b⟩] concatenates_S1280000x64_S1280000x16_S1280000x80_d1) : (⟨S1280000x64, .f32⟩ : BufTy).Contents (Elt F) → (⟨S1280000x16, .f32⟩ : BufTy).Contents (Elt F) → (⟨S1280000x80, .f32⟩ : BufTy).Contents (Elt F)),
    binary main_v41 main_v27 main_v42 ((fun l r => Host.dotGeneral dot_S1280000x80_S80x64_S1280000x64_1_0_0_1_n_n none l r) : (⟨S1280000x80, .f32⟩ : BufTy).Contents (Elt F) → (⟨S80x64, .f32⟩ : BufTy).Contents (Elt F) → (⟨S1280000x64, .f32⟩ : BufTy).Contents (Elt F)),
    unary main_v29 main_v43 (broadcastInDim S1x64 ![1] bcast_S64_S1x64_1 : (⟨S64, .f32⟩ : BufTy).Contents (Elt F) → (⟨S1x64, .f32⟩ : BufTy).Contents (Elt F)),
    unary main_v43 main_v44 (broadcastInDim S1280000x64 ![0, 1] bcast_S1x64_S1280000x64_0_1 : (⟨S1x64, .f32⟩ : BufTy).Contents (Elt F) → (⟨S1280000x64, .f32⟩ : BufTy).Contents (Elt F)),
    binary main_v42 main_v44 main_v45 (addf : (⟨S1280000x64, .f32⟩ : BufTy).Contents (Elt F) → (⟨S1280000x64, .f32⟩ : BufTy).Contents (Elt F) → (⟨S1280000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1280000x64, .f32⟩) main_call2_v0) (broadcastInDim S1280000x64 ![] bcast_S_S1280000x64),
    TRef.binary (TRef.of (T := ⟨S1280000x64, .f32⟩) main_v45) (TRef.of (T := ⟨S1280000x64, .f32⟩) main_call2_v0) (TRef.of (T := ⟨S1280000x64, .f32⟩) main_v46) maximumf,
    nullary main_cst_3 (constant S_ .f32 0x00000000#32),
    unary main_cst_3 main_v47 (broadcastInDim S80000x64 ![] bcast_S_S80000x64 : (⟨S_, .f32⟩ : BufTy).Contents (Elt F) → (⟨S80000x64, .f32⟩ : BufTy).Contents (Elt F)),
    unary main_v3 main_v48 (broadcastInDim S1280000x1 ![0] bcast_S1280000_S1280000x1_0 : (⟨S1280000, .i32⟩ : BufTy).Contents (Elt F) → (⟨S1280000x1, .i32⟩ : BufTy).Contents (Elt F)),
    ternary main_v47 main_v48 main_v46 main_v49 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)) ]

/-- Operations 62 to 69 of the reference program. -/
abbrev refC5 : List (HloOp τ sig (Elt F)) :=
  [ binary main_v25 main_v49 main_v50 ((fun a b => concatenate S80000x128 1 [⟨S80000x64, a⟩, ⟨S80000x64, b⟩] concatenates_S80000x64_S80000x64_S80000x128_d1) : (⟨S80000x64, .f32⟩ : BufTy).Contents (Elt F) → (⟨S80000x64, .f32⟩ : BufTy).Contents (Elt F) → (⟨S80000x128, .f32⟩ : BufTy).Contents (Elt F)),
    binary main_v50 main_v31 main_v51 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    unary main_v33 main_v52 (broadcastInDim S1x64 ![1] bcast_S64_S1x64_1 : (⟨S64, .f32⟩ : BufTy).Contents (Elt F) → (⟨S1x64, .f32⟩ : BufTy).Contents (Elt F)),
    unary main_v52 main_v53 (broadcastInDim S80000x64 ![0, 1] bcast_S1x64_S80000x64_0_1 : (⟨S1x64, .f32⟩ : BufTy).Contents (Elt F) → (⟨S80000x64, .f32⟩ : BufTy).Contents (Elt F)),
    binary main_v51 main_v53 main_v54 (addf : (⟨S80000x64, .f32⟩ : BufTy).Contents (Elt F) → (⟨S80000x64, .f32⟩ : BufTy).Contents (Elt F) → (⟨S80000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S80000x64, .f32⟩) main_call3_v0) (broadcastInDim S80000x64 ![] bcast_S_S80000x64),
    TRef.binary (TRef.of (T := ⟨S80000x64, .f32⟩) main_v54) (TRef.of (T := ⟨S80000x64, .f32⟩) main_call3_v0) (TRef.of (T := ⟨S80000x64, .f32⟩) main_v55) maximumf ]

/-- Operations 70 to 86 of the reference program. -/
abbrev refC6 : List (HloOp τ sig (Elt F)) :=
  [ unary main_arg8 main_v56 ((extractStridedSlice S1x80x64 ![1, 0, 0] · slices_S3x80x64_S1x80x64_1_0_0) : (⟨S3x80x64, .f32⟩ : BufTy).Contents (Elt F) → (⟨S1x80x64, .f32⟩ : BufTy).Contents (Elt F)),
    reshape main_v56 main_v57 rfl shapeCasts_S1x80x64_S80x64,
    unary main_arg9 main_v58 ((extractStridedSlice S1x64 ![1, 0] · slices_S3x64_S1x64_1_0) : (⟨S3x64, .f32⟩ : BufTy).Contents (Elt F) → (⟨S1x64, .f32⟩ : BufTy).Contents (Elt F)),
    reshape main_v58 main_v59 rfl shapeCasts_S1x64_S64,
    unary main_arg10 main_v60 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v60 main_v61 rfl shapeCasts_S1x128x64_S128x64,
    unary main_arg11 main_v62 ((extractStridedSlice S1x64 ![1, 0] · slices_S3x64_S1x64_1_0) : (⟨S3x64, .f32⟩ : BufTy).Contents (Elt F) → (⟨S1x64, .f32⟩ : BufTy).Contents (Elt F)),
    reshape main_v62 main_v63 rfl shapeCasts_S1x64_S64,
    nullary main_c_4 (constantI S_ 32 0#32),
    unary main_c_4 main_v64 (broadcastInDim S1280000 ![] bcast_S_S1280000 : (⟨S_, .i32⟩ : BufTy).Contents (Elt F) → (⟨S1280000, .i32⟩ : BufTy).Contents (Elt F)),
    binary main_v1 main_v64 main_v65 (cmpi .slt : (⟨S1280000, .i32⟩ : BufTy).Contents (Elt F) → (⟨S1280000, .i32⟩ : BufTy).Contents (Elt F) → (⟨S1280000, .i1⟩ : BufTy).Contents (Elt F)),
    nullary main_c_5 (constantI S_ 32 80000#32),
    unary main_c_5 main_v66 (broadcastInDim S1280000 ![] bcast_S_S1280000 : (⟨S_, .i32⟩ : BufTy).Contents (Elt F) → (⟨S1280000, .i32⟩ : BufTy).Contents (Elt F)),
    binary main_v1 main_v66 main_v67 (addi : (⟨S1280000, .i32⟩ : BufTy).Contents (Elt F) → (⟨S1280000, .i32⟩ : BufTy).Contents (Elt F) → (⟨S1280000, .i32⟩ : BufTy).Contents (Elt F)),
    ternary main_v65 main_v67 main_v1 main_v68 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v68 main_v69 (broadcastInDim S1280000x1 ![0] bcast_S1280000_S1280000x1_0 : (⟨S1280000, .i32⟩ : BufTy).Contents (Elt F) → (⟨S1280000x1, .i32⟩ : BufTy).Contents (Elt F)),
    binary main_v55 main_v69 main_v70 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)) ]

/-- Operations 87 to 98 of the reference program. -/
abbrev refC7 : List (HloOp τ sig (Elt F)) :=
  [ binary main_v70 main_arg1 main_v71 ((fun a b => concatenate S1280000x80 1 [⟨S1280000x64, a⟩, ⟨S1280000x16, b⟩] concatenates_S1280000x64_S1280000x16_S1280000x80_d1) : (⟨S1280000x64, .f32⟩ : BufTy).Contents (Elt F) → (⟨S1280000x16, .f32⟩ : BufTy).Contents (Elt F) → (⟨S1280000x80, .f32⟩ : BufTy).Contents (Elt F)),
    binary main_v71 main_v57 main_v72 ((fun l r => Host.dotGeneral dot_S1280000x80_S80x64_S1280000x64_1_0_0_1_n_n none l r) : (⟨S1280000x80, .f32⟩ : BufTy).Contents (Elt F) → (⟨S80x64, .f32⟩ : BufTy).Contents (Elt F) → (⟨S1280000x64, .f32⟩ : BufTy).Contents (Elt F)),
    unary main_v59 main_v73 (broadcastInDim S1x64 ![1] bcast_S64_S1x64_1 : (⟨S64, .f32⟩ : BufTy).Contents (Elt F) → (⟨S1x64, .f32⟩ : BufTy).Contents (Elt F)),
    unary main_v73 main_v74 (broadcastInDim S1280000x64 ![0, 1] bcast_S1x64_S1280000x64_0_1 : (⟨S1x64, .f32⟩ : BufTy).Contents (Elt F) → (⟨S1280000x64, .f32⟩ : BufTy).Contents (Elt F)),
    binary main_v72 main_v74 main_v75 (addf : (⟨S1280000x64, .f32⟩ : BufTy).Contents (Elt F) → (⟨S1280000x64, .f32⟩ : BufTy).Contents (Elt F) → (⟨S1280000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1280000x64, .f32⟩) main_call4_v0) (broadcastInDim S1280000x64 ![] bcast_S_S1280000x64),
    TRef.binary (TRef.of (T := ⟨S1280000x64, .f32⟩) main_v75) (TRef.of (T := ⟨S1280000x64, .f32⟩) main_call4_v0) (TRef.of (T := ⟨S1280000x64, .f32⟩) main_v76) maximumf,
    nullary main_cst_6 (constant S_ .f32 0x00000000#32),
    unary main_cst_6 main_v77 (broadcastInDim S80000x64 ![] bcast_S_S80000x64 : (⟨S_, .f32⟩ : BufTy).Contents (Elt F) → (⟨S80000x64, .f32⟩ : BufTy).Contents (Elt F)),
    unary main_v3 main_v78 (broadcastInDim S1280000x1 ![0] bcast_S1280000_S1280000x1_0 : (⟨S1280000, .i32⟩ : BufTy).Contents (Elt F) → (⟨S1280000x1, .i32⟩ : BufTy).Contents (Elt F)),
    ternary main_v77 main_v78 main_v76 main_v79 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)) ]

/-- Operations 99 to 106 of the reference program. -/
abbrev refC8 : List (HloOp τ sig (Elt F)) :=
  [ binary main_v55 main_v79 main_v80 ((fun a b => concatenate S80000x128 1 [⟨S80000x64, a⟩, ⟨S80000x64, b⟩] concatenates_S80000x64_S80000x64_S80000x128_d1) : (⟨S80000x64, .f32⟩ : BufTy).Contents (Elt F) → (⟨S80000x64, .f32⟩ : BufTy).Contents (Elt F) → (⟨S80000x128, .f32⟩ : BufTy).Contents (Elt F)),
    binary main_v80 main_v61 main_v81 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    unary main_v63 main_v82 (broadcastInDim S1x64 ![1] bcast_S64_S1x64_1 : (⟨S64, .f32⟩ : BufTy).Contents (Elt F) → (⟨S1x64, .f32⟩ : BufTy).Contents (Elt F)),
    unary main_v82 main_v83 (broadcastInDim S80000x64 ![0, 1] bcast_S1x64_S80000x64_0_1 : (⟨S1x64, .f32⟩ : BufTy).Contents (Elt F) → (⟨S80000x64, .f32⟩ : BufTy).Contents (Elt F)),
    binary main_v81 main_v83 main_v84 (addf : (⟨S80000x64, .f32⟩ : BufTy).Contents (Elt F) → (⟨S80000x64, .f32⟩ : BufTy).Contents (Elt F) → (⟨S80000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S80000x64, .f32⟩) main_call5_v0) (broadcastInDim S80000x64 ![] bcast_S_S80000x64),
    TRef.binary (TRef.of (T := ⟨S80000x64, .f32⟩) main_v84) (TRef.of (T := ⟨S80000x64, .f32⟩) main_call5_v0) (TRef.of (T := ⟨S80000x64, .f32⟩) main_v85) maximumf ]

/-- Operations 107 to 123 of the reference program. -/
abbrev refC9 : List (HloOp τ sig (Elt F)) :=
  [ unary main_arg8 main_v86 ((extractStridedSlice S1x80x64 ![2, 0, 0] · slices_S3x80x64_S1x80x64_2_0_0) : (⟨S3x80x64, .f32⟩ : BufTy).Contents (Elt F) → (⟨S1x80x64, .f32⟩ : BufTy).Contents (Elt F)),
    reshape main_v86 main_v87 rfl shapeCasts_S1x80x64_S80x64,
    unary main_arg9 main_v88 ((extractStridedSlice S1x64 ![2, 0] · slices_S3x64_S1x64_2_0) : (⟨S3x64, .f32⟩ : BufTy).Contents (Elt F) → (⟨S1x64, .f32⟩ : BufTy).Contents (Elt F)),
    reshape main_v88 main_v89 rfl shapeCasts_S1x64_S64,
    unary main_arg10 main_v90 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v90 main_v91 rfl shapeCasts_S1x128x64_S128x64,
    unary main_arg11 main_v92 ((extractStridedSlice S1x64 ![2, 0] · slices_S3x64_S1x64_2_0) : (⟨S3x64, .f32⟩ : BufTy).Contents (Elt F) → (⟨S1x64, .f32⟩ : BufTy).Contents (Elt F)),
    reshape main_v92 main_v93 rfl shapeCasts_S1x64_S64,
    nullary main_c_7 (constantI S_ 32 0#32),
    unary main_c_7 main_v94 (broadcastInDim S1280000 ![] bcast_S_S1280000 : (⟨S_, .i32⟩ : BufTy).Contents (Elt F) → (⟨S1280000, .i32⟩ : BufTy).Contents (Elt F)),
    binary main_v1 main_v94 main_v95 (cmpi .slt : (⟨S1280000, .i32⟩ : BufTy).Contents (Elt F) → (⟨S1280000, .i32⟩ : BufTy).Contents (Elt F) → (⟨S1280000, .i1⟩ : BufTy).Contents (Elt F)),
    nullary main_c_8 (constantI S_ 32 80000#32),
    unary main_c_8 main_v96 (broadcastInDim S1280000 ![] bcast_S_S1280000 : (⟨S_, .i32⟩ : BufTy).Contents (Elt F) → (⟨S1280000, .i32⟩ : BufTy).Contents (Elt F)),
    binary main_v1 main_v96 main_v97 (addi : (⟨S1280000, .i32⟩ : BufTy).Contents (Elt F) → (⟨S1280000, .i32⟩ : BufTy).Contents (Elt F) → (⟨S1280000, .i32⟩ : BufTy).Contents (Elt F)),
    ternary main_v95 main_v97 main_v1 main_v98 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v98 main_v99 (broadcastInDim S1280000x1 ![0] bcast_S1280000_S1280000x1_0 : (⟨S1280000, .i32⟩ : BufTy).Contents (Elt F) → (⟨S1280000x1, .i32⟩ : BufTy).Contents (Elt F)),
    binary main_v85 main_v99 main_v100 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)) ]

/-- Operations 124 to 135 of the reference program. -/
abbrev refC10 : List (HloOp τ sig (Elt F)) :=
  [ binary main_v100 main_arg1 main_v101 ((fun a b => concatenate S1280000x80 1 [⟨S1280000x64, a⟩, ⟨S1280000x16, b⟩] concatenates_S1280000x64_S1280000x16_S1280000x80_d1) : (⟨S1280000x64, .f32⟩ : BufTy).Contents (Elt F) → (⟨S1280000x16, .f32⟩ : BufTy).Contents (Elt F) → (⟨S1280000x80, .f32⟩ : BufTy).Contents (Elt F)),
    binary main_v101 main_v87 main_v102 ((fun l r => Host.dotGeneral dot_S1280000x80_S80x64_S1280000x64_1_0_0_1_n_n none l r) : (⟨S1280000x80, .f32⟩ : BufTy).Contents (Elt F) → (⟨S80x64, .f32⟩ : BufTy).Contents (Elt F) → (⟨S1280000x64, .f32⟩ : BufTy).Contents (Elt F)),
    unary main_v89 main_v103 (broadcastInDim S1x64 ![1] bcast_S64_S1x64_1 : (⟨S64, .f32⟩ : BufTy).Contents (Elt F) → (⟨S1x64, .f32⟩ : BufTy).Contents (Elt F)),
    unary main_v103 main_v104 (broadcastInDim S1280000x64 ![0, 1] bcast_S1x64_S1280000x64_0_1 : (⟨S1x64, .f32⟩ : BufTy).Contents (Elt F) → (⟨S1280000x64, .f32⟩ : BufTy).Contents (Elt F)),
    binary main_v102 main_v104 main_v105 (addf : (⟨S1280000x64, .f32⟩ : BufTy).Contents (Elt F) → (⟨S1280000x64, .f32⟩ : BufTy).Contents (Elt F) → (⟨S1280000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1280000x64, .f32⟩) main_call6_v0) (broadcastInDim S1280000x64 ![] bcast_S_S1280000x64),
    TRef.binary (TRef.of (T := ⟨S1280000x64, .f32⟩) main_v105) (TRef.of (T := ⟨S1280000x64, .f32⟩) main_call6_v0) (TRef.of (T := ⟨S1280000x64, .f32⟩) main_v106) maximumf,
    nullary main_cst_9 (constant S_ .f32 0x00000000#32),
    unary main_cst_9 main_v107 (broadcastInDim S80000x64 ![] bcast_S_S80000x64 : (⟨S_, .f32⟩ : BufTy).Contents (Elt F) → (⟨S80000x64, .f32⟩ : BufTy).Contents (Elt F)),
    unary main_v3 main_v108 (broadcastInDim S1280000x1 ![0] bcast_S1280000_S1280000x1_0 : (⟨S1280000, .i32⟩ : BufTy).Contents (Elt F) → (⟨S1280000x1, .i32⟩ : BufTy).Contents (Elt F)),
    ternary main_v107 main_v108 main_v106 main_v109 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)) ]

/-- Operations 136 to 143 of the reference program. -/
abbrev refC11 : List (HloOp τ sig (Elt F)) :=
  [ binary main_v85 main_v109 main_v110 ((fun a b => concatenate S80000x128 1 [⟨S80000x64, a⟩, ⟨S80000x64, b⟩] concatenates_S80000x64_S80000x64_S80000x128_d1) : (⟨S80000x64, .f32⟩ : BufTy).Contents (Elt F) → (⟨S80000x64, .f32⟩ : BufTy).Contents (Elt F) → (⟨S80000x128, .f32⟩ : BufTy).Contents (Elt F)),
    binary main_v110 main_v91 main_v111 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    unary main_v93 main_v112 (broadcastInDim S1x64 ![1] bcast_S64_S1x64_1 : (⟨S64, .f32⟩ : BufTy).Contents (Elt F) → (⟨S1x64, .f32⟩ : BufTy).Contents (Elt F)),
    unary main_v112 main_v113 (broadcastInDim S80000x64 ![0, 1] bcast_S1x64_S80000x64_0_1 : (⟨S1x64, .f32⟩ : BufTy).Contents (Elt F) → (⟨S80000x64, .f32⟩ : BufTy).Contents (Elt F)),
    binary main_v111 main_v113 main_v114 (addf : (⟨S80000x64, .f32⟩ : BufTy).Contents (Elt F) → (⟨S80000x64, .f32⟩ : BufTy).Contents (Elt F) → (⟨S80000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S80000x64, .f32⟩) main_call7_v0) (broadcastInDim S80000x64 ![] bcast_S_S80000x64),
    TRef.binary (TRef.of (T := ⟨S80000x64, .f32⟩) main_v114) (TRef.of (T := ⟨S80000x64, .f32⟩) main_call7_v0) (TRef.of (T := ⟨S80000x64, .f32⟩) main_v115) maximumf ]

/-- Operations 144 to 151 of the reference program. -/
abbrev refC12 : List (HloOp τ sig (Elt F)) :=
  [ nullary main_cst_10 (constant S_ .f32 0x00000000#32),
    unary main_cst_10 main_v116 (broadcastInDim S256x64 ![] bcast_S_S256x64 : (⟨S_, .f32⟩ : BufTy).Contents (Elt F) → (⟨S256x64, .f32⟩ : BufTy).Contents (Elt F)),
    unary main_arg3 main_v117 (broadcastInDim S80000x1 ![0] bcast_S80000_S80000x1_0 : (⟨S80000, .i32⟩ : BufTy).Contents (Elt F) → (⟨S80000x1, .i32⟩ : BufTy).Contents (Elt F)),
    ternary main_v116 main_v117 main_v115 main_v118 ((fun x i u => Host.scatterAdd scatter_S256x64_S80000x1_S80000x64_1_0_0_1 x i u) : (⟨S256x64, .f32⟩ : BufTy).Contents (Elt F) → (⟨S80000x1, .i32⟩ : BufTy).Contents (Elt F) → (⟨S80000x64, .f32⟩ : BufTy).Contents (Elt F) → (⟨S256x64, .f32⟩ : BufTy).Contents (Elt F)),
    binary main_v118 main_arg12 main_v119 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg13 main_v120 (broadcastInDim S1x1 ![1] bcast_S1_S1x1_1 : (⟨S1, .f32⟩ : BufTy).Contents (Elt F) → (⟨S1x1, .f32⟩ : BufTy).Contents (Elt F)),
    unary main_v120 main_v121 (broadcastInDim S256x1 ![0, 1] bcast_S1x1_S256x1_0_1 : (⟨S1x1, .f32⟩ : BufTy).Contents (Elt F) → (⟨S256x1, .f32⟩ : BufTy).Contents (Elt F)),
    binary main_v119 main_v121 main_v122 (addf : (⟨S256x1, .f32⟩ : BufTy).Contents (Elt F) → (⟨S256x1, .f32⟩ : BufTy).Contents (Elt F) → (⟨S256x1, .f32⟩ : BufTy).Contents (Elt F)) ]

set_option maxRecDepth 8192 in
/-- The operation list is the thirteen stretches in order. -/
theorem ops_split : (ops : List (HloOp τ sig (Elt F))) = refC0 ++ (refC1 ++ (refC2 ++ (refC3 ++ (refC4 ++ (refC5 ++ (refC6 ++ (refC7 ++ (refC8 ++ (refC9 ++ (refC10 ++ (refC11 ++ (refC12)))))))))))) := rfl

end Cert.ReferenceIdeal.Hand

end
-- ==== Proof.RefRunL0.lean ====
/-
  The reference program's first layer, stretch by stretch.

  Each lemma takes ANY contents of the buffers before a stretch of operations, told only what the buffers the stretch
  reads hold as functions of the argument arrays, and says what ONE buffer the stretch computes holds after it: the
  staged value of that buffer at the same argument arrays. The first stretch cuts the two index rows out of the index
  pair and gathers the source rows of the node array; the second joins them to the edge rows, applies the message
  weights, bias and rectifier, and adds the messages into a zero node array at the destination indices; the third joins
  the sums to the node rows and applies the update weights, bias and rectifier.
-/
import proofs.«422392_j11433202942183_1_alg».proof.Proof.RefChunks
import proofs.«422392_j11433202942183_1_alg».proof.Proof.ReadP

set_option maxRecDepth 16384

noncomputable section

namespace Cert.ReferenceIdeal.Hand

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F] (Wp : Valuation τ sig (Elt F))
variable {x0 : (⟨S80000x32, .f32⟩ : BufTy).Contents (Elt F)} {x1 : (⟨S1280000x16, .f32⟩ : BufTy).Contents (Elt F)}
  {x2 : (⟨S2x1280000, .i32⟩ : BufTy).Contents (Elt F)} {x3 : (⟨S80000, .i32⟩ : BufTy).Contents (Elt F)}
  {x4 : (⟨S48x64, .f32⟩ : BufTy).Contents (Elt F)} {x5 : (⟨S64, .f32⟩ : BufTy).Contents (Elt F)}
  {x6 : (⟨S96x64, .f32⟩ : BufTy).Contents (Elt F)} {x7 : (⟨S64, .f32⟩ : BufTy).Contents (Elt F)}
  {x8 : (⟨S3x80x64, .f32⟩ : BufTy).Contents (Elt F)} {x9 : (⟨S3x64, .f32⟩ : BufTy).Contents (Elt F)}
  {x10 : (⟨S3x128x64, .f32⟩ : BufTy).Contents (Elt F)} {x11 : (⟨S3x64, .f32⟩ : BufTy).Contents (Elt F)}
  {x12 : (⟨S64x1, .f32⟩ : BufTy).Contents (Elt F)} {x13 : (⟨S1, .f32⟩ : BufTy).Contents (Elt F)}

/-! ## The first stretch: the index rows and the gathered node rows -/

/-- The source-index row of the index pair. -/
theorem c0_v1 (h2 : Wp (Proc.devRef .tc main_arg2) = x2) :
    after refC0 Wp (Proc.devRef .tc main_v1) = val_main_v1 (F := F) x2 := by
  simp only [refC0]
  after_results_simp
  rw [h2]
  rfl

/-- The destination-index row of the index pair. -/
theorem c0_v3 (h2 : Wp (Proc.devRef .tc main_arg2) = x2) :
    after refC0 Wp (Proc.devRef .tc main_v3) = val_main_v3 (F := F) x2 := by
  simp only [refC0]
  after_results_simp
  rw [h2]
  rfl

/-- The node rows at the (wrapped) source indices. -/
theorem c0_v10 (h0 : Wp (Proc.devRef .tc main_arg0) = x0) (h2 : Wp (Proc.devRef .tc main_arg2) = x2) :
    after refC0 Wp (Proc.devRef .tc main_v10) = val_main_v10 (F := F) x0 x2 := by
  simp only [refC0]
  after_results_simp
  rw [h0, h2]
  rfl

/-! ## The second stretch: the messages, summed by destination -/

/-- The rectified messages added into a zero node array at the destination indices. -/
theorem c1_v19 (h10 : Wp (Proc.devRef .tc main_v10) = val_main_v10 (F := F) x0 x2)
    (h1 : Wp (Proc.devRef .tc main_arg1) = x1) (h4 : Wp (Proc.devRef .tc main_arg4) = x4)
    (h5 : Wp (Proc.devRef .tc main_arg5) = x5) (h3 : Wp (Proc.devRef .tc main_v3) = val_main_v3 (F := F) x2) :
    after refC1 Wp (Proc.devRef .tc main_v19) = val_main_v19 (F := F) x0 x1 x2 x4 x5 := by
  simp only [refC1]
  after_results_simp
  simp only [TRef.ofBuf, TRef.toBuf, cast_eq]
  rw [h10, h1, h4, h5, h3]
  rfl

/-! ## The third stretch: the node update -/

/-- The node rows after the first layer. -/
theorem c2_v25 (h0 : Wp (Proc.devRef .tc main_arg0) = x0)
    (h19 : Wp (Proc.devRef .tc main_v19) = val_main_v19 (F := F) x0 x1 x2 x4 x5)
    (h6 : Wp (Proc.devRef .tc main_arg6) = x6) (h7 : Wp (Proc.devRef .tc main_arg7) = x7) :
    after refC2 Wp (Proc.devRef .tc main_v25) = val_main_v25 (F := F) x0 x1 x2 x4 x5 x6 x7 := by
  simp only [refC2]
  after_results_simp
  simp only [TRef.ofBuf, TRef.toBuf, cast_eq]
  rw [h0, h19, h6, h7]
  rfl

end Cert.ReferenceIdeal.Hand

end
-- ==== Proof.RefRunL1.lean ====
/-
  One inner layer of the reference program, stretch by stretch.

  Each lemma takes ANY contents of the buffers before a stretch of operations, told only what the buffers the stretch
  reads hold as functions of the argument arrays, and says what ONE buffer the stretch computes holds after it: the
  staged value of that buffer at the same argument arrays. The first stretch cuts this layer's message and update
  weights and biases out of the stacked weight arrays and gathers the source rows of the node rows the layer before
  left; the second joins them to the edge rows, applies the message weights, bias and rectifier, and adds the messages
  into a zero node array at the destination indices; the third joins the sums to the node rows and applies the update
  weights, bias and rectifier.
-/
import proofs.«422392_j11433202942183_1_alg».proof.Proof.RefChunks
import proofs.«422392_j11433202942183_1_alg».proof.Proof.ReadP

set_option maxRecDepth 16384

noncomputable section

namespace Cert.ReferenceIdeal.Hand

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F] (Wp : Valuation τ sig (Elt F))
variable {x0 : (⟨S80000x32, .f32⟩ : BufTy).Contents (Elt F)} {x1 : (⟨S1280000x16, .f32⟩ : BufTy).Contents (Elt F)}
  {x2 : (⟨S2x1280000, .i32⟩ : BufTy).Contents (Elt F)} {x3 : (⟨S80000, .i32⟩ : BufTy).Contents (Elt F)}
  {x4 : (⟨S48x64, .f32⟩ : BufTy).Contents (Elt F)} {x5 : (⟨S64, .f32⟩ : BufTy).Contents (Elt F)}
  {x6 : (⟨S96x64, .f32⟩ : BufTy).Contents (Elt F)} {x7 : (⟨S64, .f32⟩ : BufTy).Contents (Elt F)}
  {x8 : (⟨S3x80x64, .f32⟩ : BufTy).Contents (Elt F)} {x9 : (⟨S3x64, .f32⟩ : BufTy).Contents (Elt F)}
  {x10 : (⟨S3x128x64, .f32⟩ : BufTy).Contents (Elt F)} {x11 : (⟨S3x64, .f32⟩ : BufTy).Contents (Elt F)}
  {x12 : (⟨S64x1, .f32⟩ : BufTy).Contents (Elt F)} {x13 : (⟨S1, .f32⟩ : BufTy).Contents (Elt F)}

/-! ## The first stretch: this layer's weights, and the gathered node rows -/

/-- The layer's message weights, cut out of the stack. -/
theorem c3_v27 (h8 : Wp (Proc.devRef .tc main_arg8) = x8) :
    after refC3 Wp (Proc.devRef .tc main_v27) = val_main_v27 (F := F) x8 := by
  simp only [refC3]
  after_results_simp
  rw [h8]
  rfl

/-- The layer's message bias. -/
theorem c3_v29 (h9 : Wp (Proc.devRef .tc main_arg9) = x9) :
    after refC3 Wp (Proc.devRef .tc main_v29) = val_main_v29 (F := F) x9 := by
  simp only [refC3]
  after_results_simp
  rw [h9]
  rfl

/-- The layer's update weights. -/
theorem c3_v31 (h10 : Wp (Proc.devRef .tc main_arg10) = x10) :
    after refC3 Wp (Proc.devRef .tc main_v31) = val_main_v31 (F := F) x10 := by
  simp only [refC3]
  after_results_simp
  rw [h10]
  rfl

/-- The layer's update bias. -/
theorem c3_v33 (h11 : Wp (Proc.devRef .tc main_arg11) = x11) :
    after refC3 Wp (Proc.devRef .tc main_v33) = val_main_v33 (F := F) x11 := by
  simp only [refC3]
  after_results_simp
  rw [h11]
  rfl

/-- The node rows of the layer before at the (wrapped) source indices. -/
theorem c3_v40 (hs : Wp (Proc.devRef .tc main_v1) = val_main_v1 (F := F) x2)
    (hn : Wp (Proc.devRef .tc main_v25) = val_main_v25 (F := F) x0 x1 x2 x4 x5 x6 x7) :
    after refC3 Wp (Proc.devRef .tc main_v40) = val_main_v40 (F := F) x0 x1 x2 x4 x5 x6 x7 := by
  simp only [refC3]
  after_results_simp
  rw [hs, hn]
  rfl

/-! ## The second stretch: the messages, summed by destination -/

/-- The rectified messages added into a zero node array at the destination indices. -/
theorem c4_v49 (hg : Wp (Proc.devRef .tc main_v40) = val_main_v40 (F := F) x0 x1 x2 x4 x5 x6 x7)
    (h1 : Wp (Proc.devRef .tc main_arg1) = x1)
    (hw : Wp (Proc.devRef .tc main_v27) = val_main_v27 (F := F) x8)
    (hb : Wp (Proc.devRef .tc main_v29) = val_main_v29 (F := F) x9)
    (hd : Wp (Proc.devRef .tc main_v3) = val_main_v3 (F := F) x2) :
    after refC4 Wp (Proc.devRef .tc main_v49) = val_main_v49 (F := F) x0 x1 x2 x4 x5 x6 x7 x8 x9 := by
  simp only [refC4]
  after_results_simp
  simp only [TRef.ofBuf, TRef.toBuf, cast_eq]
  rw [hg, h1, hw, hb, hd]
  rfl

/-! ## The third stretch: the node update -/

/-- The node rows after this layer. -/
theorem c5_v55 (hn : Wp (Proc.devRef .tc main_v25) = val_main_v25 (F := F) x0 x1 x2 x4 x5 x6 x7)
    (ha : Wp (Proc.devRef .tc main_v49) = val_main_v49 (F := F) x0 x1 x2 x4 x5 x6 x7 x8 x9)
    (hw : Wp (Proc.devRef .tc main_v31) = val_main_v31 (F := F) x10)
    (hb : Wp (Proc.devRef .tc main_v33) = val_main_v33 (F := F) x11) :
    after refC5 Wp (Proc.devRef .tc main_v55) = val_main_v55 (F := F) x0 x1 x2 x4 x5 x6 x7 x8 x9 x10 x11 := by
  simp only [refC5]
  after_results_simp
  simp only [TRef.ofBuf, TRef.toBuf, cast_eq]
  rw [hn, ha, hw, hb]
  rfl

end Cert.ReferenceIdeal.Hand

end
-- ==== Proof.RefRunL2.lean ====
/-
  One inner layer of the reference program, stretch by stretch.

  Each lemma takes ANY contents of the buffers before a stretch of operations, told only what the buffers the stretch
  reads hold as functions of the argument arrays, and says what ONE buffer the stretch computes holds after it: the
  staged value of that buffer at the same argument arrays. The first stretch cuts this layer's message and update
  weights and biases out of the stacked weight arrays and gathers the source rows of the node rows the layer before
  left; the second joins them to the edge rows, applies the message weights, bias and rectifier, and adds the messages
  into a zero node array at the destination indices; the third joins the sums to the node rows and applies the update
  weights, bias and rectifier.
-/
import proofs.«422392_j11433202942183_1_alg».proof.Proof.RefChunks
import proofs.«422392_j11433202942183_1_alg».proof.Proof.ReadP

set_option maxRecDepth 16384

noncomputable section

namespace Cert.ReferenceIdeal.Hand

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F] (Wp : Valuation τ sig (Elt F))
variable {x0 : (⟨S80000x32, .f32⟩ : BufTy).Contents (Elt F)} {x1 : (⟨S1280000x16, .f32⟩ : BufTy).Contents (Elt F)}
  {x2 : (⟨S2x1280000, .i32⟩ : BufTy).Contents (Elt F)} {x3 : (⟨S80000, .i32⟩ : BufTy).Contents (Elt F)}
  {x4 : (⟨S48x64, .f32⟩ : BufTy).Contents (Elt F)} {x5 : (⟨S64, .f32⟩ : BufTy).Contents (Elt F)}
  {x6 : (⟨S96x64, .f32⟩ : BufTy).Contents (Elt F)} {x7 : (⟨S64, .f32⟩ : BufTy).Contents (Elt F)}
  {x8 : (⟨S3x80x64, .f32⟩ : BufTy).Contents (Elt F)} {x9 : (⟨S3x64, .f32⟩ : BufTy).Contents (Elt F)}
  {x10 : (⟨S3x128x64, .f32⟩ : BufTy).Contents (Elt F)} {x11 : (⟨S3x64, .f32⟩ : BufTy).Contents (Elt F)}
  {x12 : (⟨S64x1, .f32⟩ : BufTy).Contents (Elt F)} {x13 : (⟨S1, .f32⟩ : BufTy).Contents (Elt F)}

/-! ## The first stretch: this layer's weights, and the gathered node rows -/

/-- The layer's message weights, cut out of the stack. -/
theorem c6_v57 (h8 : Wp (Proc.devRef .tc main_arg8) = x8) :
    after refC6 Wp (Proc.devRef .tc main_v57) = val_main_v57 (F := F) x8 := by
  simp only [refC6]
  after_results_simp
  rw [h8]
  rfl

/-- The layer's message bias. -/
theorem c6_v59 (h9 : Wp (Proc.devRef .tc main_arg9) = x9) :
    after refC6 Wp (Proc.devRef .tc main_v59) = val_main_v59 (F := F) x9 := by
  simp only [refC6]
  after_results_simp
  rw [h9]
  rfl

/-- The layer's update weights. -/
theorem c6_v61 (h10 : Wp (Proc.devRef .tc main_arg10) = x10) :
    after refC6 Wp (Proc.devRef .tc main_v61) = val_main_v61 (F := F) x10 := by
  simp only [refC6]
  after_results_simp
  rw [h10]
  rfl

/-- The layer's update bias. -/
theorem c6_v63 (h11 : Wp (Proc.devRef .tc main_arg11) = x11) :
    after refC6 Wp (Proc.devRef .tc main_v63) = val_main_v63 (F := F) x11 := by
  simp only [refC6]
  after_results_simp
  rw [h11]
  rfl

/-- The node rows of the layer before at the (wrapped) source indices. -/
theorem c6_v70 (hs : Wp (Proc.devRef .tc main_v1) = val_main_v1 (F := F) x2)
    (hn : Wp (Proc.devRef .tc main_v55) = val_main_v55 (F := F) x0 x1 x2 x4 x5 x6 x7 x8 x9 x10 x11) :
    after refC6 Wp (Proc.devRef .tc main_v70) = val_main_v70 (F := F) x0 x1 x2 x4 x5 x6 x7 x8 x9 x10 x11 := by
  simp only [refC6]
  after_results_simp
  rw [hs, hn]
  rfl

/-! ## The second stretch: the messages, summed by destination -/

/-- The rectified messages added into a zero node array at the destination indices. -/
theorem c7_v79 (hg : Wp (Proc.devRef .tc main_v70) = val_main_v70 (F := F) x0 x1 x2 x4 x5 x6 x7 x8 x9 x10 x11)
    (h1 : Wp (Proc.devRef .tc main_arg1) = x1)
    (hw : Wp (Proc.devRef .tc main_v57) = val_main_v57 (F := F) x8)
    (hb : Wp (Proc.devRef .tc main_v59) = val_main_v59 (F := F) x9)
    (hd : Wp (Proc.devRef .tc main_v3) = val_main_v3 (F := F) x2) :
    after refC7 Wp (Proc.devRef .tc main_v79) = val_main_v79 (F := F) x0 x1 x2 x4 x5 x6 x7 x8 x9 x10 x11 := by
  simp only [refC7]
  after_results_simp
  simp only [TRef.ofBuf, TRef.toBuf, cast_eq]
  rw [hg, h1, hw, hb, hd]
  rfl

/-! ## The third stretch: the node update -/

/-- The node rows after this layer. -/
theorem c8_v85 (hn : Wp (Proc.devRef .tc main_v55) = val_main_v55 (F := F) x0 x1 x2 x4 x5 x6 x7 x8 x9 x10 x11)
    (ha : Wp (Proc.devRef .tc main_v79) = val_main_v79 (F := F) x0 x1 x2 x4 x5 x6 x7 x8 x9 x10 x11)
    (hw : Wp (Proc.devRef .tc main_v61) = val_main_v61 (F := F) x10)
    (hb : Wp (Proc.devRef .tc main_v63) = val_main_v63 (F := F) x11) :
    after refC8 Wp (Proc.devRef .tc main_v85) = val_main_v85 (F := F) x0 x1 x2 x4 x5 x6 x7 x8 x9 x10 x11 := by
  simp only [refC8]
  after_results_simp
  simp only [TRef.ofBuf, TRef.toBuf, cast_eq]
  rw [hn, ha, hw, hb]
  rfl

end Cert.ReferenceIdeal.Hand

end
-- ==== Proof.RefRunL3.lean ====
/-
  One inner layer of the reference program, stretch by stretch.

  Each lemma takes ANY contents of the buffers before a stretch of operations, told only what the buffers the stretch
  reads hold as functions of the argument arrays, and says what ONE buffer the stretch computes holds after it: the
  staged value of that buffer at the same argument arrays. The first stretch cuts this layer's message and update
  weights and biases out of the stacked weight arrays and gathers the source rows of the node rows the layer before
  left; the second joins them to the edge rows, applies the message weights, bias and rectifier, and adds the messages
  into a zero node array at the destination indices; the third joins the sums to the node rows and applies the update
  weights, bias and rectifier.
-/
import proofs.«422392_j11433202942183_1_alg».proof.Proof.RefChunks
import proofs.«422392_j11433202942183_1_alg».proof.Proof.ReadP

set_option maxRecDepth 16384

noncomputable section

namespace Cert.ReferenceIdeal.Hand

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F] (Wp : Valuation τ sig (Elt F))
variable {x0 : (⟨S80000x32, .f32⟩ : BufTy).Contents (Elt F)} {x1 : (⟨S1280000x16, .f32⟩ : BufTy).Contents (Elt F)}
  {x2 : (⟨S2x1280000, .i32⟩ : BufTy).Contents (Elt F)} {x3 : (⟨S80000, .i32⟩ : BufTy).Contents (Elt F)}
  {x4 : (⟨S48x64, .f32⟩ : BufTy).Contents (Elt F)} {x5 : (⟨S64, .f32⟩ : BufTy).Contents (Elt F)}
  {x6 : (⟨S96x64, .f32⟩ : BufTy).Contents (Elt F)} {x7 : (⟨S64, .f32⟩ : BufTy).Contents (Elt F)}
  {x8 : (⟨S3x80x64, .f32⟩ : BufTy).Contents (Elt F)} {x9 : (⟨S3x64, .f32⟩ : BufTy).Contents (Elt F)}
  {x10 : (⟨S3x128x64, .f32⟩ : BufTy).Contents (Elt F)} {x11 : (⟨S3x64, .f32⟩ : BufTy).Contents (Elt F)}
  {x12 : (⟨S64x1, .f32⟩ : BufTy).Contents (Elt F)} {x13 : (⟨S1, .f32⟩ : BufTy).Contents (Elt F)}

/-! ## The first stretch: this layer's weights, and the gathered node rows -/

/-- The layer's message weights, cut out of the stack. -/
theorem c9_v87 (h8 : Wp (Proc.devRef .tc main_arg8) = x8) :
    after refC9 Wp (Proc.devRef .tc main_v87) = val_main_v87 (F := F) x8 := by
  simp only [refC9]
  after_results_simp
  rw [h8]
  rfl

/-- The layer's message bias. -/
theorem c9_v89 (h9 : Wp (Proc.devRef .tc main_arg9) = x9) :
    after refC9 Wp (Proc.devRef .tc main_v89) = val_main_v89 (F := F) x9 := by
  simp only [refC9]
  after_results_simp
  rw [h9]
  rfl

/-- The layer's update weights. -/
theorem c9_v91 (h10 : Wp (Proc.devRef .tc main_arg10) = x10) :
    after refC9 Wp (Proc.devRef .tc main_v91) = val_main_v91 (F := F) x10 := by
  simp only [refC9]
  after_results_simp
  rw [h10]
  rfl

/-- The layer's update bias. -/
theorem c9_v93 (h11 : Wp (Proc.devRef .tc main_arg11) = x11) :
    after refC9 Wp (Proc.devRef .tc main_v93) = val_main_v93 (F := F) x11 := by
  simp only [refC9]
  after_results_simp
  rw [h11]
  rfl

/-- The node rows of the layer before at the (wrapped) source indices. -/
theorem c9_v100 (hs : Wp (Proc.devRef .tc main_v1) = val_main_v1 (F := F) x2)
    (hn : Wp (Proc.devRef .tc main_v85) = val_main_v85 (F := F) x0 x1 x2 x4 x5 x6 x7 x8 x9 x10 x11) :
    after refC9 Wp (Proc.devRef .tc main_v100) = val_main_v100 (F := F) x0 x1 x2 x4 x5 x6 x7 x8 x9 x10 x11 := by
  simp only [refC9]
  after_results_simp
  rw [hs, hn]
  rfl

/-! ## The second stretch: the messages, summed by destination -/

/-- The rectified messages added into a zero node array at the destination indices. -/
theorem c10_v109 (hg : Wp (Proc.devRef .tc main_v100) = val_main_v100 (F := F) x0 x1 x2 x4 x5 x6 x7 x8 x9 x10 x11)
    (h1 : Wp (Proc.devRef .tc main_arg1) = x1)
    (hw : Wp (Proc.devRef .tc main_v87) = val_main_v87 (F := F) x8)
    (hb : Wp (Proc.devRef .tc main_v89) = val_main_v89 (F := F) x9)
    (hd : Wp (Proc.devRef .tc main_v3) = val_main_v3 (F := F) x2) :
    after refC10 Wp (Proc.devRef .tc main_v109) = val_main_v109 (F := F) x0 x1 x2 x4 x5 x6 x7 x8 x9 x10 x11 := by
  simp only [refC10]
  after_results_simp
  simp only [TRef.ofBuf, TRef.toBuf, cast_eq]
  rw [hg, h1, hw, hb, hd]
  rfl

/-! ## The third stretch: the node update -/

/-- The node rows after this layer. -/
theorem c11_v115 (hn : Wp (Proc.devRef .tc main_v85) = val_main_v85 (F := F) x0 x1 x2 x4 x5 x6 x7 x8 x9 x10 x11)
    (ha : Wp (Proc.devRef .tc main_v109) = val_main_v109 (F := F) x0 x1 x2 x4 x5 x6 x7 x8 x9 x10 x11)
    (hw : Wp (Proc.devRef .tc main_v91) = val_main_v91 (F := F) x10)
    (hb : Wp (Proc.devRef .tc main_v93) = val_main_v93 (F := F) x11) :
    after refC11 Wp (Proc.devRef .tc main_v115) = val_main_v115 (F := F) x0 x1 x2 x4 x5 x6 x7 x8 x9 x10 x11 := by
  simp only [refC11]
  after_results_simp
  simp only [TRef.ofBuf, TRef.toBuf, cast_eq]
  rw [hn, ha, hw, hb]
  rfl

end Cert.ReferenceIdeal.Hand

end
-- ==== Proof.RefRun.lean ====
/-
  The reference program's run, read at its result.

  The 152 operations are taken as thirteen consecutive stretches. For each stretch the layer modules say what the one
  buffer it computes holds afterwards, given what the buffers it reads held before; here the last stretch (the pooling
  and the read-out) is added, then the contents at the twelve boundaries between the stretches are followed from the
  launch contents: a buffer a stretch computes holds its staged value at the argument arrays, a buffer a stretch does
  not write holds what it held, and no stretch writes an argument array. The result buffer therefore ends holding the
  staged result at the launch memory's argument arrays, and every weakly fair execution reaches such a state.
-/
import proofs.«422392_j11433202942183_1_alg».proof.Proof.RefChunks
import proofs.«422392_j11433202942183_1_alg».proof.Proof.ReadP
import proofs.«422392_j11433202942183_1_alg».proof.Proof.RefRunL0
import proofs.«422392_j11433202942183_1_alg».proof.Proof.RefRunL1
import proofs.«422392_j11433202942183_1_alg».proof.Proof.RefRunL2
import proofs.«422392_j11433202942183_1_alg».proof.Proof.RefRunL3

set_option maxRecDepth 16384

noncomputable section

namespace Cert.ReferenceIdeal.Hand

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F] (Wp : Valuation τ sig (Elt F))
variable {x0 : (⟨S80000x32, .f32⟩ : BufTy).Contents (Elt F)} {x1 : (⟨S1280000x16, .f32⟩ : BufTy).Contents (Elt F)}
  {x2 : (⟨S2x1280000, .i32⟩ : BufTy).Contents (Elt F)} {x3 : (⟨S80000, .i32⟩ : BufTy).Contents (Elt F)}
  {x4 : (⟨S48x64, .f32⟩ : BufTy).Contents (Elt F)} {x5 : (⟨S64, .f32⟩ : BufTy).Contents (Elt F)}
  {x6 : (⟨S96x64, .f32⟩ : BufTy).Contents (Elt F)} {x7 : (⟨S64, .f32⟩ : BufTy).Contents (Elt F)}
  {x8 : (⟨S3x80x64, .f32⟩ : BufTy).Contents (Elt F)} {x9 : (⟨S3x64, .f32⟩ : BufTy).Contents (Elt F)}
  {x10 : (⟨S3x128x64, .f32⟩ : BufTy).Contents (Elt F)} {x11 : (⟨S3x64, .f32⟩ : BufTy).Contents (Elt F)}
  {x12 : (⟨S64x1, .f32⟩ : BufTy).Contents (Elt F)} {x13 : (⟨S1, .f32⟩ : BufTy).Contents (Elt F)}

/-! ## The last stretch: the pooled rows and the read-out -/

/-- The node rows summed by graph, times the read-out weights, plus the read-out bias. -/
theorem c12_v122 (hn : Wp (Proc.devRef .tc main_v115) = val_main_v115 (F := F) x0 x1 x2 x4 x5 x6 x7 x8 x9 x10 x11)
    (h3 : Wp (Proc.devRef .tc main_arg3) = x3) (h12 : Wp (Proc.devRef .tc main_arg12) = x12) (h13 : Wp (Proc.devRef .tc main_arg13) = x13) :
    after refC12 Wp (Proc.devRef .tc main_v122) = val_main_v122 (F := F) x0 x1 x2 x3 x4 x5 x6 x7 x8 x9 x10 x11 x12 x13 := by
  simp only [refC12]
  after_results_simp
  rw [hn, h3, h12, h13]
  rfl

/-! ## What each stretch writes, and what it therefore keeps -/

/-- Closes "every operation of the stretch writes a buffer of the list": each operation writes its one result buffer,
    which is found in the list. -/
macro "writes_in_list" : tactic => `(tactic| (
  simp only [List.Forall]
  repeat' apply And.intro
  all_goals (simp only [nullary_writes, unary_writes, binary_writes, ternary_writes, reshape_writes, Finset.singleton_subset_iff, List.mem_toFinset]; exact List.mem_map_of_mem (by decide))))

/-- The buffers stretch 0 writes. -/
abbrev refC0_W : List (Ref sig .tc) := [main_v0, main_v1, main_v2, main_v3, main_c, main_v4, main_v5, main_c_0, main_v6, main_v7, main_v8, main_v9, main_v10]
theorem refC0_writes : (refC0 : List (HloOp τ sig (Elt F))).Forall fun op => op.writes ⊆ (refC0_W.map (Proc.devRef (τ := τ) .tc)).toFinset := by
  writes_in_list
/-- A buffer stretch 0 does not write holds after it what it held before. -/
theorem keep0 (V : Valuation τ sig (Elt F)) {r : Ref sig .tc} (h : r ∉ refC0_W) :
    after refC0 V (Proc.devRef .tc r) = V (Proc.devRef .tc r) := after_of_writes_sub refC0 V refC0_writes h

/-- The buffers stretch 1 writes. -/
abbrev refC1_W : List (Ref sig .tc) := [main_v11, main_v12, main_v13, main_v14, main_v15, main_call0_cst, main_call0_v0, main_v16, main_cst, main_v17, main_v18, main_v19]
theorem refC1_writes : (refC1 : List (HloOp τ sig (Elt F))).Forall fun op => op.writes ⊆ (refC1_W.map (Proc.devRef (τ := τ) .tc)).toFinset := by
  writes_in_list
/-- A buffer stretch 1 does not write holds after it what it held before. -/
theorem keep1 (V : Valuation τ sig (Elt F)) {r : Ref sig .tc} (h : r ∉ refC1_W) :
    after refC1 V (Proc.devRef .tc r) = V (Proc.devRef .tc r) := after_of_writes_sub refC1 V refC1_writes h

/-- The buffers stretch 2 writes. -/
abbrev refC2_W : List (Ref sig .tc) := [main_v20, main_v21, main_v22, main_v23, main_v24, main_call1_cst, main_call1_v0, main_v25]
theorem refC2_writes : (refC2 : List (HloOp τ sig (Elt F))).Forall fun op => op.writes ⊆ (refC2_W.map (Proc.devRef (τ := τ) .tc)).toFinset := by
  writes_in_list
/-- A buffer stretch 2 does not write holds after it what it held before. -/
theorem keep2 (V : Valuation τ sig (Elt F)) {r : Ref sig .tc} (h : r ∉ refC2_W) :
    after refC2 V (Proc.devRef .tc r) = V (Proc.devRef .tc r) := after_of_writes_sub refC2 V refC2_writes h

/-- The buffers stretch 3 writes. -/
abbrev refC3_W : List (Ref sig .tc) := [main_v26, main_v27, main_v28, main_v29, main_v30, main_v31, main_v32, main_v33, main_c_1, main_v34, main_v35, main_c_2, main_v36, main_v37, main_v38, main_v39, main_v40]
theorem refC3_writes : (refC3 : List (HloOp τ sig (Elt F))).Forall fun op => op.writes ⊆ (refC3_W.map (Proc.devRef (τ := τ) .tc)).toFinset := by
  writes_in_list
/-- A buffer stretch 3 does not write holds after it what it held before. -/
theorem keep3 (V : Valuation τ sig (Elt F)) {r : Ref sig .tc} (h : r ∉ refC3_W) :
    after refC3 V (Proc.devRef .tc r) = V (Proc.devRef .tc r) := after_of_writes_sub refC3 V refC3_writes h

/-- The buffers stretch 4 writes. -/
abbrev refC4_W : List (Ref sig .tc) := [main_v41, main_v42, main_v43, main_v44, main_v45, main_call2_cst, main_call2_v0, main_v46, main_cst_3, main_v47, main_v48, main_v49]
theorem refC4_writes : (refC4 : List (HloOp τ sig (Elt F))).Forall fun op => op.writes ⊆ (refC4_W.map (Proc.devRef (τ := τ) .tc)).toFinset := by
  writes_in_list
/-- A buffer stretch 4 does not write holds after it what it held before. -/
theorem keep4 (V : Valuation τ sig (Elt F)) {r : Ref sig .tc} (h : r ∉ refC4_W) :
    after refC4 V (Proc.devRef .tc r) = V (Proc.devRef .tc r) := after_of_writes_sub refC4 V refC4_writes h

/-- The buffers stretch 5 writes. -/
abbrev refC5_W : List (Ref sig .tc) := [main_v50, main_v51, main_v52, main_v53, main_v54, main_call3_cst, main_call3_v0, main_v55]
theorem refC5_writes : (refC5 : List (HloOp τ sig (Elt F))).Forall fun op => op.writes ⊆ (refC5_W.map (Proc.devRef (τ := τ) .tc)).toFinset := by
  writes_in_list
/-- A buffer stretch 5 does not write holds after it what it held before. -/
theorem keep5 (V : Valuation τ sig (Elt F)) {r : Ref sig .tc} (h : r ∉ refC5_W) :
    after refC5 V (Proc.devRef .tc r) = V (Proc.devRef .tc r) := after_of_writes_sub refC5 V refC5_writes h

/-- The buffers stretch 6 writes. -/
abbrev refC6_W : List (Ref sig .tc) := [main_v56, main_v57, main_v58, main_v59, main_v60, main_v61, main_v62, main_v63, main_c_4, main_v64, main_v65, main_c_5, main_v66, main_v67, main_v68, main_v69, main_v70]
theorem refC6_writes : (refC6 : List (HloOp τ sig (Elt F))).Forall fun op => op.writes ⊆ (refC6_W.map (Proc.devRef (τ := τ) .tc)).toFinset := by
  writes_in_list
/-- A buffer stretch 6 does not write holds after it what it held before. -/
theorem keep6 (V : Valuation τ sig (Elt F)) {r : Ref sig .tc} (h : r ∉ refC6_W) :
    after refC6 V (Proc.devRef .tc r) = V (Proc.devRef .tc r) := after_of_writes_sub refC6 V refC6_writes h

/-- The buffers stretch 7 writes. -/
abbrev refC7_W : List (Ref sig .tc) := [main_v71, main_v72, main_v73, main_v74, main_v75, main_call4_cst, main_call4_v0, main_v76, main_cst_6, main_v77, main_v78, main_v79]
theorem refC7_writes : (refC7 : List (HloOp τ sig (Elt F))).Forall fun op => op.writes ⊆ (refC7_W.map (Proc.devRef (τ := τ) .tc)).toFinset := by
  writes_in_list
/-- A buffer stretch 7 does not write holds after it what it held before. -/
theorem keep7 (V : Valuation τ sig (Elt F)) {r : Ref sig .tc} (h : r ∉ refC7_W) :
    after refC7 V (Proc.devRef .tc r) = V (Proc.devRef .tc r) := after_of_writes_sub refC7 V refC7_writes h

/-- The buffers stretch 8 writes. -/
abbrev refC8_W : List (Ref sig .tc) := [main_v80, main_v81, main_v82, main_v83, main_v84, main_call5_cst, main_call5_v0, main_v85]
theorem refC8_writes : (refC8 : List (HloOp τ sig (Elt F))).Forall fun op => op.writes ⊆ (refC8_W.map (Proc.devRef (τ := τ) .tc)).toFinset := by
  writes_in_list
/-- A buffer stretch 8 does not write holds after it what it held before. -/
theorem keep8 (V : Valuation τ sig (Elt F)) {r : Ref sig .tc} (h : r ∉ refC8_W) :
    after refC8 V (Proc.devRef .tc r) = V (Proc.devRef .tc r) := after_of_writes_sub refC8 V refC8_writes h

/-- The buffers stretch 9 writes. -/
abbrev refC9_W : List (Ref sig .tc) := [main_v86, main_v87, main_v88, main_v89, main_v90, main_v91, main_v92, main_v93, main_c_7, main_v94, main_v95, main_c_8, main_v96, main_v97, main_v98, main_v99, main_v100]
theorem refC9_writes : (refC9 : List (HloOp τ sig (Elt F))).Forall fun op => op.writes ⊆ (refC9_W.map (Proc.devRef (τ := τ) .tc)).toFinset := by
  writes_in_list
/-- A buffer stretch 9 does not write holds after it what it held before. -/
theorem keep9 (V : Valuation τ sig (Elt F)) {r : Ref sig .tc} (h : r ∉ refC9_W) :
    after refC9 V (Proc.devRef .tc r) = V (Proc.devRef .tc r) := after_of_writes_sub refC9 V refC9_writes h

/-- The buffers stretch 10 writes. -/
abbrev refC10_W : List (Ref sig .tc) := [main_v101, main_v102, main_v103, main_v104, main_v105, main_call6_cst, main_call6_v0, main_v106, main_cst_9, main_v107, main_v108, main_v109]
theorem refC10_writes : (refC10 : List (HloOp τ sig (Elt F))).Forall fun op => op.writes ⊆ (refC10_W.map (Proc.devRef (τ := τ) .tc)).toFinset := by
  writes_in_list
/-- A buffer stretch 10 does not write holds after it what it held before. -/
theorem keep10 (V : Valuation τ sig (Elt F)) {r : Ref sig .tc} (h : r ∉ refC10_W) :
    after refC10 V (Proc.devRef .tc r) = V (Proc.devRef .tc r) := after_of_writes_sub refC10 V refC10_writes h

/-- The buffers stretch 11 writes. -/
abbrev refC11_W : List (Ref sig .tc) := [main_v110, main_v111, main_v112, main_v113, main_v114, main_call7_cst, main_call7_v0, main_v115]
theorem refC11_writes : (refC11 : List (HloOp τ sig (Elt F))).Forall fun op => op.writes ⊆ (refC11_W.map (Proc.devRef (τ := τ) .tc)).toFinset := by
  writes_in_list
/-- A buffer stretch 11 does not write holds after it what it held before. -/
theorem keep11 (V : Valuation τ sig (Elt F)) {r : Ref sig .tc} (h : r ∉ refC11_W) :
    after refC11 V (Proc.devRef .tc r) = V (Proc.devRef .tc r) := after_of_writes_sub refC11 V refC11_writes h

/-- The buffers stretch 12 writes. -/
abbrev refC12_W : List (Ref sig .tc) := [main_cst_10, main_v116, main_v117, main_v118, main_v119, main_v120, main_v121, main_v122]
theorem refC12_writes : (refC12 : List (HloOp τ sig (Elt F))).Forall fun op => op.writes ⊆ (refC12_W.map (Proc.devRef (τ := τ) .tc)).toFinset := by
  writes_in_list
/-- A buffer stretch 12 does not write holds after it what it held before. -/
theorem keep12 (V : Valuation τ sig (Elt F)) {r : Ref sig .tc} (h : r ∉ refC12_W) :
    after refC12 V (Proc.devRef .tc r) = V (Proc.devRef .tc r) := after_of_writes_sub refC12 V refC12_writes h

/-! ## The argument arrays are never written -/

/-- The fourteen argument buffers. -/
abbrev argRefs : List (Ref sig .tc) :=
  [main_arg0, main_arg1, main_arg2, main_arg3, main_arg4, main_arg5, main_arg6, main_arg7, main_arg8, main_arg9, main_arg10, main_arg11, main_arg12, main_arg13]

/-- `W` holds at every argument buffer what `L` holds there. -/
def Kept (L W : Valuation τ sig (Elt F)) : Prop := ∀ r ∈ argRefs, W (Proc.devRef .tc r) = L (Proc.devRef .tc r)

/-- A stretch that writes no argument buffer keeps them all. -/
theorem Kept.step {L W : Valuation τ sig (Elt F)} (h : Kept L W) {l : List (HloOp τ sig (Elt F))} {Wl : List (Ref sig .tc)}
    (hw : l.Forall fun op => op.writes ⊆ (Wl.map (Proc.devRef (τ := τ) .tc)).toFinset) (hA : ∀ r ∈ argRefs, r ∉ Wl) :
    Kept L (after l W) := fun r hr => (after_of_writes_sub l W hw (hA r hr)).trans (h r hr)

/-! ## The contents at the boundaries between the stretches -/

variable (L : Valuation τ sig (Elt F))

/-- What `L` holds at a buffer. -/
abbrev ar (r : Ref sig .tc) := L (Proc.devRef .tc r)

/-- The contents after the first stretch, from contents `L`. -/
def B1 : Valuation τ sig (Elt F) := after refC0 L
/-- The contents after stretch 1. -/
def B2 : Valuation τ sig (Elt F) := after refC1 (B1 L)
/-- The contents after stretch 2. -/
def B3 : Valuation τ sig (Elt F) := after refC2 (B2 L)
/-- The contents after stretch 3. -/
def B4 : Valuation τ sig (Elt F) := after refC3 (B3 L)
/-- The contents after stretch 4. -/
def B5 : Valuation τ sig (Elt F) := after refC4 (B4 L)
/-- The contents after stretch 5. -/
def B6 : Valuation τ sig (Elt F) := after refC5 (B5 L)
/-- The contents after stretch 6. -/
def B7 : Valuation τ sig (Elt F) := after refC6 (B6 L)
/-- The contents after stretch 7. -/
def B8 : Valuation τ sig (Elt F) := after refC7 (B7 L)
/-- The contents after stretch 8. -/
def B9 : Valuation τ sig (Elt F) := after refC8 (B8 L)
/-- The contents after stretch 9. -/
def B10 : Valuation τ sig (Elt F) := after refC9 (B9 L)
/-- The contents after stretch 10. -/
def B11 : Valuation τ sig (Elt F) := after refC10 (B10 L)
/-- The contents after stretch 11. -/
def B12 : Valuation τ sig (Elt F) := after refC11 (B11 L)
/-- The contents after stretch 12. -/
def B13 : Valuation τ sig (Elt F) := after refC12 (B12 L)

/-- All the operations from `L` leave what the stretches leave one after the other. -/
theorem after_ops : after (ops (F := F)) L = B13 L := by
  rw [ops_split]
  simp only [StableHlo.after_append]
  rfl

theorem K1 : Kept L (B1 L) := Kept.step (fun _ _ => rfl) refC0_writes (by decide)
theorem K2 : Kept L (B2 L) := (K1 L).step refC1_writes (by decide)
theorem K3 : Kept L (B3 L) := (K2 L).step refC2_writes (by decide)
theorem K4 : Kept L (B4 L) := (K3 L).step refC3_writes (by decide)
theorem K5 : Kept L (B5 L) := (K4 L).step refC4_writes (by decide)
theorem K6 : Kept L (B6 L) := (K5 L).step refC5_writes (by decide)
theorem K7 : Kept L (B7 L) := (K6 L).step refC6_writes (by decide)
theorem K8 : Kept L (B8 L) := (K7 L).step refC7_writes (by decide)
theorem K9 : Kept L (B9 L) := (K8 L).step refC8_writes (by decide)
theorem K10 : Kept L (B10 L) := (K9 L).step refC9_writes (by decide)
theorem K11 : Kept L (B11 L) := (K10 L).step refC10_writes (by decide)
theorem K12 : Kept L (B12 L) := (K11 L).step refC11_writes (by decide)
theorem K13 : Kept L (B13 L) := (K12 L).step refC12_writes (by decide)

/-! ## The first layer -/

theorem at1_v1 : B1 L (Proc.devRef .tc main_v1) = val_main_v1 (F := F) (ar L main_arg2) := c0_v1 L rfl
theorem at1_v3 : B1 L (Proc.devRef .tc main_v3) = val_main_v3 (F := F) (ar L main_arg2) := c0_v3 L rfl
theorem at1_v10 : B1 L (Proc.devRef .tc main_v10) = val_main_v10 (F := F) (ar L main_arg0) (ar L main_arg2) := c0_v10 L rfl rfl
theorem at2_v19 : B2 L (Proc.devRef .tc main_v19) = val_main_v19 (F := F) (ar L main_arg0) (ar L main_arg1) (ar L main_arg2) (ar L main_arg4) (ar L main_arg5) :=
  c1_v19 (B1 L) (at1_v10 L) (K1 L main_arg1 (by decide)) (K1 L main_arg4 (by decide)) (K1 L main_arg5 (by decide)) (at1_v3 L)
theorem at3_v25 : B3 L (Proc.devRef .tc main_v25) = val_main_v25 (F := F) (ar L main_arg0) (ar L main_arg1) (ar L main_arg2) (ar L main_arg4) (ar L main_arg5) (ar L main_arg6) (ar L main_arg7) :=
  c2_v25 (B2 L) (K2 L main_arg0 (by decide)) (at2_v19 L) (K2 L main_arg6 (by decide)) (K2 L main_arg7 (by decide))
theorem at3_v1 : B3 L (Proc.devRef .tc main_v1) = val_main_v1 (F := F) (ar L main_arg2) := (keep2 _ (by decide)).trans ((keep1 _ (by decide)).trans (at1_v1 L))

/-! ## Inner layer 1 -/

theorem at4_v27 : B4 L (Proc.devRef .tc main_v27) = val_main_v27 (F := F) (ar L main_arg8) := c3_v27 (B3 L) (K3 L main_arg8 (by decide))
theorem at4_v29 : B4 L (Proc.devRef .tc main_v29) = val_main_v29 (F := F) (ar L main_arg9) := c3_v29 (B3 L) (K3 L main_arg9 (by decide))
theorem at4_v31 : B4 L (Proc.devRef .tc main_v31) = val_main_v31 (F := F) (ar L main_arg10) := c3_v31 (B3 L) (K3 L main_arg10 (by decide))
theorem at4_v33 : B4 L (Proc.devRef .tc main_v33) = val_main_v33 (F := F) (ar L main_arg11) := c3_v33 (B3 L) (K3 L main_arg11 (by decide))
theorem at4_v40 : B4 L (Proc.devRef .tc main_v40) = val_main_v40 (F := F) (ar L main_arg0) (ar L main_arg1) (ar L main_arg2) (ar L main_arg4) (ar L main_arg5) (ar L main_arg6) (ar L main_arg7) :=
  c3_v40 (B3 L) (at3_v1 L) (at3_v25 L)
theorem at4_v3 : B4 L (Proc.devRef .tc main_v3) = val_main_v3 (F := F) (ar L main_arg2) := (keep3 _ (by decide)).trans ((keep2 _ (by decide)).trans ((keep1 _ (by decide)).trans (at1_v3 L)))
theorem at5_v49 : B5 L (Proc.devRef .tc main_v49) = val_main_v49 (F := F) (ar L main_arg0) (ar L main_arg1) (ar L main_arg2) (ar L main_arg4) (ar L main_arg5) (ar L main_arg6) (ar L main_arg7) (ar L main_arg8) (ar L main_arg9) :=
  c4_v49 (B4 L) (at4_v40 L) (K4 L main_arg1 (by decide)) (at4_v27 L) (at4_v29 L) (at4_v3 L)
theorem at5_v25 : B5 L (Proc.devRef .tc main_v25) = val_main_v25 (F := F) (ar L main_arg0) (ar L main_arg1) (ar L main_arg2) (ar L main_arg4) (ar L main_arg5) (ar L main_arg6) (ar L main_arg7) := (keep4 _ (by decide)).trans ((keep3 _ (by decide)).trans (at3_v25 L))
theorem at5_v31 : B5 L (Proc.devRef .tc main_v31) = val_main_v31 (F := F) (ar L main_arg10) := (keep4 _ (by decide)).trans (at4_v31 L)
theorem at5_v33 : B5 L (Proc.devRef .tc main_v33) = val_main_v33 (F := F) (ar L main_arg11) := (keep4 _ (by decide)).trans (at4_v33 L)
theorem at6_v55 : B6 L (Proc.devRef .tc main_v55) = val_main_v55 (F := F) (ar L main_arg0) (ar L main_arg1) (ar L main_arg2) (ar L main_arg4) (ar L main_arg5) (ar L main_arg6) (ar L main_arg7) (ar L main_arg8) (ar L main_arg9) (ar L main_arg10) (ar L main_arg11) :=
  c5_v55 (B5 L) (at5_v25 L) (at5_v49 L) (at5_v31 L) (at5_v33 L)
theorem at6_v1 : B6 L (Proc.devRef .tc main_v1) = val_main_v1 (F := F) (ar L main_arg2) := (keep5 _ (by decide)).trans ((keep4 _ (by decide)).trans ((keep3 _ (by decide)).trans (at3_v1 L)))

/-! ## Inner layer 2 -/

theorem at7_v57 : B7 L (Proc.devRef .tc main_v57) = val_main_v57 (F := F) (ar L main_arg8) := c6_v57 (B6 L) (K6 L main_arg8 (by decide))
theorem at7_v59 : B7 L (Proc.devRef .tc main_v59) = val_main_v59 (F := F) (ar L main_arg9) := c6_v59 (B6 L) (K6 L main_arg9 (by decide))
theorem at7_v61 : B7 L (Proc.devRef .tc main_v61) = val_main_v61 (F := F) (ar L main_arg10) := c6_v61 (B6 L) (K6 L main_arg10 (by decide))
theorem at7_v63 : B7 L (Proc.devRef .tc main_v63) = val_main_v63 (F := F) (ar L main_arg11) := c6_v63 (B6 L) (K6 L main_arg11 (by decide))
theorem at7_v70 : B7 L (Proc.devRef .tc main_v70) = val_main_v70 (F := F) (ar L main_arg0) (ar L main_arg1) (ar L main_arg2) (ar L main_arg4) (ar L main_arg5) (ar L main_arg6) (ar L main_arg7) (ar L main_arg8) (ar L main_arg9) (ar L main_arg10) (ar L main_arg11) :=
  c6_v70 (B6 L) (at6_v1 L) (at6_v55 L)
theorem at7_v3 : B7 L (Proc.devRef .tc main_v3) = val_main_v3 (F := F) (ar L main_arg2) := (keep6 _ (by decide)).trans ((keep5 _ (by decide)).trans ((keep4 _ (by decide)).trans (at4_v3 L)))
theorem at8_v79 : B8 L (Proc.devRef .tc main_v79) = val_main_v79 (F := F) (ar L main_arg0) (ar L main_arg1) (ar L main_arg2) (ar L main_arg4) (ar L main_arg5) (ar L main_arg6) (ar L main_arg7) (ar L main_arg8) (ar L main_arg9) (ar L main_arg10) (ar L main_arg11) :=
  c7_v79 (B7 L) (at7_v70 L) (K7 L main_arg1 (by decide)) (at7_v57 L) (at7_v59 L) (at7_v3 L)
theorem at8_v55 : B8 L (Proc.devRef .tc main_v55) = val_main_v55 (F := F) (ar L main_arg0) (ar L main_arg1) (ar L main_arg2) (ar L main_arg4) (ar L main_arg5) (ar L main_arg6) (ar L main_arg7) (ar L main_arg8) (ar L main_arg9) (ar L main_arg10) (ar L main_arg11) := (keep7 _ (by decide)).trans ((keep6 _ (by decide)).trans (at6_v55 L))
theorem at8_v61 : B8 L (Proc.devRef .tc main_v61) = val_main_v61 (F := F) (ar L main_arg10) := (keep7 _ (by decide)).trans (at7_v61 L)
theorem at8_v63 : B8 L (Proc.devRef .tc main_v63) = val_main_v63 (F := F) (ar L main_arg11) := (keep7 _ (by decide)).trans (at7_v63 L)
theorem at9_v85 : B9 L (Proc.devRef .tc main_v85) = val_main_v85 (F := F) (ar L main_arg0) (ar L main_arg1) (ar L main_arg2) (ar L main_arg4) (ar L main_arg5) (ar L main_arg6) (ar L main_arg7) (ar L main_arg8) (ar L main_arg9) (ar L main_arg10) (ar L main_arg11) :=
  c8_v85 (B8 L) (at8_v55 L) (at8_v79 L) (at8_v61 L) (at8_v63 L)
theorem at9_v1 : B9 L (Proc.devRef .tc main_v1) = val_main_v1 (F := F) (ar L main_arg2) := (keep8 _ (by decide)).trans ((keep7 _ (by decide)).trans ((keep6 _ (by decide)).trans (at6_v1 L)))

/-! ## Inner layer 3 -/

theorem at10_v87 : B10 L (Proc.devRef .tc main_v87) = val_main_v87 (F := F) (ar L main_arg8) := c9_v87 (B9 L) (K9 L main_arg8 (by decide))
theorem at10_v89 : B10 L (Proc.devRef .tc main_v89) = val_main_v89 (F := F) (ar L main_arg9) := c9_v89 (B9 L) (K9 L main_arg9 (by decide))
theorem at10_v91 : B10 L (Proc.devRef .tc main_v91) = val_main_v91 (F := F) (ar L main_arg10) := c9_v91 (B9 L) (K9 L main_arg10 (by decide))
theorem at10_v93 : B10 L (Proc.devRef .tc main_v93) = val_main_v93 (F := F) (ar L main_arg11) := c9_v93 (B9 L) (K9 L main_arg11 (by decide))
theorem at10_v100 : B10 L (Proc.devRef .tc main_v100) = val_main_v100 (F := F) (ar L main_arg0) (ar L main_arg1) (ar L main_arg2) (ar L main_arg4) (ar L main_arg5) (ar L main_arg6) (ar L main_arg7) (ar L main_arg8) (ar L main_arg9) (ar L main_arg10) (ar L main_arg11) :=
  c9_v100 (B9 L) (at9_v1 L) (at9_v85 L)
theorem at10_v3 : B10 L (Proc.devRef .tc main_v3) = val_main_v3 (F := F) (ar L main_arg2) := (keep9 _ (by decide)).trans ((keep8 _ (by decide)).trans ((keep7 _ (by decide)).trans (at7_v3 L)))
theorem at11_v109 : B11 L (Proc.devRef .tc main_v109) = val_main_v109 (F := F) (ar L main_arg0) (ar L main_arg1) (ar L main_arg2) (ar L main_arg4) (ar L main_arg5) (ar L main_arg6) (ar L main_arg7) (ar L main_arg8) (ar L main_arg9) (ar L main_arg10) (ar L main_arg11) :=
  c10_v109 (B10 L) (at10_v100 L) (K10 L main_arg1 (by decide)) (at10_v87 L) (at10_v89 L) (at10_v3 L)
theorem at11_v85 : B11 L (Proc.devRef .tc main_v85) = val_main_v85 (F := F) (ar L main_arg0) (ar L main_arg1) (ar L main_arg2) (ar L main_arg4) (ar L main_arg5) (ar L main_arg6) (ar L main_arg7) (ar L main_arg8) (ar L main_arg9) (ar L main_arg10) (ar L main_arg11) := (keep10 _ (by decide)).trans ((keep9 _ (by decide)).trans (at9_v85 L))
theorem at11_v91 : B11 L (Proc.devRef .tc main_v91) = val_main_v91 (F := F) (ar L main_arg10) := (keep10 _ (by decide)).trans (at10_v91 L)
theorem at11_v93 : B11 L (Proc.devRef .tc main_v93) = val_main_v93 (F := F) (ar L main_arg11) := (keep10 _ (by decide)).trans (at10_v93 L)
theorem at12_v115 : B12 L (Proc.devRef .tc main_v115) = val_main_v115 (F := F) (ar L main_arg0) (ar L main_arg1) (ar L main_arg2) (ar L main_arg4) (ar L main_arg5) (ar L main_arg6) (ar L main_arg7) (ar L main_arg8) (ar L main_arg9) (ar L main_arg10) (ar L main_arg11) :=
  c11_v115 (B11 L) (at11_v85 L) (at11_v109 L) (at11_v91 L) (at11_v93 L)

/-! ## The result, and the arguments, after all the operations -/

theorem at13_v122 : B13 L (Proc.devRef .tc main_v122) = val_main_v122 (F := F) (ar L main_arg0) (ar L main_arg1) (ar L main_arg2) (ar L main_arg3) (ar L main_arg4) (ar L main_arg5) (ar L main_arg6) (ar L main_arg7) (ar L main_arg8) (ar L main_arg9) (ar L main_arg10) (ar L main_arg11) (ar L main_arg12) (ar L main_arg13) :=
  c12_v122 (B12 L) (at12_v115 L) (K12 L main_arg3 (by decide)) (K12 L main_arg12 (by decide)) (K12 L main_arg13 (by decide))

/-- After all the operations the result buffer holds the staged result at what `L` holds at the argument buffers. -/
theorem res_eq : after (ops (F := F)) L (Proc.devRef .tc main_v122) = val_main_v122 (F := F) (ar L main_arg0) (ar L main_arg1) (ar L main_arg2) (ar L main_arg3) (ar L main_arg4) (ar L main_arg5) (ar L main_arg6) (ar L main_arg7) (ar L main_arg8) (ar L main_arg9) (ar L main_arg10) (ar L main_arg11) (ar L main_arg12) (ar L main_arg13) := by
  rw [after_ops]; exact at13_v122 L

/-- After all the operations an argument buffer holds what it held. -/
theorem arg_eq (r : Ref sig .tc) (hr : r ∈ argRefs) : after (ops (F := F)) L (Proc.devRef .tc r) = L (Proc.devRef .tc r) := by
  rw [after_ops]; exact K13 L r hr

/-- No operation allocates a buffer. -/
theorem ops_fresh : ∀ op ∈ (ops : List (HloOp τ sig (Elt F))), op.fresh = ∅ :=
  List.forall_iff_forall_mem.mp (by simp only [List.Forall]; repeat' constructor)

/-! ## The run -/

/-- From any memory with zero counters every weakly fair execution of the reference program terminates; in every final
    state the result buffer holds the staged result at the launch memory's argument arrays, and the fourteen argument
    arrays are as launched. -/
theorem run_ref_F (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v122).trans (res_eq _),
       (h c main_arg0).trans (arg_eq _ main_arg0 (by decide)),
       (h c main_arg1).trans (arg_eq _ main_arg1 (by decide)),
       (h c main_arg2).trans (arg_eq _ main_arg2 (by decide)),
       (h c main_arg3).trans (arg_eq _ main_arg3 (by decide)),
       (h c main_arg4).trans (arg_eq _ main_arg4 (by decide)),
       (h c main_arg5).trans (arg_eq _ main_arg5 (by decide)),
       (h c main_arg6).trans (arg_eq _ main_arg6 (by decide)),
       (h c main_arg7).trans (arg_eq _ main_arg7 (by decide)),
       (h c main_arg8).trans (arg_eq _ main_arg8 (by decide)),
       (h c main_arg9).trans (arg_eq _ main_arg9 (by decide)),
       (h c main_arg10).trans (arg_eq _ main_arg10 (by decide)),
       (h c main_arg11).trans (arg_eq _ main_arg11 (by decide)),
       (h c main_arg12).trans (arg_eq _ main_arg12 (by decide)),
       (h c main_arg13).trans (arg_eq _ main_arg13 (by decide))⟩)
    (run_seq scopedRefs_eq scopedSems_eq defs main (fun _ => ops) main_eq (fun _ => ops_sub) m ρ (fun _ => ops_fresh))

/-- The same at the ideal reals. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v122) = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  run_ref_F m ρ

end Cert.ReferenceIdeal.Hand

end
-- ==== Proof.lean ====
/-
  The certificate of `Cert.Claim`: the kernel (a message-passing network whose per-layer linear maps run as eight
  pipelined matrix products on the TensorCore, with the gathers and the scatter-adds between them on the host) against its
  plain reference, over the extended reals.

  * The three frames. The two kernel programs' frames are the generated ones. The reference's is its run with the result
    dropped.
  * `preserves` asks nothing: the idealization rewrote no constant.
  * `algebraic`. Under the precondition every float input is finite — which this proof does not use — and every source
    index lies in `[0, 80000)`, which it does: the kernel's take fills the rows of out-of-range indices with a word that reads
    as ⊥ where the reference's gather clamps, so outside that range the two programs differ. Inside it, the kernel's run leaves
    in its result buffer the function `kRes` of the fourteen arguments (the launch called again with the result kept, then
    the buffer read back through the twenty-five stretches and pipelines of the run); the reference's run leaves its last
    stage of the same arguments; and the two are one function: the gathers and scatter-adds coincide, and a pipelined layer
    `max((a·wa + b·wb) + bias, 0)` with `wa`, `wb` the two row ranges of the reference's weight matrix is the reference's
    `max([a | b]·w + bias, 0)`, because a sum over the joined axis is the sum over its two parts.
-/
import proofs.«422392_j11433202942183_1_alg».proof.Defs
import proofs.«422392_j11433202942183_1_alg».proof.Proof.Gen.Kernel
import proofs.«422392_j11433202942183_1_alg».proof.Proof.Gen.Kernel.Frame
import proofs.«422392_j11433202942183_1_alg».proof.Proof.Gen.KernelIdeal
import proofs.«422392_j11433202942183_1_alg».proof.Proof.Gen.KernelIdeal.Frame
import proofs.«422392_j11433202942183_1_alg».proof.Proof.Gen.ReferenceIdeal
import proofs.«422392_j11433202942183_1_alg».proof.Proof.Gen.Pre_finite_inputs
import proofs.«422392_j11433202942183_1_alg».proof.Proof.KernelRun
import proofs.«422392_j11433202942183_1_alg».proof.Proof.Walk
import proofs.«422392_j11433202942183_1_alg».proof.Proof.PreSrc
import proofs.«422392_j11433202942183_1_alg».proof.Proof.Equiv
import proofs.«422392_j11433202942183_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run_ref m ρ)

/-- Both programs end with the kernel's function of the arguments in their result buffers. -/
theorem algebraic : Cert.algebraic_KernelIdeal_ReferenceIdeal := by
  intro m ρ m' ρ' hpre hagree
  refine ⟨fun c => Cert.KernelIdeal.Hand.kRes (Cert.KernelIdeal.Hand.ar0 m c) (Cert.KernelIdeal.Hand.ar1 m c) (Cert.KernelIdeal.Hand.ar2 m c) (Cert.KernelIdeal.Hand.ar3 m c) (Cert.KernelIdeal.Hand.ar4 m c) (Cert.KernelIdeal.Hand.ar5 m c) (Cert.KernelIdeal.Hand.ar6 m c) (Cert.KernelIdeal.Hand.ar7 m c) (Cert.KernelIdeal.Hand.ar8 m c) (Cert.KernelIdeal.Hand.ar9 m c) (Cert.KernelIdeal.Hand.ar10 m c) (Cert.KernelIdeal.Hand.ar11 m c) (Cert.KernelIdeal.Hand.ar12 m c) (Cert.KernelIdeal.Hand.ar13 m c), ?_, ?_⟩
  · exact (θ_run Cert.KernelIdeal.defs _ _).mono
      (fun _ h c => ⟨(h c).1.trans (Cert.KernelIdeal.Hand.result_at25 m ρ c (Cert.KernelIdeal.Hand.srcInRange_of_pre m hpre c)), (h c).2⟩)
      (Cert.KernelIdeal.Hand.run_values m ρ)
  · refine (θ_run Cert.ReferenceIdeal.defs _ _).mono (fun _ h c => ⟨(h c).1.trans ?_, (h c).2⟩)
      (Cert.ReferenceIdeal.Hand.run_ref m' ρ')
    obtain ⟨e0, e1, e2, e3, e4, e5, e6, e7, e8, e9, e10, e11, e12, e13⟩ := hagree c
    rw [e0, e1, e2, e3, e4, e5, e6, e7, e8, e9, e10, e11, e12, e13]
    exact (Cert.KernelIdeal.Hand.kRes_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
